-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v203)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v203) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v375) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S3x256x256 : Shape := ⟨3, ![3, 256, 256]⟩
abbrev S3x256 : Shape := ⟨2, ![3, 256]⟩
abbrev S2x256x256 : Shape := ⟨3, ![2, 256, 256]⟩
abbrev S2x256 : Shape := ⟨2, ![2, 256]⟩
abbrev S256x128 : Shape := ⟨2, ![256, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S3x256x256 : S_.BroadcastsInDim S3x256x256 (![] : Fin 0 → Fin S3x256x256.rank)
  reducesTo_S3x256x256_S_d0_1_2 : S3x256x256.ReducesTo [0, 1, 2] S_
  bcast_S_S3x256 : S_.BroadcastsInDim S3x256 (![] : Fin 0 → Fin S3x256.rank)
  reducesTo_S3x256_S_d0_1 : S3x256.ReducesTo [0, 1] S_
  bcast_S_S2x256x256 : S_.BroadcastsInDim S2x256x256 (![] : Fin 0 → Fin S2x256x256.rank)
  reducesTo_S2x256x256_S_d0_1_2 : S2x256x256.ReducesTo [0, 1, 2] S_
  bcast_S_S2x256 : S_.BroadcastsInDim S2x256 (![] : Fin 0 → Fin S2x256.rank)
  reducesTo_S2x256_S_d0_1 : S2x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part6 {F : FTy → Type} [FloatOps F] (main_arg22 : FVec F S128x40 .f32) (main_arg23 : FVec F S40 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128x40 .f32 := Host.absf main_arg22
  let main_cst_40 : FVec F S_ .f32 := constant S_ .f32 0x7F800000#32
  let main_v105 : FVec F S128x40 .f32 := broadcastInDim S128x40 ![] bcast_S_S128x40 main_cst_40
  let main_v106 : IVec S128x40 1 := cmpf .olt main_v104 main_v105
  let main_c_41 : IVec S_ 1 := constantI S_ 1 1#1
  let main_v107 : IVec S_ 1 := (fun x v => Host.reduce IntOp.andi x v reducesTo_S128x40_S_d0_1 h_S_) main_v106 main_c_41
  let main_v108 : IVec S_ 1 := andi main_v103 main_v107
  let main_v109 : FVec F S40 .f32 := Host.absf main_arg23
  let main_cst_42 : FVec F S_ .f32 := constant S_ .f32 0x7F800000#32
  let main_v110 : FVec F S40 .f32 := broadcastInDim S40 ![] bcast_S_S40 main_cst_42
  let main_v111 : IVec S40 1 := cmpf .olt main_v109 main_v110
  let main_c_43 : IVec S_ 1 := constantI S_ 1 1#1
  let main_v112 : IVec S_ 1 := (fun x v => Host.reduce IntOp.andi x v reducesTo_S40_S_d0 h_S_) main_v111 main_c_43
  let main_v113 : IVec S_ 1 := andi main_v108 main_v112
  main_v113

def fn_part5 {F : FTy → Type} [FloatOps F] (main_arg19 : FVec F S2x256 .f32) (main_arg20 : FVec F S256x128 .f32) (main_arg21 : FVec F S128 .f32) (main_arg22 : FVec F S128x40 .f32) (main_arg23 : FVec F S40 .f32) (main_v83 : IVec S_ 1) (main_v84 : FVec F S2x256x256 .f32) (main_cst_32 : FVec F S_ .f32) : IVec S_ 1 :=
  let main_v85 : FVec F S2x256x256 .f32 := broadcastInDim S2x256x256 ![] bcast_S_S2x256x256 main_cst_32
  let main_v86 : IVec S2x256x256 1 := cmpf .olt main_v84 main_v85
  let main_c_33 : IVec S_ 1 := constantI S_ 1 1#1
  let main_v87 : IVec S_ 1 := (fun x v => Host.reduce IntOp.andi x v reducesTo_S2x256x256_S_d0_1_2 h_S_) main_v86 main_c_33
  let main_v88 : IVec S_ 1 := andi main_v83 main_v87
  let main_v89 : FVec F S2x256 .f32 := Host.absf main_arg19
  let main_cst_34 : FVec F S_ .f32 := constant S_ .f32 0x7F800000#32
  let main_v90 : FVec F S2x256 .f32 := broadcastInDim S2x256 ![] bcast_S_S2x256 main_cst_34
  let main_v91 : IVec S2x256 1 := cmpf .olt main_v89 main_v90
  let main_c_35 : IVec S_ 1 := constantI S_ 1 1#1
  let main_v92 : IVec S_ 1 := (fun x v => Host.reduce IntOp.andi x v reducesTo_S2x256_S_d0_1 h_S_) main_v91 main_c_35
  let main_v93 : IVec S_ 1 := andi main_v88 main_v92
  let main_v94 : FVec F S256x128 .f32 := Host.absf main_arg20
  let main_cst_36 : FVec F S_ .f32 := constant S_ .f32 0x7F800000#32
  let main_v95 : FVec F S256x128 .f32 := broadcastInDim S256x128 ![] bcast_S_S256x128 main_cst_36
  let main_v96 : IVec S256x128 1 := cmpf .olt main_v94 main_v95
  let main_c_37 : IVec S_ 1 := constantI S_ 1 1#1
  let main_v97 : IVec S_ 1 := (fun x v => Host.reduce IntOp.andi x v reducesTo_S256x128_S_d0_1 h_S_) main_v96 main_c_37
  let main_v98 : IVec S_ 1 := andi main_v93 main_v97
  let main_v99 : FVec F S128 .f32 := Host.absf main_arg21
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg22 main_arg23 main_v98 main_v101 main_c_39

def fn_part4 {F : FTy → Type} [FloatOps F] (main_arg15 : FVec F S3x256 .f32) (main_arg16 : FVec F S3x256 .f32) (main_arg17 : FVec F S3x256 .f32) (main_arg18 : FVec F S2x256x256 .f32) (main_arg19 : FVec F S2x256 .f32) (main_arg20 : FVec F S256x128 .f32) (main_arg21 : FVec F S128 .f32) (main_arg22 : FVec F S128x40 .f32) (main_arg23 : FVec F S40 .f32) (main_v63 : IVec S_ 1) (main_v67 : IVec S_ 1) : IVec S_ 1 :=
  let main_v68 : IVec S_ 1 := andi main_v63 main_v67
  let main_v69 : FVec F S3x256 .f32 := Host.absf main_arg15
  let main_cst_26 : FVec F S_ .f32 := constant S_ .f32 0x7F800000#32
  let main_v70 : FVec F S3x256 .f32 := broadcastInDim S3x256 ![] bcast_S_S3x256 main_cst_26
  let main_v71 : IVec S3x256 1 := cmpf .olt main_v69 main_v70
  let main_c_27 : IVec S_ 1 := constantI S_ 1 1#1
  let main_v72 : IVec S_ 1 := (fun x v => Host.reduce IntOp.andi x v reducesTo_S3x256_S_d0_1 h_S_) main_v71 main_c_27
  let main_v73 : IVec S_ 1 := andi main_v68 main_v72
  let main_v74 : FVec F S3x256 .f32 := Host.absf main_arg16
  let main_cst_28 : FVec F S_ .f32 := constant S_ .f32 0x7F800000#32
  let main_v75 : FVec F S3x256 .f32 := broadcastInDim S3x256 ![] bcast_S_S3x256 main_cst_28
  let main_v76 : IVec S3x256 1 := cmpf .olt main_v74 main_v75
  let main_c_29 : IVec S_ 1 := constantI S_ 1 1#1
  let main_v77 : IVec S_ 1 := (fun x v => Host.reduce IntOp.andi x v reducesTo_S3x256_S_d0_1 h_S_) main_v76 main_c_29
  let main_v78 : IVec S_ 1 := andi main_v73 main_v77
  let main_v79 : FVec F S3x256 .f32 := Host.absf main_arg17
  let main_cst_30 : FVec F S_ .f32 := constant S_ .f32 0x7F800000#32
  let main_v80 : FVec F S3x256 .f32 := broadcastInDim S3x256 ![] bcast_S_S3x256 main_cst_30
  let main_v81 : IVec S3x256 1 := cmpf .olt main_v79 main_v80
  let main_c_31 : IVec S_ 1 := constantI S_ 1 1#1
  let main_v82 : IVec S_ 1 := (fun x v => Host.reduce IntOp.andi x v reducesTo_S3x256_S_d0_1 h_S_) main_v81 main_c_31
  let main_v83 : IVec S_ 1 := andi main_v78 main_v82
  let main_v84 : FVec F S2x256x256 .f32 := Host.absf main_arg18
  let main_cst_32 : FVec F S_ .f32 := constant S_ .f32 0x7F800000#32
  fn_part5 (F := F) main_arg19 main_arg20 main_arg21 main_arg22 main_arg23 main_v83 main_v84 main_cst_32

def fn_part3 {F : FTy → Type} [FloatOps F] (main_arg12 : FVec F S3x256 .f32) (main_arg13 : FVec F S3x256 .f32) (main_arg14 : FVec F S3x256 .f32) (main_arg15 : FVec F S3x256 .f32) (main_arg16 : FVec F S3x256 .f32) (main_arg17 : FVec F S3x256 .f32) (main_arg18 : FVec F S2x256x256 .f32) (main_arg19 : FVec F S2x256 .f32) (main_arg20 : FVec F S256x128 .f32) (main_arg21 : FVec F S128 .f32) (main_arg22 : FVec F S128x40 .f32) (main_arg23 : FVec F S40 .f32) (main_v48 : IVec S_ 1) (main_v49 : FVec F S3x256 .f32) (main_v50 : FVec F S3x256 .f32) : IVec S_ 1 :=
  let main_v51 : IVec S3x256 1 := cmpf .olt main_v49 main_v50
  let main_c_19 : IVec S_ 1 := constantI S_ 1 1#1
  let main_v52 : IVec S_ 1 := (fun x v => Host.reduce IntOp.andi x v reducesTo_S3x256_S_d0_1 h_S_) main_v51 main_c_19
  let main_v53 : IVec S_ 1 := andi main_v48 main_v52
  let main_v54 : FVec F S3x256 .f32 := Host.absf main_arg12
  let main_cst_20 : FVec F S_ .f32 := constant S_ .f32 0x7F800000#32
  let main_v55 : FVec F S3x256 .f32 := broadcastInDim S3x256 ![] bcast_S_S3x256 main_cst_20
  let main_v56 : IVec S3x256 1 := cmpf .olt main_v54 main_v55
  let main_c_21 : IVec S_ 1 := constantI S_ 1 1#1
  let main_v57 : IVec S_ 1 := (fun x v => Host.reduce IntOp.andi x v reducesTo_S3x256_S_d0_1 h_S_) main_v56 main_c_21
  let main_v58 : IVec S_ 1 := andi main_v53 main_v57
  let main_v59 : FVec F S3x256 .f32 := Host.absf main_arg13
  let main_cst_22 : FVec F S_ .f32 := constant S_ .f32 0x7F800000#32
  let main_v60 : FVec F S3x256 .f32 := broadcastInDim S3x256 ![] bcast_S_S3x256 main_cst_22
  let main_v61 : IVec S3x256 1 := cmpf .olt main_v59 main_v60
  let main_c_23 : IVec S_ 1 := constantI S_ 1 1#1
  let main_v62 : IVec S_ 1 := (fun x v => Host.reduce IntOp.andi x v reducesTo_S3x256_S_d0_1 h_S_) main_v61 main_c_23
  let main_v63 : IVec S_ 1 := andi main_v58 main_v62
  let main_v64 : FVec F S3x256 .f32 := Host.absf main_arg14
  let main_cst_24 : FVec F S_ .f32 := constant S_ .f32 0x7F800000#32
  let main_v65 : FVec F S3x256 .f32 := broadcastInDim S3x256 ![] bcast_S_S3x256 main_cst_24
  let main_v66 : IVec S3x256 1 := cmpf .olt main_v64 main_v65
  let main_c_25 : IVec S_ 1 := constantI S_ 1 1#1
  let main_v67 : IVec S_ 1 := (fun x v => Host.reduce IntOp.andi x v reducesTo_S3x256_S_d0_1 h_S_) main_v66 main_c_25
  fn_part4 (F := F) main_arg15 main_arg16 main_arg17 main_arg18 main_arg19 main_arg20 main_arg21 main_arg22 main_arg23 main_v63 main_v67

def fn_part2 {F : FTy → Type} [FloatOps F] (main_arg8 : FVec F S3x256 .f32) (main_arg9 : FVec F S3x256x256 .f32) (main_arg10 : FVec F S3x256 .f32) (main_arg11 : FVec F S3x256 .f32) (main_arg12 : FVec F S3x256 .f32) (main_arg13 : FVec F S3x256 .f32) (main_arg14 : FVec F S3x256 .f32) (main_arg15 : FVec F S3x256 .f32) (main_arg16 : FVec F S3x256 .f32) (main_arg17 : FVec F S3x256 .f32) (main_arg18 : FVec F S2x256x256 .f32) (main_arg19 : FVec F S2x256 .f32) (main_arg20 : FVec F S256x128 .f32) (main_arg21 : FVec F S128 .f32) (main_arg22 : FVec F S128x40 .f32) (main_arg23 : FVec F S40 .f32) (main_v33 : IVec S_ 1) : IVec S_ 1 :=
  let main_v34 : FVec F S3x256 .f32 := Host.absf main_arg8
  let main_cst_12 : FVec F S_ .f32 := constant S_ .f32 0x7F800000#32
  let main_v35 : FVec F S3x256 .f32 := broadcastInDim S3x256 ![] bcast_S_S3x256 main_cst_12
  let main_v36 : IVec S3x256 1 := cmpf .olt main_v34 main_v35
  let main_c_13 : IVec S_ 1 := constantI S_ 1 1#1
  let main_v37 : IVec S_ 1 := (fun x v => Host.reduce IntOp.andi x v reducesTo_S3x256_S_d0_1 h_S_) main_v36 main_c_13
  let main_v38 : IVec S_ 1 := andi main_v33 main_v37
  let main_v39 : FVec F S3x256x256 .f32 := Host.absf main_arg9
  let main_cst_14 : FVec F S_ .f32 := constant S_ .f32 0x7F800000#32
  let main_v40 : FVec F S3x256x256 .f32 := broadcastInDim S3x256x256 ![] bcast_S_S3x256x256 main_cst_14
  let main_v41 : IVec S3x256x256 1 := cmpf .olt main_v39 main_v40
  let main_c_15 : IVec S_ 1 := constantI S_ 1 1#1
  let main_v42 : IVec S_ 1 := (fun x v => Host.reduce IntOp.andi x v reducesTo_S3x256x256_S_d0_1_2 h_S_) main_v41 main_c_15
  let main_v43 : IVec S_ 1 := andi main_v38 main_v42
  let main_v44 : FVec F S3x256 .f32 := Host.absf main_arg10
  let main_cst_16 : FVec F S_ .f32 := constant S_ .f32 0x7F800000#32
  let main_v45 : FVec F S3x256 .f32 := broadcastInDim S3x256 ![] bcast_S_S3x256 main_cst_16
  let main_v46 : IVec S3x256 1 := cmpf .olt main_v44 main_v45
  let main_c_17 : IVec S_ 1 := constantI S_ 1 1#1
  let main_v47 : IVec S_ 1 := (fun x v => Host.reduce IntOp.andi x v reducesTo_S3x256_S_d0_1 h_S_) main_v46 main_c_17
  let main_v48 : IVec S_ 1 := andi main_v43 main_v47
  let main_v49 : FVec F S3x256 .f32 := Host.absf main_arg11
  let main_cst_18 : FVec F S_ .f32 := constant S_ .f32 0x7F800000#32
  let main_v50 : FVec F S3x256 .f32 := broadcastInDim S3x256 ![] bcast_S_S3x256 main_cst_18
  fn_part3 (F := F) main_arg12 main_arg13 main_arg14 main_arg15 main_arg16 main_arg17 main_arg18 main_arg19 main_arg20 main_arg21 main_arg22 main_arg23 main_v48 main_v49 main_v50

def fn_part1 {F : FTy → Type} [FloatOps F] (main_arg5 : FVec F S3x256 .f32) (main_arg6 : FVec F S3x256x256 .f32) (main_arg7 : FVec F S3x256x256 .f32) (main_arg8 : FVec F S3x256 .f32) (main_arg9 : FVec F S3x256x256 .f32) (main_arg10 : FVec F S3x256 .f32) (main_arg11 : FVec F S3x256 .f32) (main_arg12 : FVec F S3x256 .f32) (main_arg13 : FVec F S3x256 .f32) (main_arg14 : FVec F S3x256 .f32) (main_arg15 : FVec F S3x256 .f32) (main_arg16 : FVec F S3x256 .f32) (main_arg17 : FVec F S3x256 .f32) (main_arg18 : FVec F S2x256x256 .f32) (main_arg19 : FVec F S2x256 .f32) (main_arg20 : FVec F S256x128 .f32) (main_arg21 : FVec F S128 .f32) (main_arg22 : FVec F S128x40 .f32) (main_arg23 : FVec F S40 .f32) (main_v13 : IVec S_ 1) (main_v16 : IVec S3x256x256 1) : IVec S_ 1 :=
  let main_c_5 : IVec S_ 1 := constantI S_ 1 1#1
  let main_v17 : IVec S_ 1 := (fun x v => Host.reduce IntOp.andi x v reducesTo_S3x256x256_S_d0_1_2 h_S_) main_v16 main_c_5
  let main_v18 : IVec S_ 1 := andi main_v13 main_v17
  let main_v19 : FVec F S3x256 .f32 := Host.absf main_arg5
  let main_cst_6 : FVec F S_ .f32 := constant S_ .f32 0x7F800000#32
  let main_v20 : FVec F S3x256 .f32 := broadcastInDim S3x256 ![] bcast_S_S3x256 main_cst_6
  let main_v21 : IVec S3x256 1 := cmpf .olt main_v19 main_v20
  let main_c_7 : IVec S_ 1 := constantI S_ 1 1#1
  let main_v22 : IVec S_ 1 := (fun x v => Host.reduce IntOp.andi x v reducesTo_S3x256_S_d0_1 h_S_) main_v21 main_c_7
  let main_v23 : IVec S_ 1 := andi main_v18 main_v22
  let main_v24 : FVec F S3x256x256 .f32 := Host.absf main_arg6
  let main_cst_8 : FVec F S_ .f32 := constant S_ .f32 0x7F800000#32
  let main_v25 : FVec F S3x256x256 .f32 := broadcastInDim S3x256x256 ![] bcast_S_S3x256x256 main_cst_8
  let main_v26 : IVec S3x256x256 1 := cmpf .olt main_v24 main_v25
  let main_c_9 : IVec S_ 1 := constantI S_ 1 1#1
  let main_v27 : IVec S_ 1 := (fun x v => Host.reduce IntOp.andi x v reducesTo_S3x256x256_S_d0_1_2 h_S_) main_v26 main_c_9
  let main_v28 : IVec S_ 1 := andi main_v23 main_v27
  let main_v29 : FVec F S3x256x256 .f32 := Host.absf main_arg7
  let main_cst_10 : FVec F S_ .f32 := constant S_ .f32 0x7F800000#32
  let main_v30 : FVec F S3x256x256 .f32 := broadcastInDim S3x256x256 ![] bcast_S_S3x256x256 main_cst_10
  let main_v31 : IVec S3x256x256 1 := cmpf .olt main_v29 main_v30
  let main_c_11 : IVec S_ 1 := constantI S_ 1 1#1
  let main_v32 : IVec S_ 1 := (fun x v => Host.reduce IntOp.andi x v reducesTo_S3x256x256_S_d0_1_2 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S50000x128 .f32) (main_arg1 : IVec S2x800000 32) (main_arg2 : FVec F S128x256 .f32) (main_arg3 : FVec F S256 .f32) (main_arg4 : FVec F S3x256x256 .f32) (main_arg5 : FVec F S3x256 .f32) (main_arg6 : FVec F S3x256x256 .f32) (main_arg7 : FVec F S3x256x256 .f32) (main_arg8 : FVec F S3x256 .f32) (main_arg9 : FVec F S3x256x256 .f32) (main_arg10 : FVec F S3x256 .f32) (main_arg11 : FVec F S3x256 .f32) (main_arg12 : FVec F S3x256 .f32) (main_arg13 : FVec F S3x256 .f32) (main_arg14 : FVec F S3x256 .f32) (main_arg15 : FVec F S3x256 .f32) (main_arg16 : FVec F S3x256 .f32) (main_arg17 : FVec F S3x256 .f32) (main_arg18 : FVec F S2x256x256 .f32) (main_arg19 : FVec F S2x256 .f32) (main_arg20 : FVec F S256x128 .f32) (main_arg21 : FVec F S128 .f32) (main_arg22 : FVec F S128x40 .f32) (main_arg23 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S3x256x256 .f32 := Host.absf main_arg4
  let main_cst_4 : FVec F S_ .f32 := constant S_ .f32 0x7F800000#32
  let main_v15 : FVec F S3x256x256 .f32 := broadcastInDim S3x256x256 ![] bcast_S_S3x256x256 main_cst_4
  let main_v16 : IVec S3x256x256 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S3x256x256 : Shape := ⟨3, ![3, 256, 256]⟩
abbrev S3x256 : Shape := ⟨2, ![3, 256]⟩
abbrev S2x256x256 : Shape := ⟨3, ![2, 256, 256]⟩
abbrev S2x256 : Shape := ⟨2, ![2, 256]⟩
abbrev S256x128 : Shape := ⟨2, ![256, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S800000x256 : Shape := ⟨2, ![800000, 256]⟩
abbrev S1x256x256 : Shape := ⟨3, ![1, 256, 256]⟩
abbrev S256x256 : Shape := ⟨2, ![256, 256]⟩
abbrev S2000x1 : Shape := ⟨2, ![2000, 1]⟩
abbrev S1x128 : Shape := ⟨2, ![1, 128]⟩
abbrev S1x40 : Shape := ⟨2, ![1, 40]⟩
abbrev S50000x40 : Shape := ⟨2, ![50000, 40]⟩
abbrev S5000x256 : Shape := ⟨2, ![5000, 256]⟩
abbrev S5000x40 : Shape := ⟨2, ![5000, 40]⟩
abbrev S5000x128 : Shape := ⟨2, ![5000, 128]⟩

abbrev nBuf : Space → Nat
  | .hbm => 259
  | .vmem => 122
  | .smem => 0
  | _ => 0

abbrev hbmTy0_0 (i : Nat) : BufTy := match i % 128 with
  | 0 => ⟨S50000x128, .f32⟩
  | 1 => ⟨S2x800000, .i32⟩
  | 2 => ⟨S128x256, .f32⟩
  | 3 => ⟨S256, .f32⟩
  | 4 => ⟨S3x256x256, .f32⟩
  | 5 => ⟨S3x256, .f32⟩
  | 6 => ⟨S3x256x256, .f32⟩
  | 7 => ⟨S3x256x256, .f32⟩
  | 8 => ⟨S3x256, .f32⟩
  | 9 => ⟨S3x256x256, .f32⟩
  | 10 => ⟨S3x256, .f32⟩
  | 11 => ⟨S3x256, .f32⟩
  | 12 => ⟨S3x256, .f32⟩
  | 13 => ⟨S3x256, .f32⟩
  | 14 => ⟨S3x256, .f32⟩
  | 15 => ⟨S3x256, .f32⟩
  | 16 => ⟨S3x256, .f32⟩
  | 17 => ⟨S3x256, .f32⟩
  | 18 => ⟨S2x256x256, .f32⟩
  | 19 => ⟨S2x256, .f32⟩
  | 20 => ⟨S256x128, .f32⟩
  | 21 => ⟨S128, .f32⟩
  | 22 => ⟨S128x40, .f32⟩
  | 23 => ⟨S40, .f32⟩
  | 24 => ⟨S1x800000, .i32⟩
  | 25 => ⟨S800000, .i32⟩
  | 26 => ⟨S1x800000, .i32⟩
  | 27 => ⟨S800000, .i32⟩
  | 28 => ⟨S_, .f32⟩
  | 29 => ⟨S800000, .f32⟩
  | 30 => ⟨S_, .f32⟩
  | 31 => ⟨S50000, .f32⟩
  | 32 => ⟨S800000x1, .i32⟩
  | 33 => ⟨S50000, .f32⟩
  | 34 => ⟨S_, .f32⟩
  | 35 => ⟨S50000, .f32⟩
  | 36 => ⟨S50000, .f32⟩
  | 37 => ⟨S_, .f32⟩
  | 38 => ⟨S50000, .f32⟩
  | 39 => ⟨S50000, .f32⟩
  | 40 => ⟨S50000x1, .f32⟩
  | 41 => ⟨S_, .f32⟩
  | 42 => ⟨S3x256, .f32⟩
  | 43 => ⟨S3x256, .f32⟩
  | 44 => ⟨S3x256, .f32⟩
  | 45 => ⟨S3x256, .f32⟩
  | 46 => ⟨S_, .f32⟩
  | 47 => ⟨S3x256, .f32⟩
  | 48 => ⟨S3x256, .f32⟩
  | 49 => ⟨S3x256, .f32⟩
  | 50 => ⟨S3x256, .f32⟩
  | 51 => ⟨S1x256, .f32⟩
  | 52 => ⟨S50000x256, .f32⟩
  | 53 => ⟨S50000x256, .bf16⟩
  | 54 => ⟨S_, .i32⟩
  | 55 => ⟨S800000, .i32⟩
  | 56 => ⟨S800000, .i1⟩
  | 57 => ⟨S_, .i32⟩
  | 58 => ⟨S800000, .i32⟩
  | 59 => ⟨S800000, .i32⟩
  | 60 => ⟨S800000, .i32⟩
  | 61 => ⟨S800000x1, .i32⟩
  | 62 => ⟨S800000x256, .bf16⟩
  | 63 => ⟨S800000x256, .f32⟩
  | 64 => ⟨S_, .f32⟩
  | 65 => ⟨S50000x256, .f32⟩
  | 66 => ⟨S800000x1, .i32⟩
  | 67 => ⟨S50000x256, .f32⟩
  | 68 => ⟨S1x256x256, .f32⟩
  | 69 => ⟨S256x256, .f32⟩
  | 70 => ⟨S1x256x256, .f32⟩
  | 71 => ⟨S256x256, .f32⟩
  | 72 => ⟨S1x256, .f32⟩
  | 73 => ⟨S256, .f32⟩
  | 74 => ⟨S1x256, .f32⟩
  | 75 => ⟨S256, .f32⟩
  | 76 => ⟨S1x256, .f32⟩
  | 77 => ⟨S256, .f32⟩
  | 78 => ⟨S1x256, .f32⟩
  | 79 => ⟨S256, .f32⟩
  | 80 => ⟨S1x256, .f32⟩
  | 81 => ⟨S1x256, .f32⟩
  | 82 => ⟨S1x256, .f32⟩
  | 83 => ⟨S1x256, .f32⟩
  | 84 => ⟨S50000x256, .f32⟩
  | 85 => ⟨S50000x256, .bf16⟩
  | 86 => ⟨S_, .i32⟩
  | 87 => ⟨S800000, .i32⟩
  | 88 => ⟨S800000, .i1⟩
  | 89 => ⟨S_, .i32⟩
  | 90 => ⟨S800000, .i32⟩
  | 91 => ⟨S800000, .i32⟩
  | 92 => ⟨S800000, .i32⟩
  | 93 => ⟨S800000x1, .i32⟩
  | 94 => ⟨S800000x256, .bf16⟩
  | 95 => ⟨S800000x256, .f32⟩
  | 96 => ⟨S_, .f32⟩
  | 97 => ⟨S50000x256, .f32⟩
  | 98 => ⟨S800000x1, .i32⟩
  | 99 => ⟨S50000x256, .f32⟩
  | 100 => ⟨S1x256x256, .f32⟩
  | 101 => ⟨S256x256, .f32⟩
  | 102 => ⟨S1x256x256, .f32⟩
  | 103 => ⟨S256x256, .f32⟩
  | 104 => ⟨S1x256, .f32⟩
  | 105 => ⟨S256, .f32⟩
  | 106 => ⟨S1x256, .f32⟩
  | 107 => ⟨S256, .f32⟩
  | 108 => ⟨S1x256, .f32⟩
  | 109 => ⟨S256, .f32⟩
  | 110 => ⟨S1x256, .f32⟩
  | 111 => ⟨S256, .f32⟩
  | 112 => ⟨S1x256, .f32⟩
  | 113 => ⟨S1x256, .f32⟩
  | 114 => ⟨S1x256, .f32⟩
  | 115 => ⟨S1x256, .f32⟩
  | 116 => ⟨S50000x256, .f32⟩
  | 117 => ⟨S50000x256, .bf16⟩
  | 118 => ⟨S_, .i32⟩
  | 119 => ⟨S800000, .i32⟩
  | 120 => ⟨S800000, .i1⟩
  | 121 => ⟨S_, .i32⟩
  | 122 => ⟨S800000, .i32⟩
  | 123 => ⟨S800000, .i32⟩
  | 124 => ⟨S800000, .i32⟩
  | 125 => ⟨S800000x1, .i32⟩
  | 126 => ⟨S800000x256, .bf16⟩
  | 127 => ⟨S800000x256, .f32⟩
  | _ => ⟨S50000x128, .f32⟩

abbrev hbmTy0_1 (i : Nat) : BufTy := match i % 128 with
  | 0 => ⟨S_, .f32⟩
  | 1 => ⟨S50000x256, .f32⟩
  | 2 => ⟨S800000x1, .i32⟩
  | 3 => ⟨S50000x256, .f32⟩
  | 4 => ⟨S1x256x256, .f32⟩
  | 5 => ⟨S256x256, .f32⟩
  | 6 => ⟨S1x256x256, .f32⟩
  | 7 => ⟨S256x256, .f32⟩
  | 8 => ⟨S1x256, .f32⟩
  | 9 => ⟨S256, .f32⟩
  | 10 => ⟨S1x256, .f32⟩
  | 11 => ⟨S256, .f32⟩
  | 12 => ⟨S1x256, .f32⟩
  | 13 => ⟨S256, .f32⟩
  | 14 => ⟨S1x256, .f32⟩
  | 15 => ⟨S256, .f32⟩
  | 16 => ⟨S1x256, .f32⟩
  | 17 => ⟨S1x256, .f32⟩
  | 18 => ⟨S1x256, .f32⟩
  | 19 => ⟨S1x256, .f32⟩
  | 20 => ⟨S50000x256, .f32⟩
  | 21 => ⟨S50000x256, .bf16⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000x256, .bf16⟩
  | 31 => ⟨S800000x256, .f32⟩
  | 32 => ⟨S_, .f32⟩
  | 33 => ⟨S50000x256, .f32⟩
  | 34 => ⟨S800000x1, .i32⟩
  | 35 => ⟨S50000x256, .f32⟩
  | 36 => ⟨S1x256x256, .f32⟩
  | 37 => ⟨S256x256, .f32⟩
  | 38 => ⟨S1x256x256, .f32⟩
  | 39 => ⟨S256x256, .f32⟩
  | 40 => ⟨S1x256, .f32⟩
  | 41 => ⟨S256, .f32⟩
  | 42 => ⟨S1x256, .f32⟩
  | 43 => ⟨S256, .f32⟩
  | 44 => ⟨S1x256, .f32⟩
  | 45 => ⟨S256, .f32⟩
  | 46 => ⟨S1x256, .f32⟩
  | 47 => ⟨S256, .f32⟩
  | 48 => ⟨S1x256x256, .f32⟩
  | 49 => ⟨S256x256, .f32⟩
  | 50 => ⟨S1x256, .f32⟩
  | 51 => ⟨S256, .f32⟩
  | 52 => ⟨S1x256, .f32⟩
  | 53 => ⟨S1x256, .f32⟩
  | 54 => ⟨S1x256, .f32⟩
  | 55 => ⟨S1x256, .f32⟩
  | 56 => ⟨S1x256, .f32⟩
  | 57 => ⟨S50000x256, .f32⟩
  | 58 => ⟨S50000x256, .bf16⟩
  | 59 => ⟨S_, .i32⟩
  | 60 => ⟨S800000, .i32⟩
  | 61 => ⟨S800000, .i1⟩
  | 62 => ⟨S_, .i32⟩
  | 63 => ⟨S800000, .i32⟩
  | 64 => ⟨S800000, .i32⟩
  | 65 => ⟨S800000, .i32⟩
  | 66 => ⟨S800000x1, .i32⟩
  | 67 => ⟨S800000x256, .bf16⟩
  | 68 => ⟨S800000x256, .f32⟩
  | 69 => ⟨S_, .f32⟩
  | 70 => ⟨S50000x256, .f32⟩
  | 71 => ⟨S800000x1, .i32⟩
  | 72 => ⟨S50000x256, .f32⟩
  | 73 => ⟨S1x256x256, .f32⟩
  | 74 => ⟨S256x256, .f32⟩
  | 75 => ⟨S1x256x256, .f32⟩
  | 76 => ⟨S256x256, .f32⟩
  | 77 => ⟨S1x256, .f32⟩
  | 78 => ⟨S256, .f32⟩
  | 79 => ⟨S1x256, .f32⟩
  | 80 => ⟨S256, .f32⟩
  | 81 => ⟨S1x256, .f32⟩
  | 82 => ⟨S256, .f32⟩
  | 83 => ⟨S1x256, .f32⟩
  | 84 => ⟨S256, .f32⟩
  | 85 => ⟨S1x256, .f32⟩
  | 86 => ⟨S1x256, .f32⟩
  | 87 => ⟨S1x256, .f32⟩
  | 88 => ⟨S1x256, .f32⟩
  | 89 => ⟨S50000x256, .f32⟩
  | 90 => ⟨S50000x256, .bf16⟩
  | 91 => ⟨S_, .i32⟩
  | 92 => ⟨S800000, .i32⟩
  | 93 => ⟨S800000, .i1⟩
  | 94 => ⟨S_, .i32⟩
  | 95 => ⟨S800000, .i32⟩
  | 96 => ⟨S800000, .i32⟩
  | 97 => ⟨S800000, .i32⟩
  | 98 => ⟨S800000x1, .i32⟩
  | 99 => ⟨S800000x256, .bf16⟩
  | 100 => ⟨S800000x256, .f32⟩
  | 101 => ⟨S_, .f32⟩
  | 102 => ⟨S50000x256, .f32⟩
  | 103 => ⟨S800000x1, .i32⟩
  | 104 => ⟨S50000x256, .f32⟩
  | 105 => ⟨S1x256x256, .f32⟩
  | 106 => ⟨S256x256, .f32⟩
  | 107 => ⟨S1x256x256, .f32⟩
  | 108 => ⟨S256x256, .f32⟩
  | 109 => ⟨S1x256, .f32⟩
  | 110 => ⟨S256, .f32⟩
  | 111 => ⟨S1x256, .f32⟩
  | 112 => ⟨S256, .f32⟩
  | 113 => ⟨S1x256, .f32⟩
  | 114 => ⟨S256, .f32⟩
  | 115 => ⟨S1x256, .f32⟩
  | 116 => ⟨S256, .f32⟩
  | 117 => ⟨S1x256x256, .f32⟩
  | 118 => ⟨S256x256, .f32⟩
  | 119 => ⟨S1x256, .f32⟩
  | 120 => ⟨S256, .f32⟩
  | 121 => ⟨S1x256, .f32⟩
  | 122 => ⟨S1x256, .f32⟩
  | 123 => ⟨S1x256, .f32⟩
  | 124 => ⟨S1x256, .f32⟩
  | 125 => ⟨S1x256, .f32⟩
  | 126 => ⟨S50000x256, .f32⟩
  | 127 => ⟨S50000x256, .bf16⟩
  | _ => ⟨S50000x128, .f32⟩

abbrev hbmTy0_2 (i : Nat) : BufTy := match i % 128 with
  | 0 => ⟨S1x128, .f32⟩
  | 1 => ⟨S1x40, .f32⟩
  | 2 => ⟨S50000x40, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S1x256, .f32⟩
  | .local _ .vmem, ⟨4, _⟩ => ⟨S2000x256, .f32⟩
  | .local _ .vmem, ⟨5, _⟩ => ⟨S2000x256, .f32⟩
  | .local _ .vmem, ⟨6, _⟩ => ⟨S2000x256, .bf16⟩
  | .local _ .vmem, ⟨7, _⟩ => ⟨S2000x256, .bf16⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S256x256, .f32⟩
  | .local _ .vmem, ⟨13, _⟩ => ⟨S256x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S2000x1, .f32⟩
  | .local _ .vmem, ⟨19, _⟩ => ⟨S2000x1, .f32⟩
  | .local _ .vmem, ⟨20, _⟩ => ⟨S2000x256, .f32⟩
  | .local _ .vmem, ⟨21, _⟩ => ⟨S2000x256, .f32⟩
  | .local _ .vmem, ⟨22, _⟩ => ⟨S2000x256, .bf16⟩
  | .local _ .vmem, ⟨23, _⟩ => ⟨S2000x256, .bf16⟩
  | .local _ .vmem, ⟨24, _⟩ => ⟨S2000x256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | .local _ .vmem, ⟨28, _⟩ => ⟨S256x256, .f32⟩
  | .local _ .vmem, ⟨29, _⟩ => ⟨S256x256, .f32⟩
  | .local _ .vmem, ⟨30, _⟩ => ⟨S1x256, .f32⟩
  | .local _ .vmem, ⟨31, _⟩ => ⟨S1x256, .f32⟩
  | .local _ .vmem, ⟨32, _⟩ => ⟨S1x256, .f32⟩
  | .local _ .vmem, ⟨33, _⟩ => ⟨S1x256, .f32⟩
  | .local _ .vmem, ⟨34, _⟩ => ⟨S2000x1, .f32⟩
  | .local _ .vmem, ⟨35, _⟩ => ⟨S2000x1, .f32⟩
  | .local _ .vmem, ⟨36, _⟩ => ⟨S2000x256, .f32⟩
  | .local _ .vmem, ⟨37, _⟩ => ⟨S2000x256, .f32⟩
  | .local _ .vmem, ⟨38, _⟩ => ⟨S2000x256, .f32⟩
  | .local _ .vmem, ⟨39, _⟩ => ⟨S2000x256, .f32⟩
  | .local _ .vmem, ⟨40, _⟩ => ⟨S2000x256, .bf16⟩
  | .local _ .vmem, ⟨41, _⟩ => ⟨S2000x256, .bf16⟩
  | .local _ .vmem, ⟨42, _⟩ => ⟨S2000x256, .f32⟩
  | .local _ .vmem, ⟨43, _⟩ => ⟨S2000x256, .f32⟩
  | .local _ .vmem, ⟨44, _⟩ => ⟨S2000x256, .f32⟩
  | .local _ .vmem, ⟨45, _⟩ => ⟨S2000x256, .f32⟩
  | .local _ .vmem, ⟨46, _⟩ => ⟨S256x256, .f32⟩
  | .local _ .vmem, ⟨47, _⟩ => ⟨S256x256, .f32⟩
  | .local _ .vmem, ⟨48, _⟩ => ⟨S1x256, .f32⟩
  | .local _ .vmem, ⟨49, _⟩ => ⟨S1x256, .f32⟩
  | .local _ .vmem, ⟨50, _⟩ => ⟨S1x256, .f32⟩
  | .local _ .vmem, ⟨51, _⟩ => ⟨S1x256, .f32⟩
  | .local _ .vmem, ⟨52, _⟩ => ⟨S2000x1, .f32⟩
  | .local _ .vmem, ⟨53, _⟩ => ⟨S2000x1, .f32⟩
  | .local _ .vmem, ⟨54, _⟩ => ⟨S2000x256, .f32⟩
  | .local _ .vmem, ⟨55, _⟩ => ⟨S2000x256, .f32⟩
  | .local _ .vmem, ⟨56, _⟩ => ⟨S2000x256, .bf16⟩
  | .local _ .vmem, ⟨57, _⟩ => ⟨S2000x256, .bf16⟩
  | .local _ .vmem, ⟨58, _⟩ => ⟨S2000x256, .f32⟩
  | .local _ .vmem, ⟨59, _⟩ => ⟨S2000x256, .f32⟩
  | .local _ .vmem, ⟨60, _⟩ => ⟨S2000x256, .f32⟩
  | .local _ .vmem, ⟨61, _⟩ => ⟨S2000x256, .f32⟩
  | .local _ .vmem, ⟨62, _⟩ => ⟨S256x256, .f32⟩
  | .local _ .vmem, ⟨63, _⟩ => ⟨S256x256, .f32⟩
  | .local _ .vmem, ⟨64, _⟩ => ⟨S1x256, .f32⟩
  | .local _ .vmem, ⟨65, _⟩ => ⟨S1x256, .f32⟩
  | .local _ .vmem, ⟨66, _⟩ => ⟨S1x256, .f32⟩
  | .local _ .vmem, ⟨67, _⟩ => ⟨S1x256, .f32⟩
  | .local _ .vmem, ⟨68, _⟩ => ⟨S2000x1, .f32⟩
  | .local _ .vmem, ⟨69, _⟩ => ⟨S2000x1, .f32⟩
  | .local _ .vmem, ⟨70, _⟩ => ⟨S2000x256, .f32⟩
  | .local _ .vmem, ⟨71, _⟩ => ⟨S2000x256, .f32⟩
  | .local _ .vmem, ⟨72, _⟩ => ⟨S256x256, .f32⟩
  | .local _ .vmem, ⟨73, _⟩ => ⟨S1x256, .f32⟩
  | .local _ .vmem, ⟨74, _⟩ => ⟨S2000x256, .f32⟩
  | .local _ .vmem, ⟨75, _⟩ => ⟨S2000x256, .f32⟩
  | .local _ .vmem, ⟨76, _⟩ => ⟨S2000x256, .bf16⟩
  | .local _ .vmem, ⟨77, _⟩ => ⟨S2000x256, .bf16⟩
  | .local _ .vmem, ⟨78, _⟩ => ⟨S2000x256, .f32⟩
  | .local _ .vmem, ⟨79, _⟩ => ⟨S2000x256, .f32⟩
  | .local _ .vmem, ⟨80, _⟩ => ⟨S2000x256, .f32⟩
  | .local _ .vmem, ⟨81, _⟩ => ⟨S2000x256, .f32⟩
  | .local _ .vmem, ⟨82, _⟩ => ⟨S256x256, .f32⟩
  | .local _ .vmem, ⟨83, _⟩ => ⟨S256x256, .f32⟩
  | .local _ .vmem, ⟨84, _⟩ => ⟨S1x256, .f32⟩
  | .local _ .vmem, ⟨85, _⟩ => ⟨S1x256, .f32⟩
  | .local _ .vmem, ⟨86, _⟩ => ⟨S1x256, .f32⟩
  | .local _ .vmem, ⟨87, _⟩ => ⟨S1x256, .f32⟩
  | .local _ .vmem, ⟨88, _⟩ => ⟨S2000x1, .f32⟩
  | .local _ .vmem, ⟨89, _⟩ => ⟨S2000x1, .f32⟩
  | .local _ .vmem, ⟨90, _⟩ => ⟨S2000x256, .f32⟩
  | .local _ .vmem, ⟨91, _⟩ => ⟨S2000x256, .f32⟩
  | .local _ .vmem, ⟨92, _⟩ => ⟨S2000x256, .bf16⟩
  | .local _ .vmem, ⟨93, _⟩ => ⟨S2000x256, .bf16⟩
  | .local _ .vmem, ⟨94, _⟩ => ⟨S2000x256, .f32⟩
  | .local _ .vmem, ⟨95, _⟩ => ⟨S2000x256, .f32⟩
  | .local _ .vmem, ⟨96, _⟩ => ⟨S2000x256, .f32⟩
  | .local _ .vmem, ⟨97, _⟩ => ⟨S2000x256, .f32⟩
  | .local _ .vmem, ⟨98, _⟩ => ⟨S256x256, .f32⟩
  | .local _ .vmem, ⟨99, _⟩ => ⟨S256x256, .f32⟩
  | .local _ .vmem, ⟨100, _⟩ => ⟨S1x256, .f32⟩
  | .local _ .vmem, ⟨101, _⟩ => ⟨S1x256, .f32⟩
  | .local _ .vmem, ⟨102, _⟩ => ⟨S1x256, .f32⟩
  | .local _ .vmem, ⟨103, _⟩ => ⟨S1x256, .f32⟩
  | .local _ .vmem, ⟨104, _⟩ => ⟨S2000x1, .f32⟩
  | .local _ .vmem, ⟨105, _⟩ => ⟨S2000x1, .f32⟩
  | .local _ .vmem, ⟨106, _⟩ => ⟨S2000x256, .f32⟩
  | .local _ .vmem, ⟨107, _⟩ => ⟨S2000x256, .f32⟩
  | .local _ .vmem, ⟨108, _⟩ => ⟨S256x256, .f32⟩
  | .local _ .vmem, ⟨109, _⟩ => ⟨S1x256, .f32⟩
  | .local _ .vmem, ⟨110, _⟩ => ⟨S2000x256, .f32⟩
  | .local _ .vmem, ⟨111, _⟩ => ⟨S2000x256, .f32⟩
  | .local _ .vmem, ⟨112, _⟩ => ⟨S2000x256, .bf16⟩
  | .local _ .vmem, ⟨113, _⟩ => ⟨S2000x256, .bf16⟩
  | .local _ .vmem, ⟨114, _⟩ => ⟨S5000x256, .f32⟩
  | .local _ .vmem, ⟨115, _⟩ => ⟨S5000x256, .f32⟩
  | .local _ .vmem, ⟨116, _⟩ => ⟨S256x128, .f32⟩
  | .local _ .vmem, ⟨117, _⟩ => ⟨S1x128, .f32⟩
  | .local _ .vmem, ⟨118, _⟩ => ⟨S128x40, .f32⟩
  | .local _ .vmem, ⟨119, _⟩ => ⟨S1x40, .f32⟩
  | .local _ .vmem, ⟨120, _⟩ => ⟨S5000x40, .f32⟩
  | .local _ .vmem, ⟨121, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | .vmem, ⟨118, _⟩ => true
  | .vmem, ⟨119, _⟩ => true
  | .vmem, ⟨120, _⟩ => true
  | .vmem, ⟨121, _⟩ => true
  | _, _ => false

abbrev semScoped : Fin 0 → Bool
  | ⟨_, h⟩ => absurd h (Nat.not_lt_zero _)

abbrev dmaSemScoped : Fin 122 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | _ => false

abbrev sig : RefSig :=
  ofTc nBuf bufTy 0 122 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_cst : Ref sig .tc := ⟨.hbm, 28, rfl⟩
abbrev main_v4 : Ref sig .tc := ⟨.hbm, 29, rfl⟩
abbrev main_cst_0 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_cst_1 : Ref sig .tc := ⟨.hbm, 34, rfl⟩
abbrev main_v8 : Ref sig .tc := ⟨.hbm, 35, rfl⟩
abbrev main_v9 : Ref sig .tc := ⟨.hbm, 36, rfl⟩
abbrev main_cst_2 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_cst_3 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_cst_4 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22_0 : Ref sig .tc := ⟨.hbm, 52, rfl⟩
abbrev main_v22_1 : Ref sig .tc := ⟨.hbm, 53, rfl⟩
abbrev main_c : Ref sig .tc := ⟨.hbm, 54, rfl⟩
abbrev main_v23 : Ref sig .tc := ⟨.hbm, 55, rfl⟩
abbrev main_v24 : Ref sig .tc := ⟨.hbm, 56, rfl⟩
abbrev main_c_5 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_cst_6 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50_0 : Ref sig .tc := ⟨.hbm, 84, rfl⟩
abbrev main_v50_1 : Ref sig .tc := ⟨.hbm, 85, rfl⟩
abbrev main_c_7 : Ref sig .tc := ⟨.hbm, 86, rfl⟩
abbrev main_v51 : Ref sig .tc := ⟨.hbm, 87, rfl⟩
abbrev main_v52 : Ref sig .tc := ⟨.hbm, 88, rfl⟩
abbrev main_c_8 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_cst_9 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78_0 : Ref sig .tc := ⟨.hbm, 116, rfl⟩
abbrev main_v78_1 : Ref sig .tc := ⟨.hbm, 117, rfl⟩
abbrev main_c_10 : Ref sig .tc := ⟨.hbm, 118, rfl⟩
abbrev main_v79 : Ref sig .tc := ⟨.hbm, 119, rfl⟩
abbrev main_v80 : Ref sig .tc := ⟨.hbm, 120, rfl⟩
abbrev main_c_11 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_cst_12 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106_0 : Ref sig .tc := ⟨.hbm, 148, rfl⟩
abbrev main_v106_1 : Ref sig .tc := ⟨.hbm, 149, rfl⟩
abbrev main_c_13 : Ref sig .tc := ⟨.hbm, 150, rfl⟩
abbrev main_v107 : Ref sig .tc := ⟨.hbm, 151, rfl⟩
abbrev main_v108 : Ref sig .tc := ⟨.hbm, 152, rfl⟩
abbrev main_c_14 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_cst_15 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139_0 : Ref sig .tc := ⟨.hbm, 185, rfl⟩
abbrev main_v139_1 : Ref sig .tc := ⟨.hbm, 186, rfl⟩
abbrev main_c_16 : Ref sig .tc := ⟨.hbm, 187, rfl⟩
abbrev main_v140 : Ref sig .tc := ⟨.hbm, 188, rfl⟩
abbrev main_v141 : Ref sig .tc := ⟨.hbm, 189, rfl⟩
abbrev main_c_17 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_cst_18 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_v167_0 : Ref sig .tc := ⟨.hbm, 217, rfl⟩
abbrev main_v167_1 : Ref sig .tc := ⟨.hbm, 218, rfl⟩
abbrev main_c_19 : Ref sig .tc := ⟨.hbm, 219, rfl⟩
abbrev main_v168 : Ref sig .tc := ⟨.hbm, 220, rfl⟩
abbrev main_v169 : Ref sig .tc := ⟨.hbm, 221, rfl⟩
abbrev main_c_20 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_v175 : Ref sig .tc := ⟨.hbm, 228, rfl⟩
abbrev main_cst_21 : Ref sig .tc := ⟨.hbm, 229, rfl⟩
abbrev main_v176 : Ref sig .tc := ⟨.hbm, 230, rfl⟩
abbrev main_v177 : Ref sig .tc := ⟨.hbm, 231, rfl⟩
abbrev main_v178 : Ref sig .tc := ⟨.hbm, 232, rfl⟩
abbrev main_v179 : Ref sig .tc := ⟨.hbm, 233, rfl⟩
abbrev main_v180 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_v184 : Ref sig .tc := ⟨.hbm, 238, rfl⟩
abbrev main_v185 : Ref sig .tc := ⟨.hbm, 239, rfl⟩
abbrev main_v186 : Ref sig .tc := ⟨.hbm, 240, rfl⟩
abbrev main_v187 : Ref sig .tc := ⟨.hbm, 241, rfl⟩
abbrev main_v188 : Ref sig .tc := ⟨.hbm, 242, rfl⟩
abbrev main_v189 : Ref sig .tc := ⟨.hbm, 243, rfl⟩
abbrev main_v190 : Ref sig .tc := ⟨.hbm, 244, rfl⟩
abbrev main_v191 : Ref sig .tc := ⟨.hbm, 245, rfl⟩
abbrev main_v192 : Ref sig .tc := ⟨.hbm, 246, rfl⟩
abbrev main_v193 : Ref sig .tc := ⟨.hbm, 247, rfl⟩
abbrev main_v194 : Ref sig .tc := ⟨.hbm, 248, rfl⟩
abbrev main_v195 : Ref sig .tc := ⟨.hbm, 249, rfl⟩
abbrev main_v196 : Ref sig .tc := ⟨.hbm, 250, rfl⟩
abbrev main_v197 : Ref sig .tc := ⟨.hbm, 251, rfl⟩
abbrev main_v198 : Ref sig .tc := ⟨.hbm, 252, rfl⟩
abbrev main_v199 : Ref sig .tc := ⟨.hbm, 253, rfl⟩
abbrev main_v200_0 : Ref sig .tc := ⟨.hbm, 254, rfl⟩
abbrev main_v200_1 : Ref sig .tc := ⟨.hbm, 255, rfl⟩
abbrev main_v201 : Ref sig .tc := ⟨.hbm, 256, rfl⟩
abbrev main_v202 : Ref sig .tc := ⟨.hbm, 257, rfl⟩
abbrev main_v203 : Ref sig .tc := ⟨.hbm, 258, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg8_1 : Ref sig .tc := ⟨.vmem, 19, rfl⟩
abbrev cc1_stg9_0 : Ref sig .tc := ⟨.vmem, 20, rfl⟩
abbrev cc1_stg9_1 : Ref sig .tc := ⟨.vmem, 21, rfl⟩
abbrev cc1_stg10_0 : Ref sig .tc := ⟨.vmem, 22, rfl⟩
abbrev cc1_stg10_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg7_0 : Ref sig .tc := ⟨.vmem, 33, rfl⟩
abbrev cc2_stg8_0 : Ref sig .tc := ⟨.vmem, 34, rfl⟩
abbrev cc2_stg8_1 : Ref sig .tc := ⟨.vmem, 35, rfl⟩
abbrev cc2_stg9_0 : Ref sig .tc := ⟨.vmem, 36, rfl⟩
abbrev cc2_stg9_1 : Ref sig .tc := ⟨.vmem, 37, rfl⟩
abbrev cc2_stg10_0 : Ref sig .tc := ⟨.vmem, 38, rfl⟩
abbrev cc2_stg10_1 : Ref sig .tc := ⟨.vmem, 39, rfl⟩
abbrev cc2_stg11_0 : Ref sig .tc := ⟨.vmem, 40, rfl⟩
abbrev cc2_stg11_1 : Ref sig .tc := ⟨.vmem, 41, rfl⟩
abbrev cc3_stg0_0 : Ref sig .tc := ⟨.vmem, 42, rfl⟩
abbrev cc3_stg0_1 : Ref sig .tc := ⟨.vmem, 43, rfl⟩
abbrev cc3_stg1_0 : Ref sig .tc := ⟨.vmem, 44, rfl⟩
abbrev cc3_stg1_1 : Ref sig .tc := ⟨.vmem, 45, rfl⟩
abbrev cc3_stg2_0 : Ref sig .tc := ⟨.vmem, 46, rfl⟩
abbrev cc3_stg3_0 : Ref sig .tc := ⟨.vmem, 47, rfl⟩
abbrev cc3_stg4_0 : Ref sig .tc := ⟨.vmem, 48, rfl⟩
abbrev cc3_stg5_0 : Ref sig .tc := ⟨.vmem, 49, rfl⟩
abbrev cc3_stg6_0 : Ref sig .tc := ⟨.vmem, 50, rfl⟩
abbrev cc3_stg7_0 : Ref sig .tc := ⟨.vmem, 51, rfl⟩
abbrev cc3_stg8_0 : Ref sig .tc := ⟨.vmem, 52, rfl⟩
abbrev cc3_stg8_1 : Ref sig .tc := ⟨.vmem, 53, rfl⟩
abbrev cc3_stg9_0 : Ref sig .tc := ⟨.vmem, 54, rfl⟩
abbrev cc3_stg9_1 : Ref sig .tc := ⟨.vmem, 55, rfl⟩
abbrev cc3_stg10_0 : Ref sig .tc := ⟨.vmem, 56, rfl⟩
abbrev cc3_stg10_1 : Ref sig .tc := ⟨.vmem, 57, rfl⟩
abbrev cc4_stg0_0 : Ref sig .tc := ⟨.vmem, 58, rfl⟩
abbrev cc4_stg0_1 : Ref sig .tc := ⟨.vmem, 59, rfl⟩
abbrev cc4_stg1_0 : Ref sig .tc := ⟨.vmem, 60, rfl⟩
abbrev cc4_stg1_1 : Ref sig .tc := ⟨.vmem, 61, rfl⟩
abbrev cc4_stg2_0 : Ref sig .tc := ⟨.vmem, 62, rfl⟩
abbrev cc4_stg3_0 : Ref sig .tc := ⟨.vmem, 63, rfl⟩
abbrev cc4_stg4_0 : Ref sig .tc := ⟨.vmem, 64, rfl⟩
abbrev cc4_stg5_0 : Ref sig .tc := ⟨.vmem, 65, rfl⟩
abbrev cc4_stg6_0 : Ref sig .tc := ⟨.vmem, 66, rfl⟩
abbrev cc4_stg7_0 : Ref sig .tc := ⟨.vmem, 67, rfl⟩
abbrev cc4_stg8_0 : Ref sig .tc := ⟨.vmem, 68, rfl⟩
abbrev cc4_stg8_1 : Ref sig .tc := ⟨.vmem, 69, rfl⟩
abbrev cc4_stg9_0 : Ref sig .tc := ⟨.vmem, 70, rfl⟩
abbrev cc4_stg9_1 : Ref sig .tc := ⟨.vmem, 71, rfl⟩
abbrev cc4_stg10_0 : Ref sig .tc := ⟨.vmem, 72, rfl⟩
abbrev cc4_stg11_0 : Ref sig .tc := ⟨.vmem, 73, rfl⟩
abbrev cc4_stg12_0 : Ref sig .tc := ⟨.vmem, 74, rfl⟩
abbrev cc4_stg12_1 : Ref sig .tc := ⟨.vmem, 75, rfl⟩
abbrev cc4_stg13_0 : Ref sig .tc := ⟨.vmem, 76, rfl⟩
abbrev cc4_stg13_1 : Ref sig .tc := ⟨.vmem, 77, rfl⟩
abbrev cc5_stg0_0 : Ref sig .tc := ⟨.vmem, 78, rfl⟩
abbrev cc5_stg0_1 : Ref sig .tc := ⟨.vmem, 79, rfl⟩
abbrev cc5_stg1_0 : Ref sig .tc := ⟨.vmem, 80, rfl⟩
abbrev cc5_stg1_1 : Ref sig .tc := ⟨.vmem, 81, rfl⟩
abbrev cc5_stg2_0 : Ref sig .tc := ⟨.vmem, 82, rfl⟩
abbrev cc5_stg3_0 : Ref sig .tc := ⟨.vmem, 83, rfl⟩
abbrev cc5_stg4_0 : Ref sig .tc := ⟨.vmem, 84, rfl⟩
abbrev cc5_stg5_0 : Ref sig .tc := ⟨.vmem, 85, rfl⟩
abbrev cc5_stg6_0 : Ref sig .tc := ⟨.vmem, 86, rfl⟩
abbrev cc5_stg7_0 : Ref sig .tc := ⟨.vmem, 87, rfl⟩
abbrev cc5_stg8_0 : Ref sig .tc := ⟨.vmem, 88, rfl⟩
abbrev cc5_stg8_1 : Ref sig .tc := ⟨.vmem, 89, rfl⟩
abbrev cc5_stg9_0 : Ref sig .tc := ⟨.vmem, 90, rfl⟩
abbrev cc5_stg9_1 : Ref sig .tc := ⟨.vmem, 91, rfl⟩
abbrev cc5_stg10_0 : Ref sig .tc := ⟨.vmem, 92, rfl⟩
abbrev cc5_stg10_1 : Ref sig .tc := ⟨.vmem, 93, rfl⟩
abbrev cc6_stg0_0 : Ref sig .tc := ⟨.vmem, 94, rfl⟩
abbrev cc6_stg0_1 : Ref sig .tc := ⟨.vmem, 95, rfl⟩
abbrev cc6_stg1_0 : Ref sig .tc := ⟨.vmem, 96, rfl⟩
abbrev cc6_stg1_1 : Ref sig .tc := ⟨.vmem, 97, rfl⟩
abbrev cc6_stg2_0 : Ref sig .tc := ⟨.vmem, 98, rfl⟩
abbrev cc6_stg3_0 : Ref sig .tc := ⟨.vmem, 99, rfl⟩
abbrev cc6_stg4_0 : Ref sig .tc := ⟨.vmem, 100, rfl⟩
abbrev cc6_stg5_0 : Ref sig .tc := ⟨.vmem, 101, rfl⟩
abbrev cc6_stg6_0 : Ref sig .tc := ⟨.vmem, 102, rfl⟩
abbrev cc6_stg7_0 : Ref sig .tc := ⟨.vmem, 103, rfl⟩
abbrev cc6_stg8_0 : Ref sig .tc := ⟨.vmem, 104, rfl⟩
abbrev cc6_stg8_1 : Ref sig .tc := ⟨.vmem, 105, rfl⟩
abbrev cc6_stg9_0 : Ref sig .tc := ⟨.vmem, 106, rfl⟩
abbrev cc6_stg9_1 : Ref sig .tc := ⟨.vmem, 107, rfl⟩
abbrev cc6_stg10_0 : Ref sig .tc := ⟨.vmem, 108, rfl⟩
abbrev cc6_stg11_0 : Ref sig .tc := ⟨.vmem, 109, rfl⟩
abbrev cc6_stg12_0 : Ref sig .tc := ⟨.vmem, 110, rfl⟩
abbrev cc6_stg12_1 : Ref sig .tc := ⟨.vmem, 111, rfl⟩
abbrev cc6_stg13_0 : Ref sig .tc := ⟨.vmem, 112, rfl⟩
abbrev cc6_stg13_1 : Ref sig .tc := ⟨.vmem, 113, rfl⟩
abbrev cc7_stg0_0 : Ref sig .tc := ⟨.vmem, 114, rfl⟩
abbrev cc7_stg0_1 : Ref sig .tc := ⟨.vmem, 115, rfl⟩
abbrev cc7_stg1_0 : Ref sig .tc := ⟨.vmem, 116, rfl⟩
abbrev cc7_stg2_0 : Ref sig .tc := ⟨.vmem, 117, rfl⟩
abbrev cc7_stg3_0 : Ref sig .tc := ⟨.vmem, 118, rfl⟩
abbrev cc7_stg4_0 : Ref sig .tc := ⟨.vmem, 119, rfl⟩
abbrev cc7_stg5_0 : Ref sig .tc := ⟨.vmem, 120, rfl⟩
abbrev cc7_stg5_1 : Ref sig .tc := ⟨.vmem, 121, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem8_1 : DmaSem sig := 19
abbrev cc1_sem9_0 : DmaSem sig := 20
abbrev cc1_sem9_1 : DmaSem sig := 21
abbrev cc1_sem10_0 : DmaSem sig := 22
abbrev cc1_sem10_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem7_0 : DmaSem sig := 33
abbrev cc2_sem8_0 : DmaSem sig := 34
abbrev cc2_sem8_1 : DmaSem sig := 35
abbrev cc2_sem9_0 : DmaSem sig := 36
abbrev cc2_sem9_1 : DmaSem sig := 37
abbrev cc2_sem10_0 : DmaSem sig := 38
abbrev cc2_sem10_1 : DmaSem sig := 39
abbrev cc2_sem11_0 : DmaSem sig := 40
abbrev cc2_sem11_1 : DmaSem sig := 41
abbrev cc3_sem0_0 : DmaSem sig := 42
abbrev cc3_sem0_1 : DmaSem sig := 43
abbrev cc3_sem1_0 : DmaSem sig := 44
abbrev cc3_sem1_1 : DmaSem sig := 45
abbrev cc3_sem2_0 : DmaSem sig := 46
abbrev cc3_sem3_0 : DmaSem sig := 47
abbrev cc3_sem4_0 : DmaSem sig := 48
abbrev cc3_sem5_0 : DmaSem sig := 49
abbrev cc3_sem6_0 : DmaSem sig := 50
abbrev cc3_sem7_0 : DmaSem sig := 51
abbrev cc3_sem8_0 : DmaSem sig := 52
abbrev cc3_sem8_1 : DmaSem sig := 53
abbrev cc3_sem9_0 : DmaSem sig := 54
abbrev cc3_sem9_1 : DmaSem sig := 55
abbrev cc3_sem10_0 : DmaSem sig := 56
abbrev cc3_sem10_1 : DmaSem sig := 57
abbrev cc4_sem0_0 : DmaSem sig := 58
abbrev cc4_sem0_1 : DmaSem sig := 59
abbrev cc4_sem1_0 : DmaSem sig := 60
abbrev cc4_sem1_1 : DmaSem sig := 61
abbrev cc4_sem2_0 : DmaSem sig := 62
abbrev cc4_sem3_0 : DmaSem sig := 63
abbrev cc4_sem4_0 : DmaSem sig := 64
abbrev cc4_sem5_0 : DmaSem sig := 65
abbrev cc4_sem6_0 : DmaSem sig := 66
abbrev cc4_sem7_0 : DmaSem sig := 67
abbrev cc4_sem8_0 : DmaSem sig := 68
abbrev cc4_sem8_1 : DmaSem sig := 69
abbrev cc4_sem9_0 : DmaSem sig := 70
abbrev cc4_sem9_1 : DmaSem sig := 71
abbrev cc4_sem10_0 : DmaSem sig := 72
abbrev cc4_sem11_0 : DmaSem sig := 73
abbrev cc4_sem12_0 : DmaSem sig := 74
abbrev cc4_sem12_1 : DmaSem sig := 75
abbrev cc4_sem13_0 : DmaSem sig := 76
abbrev cc4_sem13_1 : DmaSem sig := 77
abbrev cc5_sem0_0 : DmaSem sig := 78
abbrev cc5_sem0_1 : DmaSem sig := 79
abbrev cc5_sem1_0 : DmaSem sig := 80
abbrev cc5_sem1_1 : DmaSem sig := 81
abbrev cc5_sem2_0 : DmaSem sig := 82
abbrev cc5_sem3_0 : DmaSem sig := 83
abbrev cc5_sem4_0 : DmaSem sig := 84
abbrev cc5_sem5_0 : DmaSem sig := 85
abbrev cc5_sem6_0 : DmaSem sig := 86
abbrev cc5_sem7_0 : DmaSem sig := 87
abbrev cc5_sem8_0 : DmaSem sig := 88
abbrev cc5_sem8_1 : DmaSem sig := 89
abbrev cc5_sem9_0 : DmaSem sig := 90
abbrev cc5_sem9_1 : DmaSem sig := 91
abbrev cc5_sem10_0 : DmaSem sig := 92
abbrev cc5_sem10_1 : DmaSem sig := 93
abbrev cc6_sem0_0 : DmaSem sig := 94
abbrev cc6_sem0_1 : DmaSem sig := 95
abbrev cc6_sem1_0 : DmaSem sig := 96
abbrev cc6_sem1_1 : DmaSem sig := 97
abbrev cc6_sem2_0 : DmaSem sig := 98
abbrev cc6_sem3_0 : DmaSem sig := 99
abbrev cc6_sem4_0 : DmaSem sig := 100
abbrev cc6_sem5_0 : DmaSem sig := 101
abbrev cc6_sem6_0 : DmaSem sig := 102
abbrev cc6_sem7_0 : DmaSem sig := 103
abbrev cc6_sem8_0 : DmaSem sig := 104
abbrev cc6_sem8_1 : DmaSem sig := 105
abbrev cc6_sem9_0 : DmaSem sig := 106
abbrev cc6_sem9_1 : DmaSem sig := 107
abbrev cc6_sem10_0 : DmaSem sig := 108
abbrev cc6_sem11_0 : DmaSem sig := 109
abbrev cc6_sem12_0 : DmaSem sig := 110
abbrev cc6_sem12_1 : DmaSem sig := 111
abbrev cc6_sem13_0 : DmaSem sig := 112
abbrev cc6_sem13_1 : DmaSem sig := 113
abbrev cc7_sem0_0 : DmaSem sig := 114
abbrev cc7_sem0_1 : DmaSem sig := 115
abbrev cc7_sem1_0 : DmaSem sig := 116
abbrev cc7_sem2_0 : DmaSem sig := 117
abbrev cc7_sem3_0 : DmaSem sig := 118
abbrev cc7_sem4_0 : DmaSem sig := 119
abbrev cc7_sem5_0 : DmaSem sig := 120
abbrev cc7_sem5_1 : DmaSem sig := 121

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S2000x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S2000x256 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S2000x1 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S2000x256 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S2000x256 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev stage2_11 : Fin 2 → Memref sig .tc .vmem S2000x256 .bf16 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x256 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S2000x1 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 2 → Memref sig .tc .vmem S2000x256 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev stage3_10 : Fin 2 → Memref sig .tc .vmem S2000x256 .bf16 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_12 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_13 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S256x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x256 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x256 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 2 → Memref sig .tc .vmem S2000x1 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev stage4_9 : Fin 2 → Memref sig .tc .vmem S2000x256 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev stage4_10 : Fin 1 → Memref sig .tc .vmem S256x256 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 1 → Memref sig .tc .vmem S1x256 .f32 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))
abbrev reads4_11 : Fin grid4.rank → Bool := ![false]

abbrev stage4_12 : Fin 2 → Memref sig .tc .vmem S2000x256 .f32 := fun | 0 => Memref.whole cc4_stg12_0 | 1 => Memref.whole cc4_stg12_1 | ⟨_ + 2, h⟩ => absurd h (Nat.not_lt.2 (Nat.le_add_left _ _))
abbrev sem4_12 : Fin 2 → DmaSem sig := fun | 0 => cc4_sem12_0 | 1 => cc4_sem12_1 | ⟨_ + 2, h⟩ => absurd h (Nat.not_lt.2 (Nat.le_add_left _ _))
abbrev reads4_12 : Fin grid4.rank → Bool := ![true]

abbrev stage4_13 : Fin 2 → Memref sig .tc .vmem S2000x256 .bf16 := fun | 0 => Memref.whole cc4_stg13_0 | 1 => Memref.whole cc4_stg13_1 | ⟨_ + 2, h⟩ => absurd h (Nat.not_lt.2 (Nat.le_add_left _ _))
abbrev sem4_13 : Fin 2 → DmaSem sig := fun | 0 => cc4_sem13_0 | 1 => cc4_sem13_1 | ⟨_ + 2, h⟩ => absurd h (Nat.not_lt.2 (Nat.le_add_left _ _))
abbrev reads4_13 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_9 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_10 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S256x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S256x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x256 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x256 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x256 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 2 → Memref sig .tc .vmem S2000x1 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

abbrev stage5_9 : Fin 2 → Memref sig .tc .vmem S2000x256 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true]

abbrev stage5_10 : Fin 2 → Memref sig .tc .vmem S2000x256 .bf16 := fun | 0 => Memref.whole cc5_stg10_0 | 1 => Memref.whole cc5_stg10_1 | ⟨_ + 2, h⟩ => absurd h (Nat.not_lt.2 (Nat.le_add_left _ _))
abbrev sem5_10 : Fin 2 → DmaSem sig := fun | 0 => cc5_sem10_0 | 1 => cc5_sem10_1 | ⟨_ + 2, h⟩ => absurd h (Nat.not_lt.2 (Nat.le_add_left _ _))
abbrev reads5_10 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_9 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_10 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_11 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_12 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_13 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x256 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S256x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S256x256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x256 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x256 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x256 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S1x256 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 2 → Memref sig .tc .vmem S2000x1 .f32 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true]

abbrev stage6_9 : Fin 2 → Memref sig .tc .vmem S2000x256 .f32 := fun | 0 => Memref.whole cc6_stg9_0 | 1 => Memref.whole cc6_stg9_1 | ⟨_ + 2, h⟩ => absurd h (Nat.not_lt.2 (Nat.le_add_left _ _))
abbrev sem6_9 : Fin 2 → DmaSem sig := fun | 0 => cc6_sem9_0 | 1 => cc6_sem9_1 | ⟨_ + 2, h⟩ => absurd h (Nat.not_lt.2 (Nat.le_add_left _ _))
abbrev reads6_9 : Fin grid6.rank → Bool := ![true]

abbrev stage6_10 : Fin 1 → Memref sig .tc .vmem S256x256 .f32 := fun | 0 => Memref.whole cc6_stg10_0 | ⟨_ + 1, h⟩ => absurd h (Nat.not_lt.2 (Nat.le_add_left _ _))
abbrev sem6_10 : Fin 1 → DmaSem sig := fun | 0 => cc6_sem10_0 | ⟨_ + 1, h⟩ => absurd h (Nat.not_lt.2 (Nat.le_add_left _ _))
abbrev reads6_10 : Fin grid6.rank → Bool := ![false]

abbrev stage6_11 : Fin 1 → Memref sig .tc .vmem S1x256 .f32 := fun | 0 => Memref.whole cc6_stg11_0 | ⟨_ + 1, h⟩ => absurd h (Nat.not_lt.2 (Nat.le_add_left _ _))
abbrev sem6_11 : Fin 1 → DmaSem sig := fun | 0 => cc6_sem11_0 | ⟨_ + 1, h⟩ => absurd h (Nat.not_lt.2 (Nat.le_add_left _ _))
abbrev reads6_11 : Fin grid6.rank → Bool := ![false]

abbrev stage6_12 : Fin 2 → Memref sig .tc .vmem S2000x256 .f32 := fun | 0 => Memref.whole cc6_stg12_0 | 1 => Memref.whole cc6_stg12_1 | ⟨_ + 2, h⟩ => absurd h (Nat.not_lt.2 (Nat.le_add_left _ _))
abbrev sem6_12 : Fin 2 → DmaSem sig := fun | 0 => cc6_sem12_0 | 1 => cc6_sem12_1 | ⟨_ + 2, h⟩ => absurd h (Nat.not_lt.2 (Nat.le_add_left _ _))
abbrev reads6_12 : Fin grid6.rank → Bool := ![true]

abbrev stage6_13 : Fin 2 → Memref sig .tc .vmem S2000x256 .bf16 := fun | 0 => Memref.whole cc6_stg13_0 | 1 => Memref.whole cc6_stg13_1 | ⟨_ + 2, h⟩ => absurd h (Nat.not_lt.2 (Nat.le_add_left _ _))
abbrev sem6_13 : Fin 2 → DmaSem sig := fun | 0 => cc6_sem13_0 | 1 => cc6_sem13_1 | ⟨_ + 2, h⟩ => absurd h (Nat.not_lt.2 (Nat.le_add_left _ _))
abbrev reads6_13 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S256x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S128x40 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x40 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x40 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S_S3x256 : S_.BroadcastsInDim S3x256 (![] : Fin 0 → Fin S3x256.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  packedbf16_S2000x256_S2000x256_0_0 : (Rect.unit (s := S2000x256) ![0, 0] S2000x256.size inb_S2000x256_S2000x256_0_0).PackedRows (EltTy.packing .bf16)
  bcast_S_S50000x256 : S_.BroadcastsInDim S50000x256 (![] : Fin 0 → Fin S50000x256.rank)
  slices_S3x256x256_S1x256x256_0_0_0 : S3x256x256.Slices ![0, 0, 0] S1x256x256
  shapeCasts_S1x256x256_S256x256 : S1x256x256.ShapeCasts S256x256
  slices_S3x256_S1x256_0_0 : S3x256.Slices ![0, 0] S1x256
  shapeCasts_S1x256_S256 : S1x256.ShapeCasts S256
  shapeCasts_S2000x256_S2000x256 : S2000x256.ShapeCasts S2000x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  slices_S3x256x256_S1x256x256_1_0_0 : S3x256x256.Slices ![1, 0, 0] S1x256x256
  slices_S3x256_S1x256_1_0 : S3x256.Slices ![1, 0] S1x256
  slices_S2x256x256_S1x256x256_0_0_0 : S2x256x256.Slices ![0, 0, 0] S1x256x256
  slices_S2x256_S1x256_0_0 : S2x256.Slices ![0, 0] S1x256
  slices_S3x256x256_S1x256x256_2_0_0 : S3x256x256.Slices ![2, 0, 0] S1x256x256
  slices_S3x256_S1x256_2_0 : S3x256.Slices ![2, 0] S1x256
  slices_S2x256x256_S1x256x256_1_0_0 : S2x256x256.Slices ![1, 0, 0] S1x256x256
  slices_S2x256_S1x256_1_0 : S2x256.Slices ![1, 0] S1x256
  shapeCasts_S128_S1x128 : S128.ShapeCasts S1x128
  shapeCasts_S40_S1x40 : S40.ShapeCasts S1x40
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  scatter_S50000_S800000x1_S800000_n_0_0_1_wf : ScatterDims.WF S50000 S800000x1 S800000 [] [0] [0] 1
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  dot_S5000x256_S256x128_S5000x128_1_0_0_1_n_n_wf : DotDims.WF S5000x256 S256x128 S5000x128 [1] [0] [0] [1] [] []
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x256.size a ≤ S50000x256.size a
  hwx0_4 : ∀ i : grid0.Coords, EltTy.bits .bf16 = 32 ∨ (Rect.block (s := S50000x256) S2000x256.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x1.size a ≤ S50000x1.size a
  hwx1_8 : ∀ i : grid1.Coords, EltTy.bits .f32 = 32 ∨ (Rect.block (s := S50000x1) S2000x1.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x256.size a ≤ S50000x256.size a
  hwx1_9 : ∀ i : grid1.Coords, EltTy.bits .f32 = 32 ∨ (Rect.block (s := S50000x256) S2000x256.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2000x256.size a ≤ S50000x256.size a
  hwx1_10 : ∀ i : grid1.Coords, EltTy.bits .bf16 = 32 ∨ (Rect.block (s := S50000x256) S2000x256.size (cc1_transform_10 i) (hinb1_10 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x256.size a ≤ S1x256.size a
  hwx2_7 : ∀ i : grid2.Coords, EltTy.bits .f32 = 32 ∨ (Rect.block (s := S1x256) S1x256.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2000x1.size a ≤ S50000x1.size a
  hwx2_8 : ∀ i : grid2.Coords, EltTy.bits .f32 = 32 ∨ (Rect.block (s := S50000x1) S2000x1.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S2000x256.size a ≤ S50000x256.size a
  hwx2_9 : ∀ i : grid2.Coords, EltTy.bits .f32 = 32 ∨ (Rect.block (s := S50000x256) S2000x256.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S2000x256.size a ≤ S50000x256.size a
  hwx2_10 : ∀ i : grid2.Coords, EltTy.bits .f32 = 32 ∨ (Rect.block (s := S50000x256) S2000x256.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S2000x256.size a ≤ S50000x256.size a
  hwx2_11 : ∀ i : grid2.Coords, EltTy.bits .bf16 = 32 ∨ (Rect.block (s := S50000x256) S2000x256.size (cc2_transform_11 i) (hinb2_11 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S50000x256.size a
  hwx3_1 : ∀ i : grid3.Coords, EltTy.bits .f32 = 32 ∨ (Rect.block (s := S50000x256) S2000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x256.size a ≤ S256x256.size a
  hwx3_2 : ∀ i : grid3.Coords, EltTy.bits .f32 = 32 ∨ (Rect.block (s := S256x256) S256x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x256.size a ≤ S256x256.size a
  hwx3_3 : ∀ i : grid3.Coords, EltTy.bits .f32 = 32 ∨ (Rect.block (s := S256x256) S256x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x256.size a ≤ S1x256.size a
  hwx3_5 : ∀ i : grid3.Coords, EltTy.bits .f32 = 32 ∨ (Rect.block (s := S1x256) S1x256.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x256.size a ≤ S1x256.size a
  hwx3_6 : ∀ i : grid3.Coords, EltTy.bits .f32 = 32 ∨ (Rect.block (s := S1x256) S1x256.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x256.size a ≤ S1x256.size a
  hwx3_7 : ∀ i : grid3.Coords, EltTy.bits .f32 = 32 ∨ (Rect.block (s := S1x256) S1x256.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S2000x1.size a ≤ S50000x1.size a
  hwx3_8 : ∀ i : grid3.Coords, EltTy.bits .f32 = 32 ∨ (Rect.block (s := S50000x1) S2000x1.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S2000x256.size a ≤ S50000x256.size a
  hwx3_9 : ∀ i : grid3.Coords, EltTy.bits .f32 = 32 ∨ (Rect.block (s := S50000x256) S2000x256.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S2000x256.size a ≤ S50000x256.size a
  hwx3_10 : ∀ i : grid3.Coords, EltTy.bits .bf16 = 32 ∨ (Rect.block (s := S50000x256) S2000x256.size (cc3_transform_10 i) (hinb3_10 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x256.size a ≤ S50000x256.size a
  hwx4_1 : ∀ i : grid4.Coords, EltTy.bits .f32 = 32 ∨ (Rect.block (s := S50000x256) S2000x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x256.size a ≤ S256x256.size a
  hwx4_2 : ∀ i : grid4.Coords, EltTy.bits .f32 = 32 ∨ (Rect.block (s := S256x256) S256x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x256.size a ≤ S256x256.size a
  hwx4_3 : ∀ i : grid4.Coords, EltTy.bits .f32 = 32 ∨ (Rect.block (s := S256x256) S256x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x256.size a ≤ S1x256.size a
  hwx4_5 : ∀ i : grid4.Coords, EltTy.bits .f32 = 32 ∨ (Rect.block (s := S1x256) S1x256.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x256.size a ≤ S1x256.size a
  hwx4_6 : ∀ i : grid4.Coords, EltTy.bits .f32 = 32 ∨ (Rect.block (s := S1x256) S1x256.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x256.size a ≤ S1x256.size a
  hwx4_7 : ∀ i : grid4.Coords, EltTy.bits .f32 = 32 ∨ (Rect.block (s := S1x256) S1x256.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S2000x1.size a ≤ S50000x1.size a
  hwx4_8 : ∀ i : grid4.Coords, EltTy.bits .f32 = 32 ∨ (Rect.block (s := S50000x1) S2000x1.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S2000x256.size a ≤ S50000x256.size a
  hwx4_9 : ∀ i : grid4.Coords, EltTy.bits .f32 = 32 ∨ (Rect.block (s := S50000x256) S2000x256.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S256x256.size a ≤ S256x256.size a
  hwx4_10 : ∀ i : grid4.Coords, EltTy.bits .f32 = 32 ∨ (Rect.block (s := S256x256) S256x256.size (cc4_transform_10 i) (hinb4_10 i)).WholeWords (EltTy.packing .f32)
  hstage4_11 : ∀ j, (stage4_11 j).IsWhole
  nbuf4_11 : grid4.bufCount reads4_11 true = 1
  hreads4_11 : ∀ i i' : grid4.Coords, (∀ a, reads4_11 a = true → i a = i' a) → cc4_transform_11 i = cc4_transform_11 i'
  hinb4_11 : ∀ (i : grid4.Coords) a, (cc4_transform_11 i a + 1) * S1x256.size a ≤ S1x256.size a
  hwx4_11 : ∀ i : grid4.Coords, EltTy.bits .f32 = 32 ∨ (Rect.block (s := S1x256) S1x256.size (cc4_transform_11 i) (hinb4_11 i)).WholeWords (EltTy.packing .f32)
  hstage4_12 : ∀ j, (stage4_12 j).IsWhole
  nbuf4_12 : grid4.bufCount reads4_12 false = 2
  hreads4_12 : ∀ i i' : grid4.Coords, (∀ a, reads4_12 a = true → i a = i' a) → cc4_transform_12 i = cc4_transform_12 i'
  hinb4_12 : ∀ (i : grid4.Coords) a, (cc4_transform_12 i a + 1) * S2000x256.size a ≤ S50000x256.size a
  hwx4_12 : ∀ i : grid4.Coords, EltTy.bits .f32 = 32 ∨ (Rect.block (s := S50000x256) S2000x256.size (cc4_transform_12 i) (hinb4_12 i)).WholeWords (EltTy.packing .f32)
  hstage4_13 : ∀ j, (stage4_13 j).IsWhole
  nbuf4_13 : grid4.bufCount reads4_13 false = 2
  hreads4_13 : ∀ i i' : grid4.Coords, (∀ a, reads4_13 a = true → i a = i' a) → cc4_transform_13 i = cc4_transform_13 i'
  hinb4_13 : ∀ (i : grid4.Coords) a, (cc4_transform_13 i a + 1) * S2000x256.size a ≤ S50000x256.size a
  hwx4_13 : ∀ i : grid4.Coords, EltTy.bits .bf16 = 32 ∨ (Rect.block (s := S50000x256) S2000x256.size (cc4_transform_13 i) (hinb4_13 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S50000x256.size a
  hwx5_0 : ∀ i : grid5.Coords, EltTy.bits .f32 = 32 ∨ (Rect.block (s := S50000x256) S2000x256.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x256.size a ≤ S50000x256.size a
  hwx5_1 : ∀ i : grid5.Coords, EltTy.bits .f32 = 32 ∨ (Rect.block (s := S50000x256) S2000x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S256x256.size a ≤ S256x256.size a
  hwx5_2 : ∀ i : grid5.Coords, EltTy.bits .f32 = 32 ∨ (Rect.block (s := S256x256) S256x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S256x256.size a ≤ S256x256.size a
  hwx5_3 : ∀ i : grid5.Coords, EltTy.bits .f32 = 32 ∨ (Rect.block (s := S256x256) S256x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x256.size a ≤ S1x256.size a
  hwx5_4 : ∀ i : grid5.Coords, EltTy.bits .f32 = 32 ∨ (Rect.block (s := S1x256) S1x256.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x256.size a ≤ S1x256.size a
  hwx5_5 : ∀ i : grid5.Coords, EltTy.bits .f32 = 32 ∨ (Rect.block (s := S1x256) S1x256.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x256.size a ≤ S1x256.size a
  hwx5_6 : ∀ i : grid5.Coords, EltTy.bits .f32 = 32 ∨ (Rect.block (s := S1x256) S1x256.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x256.size a ≤ S1x256.size a
  hwx5_7 : ∀ i : grid5.Coords, EltTy.bits .f32 = 32 ∨ (Rect.block (s := S1x256) S1x256.size (cc5_transform_7 i) (hinb5_7 i)).WholeWords (EltTy.packing .f32)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S2000x1.size a ≤ S50000x1.size a
  hwx5_8 : ∀ i : grid5.Coords, EltTy.bits .f32 = 32 ∨ (Rect.block (s := S50000x1) S2000x1.size (cc5_transform_8 i) (hinb5_8 i)).WholeWords (EltTy.packing .f32)
  hstage5_9 : ∀ j, (stage5_9 j).IsWhole
  nbuf5_9 : grid5.bufCount reads5_9 false = 2
  hreads5_9 : ∀ i i' : grid5.Coords, (∀ a, reads5_9 a = true → i a = i' a) → cc5_transform_9 i = cc5_transform_9 i'
  hinb5_9 : ∀ (i : grid5.Coords) a, (cc5_transform_9 i a + 1) * S2000x256.size a ≤ S50000x256.size a
  hwx5_9 : ∀ i : grid5.Coords, EltTy.bits .f32 = 32 ∨ (Rect.block (s := S50000x256) S2000x256.size (cc5_transform_9 i) (hinb5_9 i)).WholeWords (EltTy.packing .f32)
  hstage5_10 : ∀ j, (stage5_10 j).IsWhole
  nbuf5_10 : grid5.bufCount reads5_10 false = 2
  hreads5_10 : ∀ i i' : grid5.Coords, (∀ a, reads5_10 a = true → i a = i' a) → cc5_transform_10 i = cc5_transform_10 i'
  hinb5_10 : ∀ (i : grid5.Coords) a, (cc5_transform_10 i a + 1) * S2000x256.size a ≤ S50000x256.size a
  hwx5_10 : ∀ i : grid5.Coords, EltTy.bits .bf16 = 32 ∨ (Rect.block (s := S50000x256) S2000x256.size (cc5_transform_10 i) (hinb5_10 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x256.size a ≤ S50000x256.size a
  hwx6_0 : ∀ i : grid6.Coords, EltTy.bits .f32 = 32 ∨ (Rect.block (s := S50000x256) S2000x256.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x256.size a ≤ S50000x256.size a
  hwx6_1 : ∀ i : grid6.Coords, EltTy.bits .f32 = 32 ∨ (Rect.block (s := S50000x256) S2000x256.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S256x256.size a ≤ S256x256.size a
  hwx6_2 : ∀ i : grid6.Coords, EltTy.bits .f32 = 32 ∨ (Rect.block (s := S256x256) S256x256.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S256x256.size a ≤ S256x256.size a
  hwx6_3 : ∀ i : grid6.Coords, EltTy.bits .f32 = 32 ∨ (Rect.block (s := S256x256) S256x256.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x256.size a ≤ S1x256.size a
  hwx6_4 : ∀ i : grid6.Coords, EltTy.bits .f32 = 32 ∨ (Rect.block (s := S1x256) S1x256.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x256.size a ≤ S1x256.size a
  hwx6_5 : ∀ i : grid6.Coords, EltTy.bits .f32 = 32 ∨ (Rect.block (s := S1x256) S1x256.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x256.size a ≤ S1x256.size a
  hwx6_6 : ∀ i : grid6.Coords, EltTy.bits .f32 = 32 ∨ (Rect.block (s := S1x256) S1x256.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1x256.size a ≤ S1x256.size a
  hwx6_7 : ∀ i : grid6.Coords, EltTy.bits .f32 = 32 ∨ (Rect.block (s := S1x256) S1x256.size (cc6_transform_7 i) (hinb6_7 i)).WholeWords (EltTy.packing .f32)
  hstage6_8 : ∀ j, (stage6_8 j).IsWhole
  nbuf6_8 : grid6.bufCount reads6_8 false = 2
  hreads6_8 : ∀ i i' : grid6.Coords, (∀ a, reads6_8 a = true → i a = i' a) → cc6_transform_8 i = cc6_transform_8 i'
  hinb6_8 : ∀ (i : grid6.Coords) a, (cc6_transform_8 i a + 1) * S2000x1.size a ≤ S50000x1.size a
  hwx6_8 : ∀ i : grid6.Coords, EltTy.bits .f32 = 32 ∨ (Rect.block (s := S50000x1) S2000x1.size (cc6_transform_8 i) (hinb6_8 i)).WholeWords (EltTy.packing .f32)
  hstage6_9 : ∀ j, (stage6_9 j).IsWhole
  nbuf6_9 : grid6.bufCount reads6_9 false = 2
  hreads6_9 : ∀ i i' : grid6.Coords, (∀ a, reads6_9 a = true → i a = i' a) → cc6_transform_9 i = cc6_transform_9 i'
  hinb6_9 : ∀ (i : grid6.Coords) a, (cc6_transform_9 i a + 1) * S2000x256.size a ≤ S50000x256.size a
  hwx6_9 : ∀ i : grid6.Coords, EltTy.bits .f32 = 32 ∨ (Rect.block (s := S50000x256) S2000x256.size (cc6_transform_9 i) (hinb6_9 i)).WholeWords (EltTy.packing .f32)
  hstage6_10 : ∀ j, (stage6_10 j).IsWhole
  nbuf6_10 : grid6.bufCount reads6_10 true = 1
  hreads6_10 : ∀ i i' : grid6.Coords, (∀ a, reads6_10 a = true → i a = i' a) → cc6_transform_10 i = cc6_transform_10 i'
  hinb6_10 : ∀ (i : grid6.Coords) a, (cc6_transform_10 i a + 1) * S256x256.size a ≤ S256x256.size a
  hwx6_10 : ∀ i : grid6.Coords, EltTy.bits .f32 = 32 ∨ (Rect.block (s := S256x256) S256x256.size (cc6_transform_10 i) (hinb6_10 i)).WholeWords (EltTy.packing .f32)
  hstage6_11 : ∀ j, (stage6_11 j).IsWhole
  nbuf6_11 : grid6.bufCount reads6_11 true = 1
  hreads6_11 : ∀ i i' : grid6.Coords, (∀ a, reads6_11 a = true → i a = i' a) → cc6_transform_11 i = cc6_transform_11 i'
  hinb6_11 : ∀ (i : grid6.Coords) a, (cc6_transform_11 i a + 1) * S1x256.size a ≤ S1x256.size a
  hwx6_11 : ∀ i : grid6.Coords, EltTy.bits .f32 = 32 ∨ (Rect.block (s := S1x256) S1x256.size (cc6_transform_11 i) (hinb6_11 i)).WholeWords (EltTy.packing .f32)
  hstage6_12 : ∀ j, (stage6_12 j).IsWhole
  nbuf6_12 : grid6.bufCount reads6_12 false = 2
  hreads6_12 : ∀ i i' : grid6.Coords, (∀ a, reads6_12 a = true → i a = i' a) → cc6_transform_12 i = cc6_transform_12 i'
  hinb6_12 : ∀ (i : grid6.Coords) a, (cc6_transform_12 i a + 1) * S2000x256.size a ≤ S50000x256.size a
  hwx6_12 : ∀ i : grid6.Coords, EltTy.bits .f32 = 32 ∨ (Rect.block (s := S50000x256) S2000x256.size (cc6_transform_12 i) (hinb6_12 i)).WholeWords (EltTy.packing .f32)
  hstage6_13 : ∀ j, (stage6_13 j).IsWhole
  nbuf6_13 : grid6.bufCount reads6_13 false = 2
  hreads6_13 : ∀ i i' : grid6.Coords, (∀ a, reads6_13 a = true → i a = i' a) → cc6_transform_13 i = cc6_transform_13 i'
  hinb6_13 : ∀ (i : grid6.Coords) a, (cc6_transform_13 i a + 1) * S2000x256.size a ≤ S50000x256.size a
  hwx6_13 : ∀ i : grid6.Coords, EltTy.bits .bf16 = 32 ∨ (Rect.block (s := S50000x256) S2000x256.size (cc6_transform_13 i) (hinb6_13 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x256.size a ≤ S50000x256.size a
  hwx7_0 : ∀ i : grid7.Coords, EltTy.bits .f32 = 32 ∨ (Rect.block (s := S50000x256) S5000x256.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S256x128.size a ≤ S256x128.size a
  hwx7_1 : ∀ i : grid7.Coords, EltTy.bits .f32 = 32 ∨ (Rect.block (s := S256x128) S256x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x40.size a ≤ S128x40.size a
  hwx7_3 : ∀ i : grid7.Coords, EltTy.bits .f32 = 32 ∨ (Rect.block (s := S128x40) S128x40.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x40.size a ≤ S1x40.size a
  hwx7_4 : ∀ i : grid7.Coords, EltTy.bits .f32 = 32 ∨ (Rect.block (s := S1x40) S1x40.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x40.size a ≤ S50000x40.size a
  hwx7_5 : ∀ i : grid7.Coords, EltTy.bits .f32 = 32 ∨ (Rect.block (s := S50000x40) S5000x40.size (cc7_transform_5 i) (hinb7_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22_0) S2000x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v22_1) S2000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v33) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22_0) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v35) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v37) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v48) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v49) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v12) S2000x1.size cc1_transform_8 reads1_8 false false 2 stage1_8 sem1_8
    hrank1 hreads1_8 hinb1_8 nbuf1_8 (Memref.isWhole_whole _) hwx1_8 hstage1_8

abbrev win1_9 : Pipeline.Window sig grid1 :=
  Pipeline.Window.ofSpec (Memref.whole main_v50_0) S2000x256.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v50_1) S2000x256.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v61) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50_0) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v63) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v65) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v74) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v75) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v76) S1x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v77) S1x256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v12) S2000x1.size cc2_transform_8 reads2_8 false false 2 stage2_8 sem2_8
    hrank2 hreads2_8 hinb2_8 nbuf2_8 (Memref.isWhole_whole _) hwx2_8 hstage2_8

abbrev win2_9 : Pipeline.Window sig grid2 :=
  Pipeline.Window.ofSpec (Memref.whole main_v22_0) S2000x256.size cc2_transform_9 reads2_9 false false 2 stage2_9 sem2_9
    hrank2 hreads2_9 hinb2_9 nbuf2_9 (Memref.isWhole_whole _) hwx2_9 hstage2_9

abbrev win2_10 : Pipeline.Window sig grid2 :=
  Pipeline.Window.ofSpec (Memref.whole main_v78_0) S2000x256.size cc2_transform_10 reads2_10 true false 2 stage2_10 sem2_10
    hrank2 hreads2_10 hinb2_10 nbuf2_10 (Memref.isWhole_whole _) hwx2_10 hstage2_10

abbrev win2_11 : Pipeline.Window sig grid2 :=
  Pipeline.Window.ofSpec (Memref.whole main_v78_1) S2000x256.size cc2_transform_11 reads2_11 true false 2 stage2_11 sem2_11
    hrank2 hreads2_11 hinb2_11 nbuf2_11 (Memref.isWhole_whole _) hwx2_11 hstage2_11

abbrev win2 : Fin 12 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | ⟨_ + 12, h⟩ => absurd h (Nat.not_lt.2 (Nat.le_add_left _ _))
abbrev spec2 : Fin 12 → Pipeline.WinSpec sig grid2.rank := fun w => (win2 w).toWinSpec

abbrev win3_0 : Pipeline.Window sig grid3 :=
  Pipeline.Window.ofSpec (Memref.whole main_v89) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v78_0) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v91) S256x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v93) S256x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v102) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v103) S1x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v104) S1x256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v105) S1x256.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v12) S2000x1.size cc3_transform_8 reads3_8 false false 2 stage3_8 sem3_8
    hrank3 hreads3_8 hinb3_8 nbuf3_8 (Memref.isWhole_whole _) hwx3_8 hstage3_8

abbrev win3_9 : Pipeline.Window sig grid3 :=
  Pipeline.Window.ofSpec (Memref.whole main_v106_0) S2000x256.size cc3_transform_9 reads3_9 true false 2 stage3_9 sem3_9
    hrank3 hreads3_9 hinb3_9 nbuf3_9 (Memref.isWhole_whole _) hwx3_9 hstage3_9

abbrev win3_10 : Pipeline.Window sig grid3 :=
  Pipeline.Window.ofSpec (Memref.whole main_v106_1) S2000x256.size cc3_transform_10 reads3_10 true false 2 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

abbrev win4_0 : Pipeline.Window sig grid4 :=
  Pipeline.Window.ofSpec (Memref.whole main_v117) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v106_0) S2000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v119) S256x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v121) S256x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v134) S1x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v135) S1x256.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v136) S1x256.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v137) S1x256.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v12) S2000x1.size cc4_transform_8 reads4_8 false false 2 stage4_8 sem4_8
    hrank4 hreads4_8 hinb4_8 nbuf4_8 (Memref.isWhole_whole _) hwx4_8 hstage4_8

abbrev win4_9 : Pipeline.Window sig grid4 :=
  Pipeline.Window.ofSpec (Memref.whole main_v78_0) S2000x256.size cc4_transform_9 reads4_9 false false 2 stage4_9 sem4_9
    hrank4 hreads4_9 hinb4_9 nbuf4_9 (Memref.isWhole_whole _) hwx4_9 hstage4_9

abbrev win4_10 : Pipeline.Window sig grid4 :=
  Pipeline.Window.ofSpec (Memref.whole main_v131) S256x256.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_v138) S1x256.size cc4_transform_11 reads4_11 false true 1 stage4_11 sem4_11
    hrank4 hreads4_11 hinb4_11 nbuf4_11 (Memref.isWhole_whole _) hwx4_11 hstage4_11

abbrev win4_12 : Pipeline.Window sig grid4 :=
  Pipeline.Window.ofSpec (Memref.whole main_v139_0) S2000x256.size cc4_transform_12 reads4_12 true false 2 stage4_12 sem4_12
    hrank4 hreads4_12 hinb4_12 nbuf4_12 (Memref.isWhole_whole _) hwx4_12 hstage4_12

abbrev win4_13 : Pipeline.Window sig grid4 :=
  Pipeline.Window.ofSpec (Memref.whole main_v139_1) S2000x256.size cc4_transform_13 reads4_13 true false 2 stage4_13 sem4_13
    hrank4 hreads4_13 hinb4_13 nbuf4_13 (Memref.isWhole_whole _) hwx4_13 hstage4_13

abbrev win4 : Fin 14 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | 12 => win4_12 | 13 => win4_13 | ⟨_ + 14, h⟩ => absurd h (Nat.not_lt.2 (Nat.le_add_left _ _))
abbrev spec4 : Fin 14 → Pipeline.WinSpec sig grid4.rank := fun w => (win4 w).toWinSpec

abbrev win5_0 : Pipeline.Window sig grid5 :=
  Pipeline.Window.ofSpec (Memref.whole main_v150) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v139_0) S2000x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v152) S256x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v154) S256x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v163) S1x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v164) S1x256.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v165) S1x256.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v166) S1x256.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v12) S2000x1.size cc5_transform_8 reads5_8 false false 2 stage5_8 sem5_8
    hrank5 hreads5_8 hinb5_8 nbuf5_8 (Memref.isWhole_whole _) hwx5_8 hstage5_8

abbrev win5_9 : Pipeline.Window sig grid5 :=
  Pipeline.Window.ofSpec (Memref.whole main_v167_0) S2000x256.size cc5_transform_9 reads5_9 true false 2 stage5_9 sem5_9
    hrank5 hreads5_9 hinb5_9 nbuf5_9 (Memref.isWhole_whole _) hwx5_9 hstage5_9

abbrev win5_10 : Pipeline.Window sig grid5 :=
  Pipeline.Window.ofSpec (Memref.whole main_v167_1) S2000x256.size cc5_transform_10 reads5_10 true false 2 stage5_10 sem5_10
    hrank5 hreads5_10 hinb5_10 nbuf5_10 (Memref.isWhole_whole _) hwx5_10 hstage5_10

abbrev win5 : Fin 11 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | ⟨_ + 11, h⟩ => absurd h (Nat.not_lt.2 (Nat.le_add_left _ _))
abbrev spec5 : Fin 11 → Pipeline.WinSpec sig grid5.rank := fun w => (win5 w).toWinSpec

abbrev win6_0 : Pipeline.Window sig grid6 :=
  Pipeline.Window.ofSpec (Memref.whole main_v178) S2000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v167_0) S2000x256.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v180) S256x256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v182) S256x256.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v195) S1x256.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v196) S1x256.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v197) S1x256.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v198) S1x256.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v12) S2000x1.size cc6_transform_8 reads6_8 false false 2 stage6_8 sem6_8
    hrank6 hreads6_8 hinb6_8 nbuf6_8 (Memref.isWhole_whole _) hwx6_8 hstage6_8

abbrev win6_9 : Pipeline.Window sig grid6 :=
  Pipeline.Window.ofSpec (Memref.whole main_v139_0) S2000x256.size cc6_transform_9 reads6_9 false false 2 stage6_9 sem6_9
    hrank6 hreads6_9 hinb6_9 nbuf6_9 (Memref.isWhole_whole _) hwx6_9 hstage6_9

abbrev win6_10 : Pipeline.Window sig grid6 :=
  Pipeline.Window.ofSpec (Memref.whole main_v192) S256x256.size cc6_transform_10 reads6_10 false true 1 stage6_10 sem6_10
    hrank6 hreads6_10 hinb6_10 nbuf6_10 (Memref.isWhole_whole _) hwx6_10 hstage6_10

abbrev win6_11 : Pipeline.Window sig grid6 :=
  Pipeline.Window.ofSpec (Memref.whole main_v199) S1x256.size cc6_transform_11 reads6_11 false true 1 stage6_11 sem6_11
    hrank6 hreads6_11 hinb6_11 nbuf6_11 (Memref.isWhole_whole _) hwx6_11 hstage6_11

abbrev win6_12 : Pipeline.Window sig grid6 :=
  Pipeline.Window.ofSpec (Memref.whole main_v200_0) S2000x256.size cc6_transform_12 reads6_12 true false 2 stage6_12 sem6_12
    hrank6 hreads6_12 hinb6_12 nbuf6_12 (Memref.isWhole_whole _) hwx6_12 hstage6_12

abbrev win6_13 : Pipeline.Window sig grid6 :=
  Pipeline.Window.ofSpec (Memref.whole main_v200_1) S2000x256.size cc6_transform_13 reads6_13 true false 2 stage6_13 sem6_13
    hrank6 hreads6_13 hinb6_13 nbuf6_13 (Memref.isWhole_whole _) hwx6_13 hstage6_13

abbrev win6 : Fin 14 → Pipeline.Window sig grid6 := fun | 0 => win6_0 | 1 => win6_1 | 2 => win6_2 | 3 => win6_3 | 4 => win6_4 | 5 => win6_5 | 6 => win6_6 | 7 => win6_7 | 8 => win6_8 | 9 => win6_9 | 10 => win6_10 | 11 => win6_11 | 12 => win6_12 | 13 => win6_13 | ⟨_ + 14, h⟩ => absurd h (Nat.not_lt.2 (Nat.le_add_left _ _))
abbrev spec6 : Fin 14 → Pipeline.WinSpec sig grid6.rank := fun w => (win6 w).toWinSpec

abbrev win7_0 : Pipeline.Window sig grid7 :=
  Pipeline.Window.ofSpec (Memref.whole main_v200_0) S5000x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg20) S256x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v201) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_arg22) S128x40.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v202) S1x40.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v203) S5000x40.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S3x256x256 : Shape := ⟨3, ![3, 256, 256]⟩
abbrev S3x256 : Shape := ⟨2, ![3, 256]⟩
abbrev S2x256x256 : Shape := ⟨3, ![2, 256, 256]⟩
abbrev S2x256 : Shape := ⟨2, ![2, 256]⟩
abbrev S256x128 : Shape := ⟨2, ![256, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S800000 : Shape := ⟨1, ![800000]⟩
abbrev S50000x256 : Shape := ⟨2, ![50000, 256]⟩
abbrev S1x256 : Shape := ⟨2, ![1, 256]⟩
abbrev S1x256x256 : Shape := ⟨3, ![1, 256, 256]⟩
abbrev S256x256 : Shape := ⟨2, ![256, 256]⟩
abbrev S_ : Shape := ⟨0, ![]⟩
abbrev S800000x1 : Shape := ⟨2, ![800000, 1]⟩
abbrev S800000x256 : Shape := ⟨2, ![800000, 256]⟩
abbrev S50000 : Shape := ⟨1, ![50000]⟩
abbrev S50000x1 : Shape := ⟨2, ![50000, 1]⟩
abbrev S1x128 : Shape := ⟨2, ![1, 128]⟩
abbrev S50000x40 : Shape := ⟨2, ![50000, 40]⟩
abbrev S1x40 : Shape := ⟨2, ![1, 40]⟩

abbrev nBuf : Space → Nat
  | .hbm => 462
  | .vmem => 0
  | .smem => 0
  | _ => 0

abbrev hbmTy0_0 (i : Nat) : BufTy := match i % 128 with
  | 0 => ⟨S50000x128, .f32⟩
  | 1 => ⟨S2x800000, .i32⟩
  | 2 => ⟨S128x256, .f32⟩
  | 3 => ⟨S256, .f32⟩
  | 4 => ⟨S3x256x256, .f32⟩
  | 5 => ⟨S3x256, .f32⟩
  | 6 => ⟨S3x256x256, .f32⟩
  | 7 => ⟨S3x256x256, .f32⟩
  | 8 => ⟨S3x256, .f32⟩
  | 9 => ⟨S3x256x256, .f32⟩
  | 10 => ⟨S3x256, .f32⟩
  | 11 => ⟨S3x256, .f32⟩
  | 12 => ⟨S3x256, .f32⟩
  | 13 => ⟨S3x256, .f32⟩
  | 14 => ⟨S3x256, .f32⟩
  | 15 => ⟨S3x256, .f32⟩
  | 16 => ⟨S3x256, .f32⟩
  | 17 => ⟨S3x256, .f32⟩
  | 18 => ⟨S2x256x256, .f32⟩
  | 19 => ⟨S2x256, .f32⟩
  | 20 => ⟨S256x128, .f32⟩
  | 21 => ⟨S128, .f32⟩
  | 22 => ⟨S128x40, .f32⟩
  | 23 => ⟨S40, .f32⟩
  | 24 => ⟨S1x800000, .i32⟩
  | 25 => ⟨S800000, .i32⟩
  | 26 => ⟨S1x800000, .i32⟩
  | 27 => ⟨S800000, .i32⟩
  | 28 => ⟨S50000x256, .f32⟩
  | 29 => ⟨S1x256, .f32⟩
  | 30 => ⟨S50000x256, .f32⟩
  | 31 => ⟨S50000x256, .f32⟩
  | 32 => ⟨S1x256x256, .f32⟩
  | 33 => ⟨S256x256, .f32⟩
  | 34 => ⟨S1x256, .f32⟩
  | 35 => ⟨S256, .f32⟩
  | 36 => ⟨S1x256x256, .f32⟩
  | 37 => ⟨S256x256, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000x256, .f32⟩
  | 47 => ⟨S_, .f32⟩
  | 48 => ⟨S50000x256, .f32⟩
  | 49 => ⟨S800000x1, .i32⟩
  | 50 => ⟨S50000x256, .f32⟩
  | 51 => ⟨S_, .f32⟩
  | 52 => ⟨S800000, .f32⟩
  | 53 => ⟨S_, .f32⟩
  | 54 => ⟨S50000, .f32⟩
  | 55 => ⟨S800000x1, .i32⟩
  | 56 => ⟨S50000, .f32⟩
  | 57 => ⟨S_, .f32⟩
  | 58 => ⟨S50000, .f32⟩
  | 59 => ⟨S50000, .f32⟩
  | 60 => ⟨S50000x1, .f32⟩
  | 61 => ⟨S50000x256, .f32⟩
  | 62 => ⟨S50000x256, .f32⟩
  | 63 => ⟨S50000x256, .f32⟩
  | 64 => ⟨S1x256, .f32⟩
  | 65 => ⟨S50000x256, .f32⟩
  | 66 => ⟨S50000x256, .f32⟩
  | 67 => ⟨S50000x256, .f32⟩
  | 68 => ⟨S50000x256, .f32⟩
  | 69 => ⟨S1x256, .f32⟩
  | 70 => ⟨S256, .f32⟩
  | 71 => ⟨S1x256, .f32⟩
  | 72 => ⟨S256, .f32⟩
  | 73 => ⟨S1x256, .f32⟩
  | 74 => ⟨S256, .f32⟩
  | 75 => ⟨S1x256, .f32⟩
  | 76 => ⟨S256, .f32⟩
  | 77 => ⟨S1x256, .f32⟩
  | 78 => ⟨S50000x256, .f32⟩
  | 79 => ⟨S50000x256, .f32⟩
  | 80 => ⟨S_, .f32⟩
  | 81 => ⟨S256, .f32⟩
  | 82 => ⟨S256, .f32⟩
  | 83 => ⟨S256, .f32⟩
  | 84 => ⟨S256, .f32⟩
  | 85 => ⟨S1x256, .f32⟩
  | 86 => ⟨S50000x256, .f32⟩
  | 87 => ⟨S50000x256, .f32⟩
  | 88 => ⟨S1x256, .f32⟩
  | 89 => ⟨S50000x256, .f32⟩
  | 90 => ⟨S50000x256, .f32⟩
  | 91 => ⟨S_, .f32⟩
  | 92 => ⟨S50000x256, .f32⟩
  | 93 => ⟨S50000x256, .f32⟩
  | 94 => ⟨S1x256x256, .f32⟩
  | 95 => ⟨S256x256, .f32⟩
  | 96 => ⟨S1x256, .f32⟩
  | 97 => ⟨S256, .f32⟩
  | 98 => ⟨S1x256x256, .f32⟩
  | 99 => ⟨S256x256, .f32⟩
  | 100 => ⟨S_, .i32⟩
  | 101 => ⟨S800000, .i32⟩
  | 102 => ⟨S800000, .i1⟩
  | 103 => ⟨S_, .i32⟩
  | 104 => ⟨S800000, .i32⟩
  | 105 => ⟨S800000, .i32⟩
  | 106 => ⟨S800000, .i32⟩
  | 107 => ⟨S800000x1, .i32⟩
  | 108 => ⟨S800000x256, .f32⟩
  | 109 => ⟨S_, .f32⟩
  | 110 => ⟨S50000x256, .f32⟩
  | 111 => ⟨S800000x1, .i32⟩
  | 112 => ⟨S50000x256, .f32⟩
  | 113 => ⟨S_, .f32⟩
  | 114 => ⟨S800000, .f32⟩
  | 115 => ⟨S_, .f32⟩
  | 116 => ⟨S50000, .f32⟩
  | 117 => ⟨S800000x1, .i32⟩
  | 118 => ⟨S50000, .f32⟩
  | 119 => ⟨S_, .f32⟩
  | 120 => ⟨S50000, .f32⟩
  | 121 => ⟨S50000, .f32⟩
  | 122 => ⟨S50000x1, .f32⟩
  | 123 => ⟨S50000x256, .f32⟩
  | 124 => ⟨S50000x256, .f32⟩
  | 125 => ⟨S50000x256, .f32⟩
  | 126 => ⟨S1x256, .f32⟩
  | 127 => ⟨S50000x256, .f32⟩
  | _ => ⟨S50000x128, .f32⟩

abbrev hbmTy0_1 (i : Nat) : BufTy := match i % 128 with
  | 0 => ⟨S50000x256, .f32⟩
  | 1 => ⟨S50000x256, .f32⟩
  | 2 => ⟨S50000x256, .f32⟩
  | 3 => ⟨S1x256, .f32⟩
  | 4 => ⟨S256, .f32⟩
  | 5 => ⟨S1x256, .f32⟩
  | 6 => ⟨S256, .f32⟩
  | 7 => ⟨S1x256, .f32⟩
  | 8 => ⟨S256, .f32⟩
  | 9 => ⟨S1x256, .f32⟩
  | 10 => ⟨S256, .f32⟩
  | 11 => ⟨S1x256, .f32⟩
  | 12 => ⟨S50000x256, .f32⟩
  | 13 => ⟨S50000x256, .f32⟩
  | 14 => ⟨S_, .f32⟩
  | 15 => ⟨S256, .f32⟩
  | 16 => ⟨S256, .f32⟩
  | 17 => ⟨S256, .f32⟩
  | 18 => ⟨S256, .f32⟩
  | 19 => ⟨S1x256, .f32⟩
  | 20 => ⟨S50000x256, .f32⟩
  | 21 => ⟨S50000x256, .f32⟩
  | 22 => ⟨S1x256, .f32⟩
  | 23 => ⟨S50000x256, .f32⟩
  | 24 => ⟨S50000x256, .f32⟩
  | 25 => ⟨S_, .f32⟩
  | 26 => ⟨S50000x256, .f32⟩
  | 27 => ⟨S50000x256, .f32⟩
  | 28 => ⟨S50000x256, .f32⟩
  | 29 => ⟨S1x256x256, .f32⟩
  | 30 => ⟨S256x256, .f32⟩
  | 31 => ⟨S1x256, .f32⟩
  | 32 => ⟨S256, .f32⟩
  | 33 => ⟨S1x256x256, .f32⟩
  | 34 => ⟨S256x256, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000x256, .f32⟩
  | 44 => ⟨S_, .f32⟩
  | 45 => ⟨S50000x256, .f32⟩
  | 46 => ⟨S800000x1, .i32⟩
  | 47 => ⟨S50000x256, .f32⟩
  | 48 => ⟨S_, .f32⟩
  | 49 => ⟨S800000, .f32⟩
  | 50 => ⟨S_, .f32⟩
  | 51 => ⟨S50000, .f32⟩
  | 52 => ⟨S800000x1, .i32⟩
  | 53 => ⟨S50000, .f32⟩
  | 54 => ⟨S_, .f32⟩
  | 55 => ⟨S50000, .f32⟩
  | 56 => ⟨S50000, .f32⟩
  | 57 => ⟨S50000x1, .f32⟩
  | 58 => ⟨S50000x256, .f32⟩
  | 59 => ⟨S50000x256, .f32⟩
  | 60 => ⟨S50000x256, .f32⟩
  | 61 => ⟨S1x256, .f32⟩
  | 62 => ⟨S50000x256, .f32⟩
  | 63 => ⟨S50000x256, .f32⟩
  | 64 => ⟨S50000x256, .f32⟩
  | 65 => ⟨S50000x256, .f32⟩
  | 66 => ⟨S1x256, .f32⟩
  | 67 => ⟨S256, .f32⟩
  | 68 => ⟨S1x256, .f32⟩
  | 69 => ⟨S256, .f32⟩
  | 70 => ⟨S1x256, .f32⟩
  | 71 => ⟨S256, .f32⟩
  | 72 => ⟨S1x256, .f32⟩
  | 73 => ⟨S256, .f32⟩
  | 74 => ⟨S1x256, .f32⟩
  | 75 => ⟨S50000x256, .f32⟩
  | 76 => ⟨S50000x256, .f32⟩
  | 77 => ⟨S_, .f32⟩
  | 78 => ⟨S256, .f32⟩
  | 79 => ⟨S256, .f32⟩
  | 80 => ⟨S256, .f32⟩
  | 81 => ⟨S256, .f32⟩
  | 82 => ⟨S1x256, .f32⟩
  | 83 => ⟨S50000x256, .f32⟩
  | 84 => ⟨S50000x256, .f32⟩
  | 85 => ⟨S1x256, .f32⟩
  | 86 => ⟨S50000x256, .f32⟩
  | 87 => ⟨S50000x256, .f32⟩
  | 88 => ⟨S_, .f32⟩
  | 89 => ⟨S50000x256, .f32⟩
  | 90 => ⟨S50000x256, .f32⟩
  | 91 => ⟨S1x256x256, .f32⟩
  | 92 => ⟨S256x256, .f32⟩
  | 93 => ⟨S1x256, .f32⟩
  | 94 => ⟨S256, .f32⟩
  | 95 => ⟨S1x256x256, .f32⟩
  | 96 => ⟨S256x256, .f32⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S800000x1, .i32⟩
  | 105 => ⟨S800000x256, .f32⟩
  | 106 => ⟨S_, .f32⟩
  | 107 => ⟨S50000x256, .f32⟩
  | 108 => ⟨S800000x1, .i32⟩
  | 109 => ⟨S50000x256, .f32⟩
  | 110 => ⟨S_, .f32⟩
  | 111 => ⟨S800000, .f32⟩
  | 112 => ⟨S_, .f32⟩
  | 113 => ⟨S50000, .f32⟩
  | 114 => ⟨S800000x1, .i32⟩
  | 115 => ⟨S50000, .f32⟩
  | 116 => ⟨S_, .f32⟩
  | 117 => ⟨S50000, .f32⟩
  | 118 => ⟨S50000, .f32⟩
  | 119 => ⟨S50000x1, .f32⟩
  | 120 => ⟨S50000x256, .f32⟩
  | 121 => ⟨S50000x256, .f32⟩
  | 122 => ⟨S50000x256, .f32⟩
  | 123 => ⟨S1x256, .f32⟩
  | 124 => ⟨S50000x256, .f32⟩
  | 125 => ⟨S50000x256, .f32⟩
  | 126 => ⟨S50000x256, .f32⟩
  | 127 => ⟨S50000x256, .f32⟩
  | _ => ⟨S50000x128, .f32⟩

abbrev hbmTy0_2 (i : Nat) : BufTy := match i % 128 with
  | 0 => ⟨S1x256, .f32⟩
  | 1 => ⟨S256, .f32⟩
  | 2 => ⟨S1x256, .f32⟩
  | 3 => ⟨S256, .f32⟩
  | 4 => ⟨S1x256, .f32⟩
  | 5 => ⟨S256, .f32⟩
  | 6 => ⟨S1x256, .f32⟩
  | 7 => ⟨S256, .f32⟩
  | 8 => ⟨S1x256, .f32⟩
  | 9 => ⟨S50000x256, .f32⟩
  | 10 => ⟨S50000x256, .f32⟩
  | 11 => ⟨S_, .f32⟩
  | 12 => ⟨S256, .f32⟩
  | 13 => ⟨S256, .f32⟩
  | 14 => ⟨S256, .f32⟩
  | 15 => ⟨S256, .f32⟩
  | 16 => ⟨S1x256, .f32⟩
  | 17 => ⟨S50000x256, .f32⟩
  | 18 => ⟨S50000x256, .f32⟩
  | 19 => ⟨S1x256, .f32⟩
  | 20 => ⟨S50000x256, .f32⟩
  | 21 => ⟨S50000x256, .f32⟩
  | 22 => ⟨S_, .f32⟩
  | 23 => ⟨S50000x256, .f32⟩
  | 24 => ⟨S50000x256, .f32⟩
  | 25 => ⟨S50000x256, .f32⟩
  | 26 => ⟨S1x256x256, .f32⟩
  | 27 => ⟨S256x256, .f32⟩
  | 28 => ⟨S50000x256, .f32⟩
  | 29 => ⟨S1x256, .f32⟩
  | 30 => ⟨S256, .f32⟩
  | 31 => ⟨S1x256, .f32⟩
  | 32 => ⟨S50000x256, .f32⟩
  | 33 => ⟨S50000x256, .f32⟩
  | 34 => ⟨S50000x256, .f32⟩
  | 35 => ⟨S50000x256, .f32⟩
  | 36 => ⟨S_, .f32⟩
  | 37 => ⟨S50000x256, .f32⟩
  | 38 => ⟨S50000x256, .f32⟩
  | 39 => ⟨S_, .f32⟩
  | 40 => ⟨S50000x256, .f32⟩
  | 41 => ⟨S50000x256, .f32⟩
  | 42 => ⟨S50000x256, .f32⟩
  | 43 => ⟨S_, .f32⟩
  | 44 => ⟨S50000x256, .f32⟩
  | 45 => ⟨S50000x256, .f32⟩
  | 46 => ⟨S50000x256, .f32⟩
  | 47 => ⟨S50000x256, .f32⟩
  | 48 => ⟨S1x256x256, .f32⟩
  | 49 => ⟨S256x256, .f32⟩
  | 50 => ⟨S1x256, .f32⟩
  | 51 => ⟨S256, .f32⟩
  | 52 => ⟨S1x256x256, .f32⟩
  | 53 => ⟨S256x256, .f32⟩
  | 54 => ⟨S_, .i32⟩
  | 55 => ⟨S800000, .i32⟩
  | 56 => ⟨S800000, .i1⟩
  | 57 => ⟨S_, .i32⟩
  | 58 => ⟨S800000, .i32⟩
  | 59 => ⟨S800000, .i32⟩
  | 60 => ⟨S800000, .i32⟩
  | 61 => ⟨S800000x1, .i32⟩
  | 62 => ⟨S800000x256, .f32⟩
  | 63 => ⟨S_, .f32⟩
  | 64 => ⟨S50000x256, .f32⟩
  | 65 => ⟨S800000x1, .i32⟩
  | 66 => ⟨S50000x256, .f32⟩
  | 67 => ⟨S_, .f32⟩
  | 68 => ⟨S800000, .f32⟩
  | 69 => ⟨S_, .f32⟩
  | 70 => ⟨S50000, .f32⟩
  | 71 => ⟨S800000x1, .i32⟩
  | 72 => ⟨S50000, .f32⟩
  | 73 => ⟨S_, .f32⟩
  | 74 => ⟨S50000, .f32⟩
  | 75 => ⟨S50000, .f32⟩
  | 76 => ⟨S50000x1, .f32⟩
  | 77 => ⟨S50000x256, .f32⟩
  | 78 => ⟨S50000x256, .f32⟩
  | 79 => ⟨S50000x256, .f32⟩
  | 80 => ⟨S1x256, .f32⟩
  | 81 => ⟨S50000x256, .f32⟩
  | 82 => ⟨S50000x256, .f32⟩
  | 83 => ⟨S50000x256, .f32⟩
  | 84 => ⟨S50000x256, .f32⟩
  | 85 => ⟨S1x256, .f32⟩
  | 86 => ⟨S256, .f32⟩
  | 87 => ⟨S1x256, .f32⟩
  | 88 => ⟨S256, .f32⟩
  | 89 => ⟨S1x256, .f32⟩
  | 90 => ⟨S256, .f32⟩
  | 91 => ⟨S1x256, .f32⟩
  | 92 => ⟨S256, .f32⟩
  | 93 => ⟨S1x256, .f32⟩
  | 94 => ⟨S50000x256, .f32⟩
  | 95 => ⟨S50000x256, .f32⟩
  | 96 => ⟨S_, .f32⟩
  | 97 => ⟨S256, .f32⟩
  | 98 => ⟨S256, .f32⟩
  | 99 => ⟨S256, .f32⟩
  | 100 => ⟨S256, .f32⟩
  | 101 => ⟨S1x256, .f32⟩
  | 102 => ⟨S50000x256, .f32⟩
  | 103 => ⟨S50000x256, .f32⟩
  | 104 => ⟨S1x256, .f32⟩
  | 105 => ⟨S50000x256, .f32⟩
  | 106 => ⟨S50000x256, .f32⟩
  | 107 => ⟨S_, .f32⟩
  | 108 => ⟨S50000x256, .f32⟩
  | 109 => ⟨S50000x256, .f32⟩
  | 110 => ⟨S1x256x256, .f32⟩
  | 111 => ⟨S256x256, .f32⟩
  | 112 => ⟨S1x256, .f32⟩
  | 113 => ⟨S256, .f32⟩
  | 114 => ⟨S1x256x256, .f32⟩
  | 115 => ⟨S256x256, .f32⟩
  | 116 => ⟨S_, .i32⟩
  | 117 => ⟨S800000, .i32⟩
  | 118 => ⟨S800000, .i1⟩
  | 119 => ⟨S_, .i32⟩
  | 120 => ⟨S800000, .i32⟩
  | 121 => ⟨S800000, .i32⟩
  | 122 => ⟨S800000, .i32⟩
  | 123 => ⟨S800000x1, .i32⟩
  | 124 => ⟨S800000x256, .f32⟩
  | 125 => ⟨S_, .f32⟩
  | 126 => ⟨S50000x256, .f32⟩
  | 127 => ⟨S800000x1, .i32⟩
  | _ => ⟨S50000x128, .f32⟩

abbrev hbmTy0_3 (i : Nat) : BufTy := match i % 128 with
  | 0 => ⟨S50000x256, .f32⟩
  | 1 => ⟨S_, .f32⟩
  | 2 => ⟨S800000, .f32⟩
  | 3 => ⟨S_, .f32⟩
  | 4 => ⟨S50000, .f32⟩
  | 5 => ⟨S800000x1, .i32⟩
  | 6 => ⟨S50000, .f32⟩
  | 7 => ⟨S_, .f32⟩
  | 8 => ⟨S50000, .f32⟩
  | 9 => ⟨S50000, .f32⟩
  | 10 => ⟨S50000x1, .f32⟩
  | 11 => ⟨S50000x256, .f32⟩
  | 12 => ⟨S50000x256, .f32⟩
  | 13 => ⟨S50000x256, .f32⟩
  | 14 => ⟨S1x256, .f32⟩
  | 15 => ⟨S50000x256, .f32⟩
  | 16 => ⟨S50000x256, .f32⟩
  | 17 => ⟨S50000x256, .f32⟩
  | 18 => ⟨S50000x256, .f32⟩
  | 19 => ⟨S1x256, .f32⟩
  | 20 => ⟨S256, .f32⟩
  | 21 => ⟨S1x256, .f32⟩
  | 22 => ⟨S256, .f32⟩
  | 23 => ⟨S1x256, .f32⟩
  | 24 => ⟨S256, .f32⟩
  | 25 => ⟨S1x256, .f32⟩
  | 26 => ⟨S256, .f32⟩
  | 27 => ⟨S1x256, .f32⟩
  | 28 => ⟨S50000x256, .f32⟩
  | 29 => ⟨S50000x256, .f32⟩
  | 30 => ⟨S_, .f32⟩
  | 31 => ⟨S256, .f32⟩
  | 32 => ⟨S256, .f32⟩
  | 33 => ⟨S256, .f32⟩
  | 34 => ⟨S256, .f32⟩
  | 35 => ⟨S1x256, .f32⟩
  | 36 => ⟨S50000x256, .f32⟩
  | 37 => ⟨S50000x256, .f32⟩
  | 38 => ⟨S1x256, .f32⟩
  | 39 => ⟨S50000x256, .f32⟩
  | 40 => ⟨S50000x256, .f32⟩
  | 41 => ⟨S_, .f32⟩
  | 42 => ⟨S50000x256, .f32⟩
  | 43 => ⟨S50000x256, .f32⟩
  | 44 => ⟨S50000x256, .f32⟩
  | 45 => ⟨S1x256x256, .f32⟩
  | 46 => ⟨S256x256, .f32⟩
  | 47 => ⟨S50000x256, .f32⟩
  | 48 => ⟨S1x256, .f32⟩
  | 49 => ⟨S256, .f32⟩
  | 50 => ⟨S1x256, .f32⟩
  | 51 => ⟨S50000x256, .f32⟩
  | 52 => ⟨S50000x256, .f32⟩
  | 53 => ⟨S50000x256, .f32⟩
  | 54 => ⟨S50000x256, .f32⟩
  | 55 => ⟨S_, .f32⟩
  | 56 => ⟨S50000x256, .f32⟩
  | 57 => ⟨S50000x256, .f32⟩
  | 58 => ⟨S_, .f32⟩
  | 59 => ⟨S50000x256, .f32⟩
  | 60 => ⟨S50000x256, .f32⟩
  | 61 => ⟨S50000x256, .f32⟩
  | 62 => ⟨S_, .f32⟩
  | 63 => ⟨S50000x256, .f32⟩
  | 64 => ⟨S50000x256, .f32⟩
  | 65 => ⟨S50000x256, .f32⟩
  | 66 => ⟨S50000x256, .f32⟩
  | 67 => ⟨S50000x128, .f32⟩
  | 68 => ⟨S1x128, .f32⟩
  | 69 => ⟨S50000x128, .f32⟩
  | 70 => ⟨S50000x128, .f32⟩
  | 71 => ⟨S_, .f32⟩
  | 72 => ⟨S50000x128, .f32⟩
  | 73 => ⟨S50000x128, .f32⟩
  | 74 => ⟨S50000x40, .f32⟩
  | 75 => ⟨S1x40, .f32⟩
  | 76 => ⟨S50000x40, .f32⟩
  | 77 => ⟨S50000x40, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_c : Ref sig .tc := ⟨.hbm, 38, rfl⟩
abbrev main_v14 : Ref sig .tc := ⟨.hbm, 39, rfl⟩
abbrev main_v15 : Ref sig .tc := ⟨.hbm, 40, rfl⟩
abbrev main_c_0 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_cst : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_cst_1 : Ref sig .tc := ⟨.hbm, 51, rfl⟩
abbrev main_v24 : Ref sig .tc := ⟨.hbm, 52, rfl⟩
abbrev main_cst_2 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_cst_3 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_4 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_call0_cst : Ref sig .tc := ⟨.hbm, 91, rfl⟩
abbrev main_call0_v0 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_c_5 : Ref sig .tc := ⟨.hbm, 100, rfl⟩
abbrev main_v67 : Ref sig .tc := ⟨.hbm, 101, rfl⟩
abbrev main_v68 : Ref sig .tc := ⟨.hbm, 102, rfl⟩
abbrev main_c_6 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_cst_7 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_cst_8 : Ref sig .tc := ⟨.hbm, 113, rfl⟩
abbrev main_v77 : Ref sig .tc := ⟨.hbm, 114, rfl⟩
abbrev main_cst_9 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_cst_10 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_cst_11 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_call1_cst : Ref sig .tc := ⟨.hbm, 153, rfl⟩
abbrev main_call1_v0 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_c_12 : Ref sig .tc := ⟨.hbm, 163, rfl⟩
abbrev main_v121 : Ref sig .tc := ⟨.hbm, 164, rfl⟩
abbrev main_v122 : Ref sig .tc := ⟨.hbm, 165, rfl⟩
abbrev main_c_13 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_cst_14 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_cst_15 : Ref sig .tc := ⟨.hbm, 176, rfl⟩
abbrev main_v131 : Ref sig .tc := ⟨.hbm, 177, rfl⟩
abbrev main_cst_16 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_cst_17 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_cst_18 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_call2_cst : Ref sig .tc := ⟨.hbm, 216, rfl⟩
abbrev main_call2_v0 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_c_19 : Ref sig .tc := ⟨.hbm, 225, rfl⟩
abbrev main_v174 : Ref sig .tc := ⟨.hbm, 226, rfl⟩
abbrev main_v175 : Ref sig .tc := ⟨.hbm, 227, rfl⟩
abbrev main_c_20 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_v179 : Ref sig .tc := ⟨.hbm, 232, rfl⟩
abbrev main_v180 : Ref sig .tc := ⟨.hbm, 233, rfl⟩
abbrev main_cst_21 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_cst_22 : Ref sig .tc := ⟨.hbm, 238, rfl⟩
abbrev main_v184 : Ref sig .tc := ⟨.hbm, 239, rfl⟩
abbrev main_cst_23 : Ref sig .tc := ⟨.hbm, 240, rfl⟩
abbrev main_v185 : Ref sig .tc := ⟨.hbm, 241, rfl⟩
abbrev main_v186 : Ref sig .tc := ⟨.hbm, 242, rfl⟩
abbrev main_v187 : Ref sig .tc := ⟨.hbm, 243, rfl⟩
abbrev main_cst_24 : Ref sig .tc := ⟨.hbm, 244, rfl⟩
abbrev main_v188 : Ref sig .tc := ⟨.hbm, 245, rfl⟩
abbrev main_v189 : Ref sig .tc := ⟨.hbm, 246, rfl⟩
abbrev main_v190 : Ref sig .tc := ⟨.hbm, 247, rfl⟩
abbrev main_v191 : Ref sig .tc := ⟨.hbm, 248, rfl⟩
abbrev main_v192 : Ref sig .tc := ⟨.hbm, 249, rfl⟩
abbrev main_v193 : Ref sig .tc := ⟨.hbm, 250, rfl⟩
abbrev main_v194 : Ref sig .tc := ⟨.hbm, 251, rfl⟩
abbrev main_v195 : Ref sig .tc := ⟨.hbm, 252, rfl⟩
abbrev main_v196 : Ref sig .tc := ⟨.hbm, 253, rfl⟩
abbrev main_v197 : Ref sig .tc := ⟨.hbm, 254, rfl⟩
abbrev main_v198 : Ref sig .tc := ⟨.hbm, 255, rfl⟩
abbrev main_v199 : Ref sig .tc := ⟨.hbm, 256, rfl⟩
abbrev main_v200 : Ref sig .tc := ⟨.hbm, 257, rfl⟩
abbrev main_v201 : Ref sig .tc := ⟨.hbm, 258, rfl⟩
abbrev main_v202 : Ref sig .tc := ⟨.hbm, 259, rfl⟩
abbrev main_v203 : Ref sig .tc := ⟨.hbm, 260, rfl⟩
abbrev main_v204 : Ref sig .tc := ⟨.hbm, 261, rfl⟩
abbrev main_v205 : Ref sig .tc := ⟨.hbm, 262, rfl⟩
abbrev main_v206 : Ref sig .tc := ⟨.hbm, 263, rfl⟩
abbrev main_v207 : Ref sig .tc := ⟨.hbm, 264, rfl⟩
abbrev main_v208 : Ref sig .tc := ⟨.hbm, 265, rfl⟩
abbrev main_v209 : Ref sig .tc := ⟨.hbm, 266, rfl⟩
abbrev main_cst_25 : Ref sig .tc := ⟨.hbm, 267, rfl⟩
abbrev main_v210 : Ref sig .tc := ⟨.hbm, 268, rfl⟩
abbrev main_v211 : Ref sig .tc := ⟨.hbm, 269, rfl⟩
abbrev main_v212 : Ref sig .tc := ⟨.hbm, 270, rfl⟩
abbrev main_v213 : Ref sig .tc := ⟨.hbm, 271, rfl⟩
abbrev main_v214 : Ref sig .tc := ⟨.hbm, 272, rfl⟩
abbrev main_v215 : Ref sig .tc := ⟨.hbm, 273, rfl⟩
abbrev main_v216 : Ref sig .tc := ⟨.hbm, 274, rfl⟩
abbrev main_v217 : Ref sig .tc := ⟨.hbm, 275, rfl⟩
abbrev main_v218 : Ref sig .tc := ⟨.hbm, 276, rfl⟩
abbrev main_v219 : Ref sig .tc := ⟨.hbm, 277, rfl⟩
abbrev main_call3_cst : Ref sig .tc := ⟨.hbm, 278, rfl⟩
abbrev main_call3_v0 : Ref sig .tc := ⟨.hbm, 279, rfl⟩
abbrev main_v220 : Ref sig .tc := ⟨.hbm, 280, rfl⟩
abbrev main_v221 : Ref sig .tc := ⟨.hbm, 281, rfl⟩
abbrev main_v222 : Ref sig .tc := ⟨.hbm, 282, rfl⟩
abbrev main_v223 : Ref sig .tc := ⟨.hbm, 283, rfl⟩
abbrev main_v224 : Ref sig .tc := ⟨.hbm, 284, rfl⟩
abbrev main_v225 : Ref sig .tc := ⟨.hbm, 285, rfl⟩
abbrev main_v226 : Ref sig .tc := ⟨.hbm, 286, rfl⟩
abbrev main_v227 : Ref sig .tc := ⟨.hbm, 287, rfl⟩
abbrev main_v228 : Ref sig .tc := ⟨.hbm, 288, rfl⟩
abbrev main_v229 : Ref sig .tc := ⟨.hbm, 289, rfl⟩
abbrev main_v230 : Ref sig .tc := ⟨.hbm, 290, rfl⟩
abbrev main_v231 : Ref sig .tc := ⟨.hbm, 291, rfl⟩
abbrev main_cst_26 : Ref sig .tc := ⟨.hbm, 292, rfl⟩
abbrev main_v232 : Ref sig .tc := ⟨.hbm, 293, rfl⟩
abbrev main_v233 : Ref sig .tc := ⟨.hbm, 294, rfl⟩
abbrev main_cst_27 : Ref sig .tc := ⟨.hbm, 295, rfl⟩
abbrev main_v234 : Ref sig .tc := ⟨.hbm, 296, rfl⟩
abbrev main_v235 : Ref sig .tc := ⟨.hbm, 297, rfl⟩
abbrev main_v236 : Ref sig .tc := ⟨.hbm, 298, rfl⟩
abbrev main_cst_28 : Ref sig .tc := ⟨.hbm, 299, rfl⟩
abbrev main_v237 : Ref sig .tc := ⟨.hbm, 300, rfl⟩
abbrev main_v238 : Ref sig .tc := ⟨.hbm, 301, rfl⟩
abbrev main_v239 : Ref sig .tc := ⟨.hbm, 302, rfl⟩
abbrev main_v240 : Ref sig .tc := ⟨.hbm, 303, rfl⟩
abbrev main_v241 : Ref sig .tc := ⟨.hbm, 304, rfl⟩
abbrev main_v242 : Ref sig .tc := ⟨.hbm, 305, rfl⟩
abbrev main_v243 : Ref sig .tc := ⟨.hbm, 306, rfl⟩
abbrev main_v244 : Ref sig .tc := ⟨.hbm, 307, rfl⟩
abbrev main_v245 : Ref sig .tc := ⟨.hbm, 308, rfl⟩
abbrev main_v246 : Ref sig .tc := ⟨.hbm, 309, rfl⟩
abbrev main_c_29 : Ref sig .tc := ⟨.hbm, 310, rfl⟩
abbrev main_v247 : Ref sig .tc := ⟨.hbm, 311, rfl⟩
abbrev main_v248 : Ref sig .tc := ⟨.hbm, 312, rfl⟩
abbrev main_c_30 : Ref sig .tc := ⟨.hbm, 313, rfl⟩
abbrev main_v249 : Ref sig .tc := ⟨.hbm, 314, rfl⟩
abbrev main_v250 : Ref sig .tc := ⟨.hbm, 315, rfl⟩
abbrev main_v251 : Ref sig .tc := ⟨.hbm, 316, rfl⟩
abbrev main_v252 : Ref sig .tc := ⟨.hbm, 317, rfl⟩
abbrev main_v253 : Ref sig .tc := ⟨.hbm, 318, rfl⟩
abbrev main_cst_31 : Ref sig .tc := ⟨.hbm, 319, rfl⟩
abbrev main_v254 : Ref sig .tc := ⟨.hbm, 320, rfl⟩
abbrev main_v255 : Ref sig .tc := ⟨.hbm, 321, rfl⟩
abbrev main_v256 : Ref sig .tc := ⟨.hbm, 322, rfl⟩
abbrev main_cst_32 : Ref sig .tc := ⟨.hbm, 323, rfl⟩
abbrev main_v257 : Ref sig .tc := ⟨.hbm, 324, rfl⟩
abbrev main_cst_33 : Ref sig .tc := ⟨.hbm, 325, rfl⟩
abbrev main_v258 : Ref sig .tc := ⟨.hbm, 326, rfl⟩
abbrev main_v259 : Ref sig .tc := ⟨.hbm, 327, rfl⟩
abbrev main_v260 : Ref sig .tc := ⟨.hbm, 328, rfl⟩
abbrev main_cst_34 : Ref sig .tc := ⟨.hbm, 329, rfl⟩
abbrev main_v261 : Ref sig .tc := ⟨.hbm, 330, rfl⟩
abbrev main_v262 : Ref sig .tc := ⟨.hbm, 331, rfl⟩
abbrev main_v263 : Ref sig .tc := ⟨.hbm, 332, rfl⟩
abbrev main_v264 : Ref sig .tc := ⟨.hbm, 333, rfl⟩
abbrev main_v265 : Ref sig .tc := ⟨.hbm, 334, rfl⟩
abbrev main_v266 : Ref sig .tc := ⟨.hbm, 335, rfl⟩
abbrev main_v267 : Ref sig .tc := ⟨.hbm, 336, rfl⟩
abbrev main_v268 : Ref sig .tc := ⟨.hbm, 337, rfl⟩
abbrev main_v269 : Ref sig .tc := ⟨.hbm, 338, rfl⟩
abbrev main_v270 : Ref sig .tc := ⟨.hbm, 339, rfl⟩
abbrev main_v271 : Ref sig .tc := ⟨.hbm, 340, rfl⟩
abbrev main_v272 : Ref sig .tc := ⟨.hbm, 341, rfl⟩
abbrev main_v273 : Ref sig .tc := ⟨.hbm, 342, rfl⟩
abbrev main_v274 : Ref sig .tc := ⟨.hbm, 343, rfl⟩
abbrev main_v275 : Ref sig .tc := ⟨.hbm, 344, rfl⟩
abbrev main_v276 : Ref sig .tc := ⟨.hbm, 345, rfl⟩
abbrev main_v277 : Ref sig .tc := ⟨.hbm, 346, rfl⟩
abbrev main_v278 : Ref sig .tc := ⟨.hbm, 347, rfl⟩
abbrev main_v279 : Ref sig .tc := ⟨.hbm, 348, rfl⟩
abbrev main_v280 : Ref sig .tc := ⟨.hbm, 349, rfl⟩
abbrev main_v281 : Ref sig .tc := ⟨.hbm, 350, rfl⟩
abbrev main_v282 : Ref sig .tc := ⟨.hbm, 351, rfl⟩
abbrev main_cst_35 : Ref sig .tc := ⟨.hbm, 352, rfl⟩
abbrev main_v283 : Ref sig .tc := ⟨.hbm, 353, rfl⟩
abbrev main_v284 : Ref sig .tc := ⟨.hbm, 354, rfl⟩
abbrev main_v285 : Ref sig .tc := ⟨.hbm, 355, rfl⟩
abbrev main_v286 : Ref sig .tc := ⟨.hbm, 356, rfl⟩
abbrev main_v287 : Ref sig .tc := ⟨.hbm, 357, rfl⟩
abbrev main_v288 : Ref sig .tc := ⟨.hbm, 358, rfl⟩
abbrev main_v289 : Ref sig .tc := ⟨.hbm, 359, rfl⟩
abbrev main_v290 : Ref sig .tc := ⟨.hbm, 360, rfl⟩
abbrev main_v291 : Ref sig .tc := ⟨.hbm, 361, rfl⟩
abbrev main_v292 : Ref sig .tc := ⟨.hbm, 362, rfl⟩
abbrev main_call4_cst : Ref sig .tc := ⟨.hbm, 363, rfl⟩
abbrev main_call4_v0 : Ref sig .tc := ⟨.hbm, 364, rfl⟩
abbrev main_v293 : Ref sig .tc := ⟨.hbm, 365, rfl⟩
abbrev main_v294 : Ref sig .tc := ⟨.hbm, 366, rfl⟩
abbrev main_v295 : Ref sig .tc := ⟨.hbm, 367, rfl⟩
abbrev main_v296 : Ref sig .tc := ⟨.hbm, 368, rfl⟩
abbrev main_v297 : Ref sig .tc := ⟨.hbm, 369, rfl⟩
abbrev main_v298 : Ref sig .tc := ⟨.hbm, 370, rfl⟩
abbrev main_v299 : Ref sig .tc := ⟨.hbm, 371, rfl⟩
abbrev main_c_36 : Ref sig .tc := ⟨.hbm, 372, rfl⟩
abbrev main_v300 : Ref sig .tc := ⟨.hbm, 373, rfl⟩
abbrev main_v301 : Ref sig .tc := ⟨.hbm, 374, rfl⟩
abbrev main_c_37 : Ref sig .tc := ⟨.hbm, 375, rfl⟩
abbrev main_v302 : Ref sig .tc := ⟨.hbm, 376, rfl⟩
abbrev main_v303 : Ref sig .tc := ⟨.hbm, 377, rfl⟩
abbrev main_v304 : Ref sig .tc := ⟨.hbm, 378, rfl⟩
abbrev main_v305 : Ref sig .tc := ⟨.hbm, 379, rfl⟩
abbrev main_v306 : Ref sig .tc := ⟨.hbm, 380, rfl⟩
abbrev main_cst_38 : Ref sig .tc := ⟨.hbm, 381, rfl⟩
abbrev main_v307 : Ref sig .tc := ⟨.hbm, 382, rfl⟩
abbrev main_v308 : Ref sig .tc := ⟨.hbm, 383, rfl⟩
abbrev main_v309 : Ref sig .tc := ⟨.hbm, 384, rfl⟩
abbrev main_cst_39 : Ref sig .tc := ⟨.hbm, 385, rfl⟩
abbrev main_v310 : Ref sig .tc := ⟨.hbm, 386, rfl⟩
abbrev main_cst_40 : Ref sig .tc := ⟨.hbm, 387, rfl⟩
abbrev main_v311 : Ref sig .tc := ⟨.hbm, 388, rfl⟩
abbrev main_v312 : Ref sig .tc := ⟨.hbm, 389, rfl⟩
abbrev main_v313 : Ref sig .tc := ⟨.hbm, 390, rfl⟩
abbrev main_cst_41 : Ref sig .tc := ⟨.hbm, 391, rfl⟩
abbrev main_v314 : Ref sig .tc := ⟨.hbm, 392, rfl⟩
abbrev main_v315 : Ref sig .tc := ⟨.hbm, 393, rfl⟩
abbrev main_v316 : Ref sig .tc := ⟨.hbm, 394, rfl⟩
abbrev main_v317 : Ref sig .tc := ⟨.hbm, 395, rfl⟩
abbrev main_v318 : Ref sig .tc := ⟨.hbm, 396, rfl⟩
abbrev main_v319 : Ref sig .tc := ⟨.hbm, 397, rfl⟩
abbrev main_v320 : Ref sig .tc := ⟨.hbm, 398, rfl⟩
abbrev main_v321 : Ref sig .tc := ⟨.hbm, 399, rfl⟩
abbrev main_v322 : Ref sig .tc := ⟨.hbm, 400, rfl⟩
abbrev main_v323 : Ref sig .tc := ⟨.hbm, 401, rfl⟩
abbrev main_v324 : Ref sig .tc := ⟨.hbm, 402, rfl⟩
abbrev main_v325 : Ref sig .tc := ⟨.hbm, 403, rfl⟩
abbrev main_v326 : Ref sig .tc := ⟨.hbm, 404, rfl⟩
abbrev main_v327 : Ref sig .tc := ⟨.hbm, 405, rfl⟩
abbrev main_v328 : Ref sig .tc := ⟨.hbm, 406, rfl⟩
abbrev main_v329 : Ref sig .tc := ⟨.hbm, 407, rfl⟩
abbrev main_v330 : Ref sig .tc := ⟨.hbm, 408, rfl⟩
abbrev main_v331 : Ref sig .tc := ⟨.hbm, 409, rfl⟩
abbrev main_v332 : Ref sig .tc := ⟨.hbm, 410, rfl⟩
abbrev main_v333 : Ref sig .tc := ⟨.hbm, 411, rfl⟩
abbrev main_v334 : Ref sig .tc := ⟨.hbm, 412, rfl⟩
abbrev main_v335 : Ref sig .tc := ⟨.hbm, 413, rfl⟩
abbrev main_cst_42 : Ref sig .tc := ⟨.hbm, 414, rfl⟩
abbrev main_v336 : Ref sig .tc := ⟨.hbm, 415, rfl⟩
abbrev main_v337 : Ref sig .tc := ⟨.hbm, 416, rfl⟩
abbrev main_v338 : Ref sig .tc := ⟨.hbm, 417, rfl⟩
abbrev main_v339 : Ref sig .tc := ⟨.hbm, 418, rfl⟩
abbrev main_v340 : Ref sig .tc := ⟨.hbm, 419, rfl⟩
abbrev main_v341 : Ref sig .tc := ⟨.hbm, 420, rfl⟩
abbrev main_v342 : Ref sig .tc := ⟨.hbm, 421, rfl⟩
abbrev main_v343 : Ref sig .tc := ⟨.hbm, 422, rfl⟩
abbrev main_v344 : Ref sig .tc := ⟨.hbm, 423, rfl⟩
abbrev main_v345 : Ref sig .tc := ⟨.hbm, 424, rfl⟩
abbrev main_call5_cst : Ref sig .tc := ⟨.hbm, 425, rfl⟩
abbrev main_call5_v0 : Ref sig .tc := ⟨.hbm, 426, rfl⟩
abbrev main_v346 : Ref sig .tc := ⟨.hbm, 427, rfl⟩
abbrev main_v347 : Ref sig .tc := ⟨.hbm, 428, rfl⟩
abbrev main_v348 : Ref sig .tc := ⟨.hbm, 429, rfl⟩
abbrev main_v349 : Ref sig .tc := ⟨.hbm, 430, rfl⟩
abbrev main_v350 : Ref sig .tc := ⟨.hbm, 431, rfl⟩
abbrev main_v351 : Ref sig .tc := ⟨.hbm, 432, rfl⟩
abbrev main_v352 : Ref sig .tc := ⟨.hbm, 433, rfl⟩
abbrev main_v353 : Ref sig .tc := ⟨.hbm, 434, rfl⟩
abbrev main_v354 : Ref sig .tc := ⟨.hbm, 435, rfl⟩
abbrev main_v355 : Ref sig .tc := ⟨.hbm, 436, rfl⟩
abbrev main_v356 : Ref sig .tc := ⟨.hbm, 437, rfl⟩
abbrev main_v357 : Ref sig .tc := ⟨.hbm, 438, rfl⟩
abbrev main_cst_43 : Ref sig .tc := ⟨.hbm, 439, rfl⟩
abbrev main_v358 : Ref sig .tc := ⟨.hbm, 440, rfl⟩
abbrev main_v359 : Ref sig .tc := ⟨.hbm, 441, rfl⟩
abbrev main_cst_44 : Ref sig .tc := ⟨.hbm, 442, rfl⟩
abbrev main_v360 : Ref sig .tc := ⟨.hbm, 443, rfl⟩
abbrev main_v361 : Ref sig .tc := ⟨.hbm, 444, rfl⟩
abbrev main_v362 : Ref sig .tc := ⟨.hbm, 445, rfl⟩
abbrev main_cst_45 : Ref sig .tc := ⟨.hbm, 446, rfl⟩
abbrev main_v363 : Ref sig .tc := ⟨.hbm, 447, rfl⟩
abbrev main_v364 : Ref sig .tc := ⟨.hbm, 448, rfl⟩
abbrev main_v365 : Ref sig .tc := ⟨.hbm, 449, rfl⟩
abbrev main_v366 : Ref sig .tc := ⟨.hbm, 450, rfl⟩
abbrev main_v367 : Ref sig .tc := ⟨.hbm, 451, rfl⟩
abbrev main_v368 : Ref sig .tc := ⟨.hbm, 452, rfl⟩
abbrev main_v369 : Ref sig .tc := ⟨.hbm, 453, rfl⟩
abbrev main_v370 : Ref sig .tc := ⟨.hbm, 454, rfl⟩
abbrev main_call6_cst : Ref sig .tc := ⟨.hbm, 455, rfl⟩
abbrev main_call6_v0 : Ref sig .tc := ⟨.hbm, 456, rfl⟩
abbrev main_v371 : Ref sig .tc := ⟨.hbm, 457, rfl⟩
abbrev main_v372 : Ref sig .tc := ⟨.hbm, 458, rfl⟩
abbrev main_v373 : Ref sig .tc := ⟨.hbm, 459, rfl⟩
abbrev main_v374 : Ref sig .tc := ⟨.hbm, 460, rfl⟩
abbrev main_v375 : Ref sig .tc := ⟨.hbm, 461, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  slices_S3x256x256_S1x256x256_0_0_0 : S3x256x256.Slices ![0, 0, 0] S1x256x256
  shapeCasts_S1x256x256_S256x256 : S1x256x256.ShapeCasts S256x256
  slices_S3x256_S1x256_0_0 : S3x256.Slices ![0, 0] S1x256
  shapeCasts_S1x256_S256 : S1x256.ShapeCasts S256
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S_S256 : S_.BroadcastsInDim S256 (![] : Fin 0 → Fin S256.rank)
  slices_S3x256x256_S1x256x256_1_0_0 : S3x256x256.Slices ![1, 0, 0] S1x256x256
  slices_S3x256_S1x256_1_0 : S3x256.Slices ![1, 0] S1x256
  slices_S2x256x256_S1x256x256_0_0_0 : S2x256x256.Slices ![0, 0, 0] S1x256x256
  slices_S2x256_S1x256_0_0 : S2x256.Slices ![0, 0] S1x256
  slices_S3x256x256_S1x256x256_2_0_0 : S3x256x256.Slices ![2, 0, 0] S1x256x256
  slices_S3x256_S1x256_2_0 : S3x256.Slices ![2, 0] S1x256
  slices_S2x256x256_S1x256x256_1_0_0 : S2x256x256.Slices ![1, 0, 0] S1x256x256
  slices_S2x256_S1x256_1_0 : S2x256.Slices ![1, 0] S1x256
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S50000_S800000x1_S800000_n_0_0_1_wf : ScatterDims.WF S50000 S800000x1 S800000 [] [0] [0] 1
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []
  dot_S50000x128_S128x40_S50000x40_1_0_0_1_n_n_wf : DotDims.WF S50000x128 S128x40 S50000x40 [1] [0] [0] [1] [] []

variable [Facts₀]

def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf

class Facts : Prop extends Facts₀ where

variable [Facts]
-- ==== Proof.Keep.lean ====
import proofs.«421284_j80985903333882_3_alg».proof.Proof.Gen.KernelIdeal.Frame

/-! # A buffer a segment does not write keeps its contents

@main's buffer contents are a fold through its 16 segments (W0 … W16). A stretch of host operations rewrites
exactly the result references of its operations; a region rewrites exactly its output arrays (an input
window's array is never written back, a reference that is no window's array is not touched at all). So at
every reference outside those short lists one boundary's contents equal the previous boundary's: the hop
lemmas below, one per segment. -/

noncomputable section

namespace Cert.KernelIdeal.Keep

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ) (ρ : Dev nD → PrngReg)

/-! ## The host stretches -/

/-- the references stretch 0 writes (the result reference of each of its operations, in order) -/
noncomputable def wr0 : List (Ref sig .tc) := [main_v0, main_v1, main_v2, main_v3, main_cst, main_v4, main_cst_0, main_v5, main_v6, main_v7, main_cst_1, main_v8, main_v9, main_cst_2, main_v10, main_v11, main_v12, main_cst_3, main_v13, main_v14, main_v15, main_v16, main_cst_4, main_v17, main_v18, main_v19, main_v20, main_v21]
/-- the references stretch 1 writes -/
noncomputable def wr1 : List (Ref sig .tc) := [main_c, main_v23, main_v24, main_c_5, main_v25, main_v26, main_v27, main_v28, main_v29, main_v30, main_cst_6, main_v31, main_v32, main_v33, main_v34, main_v35, main_v36, main_v37, main_v38, main_v39, main_v40, main_v41, main_v42, main_v43, main_v44, main_v45, main_v46, main_v47, main_v48, main_v49]
/-- the references stretch 2 writes -/
noncomputable def wr2 : List (Ref sig .tc) := [main_c_7, main_v51, main_v52, main_c_8, main_v53, main_v54, main_v55, main_v56, main_v57, main_v58, main_cst_9, main_v59, main_v60, main_v61, main_v62, main_v63, main_v64, main_v65, main_v66, main_v67, main_v68, main_v69, main_v70, main_v71, main_v72, main_v73, main_v74, main_v75, main_v76, main_v77]
/-- the references stretch 3 writes -/
noncomputable def wr3 : List (Ref sig .tc) := [main_c_10, main_v79, main_v80, main_c_11, main_v81, main_v82, main_v83, main_v84, main_v85, main_v86, main_cst_12, main_v87, main_v88, main_v89, main_v90, main_v91, main_v92, main_v93, main_v94, main_v95, main_v96, main_v97, main_v98, main_v99, main_v100, main_v101, main_v102, main_v103, main_v104, main_v105]
/-- the references stretch 4 writes -/
noncomputable def wr4 : List (Ref sig .tc) := [main_c_13, main_v107, main_v108, main_c_14, main_v109, main_v110, main_v111, main_v112, main_v113, main_v114, main_cst_15, main_v115, main_v116, main_v117, main_v118, main_v119, main_v120, main_v121, main_v122, main_v123, main_v124, main_v125, main_v126, main_v127, main_v128, main_v129, main_v130, main_v131, main_v132, main_v133, main_v134, main_v135, main_v136, main_v137, main_v138]
/-- the references stretch 5 writes -/
noncomputable def wr5 : List (Ref sig .tc) := [main_c_16, main_v140, main_v141, main_c_17, main_v142, main_v143, main_v144, main_v145, main_v146, main_v147, main_cst_18, main_v148, main_v149, main_v150, main_v151, main_v152, main_v153, main_v154, main_v155, main_v156, main_v157, main_v158, main_v159, main_v160, main_v161, main_v162, main_v163, main_v164, main_v165, main_v166]
/-- the references stretch 6 writes -/
noncomputable def wr6 : List (Ref sig .tc) := [main_c_19, main_v168, main_v169, main_c_20, main_v170, main_v171, main_v172, main_v173, main_v174, main_v175, main_cst_21, main_v176, main_v177, main_v178, main_v179, main_v180, main_v181, main_v182, main_v183, main_v184, main_v185, main_v186, main_v187, main_v188, main_v189, main_v190, main_v191, main_v192, main_v193, main_v194, main_v195, main_v196, main_v197, main_v198, main_v199]
/-- the references stretch 7 writes -/
noncomputable def wr7 : List (Ref sig .tc) := [main_v201, main_v202]

/-- A reference stretch 0 does not write keeps its contents: each operation writes its result reference only,
    and that reference is on the list while `b` is not. -/
theorem keep0 (W : Valuation τ sig (Elt F)) (b : Ref sig .tc) (hb : b ∉ wr0) :
    StableHlo.after (hostOps0 (F := F)) W (Proc.devRef .tc b) = W (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by rintro rfl; exact hb (by decide))))

theorem keep1 (W : Valuation τ sig (Elt F)) (b : Ref sig .tc) (hb : b ∉ wr1) :
    StableHlo.after (hostOps1 (F := F)) W (Proc.devRef .tc b) = W (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (by rintro rfl; exact hb (by decide))))

theorem keep2 (W : Valuation τ sig (Elt F)) (b : Ref sig .tc) (hb : b ∉ wr2) :
    StableHlo.after (hostOps2 (F := F)) W (Proc.devRef .tc b) = W (Proc.devRef .tc b) :=
  StableHlo.after_of_forall_not_mem (b := Proc.devRef .tc b) _ _ (List.forall_iff_forall_mem.mp (by
    simp only [hostOps2, List.Forall, StableHlo.nullary_writes, StableHlo.unary_writes, StableHlo.binary_writes,
      StableHlo.ternary_writes, StableHlo.reshape_writes, Finset.mem_singleton]
    repeat' apply And.intro
    all_goals exact StableHlo.devRef_ne_of_ne (by rintro rfl; exact hb (by decide))))

theorem keep3 (W : Valuation τ sig (Elt F)) (b : Ref sig .tc) (hb : b ∉ wr3) :
    StableHlo.after (hostOps3 (F := F)) W (Proc.devRef .tc b) = W (Proc.devRef .tc b) :=
  StableHlo.after_of_forall_not_mem (b := Proc.devRef .tc b) _ _ (List.forall_iff_forall_mem.mp (by
    simp only [hostOps3, List.Forall, StableHlo.nullary_writes, StableHlo.unary_writes, StableHlo.binary_writes,
      StableHlo.ternary_writes, StableHlo.reshape_writes, Finset.mem_singleton]
    repeat' apply And.intro
    all_goals exact StableHlo.devRef_ne_of_ne (by rintro rfl; exact hb (by decide))))

theorem keep4 (W : Valuation τ sig (Elt F)) (b : Ref sig .tc) (hb : b ∉ wr4) :
    StableHlo.after (hostOps4 (F := F)) W (Proc.devRef .tc b) = W (Proc.devRef .tc b) :=
  StableHlo.after_of_forall_not_mem (b := Proc.devRef .tc b) _ _ (List.forall_iff_forall_mem.mp (by
    simp only [hostOps4, List.Forall, StableHlo.nullary_writes, StableHlo.unary_writes, StableHlo.binary_writes,
      StableHlo.ternary_writes, StableHlo.reshape_writes, Finset.mem_singleton]
    repeat' apply And.intro
    all_goals exact StableHlo.devRef_ne_of_ne (by rintro rfl; exact hb (by decide))))

theorem keep5 (W : Valuation τ sig (Elt F)) (b : Ref sig .tc) (hb : b ∉ wr5) :
    StableHlo.after (hostOps5 (F := F)) W (Proc.devRef .tc b) = W (Proc.devRef .tc b) :=
  StableHlo.after_of_forall_not_mem (b := Proc.devRef .tc b) _ _ (List.forall_iff_forall_mem.mp (by
    simp only [hostOps5, List.Forall, StableHlo.nullary_writes, StableHlo.unary_writes, StableHlo.binary_writes,
      StableHlo.ternary_writes, StableHlo.reshape_writes, Finset.mem_singleton]
    repeat' apply And.intro
    all_goals exact StableHlo.devRef_ne_of_ne (by rintro rfl; exact hb (by decide))))

theorem keep6 (W : Valuation τ sig (Elt F)) (b : Ref sig .tc) (hb : b ∉ wr6) :
    StableHlo.after (hostOps6 (F := F)) W (Proc.devRef .tc b) = W (Proc.devRef .tc b) :=
  StableHlo.after_of_forall_not_mem (b := Proc.devRef .tc b) _ _ (List.forall_iff_forall_mem.mp (by
    simp only [hostOps6, List.Forall, StableHlo.nullary_writes, StableHlo.unary_writes, StableHlo.binary_writes,
      StableHlo.ternary_writes, StableHlo.reshape_writes, Finset.mem_singleton]
    repeat' apply And.intro
    all_goals exact StableHlo.devRef_ne_of_ne (by rintro rfl; exact hb (by decide))))

theorem keep7 (W : Valuation τ sig (Elt F)) (b : Ref sig .tc) (hb : b ∉ wr7) :
    StableHlo.after (hostOps7 (F := F)) W (Proc.devRef .tc b) = W (Proc.devRef .tc b) :=
  StableHlo.after_of_forall_not_mem (b := Proc.devRef .tc b) _ _ (List.forall_iff_forall_mem.mp (by
    simp only [hostOps7, List.Forall, StableHlo.nullary_writes, StableHlo.unary_writes, StableHlo.binary_writes,
      StableHlo.ternary_writes, StableHlo.reshape_writes, Finset.mem_singleton]
    repeat' apply And.intro
    all_goals exact StableHlo.devRef_ne_of_ne (by rintro rfl; exact hb (by decide))))

/-! ## The regions -/

/-- the two output arrays of region 0 -/
noncomputable def outs0 : List (Ref sig .tc) := [main_v22_0, main_v22_1]
/-- the two output arrays of region 1 -/
noncomputable def outs1 : List (Ref sig .tc) := [main_v50_0, main_v50_1]
/-- the two output arrays of region 2 -/
noncomputable def outs2 : List (Ref sig .tc) := [main_v78_0, main_v78_1]
/-- the two output arrays of region 3 -/
noncomputable def outs3 : List (Ref sig .tc) := [main_v106_0, main_v106_1]
/-- the two output arrays of region 4 -/
noncomputable def outs4 : List (Ref sig .tc) := [main_v139_0, main_v139_1]
/-- the two output arrays of region 5 -/
noncomputable def outs5 : List (Ref sig .tc) := [main_v167_0, main_v167_1]
/-- the two output arrays of region 6 -/
noncomputable def outs6 : List (Ref sig .tc) := [main_v200_0, main_v200_1]
/-- the output array of region 7 -/
noncomputable def outs7 : List (Ref sig .tc) := [main_v203]

/-- A window of region 0 whose array is not one of the outputs is an input window (checked window by window). -/
theorem in0 : ∀ w : Fin cfg0.W, Pipeline.arrRef spec0 w ∉ outs0 → (cfg0.win w).isOut = false := by decide
theorem in1 : ∀ w : Fin cfg1.W, Pipeline.arrRef spec1 w ∉ outs1 → (cfg1.win w).isOut = false := by decide
theorem in2 : ∀ w : Fin cfg2.W, Pipeline.arrRef spec2 w ∉ outs2 → (cfg2.win w).isOut = false := by decide
theorem in3 : ∀ w : Fin cfg3.W, Pipeline.arrRef spec3 w ∉ outs3 → (cfg3.win w).isOut = false := by decide
theorem in4 : ∀ w : Fin cfg4.W, Pipeline.arrRef spec4 w ∉ outs4 → (cfg4.win w).isOut = false := by decide
theorem in5 : ∀ w : Fin cfg5.W, Pipeline.arrRef spec5 w ∉ outs5 → (cfg5.win w).isOut = false := by decide
theorem in6 : ∀ w : Fin cfg6.W, Pipeline.arrRef spec6 w ∉ outs6 → (cfg6.win w).isOut = false := by decide
theorem in7 : ∀ w : Fin cfg7.W, Pipeline.arrRef spec7 w ∉ outs7 → (cfg7.win w).isOut = false := by decide

/-- Region 0 leaves every reference but its two outputs as it found it: an input window's array is never written
    back (its contents after all the points are its entry contents), and a reference that is no window's array
    is outside the region's footprint. -/
theorem hopR0 (c : Dev nD) (b : Ref sig .tc) (hb : b ∉ outs0) :
    W2 m ρ c (Proc.devRef .tc b) = W1 m ρ c (Proc.devRef .tc b) := by
  by_cases h : ∃ w, Pipeline.arrRef spec0 w = b
  · obtain ⟨w, rfl⟩ := h
    exact (W2_arr m ρ c w).trans (((dat0 (V1 m ρ) c).arrAt_in w (in0 w hb) _).trans (A_eq0 (V1 m ρ) c w))
  · exact W2_of_ne m ρ c b fun w e => h ⟨w, e⟩

theorem hopR1 (c : Dev nD) (b : Ref sig .tc) (hb : b ∉ outs1) :
    W4 m ρ c (Proc.devRef .tc b) = W3 m ρ c (Proc.devRef .tc b) := by
  by_cases h : ∃ w, Pipeline.arrRef spec1 w = b
  · obtain ⟨w, rfl⟩ := h
    exact (W4_arr m ρ c w).trans (((dat1 (V3 m ρ) c).arrAt_in w (in1 w hb) _).trans (A_eq1 (V3 m ρ) c w))
  · exact W4_of_ne m ρ c b fun w e => h ⟨w, e⟩

theorem hopR2 (c : Dev nD) (b : Ref sig .tc) (hb : b ∉ outs2) :
    W6 m ρ c (Proc.devRef .tc b) = W5 m ρ c (Proc.devRef .tc b) := by
  by_cases h : ∃ w, Pipeline.arrRef spec2 w = b
  · obtain ⟨w, rfl⟩ := h
    exact (W6_arr m ρ c w).trans (((dat2 (V5 m ρ) c).arrAt_in w (in2 w hb) _).trans (A_eq2 (V5 m ρ) c w))
  · exact W6_of_ne m ρ c b fun w e => h ⟨w, e⟩

theorem hopR3 (c : Dev nD) (b : Ref sig .tc) (hb : b ∉ outs3) :
    W8 m ρ c (Proc.devRef .tc b) = W7 m ρ c (Proc.devRef .tc b) := by
  by_cases h : ∃ w, Pipeline.arrRef spec3 w = b
  · obtain ⟨w, rfl⟩ := h
    exact (W8_arr m ρ c w).trans (((dat3 (V7 m ρ) c).arrAt_in w (in3 w hb) _).trans (A_eq3 (V7 m ρ) c w))
  · exact W8_of_ne m ρ c b fun w e => h ⟨w, e⟩

theorem hopR4 (c : Dev nD) (b : Ref sig .tc) (hb : b ∉ outs4) :
    W10 m ρ c (Proc.devRef .tc b) = W9 m ρ c (Proc.devRef .tc b) := by
  by_cases h : ∃ w, Pipeline.arrRef spec4 w = b
  · obtain ⟨w, rfl⟩ := h
    exact (W10_arr m ρ c w).trans (((dat4 (V9 m ρ) c).arrAt_in w (in4 w hb) _).trans (A_eq4 (V9 m ρ) c w))
  · exact W10_of_ne m ρ c b fun w e => h ⟨w, e⟩

theorem hopR5 (c : Dev nD) (b : Ref sig .tc) (hb : b ∉ outs5) :
    W12 m ρ c (Proc.devRef .tc b) = W11 m ρ c (Proc.devRef .tc b) := by
  by_cases h : ∃ w, Pipeline.arrRef spec5 w = b
  · obtain ⟨w, rfl⟩ := h
    exact (W12_arr m ρ c w).trans (((dat5 (V11 m ρ) c).arrAt_in w (in5 w hb) _).trans (A_eq5 (V11 m ρ) c w))
  · exact W12_of_ne m ρ c b fun w e => h ⟨w, e⟩

theorem hopR6 (c : Dev nD) (b : Ref sig .tc) (hb : b ∉ outs6) :
    W14 m ρ c (Proc.devRef .tc b) = W13 m ρ c (Proc.devRef .tc b) := by
  by_cases h : ∃ w, Pipeline.arrRef spec6 w = b
  · obtain ⟨w, rfl⟩ := h
    exact (W14_arr m ρ c w).trans (((dat6 (V13 m ρ) c).arrAt_in w (in6 w hb) _).trans (A_eq6 (V13 m ρ) c w))
  · exact W14_of_ne m ρ c b fun w e => h ⟨w, e⟩

theorem hopR7 (c : Dev nD) (b : Ref sig .tc) (hb : b ∉ outs7) :
    W16 m ρ c (Proc.devRef .tc b) = W15 m ρ c (Proc.devRef .tc b) := by
  by_cases h : ∃ w, Pipeline.arrRef spec7 w = b
  · obtain ⟨w, rfl⟩ := h
    exact (W16_arr m ρ c w).trans (((dat7 (V15 m ρ) c).arrAt_in w (in7 w hb) _).trans (A_eq7 (V15 m ρ) c w))
  · exact W16_of_ne m ρ c b fun w e => h ⟨w, e⟩

/-! ## The same hops between the named boundaries -/

theorem hopH0 (c : Dev nD) (b : Ref sig .tc) (hb : b ∉ wr0) :
    W1 m ρ c (Proc.devRef .tc b) = W0 m ρ c (Proc.devRef .tc b) := keep0 _ b hb
theorem hopH1 (c : Dev nD) (b : Ref sig .tc) (hb : b ∉ wr1) :
    W3 m ρ c (Proc.devRef .tc b) = W2 m ρ c (Proc.devRef .tc b) := keep1 _ b hb
theorem hopH2 (c : Dev nD) (b : Ref sig .tc) (hb : b ∉ wr2) :
    W5 m ρ c (Proc.devRef .tc b) = W4 m ρ c (Proc.devRef .tc b) := keep2 _ b hb
theorem hopH3 (c : Dev nD) (b : Ref sig .tc) (hb : b ∉ wr3) :
    W7 m ρ c (Proc.devRef .tc b) = W6 m ρ c (Proc.devRef .tc b) := keep3 _ b hb
theorem hopH4 (c : Dev nD) (b : Ref sig .tc) (hb : b ∉ wr4) :
    W9 m ρ c (Proc.devRef .tc b) = W8 m ρ c (Proc.devRef .tc b) := keep4 _ b hb
theorem hopH5 (c : Dev nD) (b : Ref sig .tc) (hb : b ∉ wr5) :
    W11 m ρ c (Proc.devRef .tc b) = W10 m ρ c (Proc.devRef .tc b) := keep5 _ b hb
theorem hopH6 (c : Dev nD) (b : Ref sig .tc) (hb : b ∉ wr6) :
    W13 m ρ c (Proc.devRef .tc b) = W12 m ρ c (Proc.devRef .tc b) := keep6 _ b hb
theorem hopH7 (c : Dev nD) (b : Ref sig .tc) (hb : b ∉ wr7) :
    W15 m ρ c (Proc.devRef .tc b) = W14 m ρ c (Proc.devRef .tc b) := keep7 _ b hb

/-- At launch a core's buffer holds the launch memory. -/
theorem W0_eq (c : Dev nD) (b : Ref sig .tc) :
    W0 m ρ c (Proc.devRef .tc b) = m ((c : Thread nD τ).loc b) := rfl

end Cert.KernelIdeal.Keep

end
-- ==== Proof.KeepMore.lean ====
/-
  Buffers carried unchanged across several segments of the kernel program.

  A host stretch changes only the buffers its operations write, and a kernel region only its two output arrays.  So a
  buffer that none of the segments between two boundaries writes holds the same contents at both.  Stated once from
  the launch (an argument of the program is never written: at every boundary it holds what it was launched with) and
  once from the first boundary (the edge rows, the inverse count and the two scale arrays are computed by the first
  stretch and read by every later one).
-/
import proofs.«421284_j80985903333882_3_alg».proof.Proof.Keep

noncomputable section

namespace Cert.KernelIdeal.Keep

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ) (ρ : Dev nD → PrngReg)

/-! ## From the launch -/

/-- Everything written before boundary 1. -/
def pre1 : List (Ref sig .tc) := wr0
/-- A buffer not written before boundary 1 holds there what it was launched with. -/
theorem at1 (c : Dev nD) (b : Ref sig .tc) (hb : b ∉ pre1) : W1 m ρ c (Proc.devRef .tc b) = m ((c : Thread nD τ).loc b) :=
  (hopH0 m ρ c b hb).trans (W0_eq m ρ c b)
/-- Everything written before boundary 2. -/
def pre2 : List (Ref sig .tc) := pre1 ++ outs0
/-- A buffer not written before boundary 2 holds there what it was launched with. -/
theorem at2 (c : Dev nD) (b : Ref sig .tc) (hb : b ∉ pre2) : W2 m ρ c (Proc.devRef .tc b) = m ((c : Thread nD τ).loc b) :=
  (hopR0 m ρ c b (fun h => hb (List.mem_append_right _ h))).trans (at1 m ρ c b (fun h => hb (List.mem_append_left _ h)))
/-- Everything written before boundary 3. -/
def pre3 : List (Ref sig .tc) := pre2 ++ wr1
/-- A buffer not written before boundary 3 holds there what it was launched with. -/
theorem at3 (c : Dev nD) (b : Ref sig .tc) (hb : b ∉ pre3) : W3 m ρ c (Proc.devRef .tc b) = m ((c : Thread nD τ).loc b) :=
  (hopH1 m ρ c b (fun h => hb (List.mem_append_right _ h))).trans (at2 m ρ c b (fun h => hb (List.mem_append_left _ h)))
/-- Everything written before boundary 4. -/
def pre4 : List (Ref sig .tc) := pre3 ++ outs1
/-- A buffer not written before boundary 4 holds there what it was launched with. -/
theorem at4 (c : Dev nD) (b : Ref sig .tc) (hb : b ∉ pre4) : W4 m ρ c (Proc.devRef .tc b) = m ((c : Thread nD τ).loc b) :=
  (hopR1 m ρ c b (fun h => hb (List.mem_append_right _ h))).trans (at3 m ρ c b (fun h => hb (List.mem_append_left _ h)))
/-- Everything written before boundary 5. -/
def pre5 : List (Ref sig .tc) := pre4 ++ wr2
/-- A buffer not written before boundary 5 holds there what it was launched with. -/
theorem at5 (c : Dev nD) (b : Ref sig .tc) (hb : b ∉ pre5) : W5 m ρ c (Proc.devRef .tc b) = m ((c : Thread nD τ).loc b) :=
  (hopH2 m ρ c b (fun h => hb (List.mem_append_right _ h))).trans (at4 m ρ c b (fun h => hb (List.mem_append_left _ h)))
/-- Everything written before boundary 6. -/
def pre6 : List (Ref sig .tc) := pre5 ++ outs2
/-- A buffer not written before boundary 6 holds there what it was launched with. -/
theorem at6 (c : Dev nD) (b : Ref sig .tc) (hb : b ∉ pre6) : W6 m ρ c (Proc.devRef .tc b) = m ((c : Thread nD τ).loc b) :=
  (hopR2 m ρ c b (fun h => hb (List.mem_append_right _ h))).trans (at5 m ρ c b (fun h => hb (List.mem_append_left _ h)))
/-- Everything written before boundary 7. -/
def pre7 : List (Ref sig .tc) := pre6 ++ wr3
/-- A buffer not written before boundary 7 holds there what it was launched with. -/
theorem at7 (c : Dev nD) (b : Ref sig .tc) (hb : b ∉ pre7) : W7 m ρ c (Proc.devRef .tc b) = m ((c : Thread nD τ).loc b) :=
  (hopH3 m ρ c b (fun h => hb (List.mem_append_right _ h))).trans (at6 m ρ c b (fun h => hb (List.mem_append_left _ h)))
/-- Everything written before boundary 8. -/
def pre8 : List (Ref sig .tc) := pre7 ++ outs3
/-- A buffer not written before boundary 8 holds there what it was launched with. -/
theorem at8 (c : Dev nD) (b : Ref sig .tc) (hb : b ∉ pre8) : W8 m ρ c (Proc.devRef .tc b) = m ((c : Thread nD τ).loc b) :=
  (hopR3 m ρ c b (fun h => hb (List.mem_append_right _ h))).trans (at7 m ρ c b (fun h => hb (List.mem_append_left _ h)))
/-- Everything written before boundary 9. -/
def pre9 : List (Ref sig .tc) := pre8 ++ wr4
/-- A buffer not written before boundary 9 holds there what it was launched with. -/
theorem at9 (c : Dev nD) (b : Ref sig .tc) (hb : b ∉ pre9) : W9 m ρ c (Proc.devRef .tc b) = m ((c : Thread nD τ).loc b) :=
  (hopH4 m ρ c b (fun h => hb (List.mem_append_right _ h))).trans (at8 m ρ c b (fun h => hb (List.mem_append_left _ h)))
/-- Everything written before boundary 10. -/
def pre10 : List (Ref sig .tc) := pre9 ++ outs4
/-- A buffer not written before boundary 10 holds there what it was launched with. -/
theorem at10 (c : Dev nD) (b : Ref sig .tc) (hb : b ∉ pre10) : W10 m ρ c (Proc.devRef .tc b) = m ((c : Thread nD τ).loc b) :=
  (hopR4 m ρ c b (fun h => hb (List.mem_append_right _ h))).trans (at9 m ρ c b (fun h => hb (List.mem_append_left _ h)))
/-- Everything written before boundary 11. -/
def pre11 : List (Ref sig .tc) := pre10 ++ wr5
/-- A buffer not written before boundary 11 holds there what it was launched with. -/
theorem at11 (c : Dev nD) (b : Ref sig .tc) (hb : b ∉ pre11) : W11 m ρ c (Proc.devRef .tc b) = m ((c : Thread nD τ).loc b) :=
  (hopH5 m ρ c b (fun h => hb (List.mem_append_right _ h))).trans (at10 m ρ c b (fun h => hb (List.mem_append_left _ h)))
/-- Everything written before boundary 12. -/
def pre12 : List (Ref sig .tc) := pre11 ++ outs5
/-- A buffer not written before boundary 12 holds there what it was launched with. -/
theorem at12 (c : Dev nD) (b : Ref sig .tc) (hb : b ∉ pre12) : W12 m ρ c (Proc.devRef .tc b) = m ((c : Thread nD τ).loc b) :=
  (hopR5 m ρ c b (fun h => hb (List.mem_append_right _ h))).trans (at11 m ρ c b (fun h => hb (List.mem_append_left _ h)))
/-- Everything written before boundary 13. -/
def pre13 : List (Ref sig .tc) := pre12 ++ wr6
/-- A buffer not written before boundary 13 holds there what it was launched with. -/
theorem at13 (c : Dev nD) (b : Ref sig .tc) (hb : b ∉ pre13) : W13 m ρ c (Proc.devRef .tc b) = m ((c : Thread nD τ).loc b) :=
  (hopH6 m ρ c b (fun h => hb (List.mem_append_right _ h))).trans (at12 m ρ c b (fun h => hb (List.mem_append_left _ h)))
/-- Everything written before boundary 14. -/
def pre14 : List (Ref sig .tc) := pre13 ++ outs6
/-- A buffer not written before boundary 14 holds there what it was launched with. -/
theorem at14 (c : Dev nD) (b : Ref sig .tc) (hb : b ∉ pre14) : W14 m ρ c (Proc.devRef .tc b) = m ((c : Thread nD τ).loc b) :=
  (hopR6 m ρ c b (fun h => hb (List.mem_append_right _ h))).trans (at13 m ρ c b (fun h => hb (List.mem_append_left _ h)))
/-- Everything written before boundary 15. -/
def pre15 : List (Ref sig .tc) := pre14 ++ wr7
/-- A buffer not written before boundary 15 holds there what it was launched with. -/
theorem at15 (c : Dev nD) (b : Ref sig .tc) (hb : b ∉ pre15) : W15 m ρ c (Proc.devRef .tc b) = m ((c : Thread nD τ).loc b) :=
  (hopH7 m ρ c b (fun h => hb (List.mem_append_right _ h))).trans (at14 m ρ c b (fun h => hb (List.mem_append_left _ h)))

/-! ## From the first boundary -/

/-- Everything written between boundary 1 and boundary 2. -/
def mid2 : List (Ref sig .tc) := outs0
/-- A buffer not written between boundaries 1 and 2 holds the same at both. -/
theorem from1_2 (c : Dev nD) (b : Ref sig .tc) (hb : b ∉ mid2) : W2 m ρ c (Proc.devRef .tc b) = W1 m ρ c (Proc.devRef .tc b) :=
  hopR0 m ρ c b hb
/-- Everything written between boundary 1 and boundary 3. -/
def mid3 : List (Ref sig .tc) := mid2 ++ wr1
/-- A buffer not written between boundaries 1 and 3 holds the same at both. -/
theorem from1_3 (c : Dev nD) (b : Ref sig .tc) (hb : b ∉ mid3) : W3 m ρ c (Proc.devRef .tc b) = W1 m ρ c (Proc.devRef .tc b) :=
  (hopH1 m ρ c b (fun h => hb (List.mem_append_right _ h))).trans (from1_2 m ρ c b (fun h => hb (List.mem_append_left _ h)))
/-- Everything written between boundary 1 and boundary 4. -/
def mid4 : List (Ref sig .tc) := mid3 ++ outs1
/-- A buffer not written between boundaries 1 and 4 holds the same at both. -/
theorem from1_4 (c : Dev nD) (b : Ref sig .tc) (hb : b ∉ mid4) : W4 m ρ c (Proc.devRef .tc b) = W1 m ρ c (Proc.devRef .tc b) :=
  (hopR1 m ρ c b (fun h => hb (List.mem_append_right _ h))).trans (from1_3 m ρ c b (fun h => hb (List.mem_append_left _ h)))
/-- Everything written between boundary 1 and boundary 5. -/
def mid5 : List (Ref sig .tc) := mid4 ++ wr2
/-- A buffer not written between boundaries 1 and 5 holds the same at both. -/
theorem from1_5 (c : Dev nD) (b : Ref sig .tc) (hb : b ∉ mid5) : W5 m ρ c (Proc.devRef .tc b) = W1 m ρ c (Proc.devRef .tc b) :=
  (hopH2 m ρ c b (fun h => hb (List.mem_append_right _ h))).trans (from1_4 m ρ c b (fun h => hb (List.mem_append_left _ h)))
/-- Everything written between boundary 1 and boundary 6. -/
def mid6 : List (Ref sig .tc) := mid5 ++ outs2
/-- A buffer not written between boundaries 1 and 6 holds the same at both. -/
theorem from1_6 (c : Dev nD) (b : Ref sig .tc) (hb : b ∉ mid6) : W6 m ρ c (Proc.devRef .tc b) = W1 m ρ c (Proc.devRef .tc b) :=
  (hopR2 m ρ c b (fun h => hb (List.mem_append_right _ h))).trans (from1_5 m ρ c b (fun h => hb (List.mem_append_left _ h)))
/-- Everything written between boundary 1 and boundary 7. -/
def mid7 : List (Ref sig .tc) := mid6 ++ wr3
/-- A buffer not written between boundaries 1 and 7 holds the same at both. -/
theorem from1_7 (c : Dev nD) (b : Ref sig .tc) (hb : b ∉ mid7) : W7 m ρ c (Proc.devRef .tc b) = W1 m ρ c (Proc.devRef .tc b) :=
  (hopH3 m ρ c b (fun h => hb (List.mem_append_right _ h))).trans (from1_6 m ρ c b (fun h => hb (List.mem_append_left _ h)))
/-- Everything written between boundary 1 and boundary 8. -/
def mid8 : List (Ref sig .tc) := mid7 ++ outs3
/-- A buffer not written between boundaries 1 and 8 holds the same at both. -/
theorem from1_8 (c : Dev nD) (b : Ref sig .tc) (hb : b ∉ mid8) : W8 m ρ c (Proc.devRef .tc b) = W1 m ρ c (Proc.devRef .tc b) :=
  (hopR3 m ρ c b (fun h => hb (List.mem_append_right _ h))).trans (from1_7 m ρ c b (fun h => hb (List.mem_append_left _ h)))
/-- Everything written between boundary 1 and boundary 9. -/
def mid9 : List (Ref sig .tc) := mid8 ++ wr4
/-- A buffer not written between boundaries 1 and 9 holds the same at both. -/
theorem from1_9 (c : Dev nD) (b : Ref sig .tc) (hb : b ∉ mid9) : W9 m ρ c (Proc.devRef .tc b) = W1 m ρ c (Proc.devRef .tc b) :=
  (hopH4 m ρ c b (fun h => hb (List.mem_append_right _ h))).trans (from1_8 m ρ c b (fun h => hb (List.mem_append_left _ h)))
/-- Everything written between boundary 1 and boundary 10. -/
def mid10 : List (Ref sig .tc) := mid9 ++ outs4
/-- A buffer not written between boundaries 1 and 10 holds the same at both. -/
theorem from1_10 (c : Dev nD) (b : Ref sig .tc) (hb : b ∉ mid10) : W10 m ρ c (Proc.devRef .tc b) = W1 m ρ c (Proc.devRef .tc b) :=
  (hopR4 m ρ c b (fun h => hb (List.mem_append_right _ h))).trans (from1_9 m ρ c b (fun h => hb (List.mem_append_left _ h)))
/-- Everything written between boundary 1 and boundary 11. -/
def mid11 : List (Ref sig .tc) := mid10 ++ wr5
/-- A buffer not written between boundaries 1 and 11 holds the same at both. -/
theorem from1_11 (c : Dev nD) (b : Ref sig .tc) (hb : b ∉ mid11) : W11 m ρ c (Proc.devRef .tc b) = W1 m ρ c (Proc.devRef .tc b) :=
  (hopH5 m ρ c b (fun h => hb (List.mem_append_right _ h))).trans (from1_10 m ρ c b (fun h => hb (List.mem_append_left _ h)))
/-- Everything written between boundary 1 and boundary 12. -/
def mid12 : List (Ref sig .tc) := mid11 ++ outs5
/-- A buffer not written between boundaries 1 and 12 holds the same at both. -/
theorem from1_12 (c : Dev nD) (b : Ref sig .tc) (hb : b ∉ mid12) : W12 m ρ c (Proc.devRef .tc b) = W1 m ρ c (Proc.devRef .tc b) :=
  (hopR5 m ρ c b (fun h => hb (List.mem_append_right _ h))).trans (from1_11 m ρ c b (fun h => hb (List.mem_append_left _ h)))
/-- Everything written between boundary 1 and boundary 13. -/
def mid13 : List (Ref sig .tc) := mid12 ++ wr6
/-- A buffer not written between boundaries 1 and 13 holds the same at both. -/
theorem from1_13 (c : Dev nD) (b : Ref sig .tc) (hb : b ∉ mid13) : W13 m ρ c (Proc.devRef .tc b) = W1 m ρ c (Proc.devRef .tc b) :=
  (hopH6 m ρ c b (fun h => hb (List.mem_append_right _ h))).trans (from1_12 m ρ c b (fun h => hb (List.mem_append_left _ h)))

end Cert.KernelIdeal.Keep

end
-- ==== Proof.Layout.lean ====
/-
  Slices of the stacked weight arrays, and vectors viewed as rows and columns, read at an entry.

  The program keeps each block's weights stacked along a leading axis: a `[3, 256, 256]` (or `[2, 256, 256]`) array of
  matrices, a `[3, 256]` (or `[2, 256]`) array of vectors.  Block `o`'s matrix is the slice `[o : o + 1]` with its unit
  axis dropped, and entry `(k, q)` of it is entry `(o, k, q)` of the stack; block `o`'s vector, viewed as a `[1, 256]`
  row, has entry `(0, q)` equal to entry `(o, q)` of the stack.  A `[256]` vector viewed as a row and a `[50000]`
  vector viewed as a column read the same way.
-/
import proofs.«421284_j80985903333882_3_alg».proof.KernelIdeal
import Idealize.ShloMosaic.Lib.ValueIdx
import Idealize.ShloMosaic.Lib.ValueLayout
import Idealize.ShloMosaic.Lib.Pipeline.Value

noncomputable section

namespace Cert.KernelIdeal.Layout

open Idealize.ShloMosaic Idealize.ShloMosaic.ValueIdx Cert.KernelIdeal

variable {α : Type}

/-- An entry of an array of the program, as an extended real: the identity, written so that arithmetic on entries
    read off buffers of the program's memory is the extended reals' own. -/
abbrev re (x : EReal) : EReal := x

/-- Matrix `o` of a stack of `n` matrices, at `(k, q)`. -/
theorem mat_apply {n : Nat} (W : (⟨3, ![n, 256, 256]⟩ : Shape).Idx → α) (o : Fin n)
    (h : (⟨3, ![n, 256, 256]⟩ : Shape).Slices ![o.val, 0, 0] ⟨3, ![1, 256, 256]⟩)
    (hc : (⟨3, ![1, 256, 256]⟩ : Shape).ShapeCasts ⟨2, ![256, 256]⟩) (k q : Fin 256) :
    shapeCast ⟨2, ![256, 256]⟩ (extractStridedSlice ⟨3, ![1, 256, 256]⟩ ![o.val, 0, 0] W h) hc (ix2 k q) = W (ix3 o k q) := by
  rw [shapeCast_1ab_ab_apply]
  exact extractStridedSlice_apply ![o.val, 0, 0] W h (ix3 (0 : Fin 1) k q) (ix3 o k q) (fun a => by
    match a with
    | ⟨0, _⟩ => show o.val = o.val + 0; omega
    | ⟨1, _⟩ => show k.val = 0 + k.val; omega
    | ⟨2, _⟩ => show q.val = 0 + q.val; omega)

/-- Vector `o` of a stack of `n` vectors, as a `[256]` vector, at `q`. -/
theorem vec_apply {n : Nat} (v : (⟨2, ![n, 256]⟩ : Shape).Idx → α) (o : Fin n)
    (h : (⟨2, ![n, 256]⟩ : Shape).Slices ![o.val, 0] ⟨2, ![1, 256]⟩)
    (hc : (⟨2, ![1, 256]⟩ : Shape).ShapeCasts ⟨1, ![256]⟩) (q : Fin 256) :
    shapeCast ⟨1, ![256]⟩ (extractStridedSlice ⟨2, ![1, 256]⟩ ![o.val, 0] v h) hc (ix1 q) = v (ix2 o q) := by
  rw [shapeCast_1a_a_apply]
  exact extractStridedSlice_apply ![o.val, 0] v h (ix2 (0 : Fin 1) q) (ix2 o q) (fun a => by
    match a with
    | ⟨0, _⟩ => show o.val = o.val + 0; omega
    | ⟨1, _⟩ => show q.val = 0 + q.val; omega)

/-- A `[m]` vector viewed as a `[1, m]` row, at `(0, q)`. -/
theorem row_of_vec_apply {m : Nat} (v : (⟨1, ![m]⟩ : Shape).Idx → α) (hc : (⟨1, ![m]⟩ : Shape).ShapeCasts ⟨2, ![1, m]⟩) (q : Fin m) :
    shapeCast ⟨2, ![1, m]⟩ v hc (ix2 (0 : Fin 1) q) = v (ix1 q) :=
  shapeCast_a_1a_apply v hc 0 q

/-- Vector `o` of a stack, viewed as a row, at `(0, q)`. -/
theorem rowvec_apply {n : Nat} (v : (⟨2, ![n, 256]⟩ : Shape).Idx → α) (o : Fin n)
    (h : (⟨2, ![n, 256]⟩ : Shape).Slices ![o.val, 0] ⟨2, ![1, 256]⟩)
    (hc : (⟨2, ![1, 256]⟩ : Shape).ShapeCasts ⟨1, ![256]⟩) (hr : (⟨1, ![256]⟩ : Shape).ShapeCasts ⟨2, ![1, 256]⟩) (q : Fin 256) :
    shapeCast ⟨2, ![1, 256]⟩ (shapeCast ⟨1, ![256]⟩ (extractStridedSlice ⟨2, ![1, 256]⟩ ![o.val, 0] v h) hc) hr (ix2 (0 : Fin 1) q)
      = v (ix2 o q) := by
  rw [row_of_vec_apply, vec_apply]

/-- An `[m]` vector viewed as an `[m, 1]` column, at `(r, 0)`. -/
theorem col_of_vec_apply {m : Nat} (v : (⟨1, ![m]⟩ : Shape).Idx → α) (hc : (⟨1, ![m]⟩ : Shape).ShapeCasts ⟨2, ![m, 1]⟩) (r : Fin m) :
    shapeCast ⟨2, ![m, 1]⟩ v hc (ix2 r (0 : Fin 1)) = v (ix1 r) :=
  shapeCast_apply v hc _ _ (by
    rw [Shape.rowMajor_val_two, Shape.rowMajor_val_one]
    show r.val = r.val * 1 + 0
    omega)

end Cert.KernelIdeal.Layout

end
-- ==== Proof.KBase.lean ====
/-
  What the first stretch of host operations leaves, before the first kernel runs.

  From the edge list the program takes the source row and the destination row, counts each node's incoming edges by a
  scatter-add of ones, and keeps the reciprocal of the larger of that count and one as a `[50000, 1]` column; from the
  normalisation parameters it forms the two scale arrays `gamma * rsqrt (var + eps)`; and it views the projection bias
  as a row.  The edge rows and the count are the same terms the reference program forms, so they are stated as the
  reference's stage functions of the edge list.
-/
import proofs.«421284_j80985903333882_3_alg».proof.Proof.Gen.KernelIdeal.Frame
import proofs.«421284_j80985903333882_3_alg».proof.Proof.RefRead
import proofs.«421284_j80985903333882_3_alg».proof.Proof.Layout

set_option maxRecDepth 16384

noncomputable section

namespace Cert.KernelIdeal.KBase

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (ρ : Dev nD → PrngReg)

/-- The source row of the edge list. -/
theorem w1_src (c : Dev nD) :
    W1 m ρ c (Proc.devRef .tc main_v1) = Cert.ReferenceIdeal.Read.val_main_v1 (F := Ideal) (m ((c : Thread nD τ).loc main_arg1)) := by
  show StableHlo.after (hostOps0 (F := Ideal)) (W0 m ρ c) (Proc.devRef .tc main_v1) = _
  after_results
  rfl

/-- The destination row of the edge list. -/
theorem w1_dst (c : Dev nD) :
    W1 m ρ c (Proc.devRef .tc main_v3) = Cert.ReferenceIdeal.Read.val_main_v3 (F := Ideal) (m ((c : Thread nD τ).loc main_arg1)) := by
  show StableHlo.after (hostOps0 (F := Ideal)) (W0 m ρ c) (Proc.devRef .tc main_v3) = _
  after_results
  rfl

/-- The count of incoming edges. -/
theorem w1_cnt (c : Dev nD) :
    W1 m ρ c (Proc.devRef .tc main_v7) = Cert.ReferenceIdeal.Read.val_main_v27 (F := Ideal) (m ((c : Thread nD τ).loc main_arg1)) := by
  show StableHlo.after (hostOps0 (F := Ideal)) (W0 m ρ c) (Proc.devRef .tc main_v7) = _
  after_results
  rfl

set_option maxRecDepth 200000 in
set_option maxHeartbeats 4000000 in
/-- The inverse-count column: the reciprocal, entry by entry, of the larger of the count and one, viewed as a column. -/
theorem w1_inv_arr (c : Dev nD) :
    W1 m ρ c (Proc.devRef .tc main_v12)
      = shapeCast S50000x1 (Host.divf (broadcastInDim S50000 ![] bcast_S_S50000 (constant (F := Ideal) S_ .f32 0x3F800000#32))
          (maximumf (Cert.ReferenceIdeal.Read.val_main_v27 (F := Ideal) (m ((c : Thread nD τ).loc main_arg1)))
            (broadcastInDim S50000 ![] bcast_S_S50000 (constant (F := Ideal) S_ .f32 0x3F800000#32)))) shapeCasts_S50000_S50000x1 := by
  show StableHlo.after (hostOps0 (F := Ideal)) (W0 m ρ c) (Proc.devRef .tc main_v12) = _
  after_results
  rfl

/-- The reciprocal of the larger of a count and one, entry by entry. -/
theorem inv_point (cnt : FVec Ideal S50000 .f32) (r : Fin 50000) :
    Host.divf (broadcastInDim S50000 ![] bcast_S_S50000 (constant (F := Ideal) S_ .f32 0x3F800000#32))
        (maximumf cnt (broadcastInDim S50000 ![] bcast_S_S50000 (constant (F := Ideal) S_ .f32 0x3F800000#32))) (ix1 r)
      = Ideal.div (Ideal.ofBits .f32 0x3F800000#32) (max (cnt (ix1 r)) (Ideal.ofBits .f32 0x3F800000#32)) := rfl

/-- The inverse-count column at row `r`: the reciprocal of the larger of the count and one. -/
theorem w1_inv (c : Dev nD) (r : Fin 50000) :
    (W1 m ρ c (Proc.devRef .tc main_v12) : Vec Ideal S50000x1 .f32) (ix2 r 0)
      = Ideal.div (Ideal.ofBits .f32 0x3F800000#32)
          (max (Cert.ReferenceIdeal.Read.val_main_v27 (F := Ideal) (m ((c : Thread nD τ).loc main_arg1)) (ix1 r)) (Ideal.ofBits .f32 0x3F800000#32)) := by
  rw [w1_inv_arr m ρ c]
  refine (Layout.col_of_vec_apply _ _ r).trans ?_
  exact inv_point _ r

set_option maxRecDepth 200000 in
set_option maxHeartbeats 4000000 in
/-- The first scale array at `(L, q)`: `gamma * rsqrt (var + eps)`. -/
theorem w1_sc1 (c : Dev nD) (L : Fin 3) (q : Fin 256) :
    Layout.re (W1 m ρ c (Proc.devRef .tc main_v16) (ix2 L q))
      = Layout.re (m ((c : Thread nD τ).loc main_arg10) (ix2 L q))
          * Ideal.rsqrt (Layout.re (m ((c : Thread nD τ).loc main_arg13) (ix2 L q)) + Ideal.ofBits .f32 0x3727C5AC#32) := by
  show Layout.re (StableHlo.after (hostOps0 (F := Ideal)) (W0 m ρ c) (Proc.devRef .tc main_v16) (ix2 L q)) = _
  after_results
  rfl

set_option maxRecDepth 200000 in
set_option maxHeartbeats 4000000 in
/-- The second scale array at `(L, q)`. -/
theorem w1_sc2 (c : Dev nD) (L : Fin 3) (q : Fin 256) :
    Layout.re (W1 m ρ c (Proc.devRef .tc main_v20) (ix2 L q))
      = Layout.re (m ((c : Thread nD τ).loc main_arg14) (ix2 L q))
          * Ideal.rsqrt (Layout.re (m ((c : Thread nD τ).loc main_arg17) (ix2 L q)) + Ideal.ofBits .f32 0x3727C5AC#32) := by
  show Layout.re (StableHlo.after (hostOps0 (F := Ideal)) (W0 m ρ c) (Proc.devRef .tc main_v20) (ix2 L q)) = _
  after_results
  rfl

set_option maxRecDepth 200000 in
set_option maxHeartbeats 4000000 in
/-- The projection bias viewed as a row, at `(0, q)`. -/
theorem w1_bp (c : Dev nD) (q : Fin 256) :
    (W1 m ρ c (Proc.devRef .tc main_v21) : Vec Ideal S1x256 .f32) (ix2 0 q)
      = (m ((c : Thread nD τ).loc main_arg3) : Vec Ideal S256 .f32) (ix1 q) := by
  show StableHlo.after (hostOps0 (F := Ideal)) (W0 m ρ c) (Proc.devRef .tc main_v21) (ix2 0 q) = _
  after_results
  exact Layout.row_of_vec_apply _ _ q

end Cert.KernelIdeal.KBase

end
-- ==== Proof.Spec.lean ====
/-
  The layers of the network as functions of coordinates, over the extended reals.

  Every stage of the computation is ROW-WISE: row `r` of a stage's result depends only on row `r` of its
  row-indexed operands (and on the whole of the weight matrices and bias vectors).  The functions below say what
  one entry `(r, j)` of each stage is, with every operand given as a function of its coordinates, so that the same
  function serves an operand stored as a `[1, 256]` row, as a `[256]` vector or as a `[n, 1]` column.
  `n` is the number of rows: 50000 for a whole array, the tile height for one block of it.
-/
import Idealize.ShloMosaic.PureOps.Ideal
import Idealize.ShloMosaic.Lib.ValueIdx

noncomputable section

open scoped BigOperators

namespace Cert.Spec

open Idealize.ShloMosaic

/-- The input projection `x · W + b` at `(r, j)`. -/
def proj {n : Nat} (x : Fin n → Fin 128 → EReal) (W : Fin 128 → Fin 256 → EReal) (b : Fin 256 → EReal)
    (r : Fin n) (j : Fin 256) : EReal :=
  (∑ k : Fin 128, x r k * W k j) + b j

/-- One graph convolution followed by its normalisation, before the rectifier, at `(r, j)`:
    `((M · Wl + bl + X · Wr) - mn) * sc + bs`. -/
def bn {n : Nat} (M X : Fin n → Fin 256 → EReal) (Wl Wr : Fin 256 → Fin 256 → EReal)
    (bl mn sc bs : Fin 256 → EReal) (r : Fin n) (j : Fin 256) : EReal :=
  (((((∑ k : Fin 256, M r k * Wl k j) + bl j) + ∑ k : Fin 256, X r k * Wr k j) - mn j) * sc j) + bs j

/-- One graph convolution followed by its normalisation and the rectifier, at `(r, j)`:
    `max (((M · Wl + bl + X · Wr) - mn) * sc + bs) 0`, `M` the neighbourhood mean and `X` the node's own row. -/
def sage {n : Nat} (M X : Fin n → Fin 256 → EReal) (Wl Wr : Fin 256 → Fin 256 → EReal)
    (bl mn sc bs : Fin 256 → EReal) (r : Fin n) (j : Fin 256) : EReal :=
  max ((((((∑ k : Fin 256, M r k * Wl k j) + bl j) + ∑ k : Fin 256, X r k * Wr k j) - mn j) * sc j) + bs j)
    (Ideal.ofBits .f32 0x00000000#32)

/-- The rectified value is the larger of the normalised value and zero. -/
theorem sage_eq_max_bn {n : Nat} (M X : Fin n → Fin 256 → EReal) (Wl Wr : Fin 256 → Fin 256 → EReal)
    (bl mn sc bs : Fin 256 → EReal) (r : Fin n) (j : Fin 256) :
    sage M X Wl Wr bl mn sc bs r j = max (bn M X Wl Wr bl mn sc bs r j) (Ideal.ofBits .f32 0x00000000#32) := rfl

/-- The same with the block's residual added. -/
def sageRes {n : Nat} (M X : Fin n → Fin 256 → EReal) (Wl Wr : Fin 256 → Fin 256 → EReal)
    (bl mn sc bs : Fin 256 → EReal) (Res : Fin n → Fin 256 → EReal) (r : Fin n) (j : Fin 256) : EReal :=
  sage M X Wl Wr bl mn sc bs r j + Res r j

/-- The gated block: with `g = logistic (Res · Gw + gb)`, the entry is `g * Res + (1 - g) * (sage + Res)`. -/
def gate {n : Nat} (M X : Fin n → Fin 256 → EReal) (Wl Wr : Fin 256 → Fin 256 → EReal)
    (bl mn sc bs : Fin 256 → EReal) (Res : Fin n → Fin 256 → EReal) (Gw : Fin 256 → Fin 256 → EReal)
    (gb : Fin 256 → EReal) (r : Fin n) (j : Fin 256) : EReal :=
  Ideal.logistic ((∑ k : Fin 256, Res r k * Gw k j) + gb j) * Res r j
    + (Ideal.ofBits .f32 0x3F800000#32 - Ideal.logistic ((∑ k : Fin 256, Res r k * Gw k j) + gb j))
        * sageRes M X Wl Wr bl mn sc bs Res r j

/-- The classifier `max (x · W1 + b1) 0 · W2 + b2` at `(r, j)`. -/
def cls {n : Nat} (x : Fin n → Fin 256 → EReal) (W1 : Fin 256 → Fin 128 → EReal) (b1 : Fin 128 → EReal)
    (W2 : Fin 128 → Fin 40 → EReal) (b2 : Fin 40 → EReal) (r : Fin n) (j : Fin 40) : EReal :=
  (∑ k : Fin 128, max ((∑ l : Fin 256, x r l * W1 l k) + b1 k) (Ideal.ofBits .f32 0x00000000#32) * W2 k j) + b2 j

/-- The float `1.0` is the real number one. -/
theorem ofBits_one : Ideal.ofBits .f32 0x3F800000#32 = 1 := by
  simp [Ideal.ofBits, Ideal.ieee]
  rw [← EReal.coe_mul, ← EReal.coe_one]
  congr 1
  norm_num

/-- A quotient by a nonzero divisor is the product with the divisor's reciprocal, at the infinities too:
    both are `x * y⁻¹`. -/
theorem mul_div_one (x y : EReal) (hy : y ≠ 0) : x * Ideal.div (Ideal.ofBits .f32 0x3F800000#32) y = Ideal.div x y := by
  rw [ofBits_one, Ideal.div, Ideal.div, if_neg hy, if_neg hy, one_mul]

/-- The larger of anything and the float `1.0` is not zero. -/
theorem max_one_ne_zero (x : EReal) : max x (Ideal.ofBits .f32 0x3F800000#32) ≠ 0 := by
  rw [ofBits_one]
  have h : (0 : EReal) < max x 1 := lt_of_lt_of_le zero_lt_one (le_max_right x 1)
  exact ne_of_gt h

end Cert.Spec

end
-- ==== Proof.Core.lean ====
/-
  The arithmetic shared by the six convolution kernels, read at one entry of a tile.

  Each of those kernels computes, on a tile of 2000 rows, the rectified normalised convolution
  `max (((A * inv) · Wl + bl + X · Wr - mn) * sc + bs) 0`: the aggregate `A` scaled row by row by the inverse
  neighbour count, two matrix products accumulated from zero, and row vectors broadcast down the tile.  At the ideal
  values the changes of float format are the identity, so entry `(p, q)` is `Spec.sage` of the operands'
  coordinates: a matrix product is the sum over the contracted coordinate of the products, a `[1, 256]` row
  broadcast down the tile is read at `(0, q)`, and the `[2000, 1]` column broadcast across it at `(p, 0)`.
-/
import proofs.«421284_j80985903333882_3_alg».proof.Proof.Gen.KernelIdeal.Skeleton
import proofs.«421284_j80985903333882_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Core

open Idealize.ShloMosaic Idealize.ShloMosaic.ValueIdx Cert.KernelIdeal Cert.KernelIdeal.Gen

/-! ## A tile's matrix product at an entry -/

theorem lhs_mm_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhs_mm_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem rhs_mm_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem rhs_mm_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- A `[2000, 256] · [256, 256]` product accumulated from zero, at `(p, q)`: the sum over `k` of `a (p, k) * b (k, q)`. -/
theorem mm_apply {φ₁ φ₂ : FTy} (a : FVec Ideal S2000x256 φ₁) (b : FVec Ideal S256x256 φ₂) (p : Fin 2000) (q : Fin 256) :
    matmul dot_S2000x256_S256x256_S2000x256_1_0_0_1_n_n none a b (constant (F := Ideal) S2000x256 .f32 0x00000000#32) (ix2 p q)
      = ∑ k : Fin 256, a (ix2 p k) * b (ix2 k q) := by
  simp only [matmul]
  rw [Ideal.matmul_constant_zero_apply, ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q) ((contrEquiv1 dot_S2000x256_S256x256_S2000x256_1_0_0_1_n_n 256 rfl rfl).symm k) = ix2 p k := funext fun a => Fin.ext (by
    match a with
    | ⟨0, _⟩ => exact lhs_mm_0 _ _
    | ⟨1, _⟩ => exact (lhs_mm_1 _ _).trans hk)
  have er : dot_S2000x256_S256x256_S2000x256_1_0_0_1_n_n.rhsIdx (ix2 p q) ((contrEquiv1 dot_S2000x256_S256x256_S2000x256_1_0_0_1_n_n 256 rfl rfl).symm k) = ix2 k q := funext fun a => Fin.ext (by
    match a with
    | ⟨0, _⟩ => exact (rhs_mm_0 _ _).trans hk
    | ⟨1, _⟩ => exact rhs_mm_1 _ _)
  rw [el, er]

/-! ## Broadcasts of a row and of a column over the tile -/

/-- A `[1, 256]` row broadcast down the tile, at `(p, q)`: the row's entry `q`. -/
theorem row_apply (v : FVec Ideal S1x256 .f32) (p : Fin 2000) (q : Fin 256) :
    broadcastTo S2000x256 (shapeCast S1x256 v shapeCasts_S1x256_S1x256) broadcasts_S1x256_S2000x256 (ix2 p q) = v (ix2 0 q) := by
  rw [shapeCast_self]
  exact broadcastTo_apply v broadcasts_S1x256_S2000x256 (ix2 p q) (ix2 0 q) (fun a => by
    match a with
    | ⟨0, _⟩ => rfl
    | ⟨1, _⟩ => rfl)

/-- A `[2000, 1]` column broadcast across the tile, at `(p, q)`: the column's entry `p`. -/
theorem col_apply (v : FVec Ideal S2000x1 .f32) (p : Fin 2000) (q : Fin 256) :
    broadcastTo S2000x256 (shapeCast S2000x1 v shapeCasts_S2000x1_S2000x1) broadcasts_S2000x1_S2000x256 (ix2 p q) = v (ix2 p 0) := by
  rw [shapeCast_self]
  exact broadcastTo_apply v broadcasts_S2000x1_S2000x256 (ix2 p q) (ix2 p 0) (fun a => by
    match a with
    | ⟨0, _⟩ => rfl
    | ⟨1, _⟩ => rfl)

/-! ## The shared term -/

/-- Entry `(p, q)` of the normalised convolution, before the rectifier, is `Spec.bn` of the operands' coordinates. -/
theorem pre_apply (v0 : Vec Ideal S2000x256 .f32) (v2 : Vec Ideal S2000x1 .f32) (v7 : Vec Ideal S2000x256 .f32)
    (v10 v13 : Vec Ideal S256x256 .f32) (v17 v23 v27 v31 : Vec Ideal S1x256 .f32) (p : Fin 2000) (q : Fin 256) :
    k4_pay3 (F := Ideal) v0 v2 v7 v10 v13 v17 v23 v27 v31 (ix2 p q)
      = Spec.bn (fun p k => v0 (ix2 p k) * v2 (ix2 p 0)) (fun p k => v7 (ix2 p k)) (fun k q => v10 (ix2 k q))
          (fun k q => v13 (ix2 k q)) (fun q => v17 (ix2 0 q)) (fun q => v23 (ix2 0 q)) (fun q => v27 (ix2 0 q))
          (fun q => v31 (ix2 0 q)) p q := by
  unfold k4_pay3 Spec.bn
  show (((((matmul dot_S2000x256_S256x256_S2000x256_1_0_0_1_n_n none
                (truncf .bf16 (mulf (shapeCast S2000x256 v0 shapeCasts_S2000x256_S2000x256)
                  (broadcastTo S2000x256 (shapeCast S2000x1 v2 shapeCasts_S2000x1_S2000x1) broadcasts_S2000x1_S2000x256)) bitsLt_bf16_f32)
                (truncf .bf16 (shapeCast S256x256 v10 shapeCasts_S256x256_S256x256) bitsLt_bf16_f32)
                (constant (F := Ideal) S2000x256 .f32 0x00000000#32) (ix2 p q)
            + broadcastTo S2000x256 (shapeCast S1x256 v17 shapeCasts_S1x256_S1x256) broadcasts_S1x256_S2000x256 (ix2 p q))
          + matmul dot_S2000x256_S256x256_S2000x256_1_0_0_1_n_n none
                (truncf .bf16 (shapeCast S2000x256 v7 shapeCasts_S2000x256_S2000x256) bitsLt_bf16_f32)
                (truncf .bf16 (shapeCast S256x256 v13 shapeCasts_S256x256_S256x256) bitsLt_bf16_f32)
                (constant (F := Ideal) S2000x256 .f32 0x00000000#32) (ix2 p q))
        - broadcastTo S2000x256 (shapeCast S1x256 v23 shapeCasts_S1x256_S1x256) broadcasts_S1x256_S2000x256 (ix2 p q))
      * broadcastTo S2000x256 (shapeCast S1x256 v27 shapeCasts_S1x256_S1x256) broadcasts_S1x256_S2000x256 (ix2 p q))
    + broadcastTo S2000x256 (shapeCast S1x256 v31 shapeCasts_S1x256_S1x256) broadcasts_S1x256_S2000x256 (ix2 p q)) = _
  rw [mm_apply, mm_apply, row_apply, row_apply, row_apply, row_apply]
  refine congrArg (fun z => z + _) ?_
  refine congrArg (fun z => z * _) ?_
  refine congrArg (fun z => z - _) ?_
  refine congrArg₂ (fun a b => a + _ + b) ?_ ?_
  · refine Finset.sum_congr rfl fun k _ => ?_
    show (shapeCast S2000x256 v0 shapeCasts_S2000x256_S2000x256 (ix2 p k)
        * broadcastTo S2000x256 (shapeCast S2000x1 v2 shapeCasts_S2000x1_S2000x1) broadcasts_S2000x1_S2000x256 (ix2 p k))
        * shapeCast S256x256 v10 shapeCasts_S256x256_S256x256 (ix2 k q) = _
    rw [col_apply, shapeCast_self, shapeCast_self]
  · refine Finset.sum_congr rfl fun k _ => ?_
    show shapeCast S2000x256 v7 shapeCasts_S2000x256_S2000x256 (ix2 p k) * shapeCast S256x256 v13 shapeCasts_S256x256_S256x256 (ix2 k q) = _
    rw [shapeCast_self, shapeCast_self]

/-- The convolution kernels' common value: the term the three plain kernels store, and the one the residual
    kernel builds on. -/
def coreTerm (v0 : Vec Ideal S2000x256 .f32) (v2 : Vec Ideal S2000x1 .f32) (v7 : Vec Ideal S2000x256 .f32)
    (v10 v13 : Vec Ideal S256x256 .f32) (v17 v23 v27 v31 : Vec Ideal S1x256 .f32) : FVec Ideal S2000x256 .f32 :=
  k1_pay2 (F := Ideal) v0 v2 v7 v10 v13 v17 v23 v27 v31

/-- Entry `(p, q)` of the common value is `Spec.sage` of the operands' coordinates: the larger of the normalised
    value and zero. -/
theorem coreTerm_apply (v0 : Vec Ideal S2000x256 .f32) (v2 : Vec Ideal S2000x1 .f32) (v7 : Vec Ideal S2000x256 .f32)
    (v10 v13 : Vec Ideal S256x256 .f32) (v17 v23 v27 v31 : Vec Ideal S1x256 .f32) (p : Fin 2000) (q : Fin 256) :
    coreTerm v0 v2 v7 v10 v13 v17 v23 v27 v31 (ix2 p q)
      = Spec.sage (fun p k => v0 (ix2 p k) * v2 (ix2 p 0)) (fun p k => v7 (ix2 p k)) (fun k q => v10 (ix2 k q))
          (fun k q => v13 (ix2 k q)) (fun q => v17 (ix2 0 q)) (fun q => v23 (ix2 0 q)) (fun q => v27 (ix2 0 q))
          (fun q => v31 (ix2 0 q)) p q := by
  rw [Spec.sage_eq_max_bn, ← pre_apply]
  rfl

/-- The residual kernel's last step at an entry: the sum of the rectified value and the residual block. -/
theorem res_apply (v36 : FVec Ideal S2000x256 .f32) (v37 : Vec Ideal S2000x256 .f32) (p : Fin 2000) (q : Fin 256) :
    k2_pay1 (F := Ideal) v36 v37 (ix2 p q) = v36 (ix2 p q) + v37 (ix2 p q) := by
  unfold k2_pay1
  show v36 (ix2 p q) + shapeCast S2000x256 v37 shapeCasts_S2000x256_S2000x256 (ix2 p q) = _
  rw [shapeCast_self]

/-- The residual block as the gated kernel reads it. -/
theorem resblk_apply (v35 : Vec Ideal S2000x256 .f32) : k4_pay4 (F := Ideal) v35 = v35 := by
  unfold k4_pay4
  exact shapeCast_self _ _

/-- The gated kernel's last step at an entry: with `g` the logistic of the residual row times the gate matrix plus
    the gate bias, `g * res + (1 - g) * (max pre 0 + res)`. -/
theorem gate_apply (v34 v36 : FVec Ideal S2000x256 .f32) (v41 : Vec Ideal S256x256 .f32) (v45 : Vec Ideal S1x256 .f32)
    (p : Fin 2000) (q : Fin 256) :
    k4_pay1 (F := Ideal) v34 v36 v41 v45 (ix2 p q)
      = Ideal.logistic ((∑ k : Fin 256, v36 (ix2 p k) * v41 (ix2 k q)) + v45 (ix2 0 q)) * v36 (ix2 p q)
        + (Ideal.ofBits .f32 0x3F800000#32 - Ideal.logistic ((∑ k : Fin 256, v36 (ix2 p k) * v41 (ix2 k q)) + v45 (ix2 0 q)))
            * (max (v34 (ix2 p q)) (Ideal.ofBits .f32 0x00000000#32) + v36 (ix2 p q)) := by
  unfold k4_pay1
  show Ideal.logistic (matmul dot_S2000x256_S256x256_S2000x256_1_0_0_1_n_n none (truncf .bf16 v36 bitsLt_bf16_f32)
          (truncf .bf16 (shapeCast S256x256 v41 shapeCasts_S256x256_S256x256) bitsLt_bf16_f32)
          (constant (F := Ideal) S2000x256 .f32 0x00000000#32) (ix2 p q)
        + broadcastTo S2000x256 (shapeCast S1x256 v45 shapeCasts_S1x256_S1x256) broadcasts_S1x256_S2000x256 (ix2 p q)) * v36 (ix2 p q)
      + (Ideal.ofBits .f32 0x3F800000#32
          - Ideal.logistic (matmul dot_S2000x256_S256x256_S2000x256_1_0_0_1_n_n none (truncf .bf16 v36 bitsLt_bf16_f32)
              (truncf .bf16 (shapeCast S256x256 v41 shapeCasts_S256x256_S256x256) bitsLt_bf16_f32)
              (constant (F := Ideal) S2000x256 .f32 0x00000000#32) (ix2 p q)
            + broadcastTo S2000x256 (shapeCast S1x256 v45 shapeCasts_S1x256_S1x256) broadcasts_S1x256_S2000x256 (ix2 p q)))
        * (max (v34 (ix2 p q)) (Ideal.ofBits .f32 0x00000000#32) + v36 (ix2 p q)) = _
  rw [mm_apply, row_apply]
  have e : (∑ k : Fin 256, truncf .bf16 v36 bitsLt_bf16_f32 (ix2 p k)
        * truncf .bf16 (shapeCast S256x256 v41 shapeCasts_S256x256_S256x256) bitsLt_bf16_f32 (ix2 k q))
      = ∑ k : Fin 256, v36 (ix2 p k) * v41 (ix2 k q) := by
    refine Finset.sum_congr rfl fun k _ => ?_
    show v36 (ix2 p k) * shapeCast S256x256 v41 shapeCasts_S256x256_S256x256 (ix2 k q) = _
    rw [shapeCast_self]
  rw [e]

end Cert.KernelIdeal.Core

end
-- ==== Proof.Whole.lean ====
/-
  The five layer functions as functions of whole arrays, in the layouts the kernels' windows have: the row-indexed
  operands as `[50000, ·]` arrays, the weight matrices whole, the bias and normalisation vectors as `[1, ·]` rows and
  the inverse neighbour count as a `[50000, 1]` column.  Entry `(r, j)` of each is the corresponding function of
  `Cert.Spec` at the operands' coordinates; the neighbourhood mean is the aggregate times the inverse count.
-/
import proofs.«421284_j80985903333882_3_alg».proof.KernelIdeal
import proofs.«421284_j80985903333882_3_alg».proof.Proof.Spec

noncomputable section

namespace Cert.KernelIdeal.Whole

open Idealize.ShloMosaic Idealize.ShloMosaic.ValueIdx Cert.KernelIdeal

/-- The projection kernel's whole result. -/
def projG (x : Vec Ideal S50000x128 .f32) (W : Vec Ideal S128x256 .f32) (b : Vec Ideal S1x256 .f32) :
    S50000x256.Idx → EReal :=
  fun i => Spec.proj (fun r k => x (ix2 r k)) (fun k q => W (ix2 k q)) (fun q => b (ix2 0 q)) (i 0) (i 1)

/-- The plain convolution kernel's whole result (windows in the kernel's operand order: aggregate, own rows, the two
    weight matrices, bias, scale, mean, shift, inverse count). -/
def sageG (A X : Vec Ideal S50000x256 .f32) (Wl Wr : Vec Ideal S256x256 .f32) (bl sc mn bs : Vec Ideal S1x256 .f32)
    (iv : Vec Ideal S50000x1 .f32) : S50000x256.Idx → EReal :=
  fun i => Spec.sage (fun r k => A (ix2 r k) * iv (ix2 r 0)) (fun r k => X (ix2 r k)) (fun k q => Wl (ix2 k q))
    (fun k q => Wr (ix2 k q)) (fun q => bl (ix2 0 q)) (fun q => mn (ix2 0 q)) (fun q => sc (ix2 0 q))
    (fun q => bs (ix2 0 q)) (i 0) (i 1)

/-- The residual kernel's whole result. -/
def sageResG (A X : Vec Ideal S50000x256 .f32) (Wl Wr : Vec Ideal S256x256 .f32) (bl sc mn bs : Vec Ideal S1x256 .f32)
    (iv : Vec Ideal S50000x1 .f32) (Res : Vec Ideal S50000x256 .f32) : S50000x256.Idx → EReal :=
  fun i => Spec.sageRes (fun r k => A (ix2 r k) * iv (ix2 r 0)) (fun r k => X (ix2 r k)) (fun k q => Wl (ix2 k q))
    (fun k q => Wr (ix2 k q)) (fun q => bl (ix2 0 q)) (fun q => mn (ix2 0 q)) (fun q => sc (ix2 0 q))
    (fun q => bs (ix2 0 q)) (fun r k => Res (ix2 r k)) (i 0) (i 1)

/-- The gated kernel's whole result. -/
def gateG (A X : Vec Ideal S50000x256 .f32) (Wl Wr : Vec Ideal S256x256 .f32) (bl sc mn bs : Vec Ideal S1x256 .f32)
    (iv : Vec Ideal S50000x1 .f32) (Res : Vec Ideal S50000x256 .f32) (Gw : Vec Ideal S256x256 .f32)
    (gb : Vec Ideal S1x256 .f32) : S50000x256.Idx → EReal :=
  fun i => Spec.gate (fun r k => A (ix2 r k) * iv (ix2 r 0)) (fun r k => X (ix2 r k)) (fun k q => Wl (ix2 k q))
    (fun k q => Wr (ix2 k q)) (fun q => bl (ix2 0 q)) (fun q => mn (ix2 0 q)) (fun q => sc (ix2 0 q))
    (fun q => bs (ix2 0 q)) (fun r k => Res (ix2 r k)) (fun k q => Gw (ix2 k q)) (fun q => gb (ix2 0 q)) (i 0) (i 1)

/-- The classifier kernel's whole result. -/
def clsG (x : Vec Ideal S50000x256 .f32) (W1 : Vec Ideal S256x128 .f32) (b1 : Vec Ideal S1x128 .f32)
    (W2 : Vec Ideal S128x40 .f32) (b2 : Vec Ideal S1x40 .f32) : S50000x40.Idx → EReal :=
  fun i => Spec.cls (fun r k => x (ix2 r k)) (fun l k => W1 (ix2 l k)) (fun k => b1 (ix2 0 k)) (fun k q => W2 (ix2 k q))
    (fun q => b2 (ix2 0 q)) (i 0) (i 1)

end Cert.KernelIdeal.Whole

end
-- ==== Proof.Reg0.lean ====
/-
  The projection kernel, as one function of whole arrays.

  The kernel runs on a grid of 25 points; point `t` loads rows `2000 t … 2000 t + 1999` of the node features, the
  weight matrix and the bias row whole, and writes the same rows of its two outputs: the value `x · W + b`, and a
  copy of it in the narrower float format, which at the ideal values is the same number.  Every entry it writes
  depends only on its own row of the features, so what point `t` writes back is the rows of ONE whole-array
  function, `Whole.projG` of the arrays the region finds; the 25 row blocks tile the 50000 rows, so after the region
  each output array IS that function.
-/
import proofs.«421284_j80985903333882_3_alg».proof.Proof.Gen.KernelIdeal.Frame
import proofs.«421284_j80985903333882_3_alg».proof.Proof.Core
import proofs.«421284_j80985903333882_3_alg».proof.Proof.Whole

set_option maxRecDepth 16384

noncomputable section

open scoped BigOperators

namespace Cert.KernelIdeal.Reg0

open Idealize.ShloMosaic Idealize.ShloMosaic.TcCoe Idealize.ShloMosaic.ValueIdx Idealize.SL.Sem Cert.KernelIdeal Cert.KernelIdeal.Gen
open Idealize.ShloMosaic.Pipeline (Dat Cfg Window)

/-! ## A tile's matrix product at an entry -/

theorem lhs_mm_0 (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem lhs_mm_1 (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
theorem rhs_mm_0 (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
theorem rhs_mm_1 (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- A `[2000, 128] · [128, 256]` product accumulated from zero, at `(p, q)`: the sum over `k` of `a (p, k) * b (k, q)`. -/
theorem mm_apply {φ₁ φ₂ : FTy} (a : FVec Ideal S2000x128 φ₁) (b : FVec Ideal S128x256 φ₂) (p : Fin 2000) (q : Fin 256) :
    matmul dot_S2000x128_S128x256_S2000x256_1_0_0_1_n_n none a b (constant (F := Ideal) S2000x256 .f32 0x00000000#32) (ix2 p q)
      = ∑ k : Fin 128, a (ix2 p k) * b (ix2 k q) := by
  simp only [matmul]
  rw [Ideal.matmul_constant_zero_apply, ← Equiv.sum_comp (contrEquiv1 dot_S2000x128_S128x256_S2000x256_1_0_0_1_n_n 128 rfl rfl).symm]
  refine Finset.sum_congr rfl fun k _ => ?_
  have hk := contrEquiv1_symm_val dot_S2000x128_S128x256_S2000x256_1_0_0_1_n_n 128 rfl rfl k
  have el : dot_S2000x128_S128x256_S2000x256_1_0_0_1_n_n.lhsIdx (ix2 p q) ((contrEquiv1 dot_S2000x128_S128x256_S2000x256_1_0_0_1_n_n 128 rfl rfl).symm k) = ix2 p k := funext fun a => Fin.ext (by
    match a with
    | ⟨0, _⟩ => exact lhs_mm_0 _ _
    | ⟨1, _⟩ => exact (lhs_mm_1 _ _).trans hk)
  have er : dot_S2000x128_S128x256_S2000x256_1_0_0_1_n_n.rhsIdx (ix2 p q) ((contrEquiv1 dot_S2000x128_S128x256_S2000x256_1_0_0_1_n_n 128 rfl rfl).symm k) = ix2 k q := funext fun a => Fin.ext (by
    match a with
    | ⟨0, _⟩ => exact (rhs_mm_0 _ _).trans hk
    | ⟨1, _⟩ => exact rhs_mm_1 _ _)
  rw [el, er]

/-! ## The kernel's value at an entry of a tile -/

/-- Entry `(p, q)` of what the kernel computes from a tile of features, the weights and the bias row: the changes of
    float format are the identity at the ideal values, the matrix product is the sum over the contracted coordinate,
    and the bias row broadcast down the tile is read at `(0, q)`. -/
theorem pay1_apply (v0 : Vec Ideal S2000x128 .f32) (v2 : Vec Ideal S128x256 .f32) (v5 : Vec Ideal S1x256 .f32)
    (p : Fin 2000) (q : Fin 256) :
    Gen.k0_pay1 (F := Ideal) v0 v2 v5 (ix2 p q)
      = Spec.proj (fun p k => v0 (ix2 p k)) (fun k q => v2 (ix2 k q)) (fun q => v5 (ix2 0 q)) p q := by
  show matmul dot_S2000x128_S128x256_S2000x256_1_0_0_1_n_n none (truncf .bf16 v0 bitsLt_bf16_f32) (truncf .bf16 v2 bitsLt_bf16_f32)
        (constant (F := Ideal) S2000x256 .f32 0x00000000#32) (ix2 p q)
      + broadcastTo S2000x256 (shapeCast S1x256 v5 shapeCasts_S1x256_S1x256) broadcasts_S1x256_S2000x256 (ix2 p q) = _
  rw [mm_apply, Core.row_apply]
  rfl

/-- The copy in the narrower format is the same number at the ideal values. -/
theorem pay2_apply (v0 : Vec Ideal S2000x128 .f32) (v2 : Vec Ideal S128x256 .f32) (v5 : Vec Ideal S1x256 .f32)
    (j : S2000x256.Idx) :
    Gen.k0_pay2 (F := Ideal) v0 v2 v5 j = Gen.k0_pay1 (F := Ideal) v0 v2 v5 j := rfl

variable (V : (c : Dev nD) → (b : Ref sig .tc) → Buf (Elt Ideal) ((c : Thread nD τ).loc b))

theorem hz : (![0, 0] : Fin 2 → Nat) = fun _ => 0 := funext fun a => by fin_cases a <;> rfl

/-! ## The arrays the region finds, and a point's blocks of them, at their literal types -/

abbrev aX (c : Dev nD) : Vec Ideal S50000x128 .f32 := V c (Pipeline.arrRef spec0 0)
abbrev aW (c : Dev nD) : Vec Ideal S128x256 .f32 := V c (Pipeline.arrRef spec0 1)
abbrev aB (c : Dev nD) : Vec Ideal S1x256 .f32 := V c (Pipeline.arrRef spec0 2)

abbrev bX (c : Dev nD) (t : Fin cfg0.N) : Vec Ideal S2000x128 .f32 := iblk0 V c 0 t
abbrev bW (c : Dev nD) (t : Fin cfg0.N) : Vec Ideal S128x256 .f32 := iblk0 V c 1 t
abbrev bB (c : Dev nD) (t : Fin cfg0.N) : Vec Ideal S1x256 .f32 := iblk0 V c 2 t

/-! ## The printed index maps over the grid -/

/-- Point `t`'s blocks: the row-indexed windows sit at block row `t`, every other block index is `0`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ t.val < 25 :=
  (by decide +kernel : ∀ t : Fin grid0.N, _)

/-- The row of the whole array that row `p` of point `t`'s block is. -/
def grow (t : Fin cfg0.N) (p : Fin 2000) : Fin 50000 := ⟨t.val * 2000 + p.val, by
  have := (idx_facts t).2.2.2.2.2.2.2.2.2.2; have := p.isLt; omega⟩

/-! ## A point's blocks read off the arrays -/

theorem readX (c : Dev nD) (t : Fin cfg0.N) (p : Fin 2000) (k : Fin 128) : bX V c t (ix2 p k) = aX V c (ix2 (grow t p) k) := by
  obtain ⟨e0, e1, -⟩ := idx_facts t
  show V c (Pipeline.arrRef spec0 0) (((cfg0.win 0).blk t).view.emb (ix2 p k)) = V c (Pipeline.arrRef spec0 0) (ix2 (grow t p) k)
  refine congrArg _ (funext fun a => Fin.ext ?_)
  match a with
  | ⟨0, _⟩ => show win0_0.index t (0 : Fin 2) * 2000 + 1 * p.val = t.val * 2000 + p.val; omega
  | ⟨1, _⟩ => show win0_0.index t (1 : Fin 2) * 128 + 1 * k.val = k.val; omega

theorem readW (c : Dev nD) (t : Fin cfg0.N) (k : Fin 128) (q : Fin 256) : bW V c t (ix2 k q) = aW V c (ix2 k q) := by
  obtain ⟨-, -, e0, e1, -⟩ := idx_facts t
  show V c (Pipeline.arrRef spec0 1) (((cfg0.win 1).blk t).view.emb (ix2 k q)) = V c (Pipeline.arrRef spec0 1) (ix2 k q)
  refine congrArg _ (funext fun a => Fin.ext ?_)
  match a with
  | ⟨0, _⟩ => show win0_1.index t (0 : Fin 2) * 128 + 1 * k.val = k.val; omega
  | ⟨1, _⟩ => show win0_1.index t (1 : Fin 2) * 256 + 1 * q.val = q.val; omega

theorem readB (c : Dev nD) (t : Fin cfg0.N) (q : Fin 256) : bB V c t (ix2 0 q) = aB V c (ix2 0 q) := by
  obtain ⟨-, -, -, -, e0, e1, -⟩ := idx_facts t
  show V c (Pipeline.arrRef spec0 2) (((cfg0.win 2).blk t).view.emb (ix2 0 q)) = V c (Pipeline.arrRef spec0 2) (ix2 0 q)
  refine congrArg _ (funext fun a => Fin.ext ?_)
  match a with
  | ⟨0, _⟩ => show win0_2.index t (0 : Fin 2) * 1 + 1 * 0 = 0; omega
  | ⟨1, _⟩ => show win0_2.index t (1 : Fin 2) * 256 + 1 * q.val = q.val; omega

/-! ## What a point writes back -/

/-- The whole-array function of the arrays the region finds. -/
abbrev G (c : Dev nD) : S50000x256.Idx → EReal :=
  Whole.projG (aX V c) (aW V c) (aB V c)

/-- Entry `(p, q)` of what point `t` computes is entry `(2000 t + p, q)` of the whole-array function. -/
theorem point_apply (c : Dev nD) (t : Fin cfg0.N) (p : Fin 2000) (q : Fin 256) :
    Gen.k0_pay1 (F := Ideal) (bX V c t) (bW V c t) (bB V c t) (ix2 p q) = G V c (ix2 (grow t p) q) := by
  rw [pay1_apply (bX V c t) (bW V c t) (bB V c t) p q]
  show _ = Spec.proj _ _ _ (grow t p) q
  unfold Spec.proj
  simp only [readX V c t, readW V c t, readB V c t]

/-- The block of the first output at point `t`, embedded in the array. -/
theorem emb3 (t : Fin cfg0.N) (p : Fin 2000) (q : Fin 256) :
    ((cfg0.win 3).blk t).view.emb (ix2 p q) = ix2 (grow t p) q := by
  obtain ⟨-, -, -, -, -, -, e0, e1, -⟩ := idx_facts t
  refine funext fun a => Fin.ext ?_
  match a with
  | ⟨0, _⟩ => show win0_3.index t (0 : Fin 2) * 2000 + 1 * p.val = t.val * 2000 + p.val; omega
  | ⟨1, _⟩ => show win0_3.index t (1 : Fin 2) * 256 + 1 * q.val = q.val; omega

/-- The block of the second output at point `t`, embedded in the array. -/
theorem emb4 (t : Fin cfg0.N) (p : Fin 2000) (q : Fin 256) :
    ((cfg0.win 4).blk t).view.emb (ix2 p q) = ix2 (grow t p) q := by
  obtain ⟨-, -, -, -, -, -, -, -, e0, e1, -⟩ := idx_facts t
  refine funext fun a => Fin.ext ?_
  match a with
  | ⟨0, _⟩ => show win0_4.index t (0 : Fin 2) * 2000 + 1 * p.val = t.val * 2000 + p.val; omega
  | ⟨1, _⟩ => show win0_4.index t (1 : Fin 2) * 256 + 1 * q.val = q.val; omega

/-- What point `t` writes back to the first output is block `t` of the whole-array function. -/
theorem flushed3_eq (c : Dev nD) (t : Fin cfg0.N) :
    (dat0 V c).flushed 3 t = ((cfg0.win 3).blk t).view.read (Elt Ideal) (G V c) := by
  show (cfg0.win 3).cut (grid0.coords t) ((dat0 V c).after 3 t) = _
  rw [after0_3]
  unfold out0_3
  rw [View.canon_unit_zero hz]
  simp only [View.ld_unit_zero (S := S2000x128) hz, View.ld_unit_zero (S := S128x256) hz, View.ld_unit_zero (S := S1x256) hz]
  funext j
  obtain ⟨p, q, rfl⟩ : ∃ (p : Fin 2000) (q : Fin 256), j = ix2 p q := ⟨j 0, j 1, eq_ix2 j⟩
  show Gen.k0_pay1 (F := Ideal) (bX V c t) (bW V c t) (bB V c t) (ix2 p q)
    = G V c (((cfg0.win 3).blk t).view.emb (ix2 p q))
  rw [emb3 t p q]
  exact point_apply V c t p q

/-- The copy in the narrower format is the same number at the ideal values. -/
theorem flushed4_eq (c : Dev nD) (t : Fin cfg0.N) :
    (dat0 V c).flushed 4 t = ((cfg0.win 4).blk t).view.read (Elt Ideal) (G V c) := by
  show (cfg0.win 4).cut (grid0.coords t) ((dat0 V c).after 4 t) = _
  rw [after0_4]
  unfold out0_4
  rw [View.canon_unit_zero hz]
  simp only [View.ld_unit_zero (S := S2000x128) hz, View.ld_unit_zero (S := S128x256) hz, View.ld_unit_zero (S := S1x256) hz]
  funext j
  obtain ⟨p, q, rfl⟩ : ∃ (p : Fin 2000) (q : Fin 256), j = ix2 p q := ⟨j 0, j 1, eq_ix2 j⟩
  show Gen.k0_pay2 (F := Ideal) (bX V c t) (bW V c t) (bB V c t) (ix2 p q)
    = G V c (((cfg0.win 4).blk t).view.emb (ix2 p q))
  rw [pay2_apply (bX V c t) (bW V c t) (bB V c t) (ix2 p q), emb4 t p q]
  exact point_apply V c t p q

/-! ## The row blocks tile the array -/

theorem mem_blk3 (t : Fin cfg0.N) (i : S50000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v22_0).slice (win0_3.rect t)).set ↔ _
  rw [View.set_slice_whole, Rect.mem_set_unit]
  exact Iff.rfl

theorem mem_blk4 (t : Fin cfg0.N) (i : S50000x256.Idx) :
    i ∈ ((cfg0.win 4).blk t).view.set ↔ ∀ a : Fin 2, win0_4.index t a * S2000x256.size a ≤ (i a).val ∧ (i a).val < win0_4.index t a * S2000x256.size a + S2000x256.size a := by
  show i ∈ ((View.whole main_v22_1).slice (win0_4.rect t)).set ↔ _
  rw [View.set_slice_whole, Rect.mem_set_unit]
  exact Iff.rfl

/-- The point whose block holds row `r`. -/
def pointOf (i : S50000x256.Idx) : Fin cfg0.N := ⟨(i 0).val / 2000, by
  have h : (i 0).val < 50000 := (i 0).isLt
  show (i 0).val / 2000 < 25
  omega⟩

theorem cover3 (i : S50000x256.Idx) : ∃ t : Fin cfg0.N, (cfg0.win 3).flush t = true ∧ i ∈ ((cfg0.win 3).blk t).view.set := by
  refine ⟨pointOf i, flush0_3 _, ?_⟩
  rw [mem_blk3]
  obtain ⟨-, -, -, -, -, -, e0, e1, -⟩ := idx_facts (pointOf i)
  have h0 : (i 0).val < 50000 := (i 0).isLt
  have h1 : (i 1).val < 256 := (i 1).isLt
  have hp : (pointOf i).val = (i 0).val / 2000 := rfl
  intro a
  match a with
  | ⟨0, _⟩ => show win0_3.index (pointOf i) (0 : Fin 2) * 2000 ≤ (i 0).val ∧ (i 0).val < win0_3.index (pointOf i) (0 : Fin 2) * 2000 + 2000; omega
  | ⟨1, _⟩ => show win0_3.index (pointOf i) (1 : Fin 2) * 256 ≤ (i 1).val ∧ (i 1).val < win0_3.index (pointOf i) (1 : Fin 2) * 256 + 256; omega

theorem cover4 (i : S50000x256.Idx) : ∃ t : Fin cfg0.N, (cfg0.win 4).flush t = true ∧ i ∈ ((cfg0.win 4).blk t).view.set := by
  refine ⟨pointOf i, flush0_4 _, ?_⟩
  rw [mem_blk4]
  obtain ⟨-, -, -, -, -, -, -, -, e0, e1, -⟩ := idx_facts (pointOf i)
  have h0 : (i 0).val < 50000 := (i 0).isLt
  have h1 : (i 1).val < 256 := (i 1).isLt
  have hp : (pointOf i).val = (i 0).val / 2000 := rfl
  intro a
  match a with
  | ⟨0, _⟩ => show win0_4.index (pointOf i) (0 : Fin 2) * 2000 ≤ (i 0).val ∧ (i 0).val < win0_4.index (pointOf i) (0 : Fin 2) * 2000 + 2000; omega
  | ⟨1, _⟩ => show win0_4.index (pointOf i) (1 : Fin 2) * 256 ≤ (i 1).val ∧ (i 1).val < win0_4.index (pointOf i) (1 : Fin 2) * 256 + 256; omega

/-! ## The arrays after the region -/

/-- After the region the first output array is the whole-array function of the arrays the region found. -/
theorem final3 (c : Dev nD) : (dat0 V c).arrAt 3 cfg0.N = G V c :=
  (dat0 V c).arrAt_eq_of_cover 3 (G V c) (fun t _ => flushed3_eq V c t) (cover3)

/-- And so is the second. -/
theorem final4 (c : Dev nD) : (dat0 V c).arrAt 4 cfg0.N = G V c :=
  (dat0 V c).arrAt_eq_of_cover 4 (G V c) (fun t _ => flushed4_eq V c t) (cover4)

end Cert.KernelIdeal.Reg0

end
-- ==== Proof.Reg1.lean ====
/-
  A plain convolution kernel (a block's first convolution, its normalisation and the rectifier), as one function of whole arrays.

  The kernel runs on a grid of 25 points; point `t` loads rows `2000 t … 2000 t + 1999` of the aggregate, of the
  node features and of the inverse-count column, the two weight matrices and the four row vectors whole, and writes
  the same rows of its two outputs (the value, and a copy in the narrower float format, which at the ideal values is
  the same number).  Every entry it writes depends only on its own row of the row-indexed operands, so what point
  `t` writes back is the rows of ONE whole-array function, `Whole.sageG` of the arrays the region finds; the 25 row
  blocks tile the 50000 rows, so after the region each output array IS that function.
-/
import proofs.«421284_j80985903333882_3_alg».proof.Proof.Gen.KernelIdeal.Frame
import proofs.«421284_j80985903333882_3_alg».proof.Proof.Core
import proofs.«421284_j80985903333882_3_alg».proof.Proof.Whole

set_option maxRecDepth 16384

noncomputable section

open scoped BigOperators

namespace Cert.KernelIdeal.Reg1

open Idealize.ShloMosaic Idealize.ShloMosaic.TcCoe Idealize.ShloMosaic.ValueIdx Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## The arrays the region finds, and a point's blocks of them, at their literal types -/

abbrev aA (c : Dev nD) : Vec Ideal S50000x256 .f32 := V c (Pipeline.arrRef spec1 0)
abbrev aX (c : Dev nD) : Vec Ideal S50000x256 .f32 := V c (Pipeline.arrRef spec1 1)
abbrev aWl (c : Dev nD) : Vec Ideal S256x256 .f32 := V c (Pipeline.arrRef spec1 2)
abbrev aWr (c : Dev nD) : Vec Ideal S256x256 .f32 := V c (Pipeline.arrRef spec1 3)
abbrev aBl (c : Dev nD) : Vec Ideal S1x256 .f32 := V c (Pipeline.arrRef spec1 4)
abbrev aSc (c : Dev nD) : Vec Ideal S1x256 .f32 := V c (Pipeline.arrRef spec1 5)
abbrev aMn (c : Dev nD) : Vec Ideal S1x256 .f32 := V c (Pipeline.arrRef spec1 6)
abbrev aBs (c : Dev nD) : Vec Ideal S1x256 .f32 := V c (Pipeline.arrRef spec1 7)
abbrev aIv (c : Dev nD) : Vec Ideal S50000x1 .f32 := V c (Pipeline.arrRef spec1 8)

abbrev bA (c : Dev nD) (t : Fin cfg1.N) : Vec Ideal S2000x256 .f32 := iblk1 V c 0 t
abbrev bX (c : Dev nD) (t : Fin cfg1.N) : Vec Ideal S2000x256 .f32 := iblk1 V c 1 t
abbrev bWl (c : Dev nD) (t : Fin cfg1.N) : Vec Ideal S256x256 .f32 := iblk1 V c 2 t
abbrev bWr (c : Dev nD) (t : Fin cfg1.N) : Vec Ideal S256x256 .f32 := iblk1 V c 3 t
abbrev bBl (c : Dev nD) (t : Fin cfg1.N) : Vec Ideal S1x256 .f32 := iblk1 V c 4 t
abbrev bSc (c : Dev nD) (t : Fin cfg1.N) : Vec Ideal S1x256 .f32 := iblk1 V c 5 t
abbrev bMn (c : Dev nD) (t : Fin cfg1.N) : Vec Ideal S1x256 .f32 := iblk1 V c 6 t
abbrev bBs (c : Dev nD) (t : Fin cfg1.N) : Vec Ideal S1x256 .f32 := iblk1 V c 7 t
abbrev bIv (c : Dev nD) (t : Fin cfg1.N) : Vec Ideal S2000x1 .f32 := iblk1 V c 8 t

/-! ## The printed index maps over the grid -/

/-- Point `t`'s blocks: the row-indexed windows sit at block row `t`, every other block index is `0`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0
    ∧ win1_9.index t (0 : Fin 2) = t.val ∧ win1_9.index t (1 : Fin 2) = 0
    ∧ win1_10.index t (0 : Fin 2) = t.val ∧ win1_10.index t (1 : Fin 2) = 0
    ∧ t.val < 25 :=
  (by decide +kernel : ∀ t : Fin grid1.N, _)

/-- The row of the whole array that row `p` of point `t`'s block is. -/
def grow (t : Fin cfg1.N) (p : Fin 2000) : Fin 50000 := ⟨t.val * 2000 + p.val, by
  have := (idx_facts t).2.2.2.2.2.2.2.2.2.2.2.2.2.2.2.2.2.2.2.2.2.2; have := p.isLt; omega⟩

/-! ## A point's blocks read off the arrays -/

theorem readA (c : Dev nD) (t : Fin cfg1.N) (p : Fin 2000) (k : Fin 256) : bA V c t (ix2 p k) = aA V c (ix2 (grow t p) k) := by
  obtain ⟨e0, e1, -⟩ := idx_facts t
  show V c (Pipeline.arrRef spec1 0) (((cfg1.win 0).blk t).view.emb (ix2 p k)) = V c (Pipeline.arrRef spec1 0) (ix2 (grow t p) k)
  refine congrArg _ (funext fun a => Fin.ext ?_)
  match a with
  | ⟨0, _⟩ => show win1_0.index t (0 : Fin 2) * 2000 + 1 * p.val = t.val * 2000 + p.val; omega
  | ⟨1, _⟩ => show win1_0.index t (1 : Fin 2) * 256 + 1 * k.val = k.val; omega

theorem readX (c : Dev nD) (t : Fin cfg1.N) (p : Fin 2000) (k : Fin 256) : bX V c t (ix2 p k) = aX V c (ix2 (grow t p) k) := by
  obtain ⟨-, -, e0, e1, -⟩ := idx_facts t
  show V c (Pipeline.arrRef spec1 1) (((cfg1.win 1).blk t).view.emb (ix2 p k)) = V c (Pipeline.arrRef spec1 1) (ix2 (grow t p) k)
  refine congrArg _ (funext fun a => Fin.ext ?_)
  match a with
  | ⟨0, _⟩ => show win1_1.index t (0 : Fin 2) * 2000 + 1 * p.val = t.val * 2000 + p.val; omega
  | ⟨1, _⟩ => show win1_1.index t (1 : Fin 2) * 256 + 1 * k.val = k.val; omega

theorem readWl (c : Dev nD) (t : Fin cfg1.N) (k q : Fin 256) : bWl V c t (ix2 k q) = aWl V c (ix2 k q) := by
  obtain ⟨-, -, -, -, e0, e1, -⟩ := idx_facts t
  show V c (Pipeline.arrRef spec1 2) (((cfg1.win 2).blk t).view.emb (ix2 k q)) = V c (Pipeline.arrRef spec1 2) (ix2 k q)
  refine congrArg _ (funext fun a => Fin.ext ?_)
  match a with
  | ⟨0, _⟩ => show win1_2.index t (0 : Fin 2) * 256 + 1 * k.val = k.val; omega
  | ⟨1, _⟩ => show win1_2.index t (1 : Fin 2) * 256 + 1 * q.val = q.val; omega

theorem readWr (c : Dev nD) (t : Fin cfg1.N) (k q : Fin 256) : bWr V c t (ix2 k q) = aWr V c (ix2 k q) := by
  obtain ⟨-, -, -, -, -, -, e0, e1, -⟩ := idx_facts t
  show V c (Pipeline.arrRef spec1 3) (((cfg1.win 3).blk t).view.emb (ix2 k q)) = V c (Pipeline.arrRef spec1 3) (ix2 k q)
  refine congrArg _ (funext fun a => Fin.ext ?_)
  match a with
  | ⟨0, _⟩ => show win1_3.index t (0 : Fin 2) * 256 + 1 * k.val = k.val; omega
  | ⟨1, _⟩ => show win1_3.index t (1 : Fin 2) * 256 + 1 * q.val = q.val; omega

theorem readBl (c : Dev nD) (t : Fin cfg1.N) (q : Fin 256) : bBl V c t (ix2 0 q) = aBl V c (ix2 0 q) := by
  obtain ⟨-, -, -, -, -, -, -, -, e0, e1, -⟩ := idx_facts t
  show V c (Pipeline.arrRef spec1 4) (((cfg1.win 4).blk t).view.emb (ix2 0 q)) = V c (Pipeline.arrRef spec1 4) (ix2 0 q)
  refine congrArg _ (funext fun a => Fin.ext ?_)
  match a with
  | ⟨0, _⟩ => show win1_4.index t (0 : Fin 2) * 1 + 1 * 0 = 0; omega
  | ⟨1, _⟩ => show win1_4.index t (1 : Fin 2) * 256 + 1 * q.val = q.val; omega

theorem readSc (c : Dev nD) (t : Fin cfg1.N) (q : Fin 256) : bSc V c t (ix2 0 q) = aSc V c (ix2 0 q) := by
  obtain ⟨-, -, -, -, -, -, -, -, -, -, e0, e1, -⟩ := idx_facts t
  show V c (Pipeline.arrRef spec1 5) (((cfg1.win 5).blk t).view.emb (ix2 0 q)) = V c (Pipeline.arrRef spec1 5) (ix2 0 q)
  refine congrArg _ (funext fun a => Fin.ext ?_)
  match a with
  | ⟨0, _⟩ => show win1_5.index t (0 : Fin 2) * 1 + 1 * 0 = 0; omega
  | ⟨1, _⟩ => show win1_5.index t (1 : Fin 2) * 256 + 1 * q.val = q.val; omega

theorem readMn (c : Dev nD) (t : Fin cfg1.N) (q : Fin 256) : bMn V c t (ix2 0 q) = aMn V c (ix2 0 q) := by
  obtain ⟨-, -, -, -, -, -, -, -, -, -, -, -, e0, e1, -⟩ := idx_facts t
  show V c (Pipeline.arrRef spec1 6) (((cfg1.win 6).blk t).view.emb (ix2 0 q)) = V c (Pipeline.arrRef spec1 6) (ix2 0 q)
  refine congrArg _ (funext fun a => Fin.ext ?_)
  match a with
  | ⟨0, _⟩ => show win1_6.index t (0 : Fin 2) * 1 + 1 * 0 = 0; omega
  | ⟨1, _⟩ => show win1_6.index t (1 : Fin 2) * 256 + 1 * q.val = q.val; omega

theorem readBs (c : Dev nD) (t : Fin cfg1.N) (q : Fin 256) : bBs V c t (ix2 0 q) = aBs V c (ix2 0 q) := by
  obtain ⟨-, -, -, -, -, -, -, -, -, -, -, -, -, -, e0, e1, -⟩ := idx_facts t
  show V c (Pipeline.arrRef spec1 7) (((cfg1.win 7).blk t).view.emb (ix2 0 q)) = V c (Pipeline.arrRef spec1 7) (ix2 0 q)
  refine congrArg _ (funext fun a => Fin.ext ?_)
  match a with
  | ⟨0, _⟩ => show win1_7.index t (0 : Fin 2) * 1 + 1 * 0 = 0; omega
  | ⟨1, _⟩ => show win1_7.index t (1 : Fin 2) * 256 + 1 * q.val = q.val; omega

theorem readIv (c : Dev nD) (t : Fin cfg1.N) (p : Fin 2000) : bIv V c t (ix2 p 0) = aIv V c (ix2 (grow t p) 0) := by
  obtain ⟨-, -, -, -, -, -, -, -, -, -, -, -, -, -, -, -, e0, e1, -⟩ := idx_facts t
  show V c (Pipeline.arrRef spec1 8) (((cfg1.win 8).blk t).view.emb (ix2 p 0)) = V c (Pipeline.arrRef spec1 8) (ix2 (grow t p) 0)
  refine congrArg _ (funext fun a => Fin.ext ?_)
  match a with
  | ⟨0, _⟩ => show win1_8.index t (0 : Fin 2) * 2000 + 1 * p.val = t.val * 2000 + p.val; omega
  | ⟨1, _⟩ => show win1_8.index t (1 : Fin 2) * 1 + 1 * 0 = 0; omega

/-! ## What a point writes back -/

/-- The whole-array function of the arrays the region finds. -/
abbrev G (c : Dev nD) : S50000x256.Idx → EReal :=
  Whole.sageG (aA V c) (aX V c) (aWl V c) (aWr V c) (aBl V c) (aSc V c) (aMn V c) (aBs V c) (aIv V c)

/-- Entry `(p, q)` of what point `t` computes is entry `(2000 t + p, q)` of the whole-array function. -/
theorem point_apply (c : Dev nD) (t : Fin cfg1.N) (p : Fin 2000) (q : Fin 256) :
    Core.coreTerm (bA V c t) (bIv V c t) (bX V c t) (bWl V c t) (bWr V c t) (bBl V c t) (bMn V c t) (bSc V c t) (bBs V c t) (ix2 p q)
      = G V c (ix2 (grow t p) q) := by
  rw [Core.coreTerm_apply]
  show _ = Spec.sage _ _ _ _ _ _ _ _ (grow t p) q
  unfold Spec.sage
  simp only [readA V c t, readX V c t, readWl V c t, readWr V c t, readBl V c t, readSc V c t, readMn V c t, readBs V c t, readIv V c t]

/-- The block of the output at point `t`, embedded in the array. -/
theorem emb9 (t : Fin cfg1.N) (p : Fin 2000) (q : Fin 256) :
    ((cfg1.win 9).blk t).view.emb (ix2 p q) = ix2 (grow t p) q := by
  obtain ⟨-, -, -, -, -, -, -, -, -, -, -, -, -, -, -, -, -, -, e0, e1, -⟩ := idx_facts t
  refine funext fun a => Fin.ext ?_
  match a with
  | ⟨0, _⟩ => show win1_9.index t (0 : Fin 2) * 2000 + 1 * p.val = t.val * 2000 + p.val; omega
  | ⟨1, _⟩ => show win1_9.index t (1 : Fin 2) * 256 + 1 * q.val = q.val; omega

theorem emb10 (t : Fin cfg1.N) (p : Fin 2000) (q : Fin 256) :
    ((cfg1.win 10).blk t).view.emb (ix2 p q) = ix2 (grow t p) q := by
  obtain ⟨-, -, -, -, -, -, -, -, -, -, -, -, -, -, -, -, -, -, -, -, e0, e1, -⟩ := idx_facts t
  refine funext fun a => Fin.ext ?_
  match a with
  | ⟨0, _⟩ => show win1_10.index t (0 : Fin 2) * 2000 + 1 * p.val = t.val * 2000 + p.val; omega
  | ⟨1, _⟩ => show win1_10.index t (1 : Fin 2) * 256 + 1 * q.val = q.val; omega

/-- What point `t` writes back to the first output is block `t` of the whole-array function. -/
theorem flushed9_eq (c : Dev nD) (t : Fin cfg1.N) :
    (dat1 V c).flushed 9 t = ((cfg1.win 9).blk t).view.read (Elt Ideal) (G V c) := by
  show (cfg1.win 9).cut (grid1.coords t) ((dat1 V c).after 9 t) = _
  rw [after1_9]
  unfold out1_9
  rw [View.canon_unit_zero hz]
  simp only [View.ld_unit_zero (S := S2000x256) hz, View.ld_unit_zero (S := S2000x1) hz, View.ld_unit_zero (S := S256x256) hz, View.ld_unit_zero (S := S1x256) hz]
  funext j
  obtain ⟨p, q, rfl⟩ : ∃ (p : Fin 2000) (q : Fin 256), j = ix2 p q := ⟨j 0, j 1, eq_ix2 j⟩
  show Core.coreTerm (bA V c t) (bIv V c t) (bX V c t) (bWl V c t) (bWr V c t) (bBl V c t) (bMn V c t) (bSc V c t) (bBs V c t) (ix2 p q)
    = G V c (((cfg1.win 9).blk t).view.emb (ix2 p q))
  rw [emb9 t p q]
  exact point_apply V c t p q

/-- The copy in the narrower format is the same number at the ideal values. -/
theorem flushed10_eq (c : Dev nD) (t : Fin cfg1.N) :
    (dat1 V c).flushed 10 t = ((cfg1.win 10).blk t).view.read (Elt Ideal) (G V c) := by
  show (cfg1.win 10).cut (grid1.coords t) ((dat1 V c).after 10 t) = _
  rw [after1_10]
  unfold out1_10
  rw [View.canon_unit_zero hz]
  simp only [View.ld_unit_zero (S := S2000x256) hz, View.ld_unit_zero (S := S2000x1) hz, View.ld_unit_zero (S := S256x256) hz, View.ld_unit_zero (S := S1x256) hz]
  funext j
  obtain ⟨p, q, rfl⟩ : ∃ (p : Fin 2000) (q : Fin 256), j = ix2 p q := ⟨j 0, j 1, eq_ix2 j⟩
  show Core.coreTerm (bA V c t) (bIv V c t) (bX V c t) (bWl V c t) (bWr V c t) (bBl V c t) (bMn V c t) (bSc V c t) (bBs V c t) (ix2 p q)
    = G V c (((cfg1.win 10).blk t).view.emb (ix2 p q))
  rw [emb10 t p q]
  exact point_apply V c t p q

/-! ## The row blocks tile the array -/

theorem mem_blk9 (t : Fin cfg1.N) (i : S50000x256.Idx) :
    i ∈ ((cfg1.win 9).blk t).view.set ↔ ∀ a : Fin 2, win1_9.index t a * S2000x256.size a ≤ (i a).val ∧ (i a).val < win1_9.index t a * S2000x256.size a + S2000x256.size a := by
  show i ∈ ((View.whole main_v50_0).slice (win1_9.rect t)).set ↔ _
  rw [View.set_slice_whole, Rect.mem_set_unit]
  exact Iff.rfl

theorem mem_blk10 (t : Fin cfg1.N) (i : S50000x256.Idx) :
    i ∈ ((cfg1.win 10).blk t).view.set ↔ ∀ a : Fin 2, win1_10.index t a * S2000x256.size a ≤ (i a).val ∧ (i a).val < win1_10.index t a * S2000x256.size a + S2000x256.size a := by
  show i ∈ ((View.whole main_v50_1).slice (win1_10.rect t)).set ↔ _
  rw [View.set_slice_whole, Rect.mem_set_unit]
  exact Iff.rfl

/-- The point whose block holds row `r`. -/
def pointOf (i : S50000x256.Idx) : Fin cfg1.N := ⟨(i 0).val / 2000, by
  have h : (i 0).val < 50000 := (i 0).isLt
  show (i 0).val / 2000 < 25
  omega⟩

theorem cover9 (i : S50000x256.Idx) : ∃ t : Fin cfg1.N, (cfg1.win 9).flush t = true ∧ i ∈ ((cfg1.win 9).blk t).view.set := by
  refine ⟨pointOf i, flush1_9 _, ?_⟩
  rw [mem_blk9]
  obtain ⟨-, -, -, -, -, -, -, -, -, -, -, -, -, -, -, -, -, -, e0, e1, -⟩ := idx_facts (pointOf i)
  have h0 : (i 0).val < 50000 := (i 0).isLt
  have h1 : (i 1).val < 256 := (i 1).isLt
  have hp : (pointOf i).val = (i 0).val / 2000 := rfl
  intro a
  match a with
  | ⟨0, _⟩ => show win1_9.index (pointOf i) (0 : Fin 2) * 2000 ≤ (i 0).val ∧ (i 0).val < win1_9.index (pointOf i) (0 : Fin 2) * 2000 + 2000; omega
  | ⟨1, _⟩ => show win1_9.index (pointOf i) (1 : Fin 2) * 256 ≤ (i 1).val ∧ (i 1).val < win1_9.index (pointOf i) (1 : Fin 2) * 256 + 256; omega

theorem cover10 (i : S50000x256.Idx) : ∃ t : Fin cfg1.N, (cfg1.win 10).flush t = true ∧ i ∈ ((cfg1.win 10).blk t).view.set := by
  refine ⟨pointOf i, flush1_10 _, ?_⟩
  rw [mem_blk10]
  obtain ⟨-, -, -, -, -, -, -, -, -, -, -, -, -, -, -, -, -, -, -, -, e0, e1, -⟩ := idx_facts (pointOf i)
  have h0 : (i 0).val < 50000 := (i 0).isLt
  have h1 : (i 1).val < 256 := (i 1).isLt
  have hp : (pointOf i).val = (i 0).val / 2000 := rfl
  intro a
  match a with
  | ⟨0, _⟩ => show win1_10.index (pointOf i) (0 : Fin 2) * 2000 ≤ (i 0).val ∧ (i 0).val < win1_10.index (pointOf i) (0 : Fin 2) * 2000 + 2000; omega
  | ⟨1, _⟩ => show win1_10.index (pointOf i) (1 : Fin 2) * 256 ≤ (i 1).val ∧ (i 1).val < win1_10.index (pointOf i) (1 : Fin 2) * 256 + 256; omega

/-! ## The arrays after the region -/

/-- After the region the first output array is the whole-array function of the arrays the region found. -/
theorem final9 (c : Dev nD) : (dat1 V c).arrAt 9 cfg1.N = G V c :=
  (dat1 V c).arrAt_eq_of_cover 9 (G V c) (fun t _ => flushed9_eq V c t) (cover9)

/-- And so is the second. -/
theorem final10 (c : Dev nD) : (dat1 V c).arrAt 10 cfg1.N = G V c :=
  (dat1 V c).arrAt_eq_of_cover 10 (G V c) (fun t _ => flushed10_eq V c t) (cover10)

end Cert.KernelIdeal.Reg1

end
-- ==== Proof.RefStageA.lean ====
/-
  The reference program's stages read at an index, as the layer functions of the specification.

  The reference computes, row by row: the input projection; three blocks, each of two graph convolutions
  (the mean of the neighbours' rows times a left weight, plus a bias, plus the node's own row times a right
  weight), each followed by a normalisation (subtract the mean, multiply by gamma / sqrt (variance + eps),
  add beta) and the rectifier; and a two-layer classifier.  Every small operand of a stage (a weight matrix,
  a bias or a normalisation vector) reaches the stage through slices, reshapes and broadcasts only, so at an
  index (r, q) it is one entry of an argument of the program, at coordinates that depend on q (and on the
  summation index k) alone.  This module reads, for the projection, the first convolution of each block and
  the classifier, the stage's result at (r, q) as the corresponding specification function of those entries;
  the row-indexed operands (the previous stage's result, the neighbourhood sums and the neighbour counts)
  stay as the functions they are.
-/
import proofs.«421284_j80985903333882_3_alg».proof.Proof.RefRead
import proofs.«421284_j80985903333882_3_alg».proof.Proof.Spec

noncomputable section

open scoped BigOperators

namespace Cert.ReferenceIdeal.RefStageA

open Idealize.ShloMosaic Idealize.ShloMosaic.ValueIdx Cert.ReferenceIdeal Cert.ReferenceIdeal.Read

/-- the float `1.0` -/
local notation "one32" => Ideal.ofBits FTy.f32 0x3F800000#32
/-- the float `9.99999974E-6`, the normalisation's epsilon -/
local notation "eps32" => Ideal.ofBits FTy.f32 0x3727C5AC#32
/-- the float `0.0` -/
local notation "zero32" => Ideal.ofBits FTy.f32 0x00000000#32

variable (x0 : (⟨S50000x128, .f32⟩ : BufTy).Contents (Elt Ideal))
variable (x1 : (⟨S2x800000, .i32⟩ : BufTy).Contents (Elt Ideal))
variable (x2 : (⟨S128x256, .f32⟩ : BufTy).Contents (Elt Ideal))
variable (x3 : (⟨S256, .f32⟩ : BufTy).Contents (Elt Ideal))
variable (x4 : (⟨S3x256x256, .f32⟩ : BufTy).Contents (Elt Ideal))
variable (x5 : (⟨S3x256, .f32⟩ : BufTy).Contents (Elt Ideal))
variable (x6 x7 : (⟨S3x256x256, .f32⟩ : BufTy).Contents (Elt Ideal))
variable (x8 : (⟨S3x256, .f32⟩ : BufTy).Contents (Elt Ideal))
variable (x9 : (⟨S3x256x256, .f32⟩ : BufTy).Contents (Elt Ideal))
variable (x10 x11 x12 x13 x14 x15 x16 x17 : (⟨S3x256, .f32⟩ : BufTy).Contents (Elt Ideal))
variable (x18 : (⟨S2x256x256, .f32⟩ : BufTy).Contents (Elt Ideal))
variable (x19 : (⟨S2x256, .f32⟩ : BufTy).Contents (Elt Ideal))
variable (x20 : (⟨S256x128, .f32⟩ : BufTy).Contents (Elt Ideal))
variable (x21 : (⟨S128, .f32⟩ : BufTy).Contents (Elt Ideal))
variable (x22 : (⟨S128x40, .f32⟩ : BufTy).Contents (Elt Ideal))
variable (x23 : (⟨S40, .f32⟩ : BufTy).Contents (Elt Ideal))

/-! ## The projection -/

/-- The projection at `(r, q)`: the row of the features times the column of the weight, plus the bias. -/
theorem proj_at (r : Fin 50000) (q : Fin 256) :
    val_main_v7 (F := Ideal) x0 x2 x3 (ix2 r q)
      = Spec.proj (fun (r : Fin 50000) (k : Fin 128) => x0 (ix2 r k)) (fun (k : Fin 128) (q : Fin 256) => x2 (ix2 k q))
          (fun q : Fin 256 => x3 (ix1 q)) r q := by
  have eb : idx_main_v5 (idx_main_v6 (ix2 r q)) = ix1 q :=
    funext fun a => by match a with | ⟨0, _⟩ => rfl
  have el : ∀ k : Fin 128, lidx_main_v4 (ix2 r q) k = ix2 r k :=
    fun k => funext fun a => by match a with | ⟨0, _⟩ => rfl | ⟨1, _⟩ => rfl
  have er : ∀ k : Fin 128, ridx_main_v4 (ix2 r q) k = ix2 k q :=
    fun k => funext fun a => by match a with | ⟨0, _⟩ => rfl | ⟨1, _⟩ => rfl
  unfold Spec.proj
  rw [val_main_v7_apply, val_main_v4_apply, val_main_v6_apply, val_main_v5_apply, eb, Ideal.addf_def]
  congr 1
  exact Finset.sum_congr rfl fun k _ => by rw [el, er]

theorem proj_apply (i : S50000x256.Idx) :
    val_main_v7 (F := Ideal) x0 x2 x3 i
      = Spec.proj (fun (r : Fin 50000) (k : Fin 128) => x0 (ix2 r k)) (fun (k : Fin 128) (q : Fin 256) => x2 (ix2 k q))
          (fun q : Fin 256 => x3 (ix1 q)) (i 0) (i 1) := by
  obtain ⟨r, q, rfl⟩ : ∃ (r : Fin 50000) (q : Fin 256), i = ix2 r q := ⟨i 0, i 1, eq_ix2 i⟩
  exact proj_at x0 x2 x3 r q

/-! ## Block 0, the first convolution with its normalisation and rectifier -/

/-- The left weight at `(k, q)`: layer 0 of the stacked left weights. -/
theorem wl_0 (r : Fin 50000) (q k : Fin 256) :
    val_main_v9 (F := Ideal) x4 (ridx_main_v33 (ix2 r q) k) = x4 (ix3 0 k q) := by
  rw [val_main_v9_apply, val_main_v8_apply]
  refine congrArg x4 (funext fun a => Fin.ext ?_)
  have hk := k.isLt
  have hq := q.isLt
  match a with
  | ⟨0, _⟩ => rfl
  | ⟨1, _⟩ => show (k.val * 256 + q.val) / 256 % 256 = k.val; omega
  | ⟨2, _⟩ => show (k.val * 256 + q.val) % 256 = q.val; omega

/-- The right weight at `(k, q)`: layer 0 of the stacked right weights. -/
theorem wr_0 (r : Fin 50000) (q k : Fin 256) :
    val_main_v13 (F := Ideal) x6 (ridx_main_v37 (ix2 r q) k) = x6 (ix3 0 k q) := by
  rw [val_main_v13_apply, val_main_v12_apply]
  refine congrArg x6 (funext fun a => Fin.ext ?_)
  have hk := k.isLt
  have hq := q.isLt
  match a with
  | ⟨0, _⟩ => rfl
  | ⟨1, _⟩ => show (k.val * 256 + q.val) / 256 % 256 = k.val; omega
  | ⟨2, _⟩ => show (k.val * 256 + q.val) % 256 = q.val; omega

/-- The bias, broadcast along the rows, at `(r, q)`: row 0 of the stacked biases at `q`. -/
theorem bl_0 (r : Fin 50000) (q : Fin 256) :
    val_main_v35 (F := Ideal) x5 (ix2 r q) = x5 (ix2 0 q) := by
  rw [val_main_v35_apply, val_main_v34_apply, val_main_v11_apply, val_main_v10_apply]
  refine congrArg x5 (funext fun a => Fin.ext ?_)
  match a with
  | ⟨0, _⟩ => rfl
  | ⟨1, _⟩ => exact Nat.mod_eq_of_lt q.isLt

/-- The divisor of the neighbourhood mean, broadcast along the columns: the larger of row `r`'s neighbour count and one. -/
theorem cnt_0 (r : Fin 50000) (k : Fin 256) :
    val_main_v31 (F := Ideal) x1 (ix2 r k) = max (val_main_v27 (F := Ideal) x1 (ix1 r)) one32 := by
  have e : idx_main_v30 (idx_main_v31 (ix2 r k)) = ix1 r :=
    funext fun a => by match a with | ⟨0, _⟩ => rfl
  rw [val_main_v31_apply, val_main_v30_apply, val_main_v29_apply, val_main_v28_apply, val_main_cst_3_apply, e]
  rfl

/-- The neighbourhood mean at `(r, k)`, as the left operand of the product with the left weight. -/
theorem agg_0 (r : Fin 50000) (q k : Fin 256) :
    val_main_v32 (F := Ideal) x0 x1 x2 x3 (lidx_main_v33 (ix2 r q) k)
      = Ideal.div (val_main_v23 (F := Ideal) x0 x1 x2 x3 (ix2 r k)) (max (val_main_v27 (F := Ideal) x1 (ix1 r)) one32) := by
  have e : lidx_main_v33 (ix2 r q) k = ix2 r k :=
    funext fun a => by match a with | ⟨0, _⟩ => rfl | ⟨1, _⟩ => rfl
  rw [e, val_main_v32_apply, cnt_0]
  rfl

/-- The node's own row at `(r, k)`, as the left operand of the product with the right weight. -/
theorem own_0 (r : Fin 50000) (q k : Fin 256) :
    val_main_v7 (F := Ideal) x0 x2 x3 (lidx_main_v37 (ix2 r q) k) = val_main_v7 (F := Ideal) x0 x2 x3 (ix2 r k) :=
  congrArg _ (funext fun a => by match a with | ⟨0, _⟩ => rfl | ⟨1, _⟩ => rfl)

/-- The two products and the bias at `(r, q)`. -/
theorem conv_0 (r : Fin 50000) (q : Fin 256) :
    val_main_v38 (F := Ideal) x0 x1 x2 x3 x4 x5 x6 (ix2 r q)
      = ((∑ k : Fin 256, Ideal.div (val_main_v23 (F := Ideal) x0 x1 x2 x3 (ix2 r k)) (max (val_main_v27 (F := Ideal) x1 (ix1 r)) one32)
              * x4 (ix3 0 k q)) + x5 (ix2 0 q))
          + ∑ k : Fin 256, val_main_v7 (F := Ideal) x0 x2 x3 (ix2 r k) * x6 (ix3 0 k q) := by
  rw [val_main_v38_apply, val_main_v36_apply, val_main_v33_apply, val_main_v37_apply, bl_0]
  simp only [agg_0, wl_0, own_0, wr_0, Ideal.addf_def]

/-- The normalisation's mean at `(r, q)`. -/
theorem mn_0 (r : Fin 50000) (q : Fin 256) :
    val_main_v48 (F := Ideal) x12 (ix2 r q) = x12 (ix2 0 q) := by
  rw [val_main_v48_apply, val_main_v47_apply, val_main_v44_apply, val_main_v43_apply]
  refine congrArg x12 (funext fun a => Fin.ext ?_)
  match a with
  | ⟨0, _⟩ => rfl
  | ⟨1, _⟩ => exact Nat.mod_eq_of_lt q.isLt

/-- The normalisation's scale at `(r, q)`: gamma over the root of the variance plus epsilon. -/
theorem sc_0 (r : Fin 50000) (q : Fin 256) :
    val_main_v55 (F := Ideal) x10 x13 (ix2 r q) = x10 (ix2 0 q) * Ideal.rsqrt (x13 (ix2 0 q) + eps32) := by
  have eg : idx_main_v39 (idx_main_v40 (idx_main_v54 (idx_main_v55 (ix2 r q)))) = ix2 0 q :=
    funext fun a => Fin.ext (by
      match a with
      | ⟨0, _⟩ => rfl
      | ⟨1, _⟩ => exact Nat.mod_eq_of_lt q.isLt)
  have ev : idx_main_v45 (idx_main_v46 (idx_main_v54 (idx_main_v55 (ix2 r q)))) = ix2 0 q :=
    funext fun a => Fin.ext (by
      match a with
      | ⟨0, _⟩ => rfl
      | ⟨1, _⟩ => exact Nat.mod_eq_of_lt q.isLt)
  rw [val_main_v55_apply, val_main_v54_apply, val_main_v53_apply, val_main_v52_apply, val_main_v51_apply,
    val_main_v50_apply, val_main_cst_4_apply, val_main_v40_apply, val_main_v39_apply, val_main_v46_apply,
    val_main_v45_apply, eg, ev]
  rfl

/-- The normalisation's shift at `(r, q)`. -/
theorem bs_0 (r : Fin 50000) (q : Fin 256) :
    val_main_v58 (F := Ideal) x11 (ix2 r q) = x11 (ix2 0 q) := by
  rw [val_main_v58_apply, val_main_v57_apply, val_main_v42_apply, val_main_v41_apply]
  refine congrArg x11 (funext fun a => Fin.ext ?_)
  match a with
  | ⟨0, _⟩ => rfl
  | ⟨1, _⟩ => exact Nat.mod_eq_of_lt q.isLt

/-- The rectifier's zero, broadcast over the whole array. -/
theorem zero_0 (i : S50000x256.Idx) : val_main_call0_v0 (F := Ideal) i = zero32 := by
  rw [val_main_call0_v0_apply, val_main_call0_cst_apply]
  rfl

/-- Block 0's first convolution, normalised and rectified, at `(r, q)`. -/
theorem h1_0_at (r : Fin 50000) (q : Fin 256) :
    val_main_v60 (F := Ideal) x0 x1 x2 x3 x4 x5 x6 x10 x11 x12 x13 (ix2 r q)
      = Spec.sage
          (fun (r : Fin 50000) (k : Fin 256) =>
            Ideal.div (val_main_v23 (F := Ideal) x0 x1 x2 x3 (ix2 r k)) (max (val_main_v27 (F := Ideal) x1 (ix1 r)) one32))
          (fun (r : Fin 50000) (k : Fin 256) => val_main_v7 (F := Ideal) x0 x2 x3 (ix2 r k))
          (fun (k q : Fin 256) => x4 (ix3 0 k q)) (fun (k q : Fin 256) => x6 (ix3 0 k q)) (fun q : Fin 256 => x5 (ix2 0 q))
          (fun q : Fin 256 => x12 (ix2 0 q)) (fun q : Fin 256 => x10 (ix2 0 q) * Ideal.rsqrt (x13 (ix2 0 q) + eps32))
          (fun q : Fin 256 => x11 (ix2 0 q)) r q := by
  unfold Spec.sage
  rw [val_main_v60_apply, val_main_v59_apply, val_main_v56_apply, val_main_v49_apply, conv_0, mn_0, sc_0, bs_0, zero_0]
  rfl

theorem h1_0_apply (i : S50000x256.Idx) :
    val_main_v60 (F := Ideal) x0 x1 x2 x3 x4 x5 x6 x10 x11 x12 x13 i
      = Spec.sage
          (fun (r : Fin 50000) (k : Fin 256) =>
            Ideal.div (val_main_v23 (F := Ideal) x0 x1 x2 x3 (ix2 r k)) (max (val_main_v27 (F := Ideal) x1 (ix1 r)) one32))
          (fun (r : Fin 50000) (k : Fin 256) => val_main_v7 (F := Ideal) x0 x2 x3 (ix2 r k))
          (fun (k q : Fin 256) => x4 (ix3 0 k q)) (fun (k q : Fin 256) => x6 (ix3 0 k q)) (fun q : Fin 256 => x5 (ix2 0 q))
          (fun q : Fin 256 => x12 (ix2 0 q)) (fun q : Fin 256 => x10 (ix2 0 q) * Ideal.rsqrt (x13 (ix2 0 q) + eps32))
          (fun q : Fin 256 => x11 (ix2 0 q)) (i 0) (i 1) := by
  obtain ⟨r, q, rfl⟩ : ∃ (r : Fin 50000) (q : Fin 256), i = ix2 r q := ⟨i 0, i 1, eq_ix2 i⟩
  exact h1_0_at x0 x1 x2 x3 x4 x5 x6 x10 x11 x12 x13 r q

/-! ## Block 1, the first convolution with its normalisation and rectifier -/

/-- The left weight at `(k, q)`: layer 1 of the stacked left weights. -/
theorem wl_1 (r : Fin 50000) (q k : Fin 256) :
    val_main_v116 (F := Ideal) x4 (ridx_main_v140 (ix2 r q) k) = x4 (ix3 1 k q) := by
  rw [val_main_v116_apply, val_main_v115_apply]
  refine congrArg x4 (funext fun a => Fin.ext ?_)
  have hk := k.isLt
  have hq := q.isLt
  match a with
  | ⟨0, _⟩ => rfl
  | ⟨1, _⟩ => show (k.val * 256 + q.val) / 256 % 256 = k.val; omega
  | ⟨2, _⟩ => show (k.val * 256 + q.val) % 256 = q.val; omega

/-- The right weight at `(k, q)`: layer 1 of the stacked right weights. -/
theorem wr_1 (r : Fin 50000) (q k : Fin 256) :
    val_main_v120 (F := Ideal) x6 (ridx_main_v144 (ix2 r q) k) = x6 (ix3 1 k q) := by
  rw [val_main_v120_apply, val_main_v119_apply]
  refine congrArg x6 (funext fun a => Fin.ext ?_)
  have hk := k.isLt
  have hq := q.isLt
  match a with
  | ⟨0, _⟩ => rfl
  | ⟨1, _⟩ => show (k.val * 256 + q.val) / 256 % 256 = k.val; omega
  | ⟨2, _⟩ => show (k.val * 256 + q.val) % 256 = q.val; omega

/-- The bias, broadcast along the rows, at `(r, q)`: row 1 of the stacked biases at `q`. -/
theorem bl_1 (r : Fin 50000) (q : Fin 256) :
    val_main_v142 (F := Ideal) x5 (ix2 r q) = x5 (ix2 1 q) := by
  rw [val_main_v142_apply, val_main_v141_apply, val_main_v118_apply, val_main_v117_apply]
  refine congrArg x5 (funext fun a => Fin.ext ?_)
  match a with
  | ⟨0, _⟩ => rfl
  | ⟨1, _⟩ => exact Nat.mod_eq_of_lt q.isLt

/-- The divisor of the neighbourhood mean, broadcast along the columns: the larger of row `r`'s neighbour count and one. -/
theorem cnt_1 (r : Fin 50000) (k : Fin 256) :
    val_main_v138 (F := Ideal) x1 (ix2 r k) = max (val_main_v134 (F := Ideal) x1 (ix1 r)) one32 := by
  have e : idx_main_v137 (idx_main_v138 (ix2 r k)) = ix1 r :=
    funext fun a => by match a with | ⟨0, _⟩ => rfl
  rw [val_main_v138_apply, val_main_v137_apply, val_main_v136_apply, val_main_v135_apply, val_main_cst_17_apply, e]
  rfl

/-- The neighbourhood mean at `(r, k)`, as the left operand of the product with the left weight. -/
theorem agg_1 (r : Fin 50000) (q k : Fin 256) :
    val_main_v139 (F := Ideal) x0 x1 x2 x3 x4 x5 x6 x7 x8 x9 x10 x11 x12 x13 x14 x15 x16 x17 (lidx_main_v140 (ix2 r q) k)
      = Ideal.div (val_main_v130 (F := Ideal) x0 x1 x2 x3 x4 x5 x6 x7 x8 x9 x10 x11 x12 x13 x14 x15 x16 x17 (ix2 r k)) (max (val_main_v134 (F := Ideal) x1 (ix1 r)) one32) := by
  have e : lidx_main_v140 (ix2 r q) k = ix2 r k :=
    funext fun a => by match a with | ⟨0, _⟩ => rfl | ⟨1, _⟩ => rfl
  rw [e, val_main_v139_apply, cnt_1]
  rfl

/-- The node's own row at `(r, k)`, as the left operand of the product with the right weight. -/
theorem own_1 (r : Fin 50000) (q k : Fin 256) :
    val_main_v114 (F := Ideal) x0 x1 x2 x3 x4 x5 x6 x7 x8 x9 x10 x11 x12 x13 x14 x15 x16 x17 (lidx_main_v144 (ix2 r q) k) = val_main_v114 (F := Ideal) x0 x1 x2 x3 x4 x5 x6 x7 x8 x9 x10 x11 x12 x13 x14 x15 x16 x17 (ix2 r k) :=
  congrArg _ (funext fun a => by match a with | ⟨0, _⟩ => rfl | ⟨1, _⟩ => rfl)

/-- The two products and the bias at `(r, q)`. -/
theorem conv_1 (r : Fin 50000) (q : Fin 256) :
    val_main_v145 (F := Ideal) x0 x1 x2 x3 x4 x5 x6 x7 x8 x9 x10 x11 x12 x13 x14 x15 x16 x17 (ix2 r q)
      = ((∑ k : Fin 256, Ideal.div (val_main_v130 (F := Ideal) x0 x1 x2 x3 x4 x5 x6 x7 x8 x9 x10 x11 x12 x13 x14 x15 x16 x17 (ix2 r k)) (max (val_main_v134 (F := Ideal) x1 (ix1 r)) one32)
              * x4 (ix3 1 k q)) + x5 (ix2 1 q))
          + ∑ k : Fin 256, val_main_v114 (F := Ideal) x0 x1 x2 x3 x4 x5 x6 x7 x8 x9 x10 x11 x12 x13 x14 x15 x16 x17 (ix2 r k) * x6 (ix3 1 k q) := by
  rw [val_main_v145_apply, val_main_v143_apply, val_main_v140_apply, val_main_v144_apply, bl_1]
  simp only [agg_1, wl_1, own_1, wr_1, Ideal.addf_def]

/-- The normalisation's mean at `(r, q)`. -/
theorem mn_1 (r : Fin 50000) (q : Fin 256) :
    val_main_v155 (F := Ideal) x12 (ix2 r q) = x12 (ix2 1 q) := by
  rw [val_main_v155_apply, val_main_v154_apply, val_main_v151_apply, val_main_v150_apply]
  refine congrArg x12 (funext fun a => Fin.ext ?_)
  match a with
  | ⟨0, _⟩ => rfl
  | ⟨1, _⟩ => exact Nat.mod_eq_of_lt q.isLt

/-- The normalisation's scale at `(r, q)`: gamma over the root of the variance plus epsilon. -/
theorem sc_1 (r : Fin 50000) (q : Fin 256) :
    val_main_v162 (F := Ideal) x10 x13 (ix2 r q) = x10 (ix2 1 q) * Ideal.rsqrt (x13 (ix2 1 q) + eps32) := by
  have eg : idx_main_v146 (idx_main_v147 (idx_main_v161 (idx_main_v162 (ix2 r q)))) = ix2 1 q :=
    funext fun a => Fin.ext (by
      match a with
      | ⟨0, _⟩ => rfl
      | ⟨1, _⟩ => exact Nat.mod_eq_of_lt q.isLt)
  have ev : idx_main_v152 (idx_main_v153 (idx_main_v161 (idx_main_v162 (ix2 r q)))) = ix2 1 q :=
    funext fun a => Fin.ext (by
      match a with
      | ⟨0, _⟩ => rfl
      | ⟨1, _⟩ => exact Nat.mod_eq_of_lt q.isLt)
  rw [val_main_v162_apply, val_main_v161_apply, val_main_v160_apply, val_main_v159_apply, val_main_v158_apply,
    val_main_v157_apply, val_main_cst_18_apply, val_main_v147_apply, val_main_v146_apply, val_main_v153_apply,
    val_main_v152_apply, eg, ev]
  rfl

/-- The normalisation's shift at `(r, q)`. -/
theorem bs_1 (r : Fin 50000) (q : Fin 256) :
    val_main_v165 (F := Ideal) x11 (ix2 r q) = x11 (ix2 1 q) := by
  rw [val_main_v165_apply, val_main_v164_apply, val_main_v149_apply, val_main_v148_apply]
  refine congrArg x11 (funext fun a => Fin.ext ?_)
  match a with
  | ⟨0, _⟩ => rfl
  | ⟨1, _⟩ => exact Nat.mod_eq_of_lt q.isLt

/-- The rectifier's zero, broadcast over the whole array. -/
theorem zero_1 (i : S50000x256.Idx) : val_main_call2_v0 (F := Ideal) i = zero32 := by
  rw [val_main_call2_v0_apply, val_main_call2_cst_apply]
  rfl

/-- Block 1's first convolution, normalised and rectified, at `(r, q)`. -/
theorem h1_1_at (r : Fin 50000) (q : Fin 256) :
    val_main_v167 (F := Ideal) x0 x1 x2 x3 x4 x5 x6 x7 x8 x9 x10 x11 x12 x13 x14 x15 x16 x17 (ix2 r q)
      = Spec.sage
          (fun (r : Fin 50000) (k : Fin 256) =>
            Ideal.div (val_main_v130 (F := Ideal) x0 x1 x2 x3 x4 x5 x6 x7 x8 x9 x10 x11 x12 x13 x14 x15 x16 x17 (ix2 r k)) (max (val_main_v134 (F := Ideal) x1 (ix1 r)) one32))
          (fun (r : Fin 50000) (k : Fin 256) => val_main_v114 (F := Ideal) x0 x1 x2 x3 x4 x5 x6 x7 x8 x9 x10 x11 x12 x13 x14 x15 x16 x17 (ix2 r k))
          (fun (k q : Fin 256) => x4 (ix3 1 k q)) (fun (k q : Fin 256) => x6 (ix3 1 k q)) (fun q : Fin 256 => x5 (ix2 1 q))
          (fun q : Fin 256 => x12 (ix2 1 q)) (fun q : Fin 256 => x10 (ix2 1 q) * Ideal.rsqrt (x13 (ix2 1 q) + eps32))
          (fun q : Fin 256 => x11 (ix2 1 q)) r q := by
  unfold Spec.sage
  rw [val_main_v167_apply, val_main_v166_apply, val_main_v163_apply, val_main_v156_apply, conv_1, mn_1, sc_1, bs_1, zero_1]
  rfl

theorem h1_1_apply (i : S50000x256.Idx) :
    val_main_v167 (F := Ideal) x0 x1 x2 x3 x4 x5 x6 x7 x8 x9 x10 x11 x12 x13 x14 x15 x16 x17 i
      = Spec.sage
          (fun (r : Fin 50000) (k : Fin 256) =>
            Ideal.div (val_main_v130 (F := Ideal) x0 x1 x2 x3 x4 x5 x6 x7 x8 x9 x10 x11 x12 x13 x14 x15 x16 x17 (ix2 r k)) (max (val_main_v134 (F := Ideal) x1 (ix1 r)) one32))
          (fun (r : Fin 50000) (k : Fin 256) => val_main_v114 (F := Ideal) x0 x1 x2 x3 x4 x5 x6 x7 x8 x9 x10 x11 x12 x13 x14 x15 x16 x17 (ix2 r k))
          (fun (k q : Fin 256) => x4 (ix3 1 k q)) (fun (k q : Fin 256) => x6 (ix3 1 k q)) (fun q : Fin 256 => x5 (ix2 1 q))
          (fun q : Fin 256 => x12 (ix2 1 q)) (fun q : Fin 256 => x10 (ix2 1 q) * Ideal.rsqrt (x13 (ix2 1 q) + eps32))
          (fun q : Fin 256 => x11 (ix2 1 q)) (i 0) (i 1) := by
  obtain ⟨r, q, rfl⟩ : ∃ (r : Fin 50000) (q : Fin 256), i = ix2 r q := ⟨i 0, i 1, eq_ix2 i⟩
  exact h1_1_at x0 x1 x2 x3 x4 x5 x6 x7 x8 x9 x10 x11 x12 x13 x14 x15 x16 x17 r q

/-! ## Block 2, the first convolution with its normalisation and rectifier -/

/-- The left weight at `(k, q)`: layer 2 of the stacked left weights. -/
theorem wl_2 (r : Fin 50000) (q k : Fin 256) :
    val_main_v242 (F := Ideal) x4 (ridx_main_v266 (ix2 r q) k) = x4 (ix3 2 k q) := by
  rw [val_main_v242_apply, val_main_v241_apply]
  refine congrArg x4 (funext fun a => Fin.ext ?_)
  have hk := k.isLt
  have hq := q.isLt
  match a with
  | ⟨0, _⟩ => rfl
  | ⟨1, _⟩ => show (k.val * 256 + q.val) / 256 % 256 = k.val; omega
  | ⟨2, _⟩ => show (k.val * 256 + q.val) % 256 = q.val; omega

/-- The right weight at `(k, q)`: layer 2 of the stacked right weights. -/
theorem wr_2 (r : Fin 50000) (q k : Fin 256) :
    val_main_v246 (F := Ideal) x6 (ridx_main_v270 (ix2 r q) k) = x6 (ix3 2 k q) := by
  rw [val_main_v246_apply, val_main_v245_apply]
  refine congrArg x6 (funext fun a => Fin.ext ?_)
  have hk := k.isLt
  have hq := q.isLt
  match a with
  | ⟨0, _⟩ => rfl
  | ⟨1, _⟩ => show (k.val * 256 + q.val) / 256 % 256 = k.val; omega
  | ⟨2, _⟩ => show (k.val * 256 + q.val) % 256 = q.val; omega

/-- The bias, broadcast along the rows, at `(r, q)`: row 2 of the stacked biases at `q`. -/
theorem bl_2 (r : Fin 50000) (q : Fin 256) :
    val_main_v268 (F := Ideal) x5 (ix2 r q) = x5 (ix2 2 q) := by
  rw [val_main_v268_apply, val_main_v267_apply, val_main_v244_apply, val_main_v243_apply]
  refine congrArg x5 (funext fun a => Fin.ext ?_)
  match a with
  | ⟨0, _⟩ => rfl
  | ⟨1, _⟩ => exact Nat.mod_eq_of_lt q.isLt

/-- The divisor of the neighbourhood mean, broadcast along the columns: the larger of row `r`'s neighbour count and one. -/
theorem cnt_2 (r : Fin 50000) (k : Fin 256) :
    val_main_v264 (F := Ideal) x1 (ix2 r k) = max (val_main_v260 (F := Ideal) x1 (ix1 r)) one32 := by
  have e : idx_main_v263 (idx_main_v264 (ix2 r k)) = ix1 r :=
    funext fun a => by match a with | ⟨0, _⟩ => rfl
  rw [val_main_v264_apply, val_main_v263_apply, val_main_v262_apply, val_main_v261_apply, val_main_cst_34_apply, e]
  rfl

/-- The neighbourhood mean at `(r, k)`, as the left operand of the product with the left weight. -/
theorem agg_2 (r : Fin 50000) (q k : Fin 256) :
    val_main_v265 (F := Ideal) x0 x1 x2 x3 x4 x5 x6 x7 x8 x9 x10 x11 x12 x13 x14 x15 x16 x17 x18 x19 (lidx_main_v266 (ix2 r q) k)
      = Ideal.div (val_main_v256 (F := Ideal) x0 x1 x2 x3 x4 x5 x6 x7 x8 x9 x10 x11 x12 x13 x14 x15 x16 x17 x18 x19 (ix2 r k)) (max (val_main_v260 (F := Ideal) x1 (ix1 r)) one32) := by
  have e : lidx_main_v266 (ix2 r q) k = ix2 r k :=
    funext fun a => by match a with | ⟨0, _⟩ => rfl | ⟨1, _⟩ => rfl
  rw [e, val_main_v265_apply, cnt_2]
  rfl

/-- The node's own row at `(r, k)`, as the left operand of the product with the right weight. -/
theorem own_2 (r : Fin 50000) (q k : Fin 256) :
    val_main_v240 (F := Ideal) x0 x1 x2 x3 x4 x5 x6 x7 x8 x9 x10 x11 x12 x13 x14 x15 x16 x17 x18 x19 (lidx_main_v270 (ix2 r q) k) = val_main_v240 (F := Ideal) x0 x1 x2 x3 x4 x5 x6 x7 x8 x9 x10 x11 x12 x13 x14 x15 x16 x17 x18 x19 (ix2 r k) :=
  congrArg _ (funext fun a => by match a with | ⟨0, _⟩ => rfl | ⟨1, _⟩ => rfl)

/-- The two products and the bias at `(r, q)`. -/
theorem conv_2 (r : Fin 50000) (q : Fin 256) :
    val_main_v271 (F := Ideal) x0 x1 x2 x3 x4 x5 x6 x7 x8 x9 x10 x11 x12 x13 x14 x15 x16 x17 x18 x19 (ix2 r q)
      = ((∑ k : Fin 256, Ideal.div (val_main_v256 (F := Ideal) x0 x1 x2 x3 x4 x5 x6 x7 x8 x9 x10 x11 x12 x13 x14 x15 x16 x17 x18 x19 (ix2 r k)) (max (val_main_v260 (F := Ideal) x1 (ix1 r)) one32)
              * x4 (ix3 2 k q)) + x5 (ix2 2 q))
          + ∑ k : Fin 256, val_main_v240 (F := Ideal) x0 x1 x2 x3 x4 x5 x6 x7 x8 x9 x10 x11 x12 x13 x14 x15 x16 x17 x18 x19 (ix2 r k) * x6 (ix3 2 k q) := by
  rw [val_main_v271_apply, val_main_v269_apply, val_main_v266_apply, val_main_v270_apply, bl_2]
  simp only [agg_2, wl_2, own_2, wr_2, Ideal.addf_def]

/-- The normalisation's mean at `(r, q)`. -/
theorem mn_2 (r : Fin 50000) (q : Fin 256) :
    val_main_v281 (F := Ideal) x12 (ix2 r q) = x12 (ix2 2 q) := by
  rw [val_main_v281_apply, val_main_v280_apply, val_main_v277_apply, val_main_v276_apply]
  refine congrArg x12 (funext fun a => Fin.ext ?_)
  match a with
  | ⟨0, _⟩ => rfl
  | ⟨1, _⟩ => exact Nat.mod_eq_of_lt q.isLt

/-- The normalisation's scale at `(r, q)`: gamma over the root of the variance plus epsilon. -/
theorem sc_2 (r : Fin 50000) (q : Fin 256) :
    val_main_v288 (F := Ideal) x10 x13 (ix2 r q) = x10 (ix2 2 q) * Ideal.rsqrt (x13 (ix2 2 q) + eps32) := by
  have eg : idx_main_v272 (idx_main_v273 (idx_main_v287 (idx_main_v288 (ix2 r q)))) = ix2 2 q :=
    funext fun a => Fin.ext (by
      match a with
      | ⟨0, _⟩ => rfl
      | ⟨1, _⟩ => exact Nat.mod_eq_of_lt q.isLt)
  have ev : idx_main_v278 (idx_main_v279 (idx_main_v287 (idx_main_v288 (ix2 r q)))) = ix2 2 q :=
    funext fun a => Fin.ext (by
      match a with
      | ⟨0, _⟩ => rfl
      | ⟨1, _⟩ => exact Nat.mod_eq_of_lt q.isLt)
  rw [val_main_v288_apply, val_main_v287_apply, val_main_v286_apply, val_main_v285_apply, val_main_v284_apply,
    val_main_v283_apply, val_main_cst_35_apply, val_main_v273_apply, val_main_v272_apply, val_main_v279_apply,
    val_main_v278_apply, eg, ev]
  rfl

/-- The normalisation's shift at `(r, q)`. -/
theorem bs_2 (r : Fin 50000) (q : Fin 256) :
    val_main_v291 (F := Ideal) x11 (ix2 r q) = x11 (ix2 2 q) := by
  rw [val_main_v291_apply, val_main_v290_apply, val_main_v275_apply, val_main_v274_apply]
  refine congrArg x11 (funext fun a => Fin.ext ?_)
  match a with
  | ⟨0, _⟩ => rfl
  | ⟨1, _⟩ => exact Nat.mod_eq_of_lt q.isLt

/-- The rectifier's zero, broadcast over the whole array. -/
theorem zero_2 (i : S50000x256.Idx) : val_main_call4_v0 (F := Ideal) i = zero32 := by
  rw [val_main_call4_v0_apply, val_main_call4_cst_apply]
  rfl

/-- Block 2's first convolution, normalised and rectified, at `(r, q)`. -/
theorem h1_2_at (r : Fin 50000) (q : Fin 256) :
    val_main_v293 (F := Ideal) x0 x1 x2 x3 x4 x5 x6 x7 x8 x9 x10 x11 x12 x13 x14 x15 x16 x17 x18 x19 (ix2 r q)
      = Spec.sage
          (fun (r : Fin 50000) (k : Fin 256) =>
            Ideal.div (val_main_v256 (F := Ideal) x0 x1 x2 x3 x4 x5 x6 x7 x8 x9 x10 x11 x12 x13 x14 x15 x16 x17 x18 x19 (ix2 r k)) (max (val_main_v260 (F := Ideal) x1 (ix1 r)) one32))
          (fun (r : Fin 50000) (k : Fin 256) => val_main_v240 (F := Ideal) x0 x1 x2 x3 x4 x5 x6 x7 x8 x9 x10 x11 x12 x13 x14 x15 x16 x17 x18 x19 (ix2 r k))
          (fun (k q : Fin 256) => x4 (ix3 2 k q)) (fun (k q : Fin 256) => x6 (ix3 2 k q)) (fun q : Fin 256 => x5 (ix2 2 q))
          (fun q : Fin 256 => x12 (ix2 2 q)) (fun q : Fin 256 => x10 (ix2 2 q) * Ideal.rsqrt (x13 (ix2 2 q) + eps32))
          (fun q : Fin 256 => x11 (ix2 2 q)) r q := by
  unfold Spec.sage
  rw [val_main_v293_apply, val_main_v292_apply, val_main_v289_apply, val_main_v282_apply, conv_2, mn_2, sc_2, bs_2, zero_2]
  rfl

theorem h1_2_apply (i : S50000x256.Idx) :
    val_main_v293 (F := Ideal) x0 x1 x2 x3 x4 x5 x6 x7 x8 x9 x10 x11 x12 x13 x14 x15 x16 x17 x18 x19 i
      = Spec.sage
          (fun (r : Fin 50000) (k : Fin 256) =>
            Ideal.div (val_main_v256 (F := Ideal) x0 x1 x2 x3 x4 x5 x6 x7 x8 x9 x10 x11 x12 x13 x14 x15 x16 x17 x18 x19 (ix2 r k)) (max (val_main_v260 (F := Ideal) x1 (ix1 r)) one32))
          (fun (r : Fin 50000) (k : Fin 256) => val_main_v240 (F := Ideal) x0 x1 x2 x3 x4 x5 x6 x7 x8 x9 x10 x11 x12 x13 x14 x15 x16 x17 x18 x19 (ix2 r k))
          (fun (k q : Fin 256) => x4 (ix3 2 k q)) (fun (k q : Fin 256) => x6 (ix3 2 k q)) (fun q : Fin 256 => x5 (ix2 2 q))
          (fun q : Fin 256 => x12 (ix2 2 q)) (fun q : Fin 256 => x10 (ix2 2 q) * Ideal.rsqrt (x13 (ix2 2 q) + eps32))
          (fun q : Fin 256 => x11 (ix2 2 q)) (i 0) (i 1) := by
  obtain ⟨r, q, rfl⟩ : ∃ (r : Fin 50000) (q : Fin 256), i = ix2 r q := ⟨i 0, i 1, eq_ix2 i⟩
  exact h1_2_at x0 x1 x2 x3 x4 x5 x6 x7 x8 x9 x10 x11 x12 x13 x14 x15 x16 x17 x18 x19 r q

/-! ## The classifier -/

/-- The hidden layer at `(r, k)`: row `r` of the last block's result times column `k` of the first weight, plus the
    bias, rectified. -/
theorem hid_at (r : Fin 50000) (k : Fin 128) :
    val_main_v371 (F := Ideal) x0 x1 x2 x3 x4 x5 x6 x7 x8 x9 x10 x11 x12 x13 x14 x15 x16 x17 x18 x19 x20 x21 (ix2 r k)
      = max ((∑ l : Fin 256, val_main_v366 (F := Ideal) x0 x1 x2 x3 x4 x5 x6 x7 x8 x9 x10 x11 x12 x13 x14 x15 x16 x17 x18 x19 (ix2 r l)
                * x20 (ix2 l k)) + x21 (ix1 k)) zero32 := by
  have eb : idx_main_v368 (idx_main_v369 (ix2 r k)) = ix1 k :=
    funext fun a => by match a with | ⟨0, _⟩ => rfl
  have el : ∀ l : Fin 256,
      val_main_v366 (F := Ideal) x0 x1 x2 x3 x4 x5 x6 x7 x8 x9 x10 x11 x12 x13 x14 x15 x16 x17 x18 x19 (lidx_main_v367 (ix2 r k) l)
        = val_main_v366 (F := Ideal) x0 x1 x2 x3 x4 x5 x6 x7 x8 x9 x10 x11 x12 x13 x14 x15 x16 x17 x18 x19 (ix2 r l) :=
    fun l => congrArg _ (funext fun a => by match a with | ⟨0, _⟩ => rfl | ⟨1, _⟩ => rfl)
  have er : ∀ l : Fin 256, x20 (ridx_main_v367 (ix2 r k) l) = x20 (ix2 l k) :=
    fun l => congrArg _ (funext fun a => by match a with | ⟨0, _⟩ => rfl | ⟨1, _⟩ => rfl)
  rw [val_main_v371_apply, val_main_v370_apply, val_main_v367_apply, val_main_v369_apply, val_main_v368_apply, eb,
    val_main_call6_v0_apply, val_main_call6_cst_apply, Ideal.maximumf_def, Ideal.addf_def, Ideal.ofBits_def]
  simp only [el, er]

/-- The classifier's result at `(r, q)`. -/
theorem cls_at (r : Fin 50000) (q : Fin 40) :
    val_main_v375 (F := Ideal) x0 x1 x2 x3 x4 x5 x6 x7 x8 x9 x10 x11 x12 x13 x14 x15 x16 x17 x18 x19 x20 x21 x22 x23 (ix2 r q)
      = Spec.cls
          (fun (r : Fin 50000) (l : Fin 256) =>
            val_main_v366 (F := Ideal) x0 x1 x2 x3 x4 x5 x6 x7 x8 x9 x10 x11 x12 x13 x14 x15 x16 x17 x18 x19 (ix2 r l))
          (fun (l : Fin 256) (k : Fin 128) => x20 (ix2 l k)) (fun k : Fin 128 => x21 (ix1 k))
          (fun (k : Fin 128) (q : Fin 40) => x22 (ix2 k q)) (fun q : Fin 40 => x23 (ix1 q)) r q := by
  have eb : idx_main_v373 (idx_main_v374 (ix2 r q)) = ix1 q :=
    funext fun a => by match a with | ⟨0, _⟩ => rfl
  have el : ∀ k : Fin 128,
      val_main_v371 (F := Ideal) x0 x1 x2 x3 x4 x5 x6 x7 x8 x9 x10 x11 x12 x13 x14 x15 x16 x17 x18 x19 x20 x21 (lidx_main_v372 (ix2 r q) k)
        = val_main_v371 (F := Ideal) x0 x1 x2 x3 x4 x5 x6 x7 x8 x9 x10 x11 x12 x13 x14 x15 x16 x17 x18 x19 x20 x21 (ix2 r k) :=
    fun k => congrArg _ (funext fun a => by match a with | ⟨0, _⟩ => rfl | ⟨1, _⟩ => rfl)
  have er : ∀ k : Fin 128, x22 (ridx_main_v372 (ix2 r q) k) = x22 (ix2 k q) :=
    fun k => congrArg _ (funext fun a => by match a with | ⟨0, _⟩ => rfl | ⟨1, _⟩ => rfl)
  unfold Spec.cls
  rw [val_main_v375_apply, val_main_v372_apply, val_main_v374_apply, val_main_v373_apply, eb, Ideal.addf_def]
  simp only [el, er, hid_at]

theorem cls_apply (i : S50000x40.Idx) :
    val_main_v375 (F := Ideal) x0 x1 x2 x3 x4 x5 x6 x7 x8 x9 x10 x11 x12 x13 x14 x15 x16 x17 x18 x19 x20 x21 x22 x23 i
      = Spec.cls
          (fun (r : Fin 50000) (l : Fin 256) =>
            val_main_v366 (F := Ideal) x0 x1 x2 x3 x4 x5 x6 x7 x8 x9 x10 x11 x12 x13 x14 x15 x16 x17 x18 x19 (ix2 r l))
          (fun (l : Fin 256) (k : Fin 128) => x20 (ix2 l k)) (fun k : Fin 128 => x21 (ix1 k))
          (fun (k : Fin 128) (q : Fin 40) => x22 (ix2 k q)) (fun q : Fin 40 => x23 (ix1 q)) (i 0) (i 1) := by
  obtain ⟨r, q, rfl⟩ : ∃ (r : Fin 50000) (q : Fin 40), i = ix2 r q := ⟨i 0, i 1, eq_ix2 i⟩
  exact cls_at x0 x1 x2 x3 x4 x5 x6 x7 x8 x9 x10 x11 x12 x13 x14 x15 x16 x17 x18 x19 x20 x21 x22 x23 r q

end Cert.ReferenceIdeal.RefStageA

end
-- ==== Proof.RefAgg.lean ====
/-
  The reference aggregates over the graph's edges six times with the same operations, and counts the
  neighbours six times.

  An aggregate of a [50000, 256] array `h` is the scatter-add, into a zero array at the edges' destination rows,
  of the rows of `h` gathered at the edges' source rows (a negative source row is first moved up by 50000, as
  the gather's index normalisation does).  The program spells this out anew before each of its six convolutions:
  new zero constants, new broadcasts of the edge rows, a new comparison and selection for the sign.  All six
  spellings are the one function `aggOf` of the edge list and of the array aggregated; likewise the six
  neighbour counts (the scatter-add of ones at the destination rows) are one array.  Nothing here depends on the
  arithmetic: the statements hold for any float operations.
-/
import proofs.«421284_j80985903333882_3_alg».proof.Proof.RefRead

noncomputable section

namespace Cert.ReferenceIdeal.RefAgg

open Cert.ReferenceIdeal Cert.ReferenceIdeal.Gen Cert.ReferenceIdeal.Read Idealize.ShloMosaic Idealize.ShloMosaic.TcCoe
  Idealize.SL.Sem Idealize.ShloMosaic.StableHlo

variable {F : FTy → Type} [FloatOps F]

/-- the aggregate of a [50000,256] array `h` over the edge list `x1`: the scatter-add, at the destination rows, of
    `h`'s rows gathered at the (sign-normalised) source rows -/
def aggOf (x1 : (⟨S2x800000, .i32⟩ : BufTy).Contents (Elt F)) (h : (⟨S50000x256, .f32⟩ : BufTy).Contents (Elt F)) :
    (⟨S50000x256, .f32⟩ : BufTy).Contents (Elt F) :=
  Host.scatterAdd scatter_S50000x256_S800000x1_S800000x256_1_0_0_1 (val_main_v21 (F := F)) (val_main_v22 (F := F) x1)
    (Host.gather gather_S50000x256_S800000x1_S800000x256_1_0_n_n_0_1_1256 h (val_main_v19 (F := F) x1))

variable (x0 : (⟨S50000x128, .f32⟩ : BufTy).Contents (Elt F))
variable (x1 : (⟨S2x800000, .i32⟩ : BufTy).Contents (Elt F))
variable (x2 : (⟨S128x256, .f32⟩ : BufTy).Contents (Elt F))
variable (x3 : (⟨S256, .f32⟩ : BufTy).Contents (Elt F))
variable (x4 : (⟨S3x256x256, .f32⟩ : BufTy).Contents (Elt F))
variable (x5 : (⟨S3x256, .f32⟩ : BufTy).Contents (Elt F))
variable (x6 x7 : (⟨S3x256x256, .f32⟩ : BufTy).Contents (Elt F))
variable (x8 : (⟨S3x256, .f32⟩ : BufTy).Contents (Elt F))
variable (x9 : (⟨S3x256x256, .f32⟩ : BufTy).Contents (Elt F))
variable (x10 x11 x12 x13 x14 x15 x16 x17 : (⟨S3x256, .f32⟩ : BufTy).Contents (Elt F))
variable (x18 : (⟨S2x256x256, .f32⟩ : BufTy).Contents (Elt F))
variable (x19 : (⟨S2x256, .f32⟩ : BufTy).Contents (Elt F))

/-! ## The operands every aggregate shares

The sign-normalised source rows, the destination rows and the zero array are spelt six times; the later
spellings are the first one, one definition unfolded at a time. -/

/-- the second spelling of the source rows (before the gather of `%60`) is the first -/
theorem src_1 : val_main_v72 (F := F) x1 = val_main_v19 (F := F) x1 := rfl
/-- the third (before the gather of `%114`) -/
theorem src_2 : val_main_v126 (F := F) x1 = val_main_v19 (F := F) x1 := rfl
/-- the fourth (before the gather of `%167`) -/
theorem src_3 : val_main_v179 (F := F) x1 = val_main_v19 (F := F) x1 := rfl
/-- the fifth (before the gather of `%240`) -/
theorem src_4 : val_main_v252 (F := F) x1 = val_main_v19 (F := F) x1 := rfl
/-- the sixth (before the gather of `%293`) -/
theorem src_5 : val_main_v305 (F := F) x1 = val_main_v19 (F := F) x1 := rfl

/-- the later spellings of the destination rows are the first -/
theorem dst_1 : val_main_v75 (F := F) x1 = val_main_v22 (F := F) x1 := rfl
theorem dst_2 : val_main_v129 (F := F) x1 = val_main_v22 (F := F) x1 := rfl
theorem dst_3 : val_main_v182 (F := F) x1 = val_main_v22 (F := F) x1 := rfl
theorem dst_4 : val_main_v255 (F := F) x1 = val_main_v22 (F := F) x1 := rfl
theorem dst_5 : val_main_v308 (F := F) x1 = val_main_v22 (F := F) x1 := rfl

/-- the later spellings of the zero array the sums start from are the first -/
theorem zero_1 : val_main_v74 (F := F) = val_main_v21 (F := F) := rfl
theorem zero_2 : val_main_v128 (F := F) = val_main_v21 (F := F) := rfl
theorem zero_3 : val_main_v181 (F := F) = val_main_v21 (F := F) := rfl
theorem zero_4 : val_main_v254 (F := F) = val_main_v21 (F := F) := rfl
theorem zero_5 : val_main_v307 (F := F) = val_main_v21 (F := F) := rfl

/-! ## The six aggregates -/

/-- the aggregate before block 0's first convolution: of the projection -/
theorem agg_0 : val_main_v23 (F := F) x0 x1 x2 x3 = aggOf x1 (val_main_v7 (F := F) x0 x2 x3) := rfl

/-- before block 0's second convolution: of the first convolution's result -/
theorem agg_1 :
    val_main_v76 (F := F) x0 x1 x2 x3 x4 x5 x6 x10 x11 x12 x13
      = aggOf x1 (val_main_v60 (F := F) x0 x1 x2 x3 x4 x5 x6 x10 x11 x12 x13) := by
  unfold val_main_v76 val_main_v73 aggOf
  rw [src_1, dst_1, zero_1]

/-- before block 1's first convolution: of block 0's result -/
theorem agg_2 :
    val_main_v130 (F := F) x0 x1 x2 x3 x4 x5 x6 x7 x8 x9 x10 x11 x12 x13 x14 x15 x16 x17
      = aggOf x1 (val_main_v114 (F := F) x0 x1 x2 x3 x4 x5 x6 x7 x8 x9 x10 x11 x12 x13 x14 x15 x16 x17) := by
  unfold val_main_v130 val_main_v127 aggOf
  rw [src_2, dst_2, zero_2]

/-- before block 1's second convolution -/
theorem agg_3 :
    val_main_v183 (F := F) x0 x1 x2 x3 x4 x5 x6 x7 x8 x9 x10 x11 x12 x13 x14 x15 x16 x17
      = aggOf x1 (val_main_v167 (F := F) x0 x1 x2 x3 x4 x5 x6 x7 x8 x9 x10 x11 x12 x13 x14 x15 x16 x17) := by
  unfold val_main_v183 val_main_v180 aggOf
  rw [src_3, dst_3, zero_3]

/-- before block 2's first convolution: of block 1's result -/
theorem agg_4 :
    val_main_v256 (F := F) x0 x1 x2 x3 x4 x5 x6 x7 x8 x9 x10 x11 x12 x13 x14 x15 x16 x17 x18 x19
      = aggOf x1 (val_main_v240 (F := F) x0 x1 x2 x3 x4 x5 x6 x7 x8 x9 x10 x11 x12 x13 x14 x15 x16 x17 x18 x19) := by
  unfold val_main_v256 val_main_v253 aggOf
  rw [src_4, dst_4, zero_4]

/-- before block 2's second convolution -/
theorem agg_5 :
    val_main_v309 (F := F) x0 x1 x2 x3 x4 x5 x6 x7 x8 x9 x10 x11 x12 x13 x14 x15 x16 x17 x18 x19
      = aggOf x1 (val_main_v293 (F := F) x0 x1 x2 x3 x4 x5 x6 x7 x8 x9 x10 x11 x12 x13 x14 x15 x16 x17 x18 x19) := by
  unfold val_main_v309 val_main_v306 aggOf
  rw [src_5, dst_5, zero_5]

/-! ## The neighbour counts

Each count is the scatter-add of an array of ones into an array of zeros at the destination rows; the five later
spellings differ from the first in the names of the constants only. -/

theorem cnt_1 : val_main_v80 (F := F) x1 = val_main_v27 (F := F) x1 := rfl
theorem cnt_2 : val_main_v134 (F := F) x1 = val_main_v27 (F := F) x1 := rfl
theorem cnt_3 : val_main_v187 (F := F) x1 = val_main_v27 (F := F) x1 := rfl
theorem cnt_4 : val_main_v260 (F := F) x1 = val_main_v27 (F := F) x1 := rfl
theorem cnt_5 : val_main_v313 (F := F) x1 = val_main_v27 (F := F) x1 := rfl

end Cert.ReferenceIdeal.RefAgg

end
-- ==== Proof.KStage0.lean ====
/-
  The kernel program's stages equal the reference's, one stage at a time: the projection and the first convolution.

  After a region each of its output arrays is the region's whole-array function of the arrays it found
  (`Reg0.final3`, `Reg1.final9`, …); the reference's stage, read at an index, is the same layer function of ITS
  operands' coordinates (`RefStageA.proj_apply`, `h1_0_apply`, …).  So a stage's two sides agree once the operands'
  coordinates agree: a weight or bias is the program argument itself on both sides, the block's input is the stage
  before (the induction along the program), the aggregate is the same scatter-add of the same gather of it, and the
  neighbourhood mean is the aggregate times the reciprocal of the count on one side and the quotient by the count on
  the other — equal because the larger of the count and one is not zero.
-/
import proofs.«421284_j80985903333882_3_alg».proof.Proof.KeepMore
import proofs.«421284_j80985903333882_3_alg».proof.Proof.KBase
import proofs.«421284_j80985903333882_3_alg».proof.Proof.Reg0
import proofs.«421284_j80985903333882_3_alg».proof.Proof.Reg1
import proofs.«421284_j80985903333882_3_alg».proof.Proof.RefStageA
import proofs.«421284_j80985903333882_3_alg».proof.Proof.RefAgg

set_option maxRecDepth 16384

noncomputable section

open scoped BigOperators

namespace Cert.KernelIdeal.KChain

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (ρ : Dev nD → PrngReg)

/-- Widening after a gather is the gather, at the ideal values. -/
theorem extf_gather {s si t : Shape} {w : Nat} (d : GatherDims s si t) (x : FVec Ideal s .bf16) (idx : IVec si w) :
    (extf .f32 (Host.gather d x idx) bitsLt_bf16_f32 : FVec Ideal t .f32) = Host.gather d x idx := rfl

/-! ## The projection -/

/-- The projection stage: the first kernel's value output is the reference's projection. -/
theorem stageP (c : Dev nD) :
    (W2 m ρ c (Proc.devRef .tc main_v22_0) : S50000x256.Idx → EReal)
      = Cert.ReferenceIdeal.Read.val_main_v7 (F := Ideal) (m ((c : Thread nD τ).loc main_arg0))
          (m ((c : Thread nD τ).loc main_arg2)) (m ((c : Thread nD τ).loc main_arg3)) := by
  refine (W2_arr m ρ c 3).trans ((Reg0.final3 (V1 m ρ) c).trans ?_)
  funext i
  rw [Cert.ReferenceIdeal.RefStageA.proj_apply]
  show Spec.proj (fun r k => (W1 m ρ c (Proc.devRef .tc main_arg0) : Vec Ideal S50000x128 .f32) (ix2 r k))
      (fun k q => (W1 m ρ c (Proc.devRef .tc main_arg2) : Vec Ideal S128x256 .f32) (ix2 k q))
      (fun q => (W1 m ρ c (Proc.devRef .tc main_v21) : Vec Ideal S1x256 .f32) (ix2 0 q)) (i 0) (i 1) = _
  rw [Keep.at1 m ρ c main_arg0 (by decide), Keep.at1 m ρ c main_arg2 (by decide)]
  simp only [KBase.w1_bp m ρ c]

/-- And so is its copy in the narrower format. -/
theorem stageP' (c : Dev nD) :
    (W2 m ρ c (Proc.devRef .tc main_v22_1) : S50000x256.Idx → EReal)
      = Cert.ReferenceIdeal.Read.val_main_v7 (F := Ideal) (m ((c : Thread nD τ).loc main_arg0))
          (m ((c : Thread nD τ).loc main_arg2)) (m ((c : Thread nD τ).loc main_arg3)) :=
  ((W2_arr m ρ c 4).trans ((Reg0.final4 (V1 m ρ) c).trans (Reg0.final3 (V1 m ρ) c).symm)).trans
    ((W2_arr m ρ c 3).symm.trans (stageP m ρ c))

/-! ## The first convolution of block 0 -/

set_option maxRecDepth 200000 in
set_option maxHeartbeats 4000000 in
/-- The aggregate the second kernel is given: the aggregation of the projection's narrow copy. -/
theorem e1_A (c : Dev nD) :
    W3 m ρ c (Proc.devRef .tc main_v33)
      = Cert.ReferenceIdeal.RefAgg.aggOf (F := Ideal) (m ((c : Thread nD τ).loc main_arg1)) (W2 m ρ c (Proc.devRef .tc main_v22_1)) := by
  show StableHlo.after (hostOps1 (F := Ideal)) (W2 m ρ c) (Proc.devRef .tc main_v33) = _
  after_results
  rw [extf_gather, Keep.from1_2 m ρ c main_v3 (by decide), KBase.w1_dst, Keep.from1_2 m ρ c main_v1 (by decide), KBase.w1_src]
  rfl

set_option maxRecDepth 200000 in
set_option maxHeartbeats 4000000 in
theorem e1_Wl (c : Dev nD) (k q : Fin 256) :
    (W3 m ρ c (Proc.devRef .tc main_v35) : Vec Ideal S256x256 .f32) (ix2 k q)
      = (m ((c : Thread nD τ).loc main_arg4) : Vec Ideal S3x256x256 .f32) (ix3 0 k q) := by
  show StableHlo.after (hostOps1 (F := Ideal)) (W2 m ρ c) (Proc.devRef .tc main_v35) (ix2 k q) = _
  after_results
  rw [Keep.at2 m ρ c main_arg4 (by decide)]
  exact Layout.mat_apply _ (0 : Fin 3) _ _ k q

set_option maxRecDepth 200000 in
set_option maxHeartbeats 4000000 in
theorem e1_Wr (c : Dev nD) (k q : Fin 256) :
    (W3 m ρ c (Proc.devRef .tc main_v37) : Vec Ideal S256x256 .f32) (ix2 k q)
      = (m ((c : Thread nD τ).loc main_arg6) : Vec Ideal S3x256x256 .f32) (ix3 0 k q) := by
  show StableHlo.after (hostOps1 (F := Ideal)) (W2 m ρ c) (Proc.devRef .tc main_v37) (ix2 k q) = _
  after_results
  rw [Keep.at2 m ρ c main_arg6 (by decide)]
  exact Layout.mat_apply _ (0 : Fin 3) _ _ k q

set_option maxRecDepth 200000 in
set_option maxHeartbeats 4000000 in
theorem e1_bl (c : Dev nD) (q : Fin 256) :
    (W3 m ρ c (Proc.devRef .tc main_v46) : Vec Ideal S1x256 .f32) (ix2 0 q)
      = (m ((c : Thread nD τ).loc main_arg5) : Vec Ideal S3x256 .f32) (ix2 0 q) := by
  show StableHlo.after (hostOps1 (F := Ideal)) (W2 m ρ c) (Proc.devRef .tc main_v46) (ix2 0 q) = _
  after_results
  rw [Keep.at2 m ρ c main_arg5 (by decide)]
  exact Layout.rowvec_apply _ (0 : Fin 3) _ _ _ q

set_option maxRecDepth 200000 in
set_option maxHeartbeats 4000000 in
theorem e1_sc (c : Dev nD) (q : Fin 256) :
    Layout.re ((W3 m ρ c (Proc.devRef .tc main_v47) : Vec Ideal S1x256 .f32) (ix2 0 q))
      = Layout.re (m ((c : Thread nD τ).loc main_arg10) (ix2 (0 : Fin 3) q))
          * Ideal.rsqrt (Layout.re (m ((c : Thread nD τ).loc main_arg13) (ix2 (0 : Fin 3) q)) + Ideal.ofBits .f32 0x3727C5AC#32) := by
  show Layout.re (StableHlo.after (hostOps1 (F := Ideal)) (W2 m ρ c) (Proc.devRef .tc main_v47) (ix2 0 q)) = _
  after_results
  rw [Keep.from1_2 m ρ c main_v16 (by decide)]
  exact (Layout.rowvec_apply _ (0 : Fin 3) _ _ _ q).trans (KBase.w1_sc1 m ρ c 0 q)

set_option maxRecDepth 200000 in
set_option maxHeartbeats 4000000 in
theorem e1_mn (c : Dev nD) (q : Fin 256) :
    (W3 m ρ c (Proc.devRef .tc main_v48) : Vec Ideal S1x256 .f32) (ix2 0 q)
      = (m ((c : Thread nD τ).loc main_arg12) : Vec Ideal S3x256 .f32) (ix2 0 q) := by
  show StableHlo.after (hostOps1 (F := Ideal)) (W2 m ρ c) (Proc.devRef .tc main_v48) (ix2 0 q) = _
  after_results
  rw [Keep.at2 m ρ c main_arg12 (by decide)]
  exact Layout.rowvec_apply _ (0 : Fin 3) _ _ _ q

set_option maxRecDepth 200000 in
set_option maxHeartbeats 4000000 in
theorem e1_bs (c : Dev nD) (q : Fin 256) :
    (W3 m ρ c (Proc.devRef .tc main_v49) : Vec Ideal S1x256 .f32) (ix2 0 q)
      = (m ((c : Thread nD τ).loc main_arg11) : Vec Ideal S3x256 .f32) (ix2 0 q) := by
  show StableHlo.after (hostOps1 (F := Ideal)) (W2 m ρ c) (Proc.devRef .tc main_v49) (ix2 0 q) = _
  after_results
  rw [Keep.at2 m ρ c main_arg11 (by decide)]
  exact Layout.rowvec_apply _ (0 : Fin 3) _ _ _ q

/-- The inverse-count column as the second kernel finds it. -/
theorem e1_iv (c : Dev nD) (r : Fin 50000) :
    (W3 m ρ c (Proc.devRef .tc main_v12) : Vec Ideal S50000x1 .f32) (ix2 r 0)
      = Ideal.div (Ideal.ofBits .f32 0x3F800000#32)
          (max (Cert.ReferenceIdeal.Read.val_main_v27 (F := Ideal) (m ((c : Thread nD τ).loc main_arg1)) (ix1 r)) (Ideal.ofBits .f32 0x3F800000#32)) := by
  rw [Keep.from1_3 m ρ c main_v12 (by decide)]
  exact KBase.w1_inv m ρ c r

/-- The first convolution of block 0: the second kernel's value output is the reference's stage. -/
theorem stageH0 (c : Dev nD) :
    (W4 m ρ c (Proc.devRef .tc main_v50_0) : S50000x256.Idx → EReal)
      = Cert.ReferenceIdeal.Read.val_main_v60 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg10))
          (m ((c : Thread nD τ).loc main_arg11)) (m ((c : Thread nD τ).loc main_arg12)) (m ((c : Thread nD τ).loc main_arg13)) := by
  refine (W4_arr m ρ c 9).trans ((Reg1.final9 (V3 m ρ) c).trans ?_)
  funext i
  rw [Cert.ReferenceIdeal.RefStageA.h1_0_apply]
  show Spec.sage
      (fun r k => Layout.re ((W3 m ρ c (Proc.devRef .tc main_v33) : Vec Ideal S50000x256 .f32) (ix2 r k))
        * Layout.re ((W3 m ρ c (Proc.devRef .tc main_v12) : Vec Ideal S50000x1 .f32) (ix2 r 0)))
      (fun r k => (W3 m ρ c (Proc.devRef .tc main_v22_0) : Vec Ideal S50000x256 .f32) (ix2 r k))
      (fun k q => (W3 m ρ c (Proc.devRef .tc main_v35) : Vec Ideal S256x256 .f32) (ix2 k q))
      (fun k q => (W3 m ρ c (Proc.devRef .tc main_v37) : Vec Ideal S256x256 .f32) (ix2 k q))
      (fun q => (W3 m ρ c (Proc.devRef .tc main_v46) : Vec Ideal S1x256 .f32) (ix2 0 q))
      (fun q => (W3 m ρ c (Proc.devRef .tc main_v48) : Vec Ideal S1x256 .f32) (ix2 0 q))
      (fun q => Layout.re ((W3 m ρ c (Proc.devRef .tc main_v47) : Vec Ideal S1x256 .f32) (ix2 0 q)))
      (fun q => (W3 m ρ c (Proc.devRef .tc main_v49) : Vec Ideal S1x256 .f32) (ix2 0 q)) (i 0) (i 1) = _
  have hM : ∀ (r : Fin 50000) (k : Fin 256),
      Layout.re ((W3 m ρ c (Proc.devRef .tc main_v33) : Vec Ideal S50000x256 .f32) (ix2 r k))
        * Layout.re ((W3 m ρ c (Proc.devRef .tc main_v12) : Vec Ideal S50000x1 .f32) (ix2 r 0))
      = Ideal.div (Cert.ReferenceIdeal.Read.val_main_v23 (F := Ideal) (m ((c : Thread nD τ).loc main_arg0)) (m ((c : Thread nD τ).loc main_arg1))
          (m ((c : Thread nD τ).loc main_arg2)) (m ((c : Thread nD τ).loc main_arg3)) (ix2 r k))
          (max (Cert.ReferenceIdeal.Read.val_main_v27 (F := Ideal) (m ((c : Thread nD τ).loc main_arg1)) (ix1 r)) (Ideal.ofBits .f32 0x3F800000#32)) := by
    intro r k
    rw [e1_A m ρ c, stageP' m ρ c, ← Cert.ReferenceIdeal.RefAgg.agg_0, e1_iv m ρ c r]
    exact Spec.mul_div_one _ _ (Spec.max_one_ne_zero _)
  have hX : ∀ (r : Fin 50000) (k : Fin 256), (W3 m ρ c (Proc.devRef .tc main_v22_0) : Vec Ideal S50000x256 .f32) (ix2 r k)
      = Cert.ReferenceIdeal.Read.val_main_v7 (F := Ideal) (m ((c : Thread nD τ).loc main_arg0))
          (m ((c : Thread nD τ).loc main_arg2)) (m ((c : Thread nD τ).loc main_arg3)) (ix2 r k) := by
    intro r k
    rw [Keep.hopH1 m ρ c main_v22_0 (by decide), stageP]
  simp only [hM, hX, e1_Wl m ρ c, e1_Wr m ρ c, e1_bl m ρ c, e1_mn m ρ c, e1_sc m ρ c, e1_bs m ρ c]

/-- And so is its copy in the narrower format. -/
theorem stageH0' (c : Dev nD) :
    (W4 m ρ c (Proc.devRef .tc main_v50_1) : S50000x256.Idx → EReal)
      = Cert.ReferenceIdeal.Read.val_main_v60 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg10))
          (m ((c : Thread nD τ).loc main_arg11)) (m ((c : Thread nD τ).loc main_arg12)) (m ((c : Thread nD τ).loc main_arg13)) :=
  ((W4_arr m ρ c 10).trans ((Reg1.final10 (V3 m ρ) c).trans (Reg1.final9 (V3 m ρ) c).symm)).trans
    ((W4_arr m ρ c 9).symm.trans (stageH0 m ρ c))

end Cert.KernelIdeal.KChain

end
-- ==== Proof.Reg2.lean ====
/-
  The residual convolution kernel, as one function of whole arrays.

  The kernel runs on a grid of 25 points; point `t` loads rows `2000 t … 2000 t + 1999` of the aggregate, of the
  node features, of the inverse-count column and of the residual, the two weight matrices and the four row vectors
  whole, and writes the same rows of its two outputs: the rectified normalised convolution plus the residual, and a
  copy of it in the narrower float format, which at the ideal values is the same number.  Every entry it writes
  depends only on its own row of the row-indexed operands, so what point `t` writes back is the rows of ONE
  whole-array function, `Whole.sageResG` of the arrays the region finds; the 25 row blocks tile the 50000 rows, so
  after the region each output array IS that function.
-/
import proofs.«421284_j80985903333882_3_alg».proof.Proof.Gen.KernelIdeal.Frame
import proofs.«421284_j80985903333882_3_alg».proof.Proof.Core
import proofs.«421284_j80985903333882_3_alg».proof.Proof.Whole

set_option maxRecDepth 16384

noncomputable section

open scoped BigOperators

namespace Cert.KernelIdeal.Reg2

open Idealize.ShloMosaic Idealize.ShloMosaic.TcCoe Idealize.ShloMosaic.ValueIdx Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## The arrays the region finds, and a point's blocks of them, at their literal types -/

abbrev aA (c : Dev nD) : Vec Ideal S50000x256 .f32 := V c (Pipeline.arrRef spec2 0)
abbrev aX (c : Dev nD) : Vec Ideal S50000x256 .f32 := V c (Pipeline.arrRef spec2 1)
abbrev aWl (c : Dev nD) : Vec Ideal S256x256 .f32 := V c (Pipeline.arrRef spec2 2)
abbrev aWr (c : Dev nD) : Vec Ideal S256x256 .f32 := V c (Pipeline.arrRef spec2 3)
abbrev aBl (c : Dev nD) : Vec Ideal S1x256 .f32 := V c (Pipeline.arrRef spec2 4)
abbrev aSc (c : Dev nD) : Vec Ideal S1x256 .f32 := V c (Pipeline.arrRef spec2 5)
abbrev aMn (c : Dev nD) : Vec Ideal S1x256 .f32 := V c (Pipeline.arrRef spec2 6)
abbrev aBs (c : Dev nD) : Vec Ideal S1x256 .f32 := V c (Pipeline.arrRef spec2 7)
abbrev aIv (c : Dev nD) : Vec Ideal S50000x1 .f32 := V c (Pipeline.arrRef spec2 8)
abbrev aRes (c : Dev nD) : Vec Ideal S50000x256 .f32 := V c (Pipeline.arrRef spec2 9)

abbrev bA (c : Dev nD) (t : Fin cfg2.N) : Vec Ideal S2000x256 .f32 := iblk2 V c 0 t
abbrev bX (c : Dev nD) (t : Fin cfg2.N) : Vec Ideal S2000x256 .f32 := iblk2 V c 1 t
abbrev bWl (c : Dev nD) (t : Fin cfg2.N) : Vec Ideal S256x256 .f32 := iblk2 V c 2 t
abbrev bWr (c : Dev nD) (t : Fin cfg2.N) : Vec Ideal S256x256 .f32 := iblk2 V c 3 t
abbrev bBl (c : Dev nD) (t : Fin cfg2.N) : Vec Ideal S1x256 .f32 := iblk2 V c 4 t
abbrev bSc (c : Dev nD) (t : Fin cfg2.N) : Vec Ideal S1x256 .f32 := iblk2 V c 5 t
abbrev bMn (c : Dev nD) (t : Fin cfg2.N) : Vec Ideal S1x256 .f32 := iblk2 V c 6 t
abbrev bBs (c : Dev nD) (t : Fin cfg2.N) : Vec Ideal S1x256 .f32 := iblk2 V c 7 t
abbrev bIv (c : Dev nD) (t : Fin cfg2.N) : Vec Ideal S2000x1 .f32 := iblk2 V c 8 t
abbrev bRes (c : Dev nD) (t : Fin cfg2.N) : Vec Ideal S2000x256 .f32 := iblk2 V c 9 t

/-! ## The printed index maps over the grid -/

/-- Point `t`'s blocks: the row-indexed windows sit at block row `t`, every other block index is `0`. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = t.val ∧ win2_8.index t (1 : Fin 2) = 0
    ∧ win2_9.index t (0 : Fin 2) = t.val ∧ win2_9.index t (1 : Fin 2) = 0
    ∧ win2_10.index t (0 : Fin 2) = t.val ∧ win2_10.index t (1 : Fin 2) = 0
    ∧ win2_11.index t (0 : Fin 2) = t.val ∧ win2_11.index t (1 : Fin 2) = 0
    ∧ t.val < 25 :=
  (by decide +kernel : ∀ t : Fin grid2.N, _)

/-- The row of the whole array that row `p` of point `t`'s block is. -/
def grow (t : Fin cfg2.N) (p : Fin 2000) : Fin 50000 := ⟨t.val * 2000 + p.val, by
  have := (idx_facts t).2.2.2.2.2.2.2.2.2.2.2.2.2.2.2.2.2.2.2.2.2.2.2.2; have := p.isLt; omega⟩

/-! ## A point's blocks read off the arrays -/

theorem readA (c : Dev nD) (t : Fin cfg2.N) (p : Fin 2000) (k : Fin 256) : bA V c t (ix2 p k) = aA V c (ix2 (grow t p) k) := by
  obtain ⟨e0, e1, -⟩ := idx_facts t
  show V c (Pipeline.arrRef spec2 0) (((cfg2.win 0).blk t).view.emb (ix2 p k)) = V c (Pipeline.arrRef spec2 0) (ix2 (grow t p) k)
  refine congrArg _ (funext fun a => Fin.ext ?_)
  match a with
  | ⟨0, _⟩ => show win2_0.index t (0 : Fin 2) * 2000 + 1 * p.val = t.val * 2000 + p.val; omega
  | ⟨1, _⟩ => show win2_0.index t (1 : Fin 2) * 256 + 1 * k.val = k.val; omega

theorem readX (c : Dev nD) (t : Fin cfg2.N) (p : Fin 2000) (k : Fin 256) : bX V c t (ix2 p k) = aX V c (ix2 (grow t p) k) := by
  obtain ⟨-, -, e0, e1, -⟩ := idx_facts t
  show V c (Pipeline.arrRef spec2 1) (((cfg2.win 1).blk t).view.emb (ix2 p k)) = V c (Pipeline.arrRef spec2 1) (ix2 (grow t p) k)
  refine congrArg _ (funext fun a => Fin.ext ?_)
  match a with
  | ⟨0, _⟩ => show win2_1.index t (0 : Fin 2) * 2000 + 1 * p.val = t.val * 2000 + p.val; omega
  | ⟨1, _⟩ => show win2_1.index t (1 : Fin 2) * 256 + 1 * k.val = k.val; omega

theorem readWl (c : Dev nD) (t : Fin cfg2.N) (k q : Fin 256) : bWl V c t (ix2 k q) = aWl V c (ix2 k q) := by
  obtain ⟨-, -, -, -, e0, e1, -⟩ := idx_facts t
  show V c (Pipeline.arrRef spec2 2) (((cfg2.win 2).blk t).view.emb (ix2 k q)) = V c (Pipeline.arrRef spec2 2) (ix2 k q)
  refine congrArg _ (funext fun a => Fin.ext ?_)
  match a with
  | ⟨0, _⟩ => show win2_2.index t (0 : Fin 2) * 256 + 1 * k.val = k.val; omega
  | ⟨1, _⟩ => show win2_2.index t (1 : Fin 2) * 256 + 1 * q.val = q.val; omega

theorem readWr (c : Dev nD) (t : Fin cfg2.N) (k q : Fin 256) : bWr V c t (ix2 k q) = aWr V c (ix2 k q) := by
  obtain ⟨-, -, -, -, -, -, e0, e1, -⟩ := idx_facts t
  show V c (Pipeline.arrRef spec2 3) (((cfg2.win 3).blk t).view.emb (ix2 k q)) = V c (Pipeline.arrRef spec2 3) (ix2 k q)
  refine congrArg _ (funext fun a => Fin.ext ?_)
  match a with
  | ⟨0, _⟩ => show win2_3.index t (0 : Fin 2) * 256 + 1 * k.val = k.val; omega
  | ⟨1, _⟩ => show win2_3.index t (1 : Fin 2) * 256 + 1 * q.val = q.val; omega

theorem readBl (c : Dev nD) (t : Fin cfg2.N) (q : Fin 256) : bBl V c t (ix2 0 q) = aBl V c (ix2 0 q) := by
  obtain ⟨-, -, -, -, -, -, -, -, e0, e1, -⟩ := idx_facts t
  show V c (Pipeline.arrRef spec2 4) (((cfg2.win 4).blk t).view.emb (ix2 0 q)) = V c (Pipeline.arrRef spec2 4) (ix2 0 q)
  refine congrArg _ (funext fun a => Fin.ext ?_)
  match a with
  | ⟨0, _⟩ => show win2_4.index t (0 : Fin 2) * 1 + 1 * 0 = 0; omega
  | ⟨1, _⟩ => show win2_4.index t (1 : Fin 2) * 256 + 1 * q.val = q.val; omega

theorem readSc (c : Dev nD) (t : Fin cfg2.N) (q : Fin 256) : bSc V c t (ix2 0 q) = aSc V c (ix2 0 q) := by
  obtain ⟨-, -, -, -, -, -, -, -, -, -, e0, e1, -⟩ := idx_facts t
  show V c (Pipeline.arrRef spec2 5) (((cfg2.win 5).blk t).view.emb (ix2 0 q)) = V c (Pipeline.arrRef spec2 5) (ix2 0 q)
  refine congrArg _ (funext fun a => Fin.ext ?_)
  match a with
  | ⟨0, _⟩ => show win2_5.index t (0 : Fin 2) * 1 + 1 * 0 = 0; omega
  | ⟨1, _⟩ => show win2_5.index t (1 : Fin 2) * 256 + 1 * q.val = q.val; omega

theorem readMn (c : Dev nD) (t : Fin cfg2.N) (q : Fin 256) : bMn V c t (ix2 0 q) = aMn V c (ix2 0 q) := by
  obtain ⟨-, -, -, -, -, -, -, -, -, -, -, -, e0, e1, -⟩ := idx_facts t
  show V c (Pipeline.arrRef spec2 6) (((cfg2.win 6).blk t).view.emb (ix2 0 q)) = V c (Pipeline.arrRef spec2 6) (ix2 0 q)
  refine congrArg _ (funext fun a => Fin.ext ?_)
  match a with
  | ⟨0, _⟩ => show win2_6.index t (0 : Fin 2) * 1 + 1 * 0 = 0; omega
  | ⟨1, _⟩ => show win2_6.index t (1 : Fin 2) * 256 + 1 * q.val = q.val; omega

theorem readBs (c : Dev nD) (t : Fin cfg2.N) (q : Fin 256) : bBs V c t (ix2 0 q) = aBs V c (ix2 0 q) := by
  obtain ⟨-, -, -, -, -, -, -, -, -, -, -, -, -, -, e0, e1, -⟩ := idx_facts t
  show V c (Pipeline.arrRef spec2 7) (((cfg2.win 7).blk t).view.emb (ix2 0 q)) = V c (Pipeline.arrRef spec2 7) (ix2 0 q)
  refine congrArg _ (funext fun a => Fin.ext ?_)
  match a with
  | ⟨0, _⟩ => show win2_7.index t (0 : Fin 2) * 1 + 1 * 0 = 0; omega
  | ⟨1, _⟩ => show win2_7.index t (1 : Fin 2) * 256 + 1 * q.val = q.val; omega

theorem readIv (c : Dev nD) (t : Fin cfg2.N) (p : Fin 2000) : bIv V c t (ix2 p 0) = aIv V c (ix2 (grow t p) 0) := by
  obtain ⟨-, -, -, -, -, -, -, -, -, -, -, -, -, -, -, -, e0, e1, -⟩ := idx_facts t
  show V c (Pipeline.arrRef spec2 8) (((cfg2.win 8).blk t).view.emb (ix2 p 0)) = V c (Pipeline.arrRef spec2 8) (ix2 (grow t p) 0)
  refine congrArg _ (funext fun a => Fin.ext ?_)
  match a with
  | ⟨0, _⟩ => show win2_8.index t (0 : Fin 2) * 2000 + 1 * p.val = t.val * 2000 + p.val; omega
  | ⟨1, _⟩ => show win2_8.index t (1 : Fin 2) * 1 + 1 * 0 = 0; omega

theorem readRes (c : Dev nD) (t : Fin cfg2.N) (p : Fin 2000) (k : Fin 256) : bRes V c t (ix2 p k) = aRes V c (ix2 (grow t p) k) := by
  obtain ⟨-, -, -, -, -, -, -, -, -, -, -, -, -, -, -, -, -, -, e0, e1, -⟩ := idx_facts t
  show V c (Pipeline.arrRef spec2 9) (((cfg2.win 9).blk t).view.emb (ix2 p k)) = V c (Pipeline.arrRef spec2 9) (ix2 (grow t p) k)
  refine congrArg _ (funext fun a => Fin.ext ?_)
  match a with
  | ⟨0, _⟩ => show win2_9.index t (0 : Fin 2) * 2000 + 1 * p.val = t.val * 2000 + p.val; omega
  | ⟨1, _⟩ => show win2_9.index t (1 : Fin 2) * 256 + 1 * k.val = k.val; omega

/-! ## What a point writes back -/

/-- The whole-array function of the arrays the region finds. -/
abbrev G (c : Dev nD) : S50000x256.Idx → EReal :=
  Whole.sageResG (aA V c) (aX V c) (aWl V c) (aWr V c) (aBl V c) (aSc V c) (aMn V c) (aBs V c) (aIv V c) (aRes V c)

/-- Entry `(p, q)` of what point `t` computes is entry `(2000 t + p, q)` of the whole-array function. -/
theorem point_apply (c : Dev nD) (t : Fin cfg2.N) (p : Fin 2000) (q : Fin 256) :
    k2_pay1 (F := Ideal) (Core.coreTerm (bA V c t) (bIv V c t) (bX V c t) (bWl V c t) (bWr V c t) (bBl V c t) (bMn V c t) (bSc V c t) (bBs V c t)) (bRes V c t) (ix2 p q)
      = G V c (ix2 (grow t p) q) := by
  rw [Core.res_apply, Core.coreTerm_apply]
  show _ = Spec.sageRes _ _ _ _ _ _ _ _ _ (grow t p) q
  unfold Spec.sageRes Spec.sage
  simp only [readA V c t, readX V c t, readWl V c t, readWr V c t, readBl V c t, readSc V c t, readMn V c t, readBs V c t, readIv V c t, readRes V c t]

/-- The block of the first output at point `t`, embedded in the array. -/
theorem emb10 (t : Fin cfg2.N) (p : Fin 2000) (q : Fin 256) :
    ((cfg2.win 10).blk t).view.emb (ix2 p q) = ix2 (grow t p) q := by
  obtain ⟨-, -, -, -, -, -, -, -, -, -, -, -, -, -, -, -, -, -, -, -, e0, e1, -⟩ := idx_facts t
  refine funext fun a => Fin.ext ?_
  match a with
  | ⟨0, _⟩ => show win2_10.index t (0 : Fin 2) * 2000 + 1 * p.val = t.val * 2000 + p.val; omega
  | ⟨1, _⟩ => show win2_10.index t (1 : Fin 2) * 256 + 1 * q.val = q.val; omega

/-- The block of the second output at point `t`, embedded in the array. -/
theorem emb11 (t : Fin cfg2.N) (p : Fin 2000) (q : Fin 256) :
    ((cfg2.win 11).blk t).view.emb (ix2 p q) = ix2 (grow t p) q := by
  obtain ⟨-, -, -, -, -, -, -, -, -, -, -, -, -, -, -, -, -, -, -, -, -, -, e0, e1, -⟩ := idx_facts t
  refine funext fun a => Fin.ext ?_
  match a with
  | ⟨0, _⟩ => show win2_11.index t (0 : Fin 2) * 2000 + 1 * p.val = t.val * 2000 + p.val; omega
  | ⟨1, _⟩ => show win2_11.index t (1 : Fin 2) * 256 + 1 * q.val = q.val; omega

/-- What point `t` writes back to the first output is block `t` of the whole-array function. -/
theorem flushed10_eq (c : Dev nD) (t : Fin cfg2.N) :
    (dat2 V c).flushed 10 t = ((cfg2.win 10).blk t).view.read (Elt Ideal) (G V c) := by
  show (cfg2.win 10).cut (grid2.coords t) ((dat2 V c).after 10 t) = _
  rw [after2_10]
  unfold out2_10
  rw [View.canon_unit_zero hz]
  simp only [View.ld_unit_zero (S := S2000x256) hz, View.ld_unit_zero (S := S2000x1) hz, View.ld_unit_zero (S := S256x256) hz, View.ld_unit_zero (S := S1x256) hz]
  funext j
  obtain ⟨p, q, rfl⟩ : ∃ (p : Fin 2000) (q : Fin 256), j = ix2 p q := ⟨j 0, j 1, eq_ix2 j⟩
  show k2_pay1 (F := Ideal) (Core.coreTerm (bA V c t) (bIv V c t) (bX V c t) (bWl V c t) (bWr V c t) (bBl V c t) (bMn V c t) (bSc V c t) (bBs V c t)) (bRes V c t) (ix2 p q)
    = G V c (((cfg2.win 10).blk t).view.emb (ix2 p q))
  rw [emb10 t p q]
  exact point_apply V c t p q

/-- The copy in the narrower format is the same number at the ideal values. -/
theorem flushed11_eq (c : Dev nD) (t : Fin cfg2.N) :
    (dat2 V c).flushed 11 t = ((cfg2.win 11).blk t).view.read (Elt Ideal) (G V c) := by
  show (cfg2.win 11).cut (grid2.coords t) ((dat2 V c).after 11 t) = _
  rw [after2_11]
  unfold out2_11
  rw [View.canon_unit_zero hz]
  simp only [View.ld_unit_zero (S := S2000x256) hz, View.ld_unit_zero (S := S2000x1) hz, View.ld_unit_zero (S := S256x256) hz, View.ld_unit_zero (S := S1x256) hz]
  funext j
  obtain ⟨p, q, rfl⟩ : ∃ (p : Fin 2000) (q : Fin 256), j = ix2 p q := ⟨j 0, j 1, eq_ix2 j⟩
  show k2_pay1 (F := Ideal) (Core.coreTerm (bA V c t) (bIv V c t) (bX V c t) (bWl V c t) (bWr V c t) (bBl V c t) (bMn V c t) (bSc V c t) (bBs V c t)) (bRes V c t) (ix2 p q)
    = G V c (((cfg2.win 11).blk t).view.emb (ix2 p q))
  rw [emb11 t p q]
  exact point_apply V c t p q

/-! ## The row blocks tile the array -/

theorem mem_blk10 (t : Fin cfg2.N) (i : S50000x256.Idx) :
    i ∈ ((cfg2.win 10).blk t).view.set ↔ ∀ a : Fin 2, win2_10.index t a * S2000x256.size a ≤ (i a).val ∧ (i a).val < win2_10.index t a * S2000x256.size a + S2000x256.size a := by
  show i ∈ ((View.whole main_v78_0).slice (win2_10.rect t)).set ↔ _
  rw [View.set_slice_whole, Rect.mem_set_unit]
  exact Iff.rfl

theorem mem_blk11 (t : Fin cfg2.N) (i : S50000x256.Idx) :
    i ∈ ((cfg2.win 11).blk t).view.set ↔ ∀ a : Fin 2, win2_11.index t a * S2000x256.size a ≤ (i a).val ∧ (i a).val < win2_11.index t a * S2000x256.size a + S2000x256.size a := by
  show i ∈ ((View.whole main_v78_1).slice (win2_11.rect t)).set ↔ _
  rw [View.set_slice_whole, Rect.mem_set_unit]
  exact Iff.rfl

/-- The point whose block holds row `r`. -/
def pointOf (i : S50000x256.Idx) : Fin cfg2.N := ⟨(i 0).val / 2000, by
  have h : (i 0).val < 50000 := (i 0).isLt
  show (i 0).val / 2000 < 25
  omega⟩

theorem cover10 (i : S50000x256.Idx) : ∃ t : Fin cfg2.N, (cfg2.win 10).flush t = true ∧ i ∈ ((cfg2.win 10).blk t).view.set := by
  refine ⟨pointOf i, flush2_10 _, ?_⟩
  rw [mem_blk10]
  obtain ⟨-, -, -, -, -, -, -, -, -, -, -, -, -, -, -, -, -, -, -, -, e0, e1, -⟩ := idx_facts (pointOf i)
  have h0 : (i 0).val < 50000 := (i 0).isLt
  have h1 : (i 1).val < 256 := (i 1).isLt
  have hp : (pointOf i).val = (i 0).val / 2000 := rfl
  intro a
  match a with
  | ⟨0, _⟩ => show win2_10.index (pointOf i) (0 : Fin 2) * 2000 ≤ (i 0).val ∧ (i 0).val < win2_10.index (pointOf i) (0 : Fin 2) * 2000 + 2000; omega
  | ⟨1, _⟩ => show win2_10.index (pointOf i) (1 : Fin 2) * 256 ≤ (i 1).val ∧ (i 1).val < win2_10.index (pointOf i) (1 : Fin 2) * 256 + 256; omega

theorem cover11 (i : S50000x256.Idx) : ∃ t : Fin cfg2.N, (cfg2.win 11).flush t = true ∧ i ∈ ((cfg2.win 11).blk t).view.set := by
  refine ⟨pointOf i, flush2_11 _, ?_⟩
  rw [mem_blk11]
  obtain ⟨-, -, -, -, -, -, -, -, -, -, -, -, -, -, -, -, -, -, -, -, -, -, e0, e1, -⟩ := idx_facts (pointOf i)
  have h0 : (i 0).val < 50000 := (i 0).isLt
  have h1 : (i 1).val < 256 := (i 1).isLt
  have hp : (pointOf i).val = (i 0).val / 2000 := rfl
  intro a
  match a with
  | ⟨0, _⟩ => show win2_11.index (pointOf i) (0 : Fin 2) * 2000 ≤ (i 0).val ∧ (i 0).val < win2_11.index (pointOf i) (0 : Fin 2) * 2000 + 2000; omega
  | ⟨1, _⟩ => show win2_11.index (pointOf i) (1 : Fin 2) * 256 ≤ (i 1).val ∧ (i 1).val < win2_11.index (pointOf i) (1 : Fin 2) * 256 + 256; omega

/-! ## The arrays after the region -/

/-- After the region the first output array is the whole-array function of the arrays the region found. -/
theorem final10 (c : Dev nD) : (dat2 V c).arrAt 10 cfg2.N = G V c :=
  (dat2 V c).arrAt_eq_of_cover 10 (G V c) (fun t _ => flushed10_eq V c t) (cover10)

/-- And so is the second. -/
theorem final11 (c : Dev nD) : (dat2 V c).arrAt 11 cfg2.N = G V c :=
  (dat2 V c).arrAt_eq_of_cover 11 (G V c) (fun t _ => flushed11_eq V c t) (cover11)

end Cert.KernelIdeal.Reg2

end
-- ==== Proof.Reg3.lean ====
/-
  A plain convolution kernel (a block's first convolution, its normalisation and the rectifier), as one function of whole arrays.

  The kernel runs on a grid of 25 points; point `t` loads rows `2000 t … 2000 t + 1999` of the aggregate, of the
  node features and of the inverse-count column, the two weight matrices and the four row vectors whole, and writes
  the same rows of its two outputs (the value, and a copy in the narrower float format, which at the ideal values is
  the same number).  Every entry it writes depends only on its own row of the row-indexed operands, so what point
  `t` writes back is the rows of ONE whole-array function, `Whole.sageG` of the arrays the region finds; the 25 row
  blocks tile the 50000 rows, so after the region each output array IS that function.
-/
import proofs.«421284_j80985903333882_3_alg».proof.Proof.Gen.KernelIdeal.Frame
import proofs.«421284_j80985903333882_3_alg».proof.Proof.Core
import proofs.«421284_j80985903333882_3_alg».proof.Proof.Whole

set_option maxRecDepth 16384

noncomputable section

open scoped BigOperators

namespace Cert.KernelIdeal.Reg3

open Idealize.ShloMosaic Idealize.ShloMosaic.TcCoe Idealize.ShloMosaic.ValueIdx Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## The arrays the region finds, and a point's blocks of them, at their literal types -/

abbrev aA (c : Dev nD) : Vec Ideal S50000x256 .f32 := V c (Pipeline.arrRef spec3 0)
abbrev aX (c : Dev nD) : Vec Ideal S50000x256 .f32 := V c (Pipeline.arrRef spec3 1)
abbrev aWl (c : Dev nD) : Vec Ideal S256x256 .f32 := V c (Pipeline.arrRef spec3 2)
abbrev aWr (c : Dev nD) : Vec Ideal S256x256 .f32 := V c (Pipeline.arrRef spec3 3)
abbrev aBl (c : Dev nD) : Vec Ideal S1x256 .f32 := V c (Pipeline.arrRef spec3 4)
abbrev aSc (c : Dev nD) : Vec Ideal S1x256 .f32 := V c (Pipeline.arrRef spec3 5)
abbrev aMn (c : Dev nD) : Vec Ideal S1x256 .f32 := V c (Pipeline.arrRef spec3 6)
abbrev aBs (c : Dev nD) : Vec Ideal S1x256 .f32 := V c (Pipeline.arrRef spec3 7)
abbrev aIv (c : Dev nD) : Vec Ideal S50000x1 .f32 := V c (Pipeline.arrRef spec3 8)

abbrev bA (c : Dev nD) (t : Fin cfg3.N) : Vec Ideal S2000x256 .f32 := iblk3 V c 0 t
abbrev bX (c : Dev nD) (t : Fin cfg3.N) : Vec Ideal S2000x256 .f32 := iblk3 V c 1 t
abbrev bWl (c : Dev nD) (t : Fin cfg3.N) : Vec Ideal S256x256 .f32 := iblk3 V c 2 t
abbrev bWr (c : Dev nD) (t : Fin cfg3.N) : Vec Ideal S256x256 .f32 := iblk3 V c 3 t
abbrev bBl (c : Dev nD) (t : Fin cfg3.N) : Vec Ideal S1x256 .f32 := iblk3 V c 4 t
abbrev bSc (c : Dev nD) (t : Fin cfg3.N) : Vec Ideal S1x256 .f32 := iblk3 V c 5 t
abbrev bMn (c : Dev nD) (t : Fin cfg3.N) : Vec Ideal S1x256 .f32 := iblk3 V c 6 t
abbrev bBs (c : Dev nD) (t : Fin cfg3.N) : Vec Ideal S1x256 .f32 := iblk3 V c 7 t
abbrev bIv (c : Dev nD) (t : Fin cfg3.N) : Vec Ideal S2000x1 .f32 := iblk3 V c 8 t

/-! ## The printed index maps over the grid -/

/-- Point `t`'s blocks: the row-indexed windows sit at block row `t`, every other block index is `0`. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = t.val ∧ win3_8.index t (1 : Fin 2) = 0
    ∧ win3_9.index t (0 : Fin 2) = t.val ∧ win3_9.index t (1 : Fin 2) = 0
    ∧ win3_10.index t (0 : Fin 2) = t.val ∧ win3_10.index t (1 : Fin 2) = 0
    ∧ t.val < 25 :=
  (by decide +kernel : ∀ t : Fin grid3.N, _)

/-- The row of the whole array that row `p` of point `t`'s block is. -/
def grow (t : Fin cfg3.N) (p : Fin 2000) : Fin 50000 := ⟨t.val * 2000 + p.val, by
  have := (idx_facts t).2.2.2.2.2.2.2.2.2.2.2.2.2.2.2.2.2.2.2.2.2.2; have := p.isLt; omega⟩

/-! ## A point's blocks read off the arrays -/

theorem readA (c : Dev nD) (t : Fin cfg3.N) (p : Fin 2000) (k : Fin 256) : bA V c t (ix2 p k) = aA V c (ix2 (grow t p) k) := by
  obtain ⟨e0, e1, -⟩ := idx_facts t
  show V c (Pipeline.arrRef spec3 0) (((cfg3.win 0).blk t).view.emb (ix2 p k)) = V c (Pipeline.arrRef spec3 0) (ix2 (grow t p) k)
  refine congrArg _ (funext fun a => Fin.ext ?_)
  match a with
  | ⟨0, _⟩ => show win3_0.index t (0 : Fin 2) * 2000 + 1 * p.val = t.val * 2000 + p.val; omega
  | ⟨1, _⟩ => show win3_0.index t (1 : Fin 2) * 256 + 1 * k.val = k.val; omega

theorem readX (c : Dev nD) (t : Fin cfg3.N) (p : Fin 2000) (k : Fin 256) : bX V c t (ix2 p k) = aX V c (ix2 (grow t p) k) := by
  obtain ⟨-, -, e0, e1, -⟩ := idx_facts t
  show V c (Pipeline.arrRef spec3 1) (((cfg3.win 1).blk t).view.emb (ix2 p k)) = V c (Pipeline.arrRef spec3 1) (ix2 (grow t p) k)
  refine congrArg _ (funext fun a => Fin.ext ?_)
  match a with
  | ⟨0, _⟩ => show win3_1.index t (0 : Fin 2) * 2000 + 1 * p.val = t.val * 2000 + p.val; omega
  | ⟨1, _⟩ => show win3_1.index t (1 : Fin 2) * 256 + 1 * k.val = k.val; omega

theorem readWl (c : Dev nD) (t : Fin cfg3.N) (k q : Fin 256) : bWl V c t (ix2 k q) = aWl V c (ix2 k q) := by
  obtain ⟨-, -, -, -, e0, e1, -⟩ := idx_facts t
  show V c (Pipeline.arrRef spec3 2) (((cfg3.win 2).blk t).view.emb (ix2 k q)) = V c (Pipeline.arrRef spec3 2) (ix2 k q)
  refine congrArg _ (funext fun a => Fin.ext ?_)
  match a with
  | ⟨0, _⟩ => show win3_2.index t (0 : Fin 2) * 256 + 1 * k.val = k.val; omega
  | ⟨1, _⟩ => show win3_2.index t (1 : Fin 2) * 256 + 1 * q.val = q.val; omega

theorem readWr (c : Dev nD) (t : Fin cfg3.N) (k q : Fin 256) : bWr V c t (ix2 k q) = aWr V c (ix2 k q) := by
  obtain ⟨-, -, -, -, -, -, e0, e1, -⟩ := idx_facts t
  show V c (Pipeline.arrRef spec3 3) (((cfg3.win 3).blk t).view.emb (ix2 k q)) = V c (Pipeline.arrRef spec3 3) (ix2 k q)
  refine congrArg _ (funext fun a => Fin.ext ?_)
  match a with
  | ⟨0, _⟩ => show win3_3.index t (0 : Fin 2) * 256 + 1 * k.val = k.val; omega
  | ⟨1, _⟩ => show win3_3.index t (1 : Fin 2) * 256 + 1 * q.val = q.val; omega

theorem readBl (c : Dev nD) (t : Fin cfg3.N) (q : Fin 256) : bBl V c t (ix2 0 q) = aBl V c (ix2 0 q) := by
  obtain ⟨-, -, -, -, -, -, -, -, e0, e1, -⟩ := idx_facts t
  show V c (Pipeline.arrRef spec3 4) (((cfg3.win 4).blk t).view.emb (ix2 0 q)) = V c (Pipeline.arrRef spec3 4) (ix2 0 q)
  refine congrArg _ (funext fun a => Fin.ext ?_)
  match a with
  | ⟨0, _⟩ => show win3_4.index t (0 : Fin 2) * 1 + 1 * 0 = 0; omega
  | ⟨1, _⟩ => show win3_4.index t (1 : Fin 2) * 256 + 1 * q.val = q.val; omega

theorem readSc (c : Dev nD) (t : Fin cfg3.N) (q : Fin 256) : bSc V c t (ix2 0 q) = aSc V c (ix2 0 q) := by
  obtain ⟨-, -, -, -, -, -, -, -, -, -, e0, e1, -⟩ := idx_facts t
  show V c (Pipeline.arrRef spec3 5) (((cfg3.win 5).blk t).view.emb (ix2 0 q)) = V c (Pipeline.arrRef spec3 5) (ix2 0 q)
  refine congrArg _ (funext fun a => Fin.ext ?_)
  match a with
  | ⟨0, _⟩ => show win3_5.index t (0 : Fin 2) * 1 + 1 * 0 = 0; omega
  | ⟨1, _⟩ => show win3_5.index t (1 : Fin 2) * 256 + 1 * q.val = q.val; omega

theorem readMn (c : Dev nD) (t : Fin cfg3.N) (q : Fin 256) : bMn V c t (ix2 0 q) = aMn V c (ix2 0 q) := by
  obtain ⟨-, -, -, -, -, -, -, -, -, -, -, -, e0, e1, -⟩ := idx_facts t
  show V c (Pipeline.arrRef spec3 6) (((cfg3.win 6).blk t).view.emb (ix2 0 q)) = V c (Pipeline.arrRef spec3 6) (ix2 0 q)
  refine congrArg _ (funext fun a => Fin.ext ?_)
  match a with
  | ⟨0, _⟩ => show win3_6.index t (0 : Fin 2) * 1 + 1 * 0 = 0; omega
  | ⟨1, _⟩ => show win3_6.index t (1 : Fin 2) * 256 + 1 * q.val = q.val; omega

theorem readBs (c : Dev nD) (t : Fin cfg3.N) (q : Fin 256) : bBs V c t (ix2 0 q) = aBs V c (ix2 0 q) := by
  obtain ⟨-, -, -, -, -, -, -, -, -, -, -, -, -, -, e0, e1, -⟩ := idx_facts t
  show V c (Pipeline.arrRef spec3 7) (((cfg3.win 7).blk t).view.emb (ix2 0 q)) = V c (Pipeline.arrRef spec3 7) (ix2 0 q)
  refine congrArg _ (funext fun a => Fin.ext ?_)
  match a with
  | ⟨0, _⟩ => show win3_7.index t (0 : Fin 2) * 1 + 1 * 0 = 0; omega
  | ⟨1, _⟩ => show win3_7.index t (1 : Fin 2) * 256 + 1 * q.val = q.val; omega

theorem readIv (c : Dev nD) (t : Fin cfg3.N) (p : Fin 2000) : bIv V c t (ix2 p 0) = aIv V c (ix2 (grow t p) 0) := by
  obtain ⟨-, -, -, -, -, -, -, -, -, -, -, -, -, -, -, -, e0, e1, -⟩ := idx_facts t
  show V c (Pipeline.arrRef spec3 8) (((cfg3.win 8).blk t).view.emb (ix2 p 0)) = V c (Pipeline.arrRef spec3 8) (ix2 (grow t p) 0)
  refine congrArg _ (funext fun a => Fin.ext ?_)
  match a with
  | ⟨0, _⟩ => show win3_8.index t (0 : Fin 2) * 2000 + 1 * p.val = t.val * 2000 + p.val; omega
  | ⟨1, _⟩ => show win3_8.index t (1 : Fin 2) * 1 + 1 * 0 = 0; omega

/-! ## What a point writes back -/

/-- The whole-array function of the arrays the region finds. -/
abbrev G (c : Dev nD) : S50000x256.Idx → EReal :=
  Whole.sageG (aA V c) (aX V c) (aWl V c) (aWr V c) (aBl V c) (aSc V c) (aMn V c) (aBs V c) (aIv V c)

/-- Entry `(p, q)` of what point `t` computes is entry `(2000 t + p, q)` of the whole-array function. -/
theorem point_apply (c : Dev nD) (t : Fin cfg3.N) (p : Fin 2000) (q : Fin 256) :
    Core.coreTerm (bA V c t) (bIv V c t) (bX V c t) (bWl V c t) (bWr V c t) (bBl V c t) (bMn V c t) (bSc V c t) (bBs V c t) (ix2 p q)
      = G V c (ix2 (grow t p) q) := by
  rw [Core.coreTerm_apply]
  show _ = Spec.sage _ _ _ _ _ _ _ _ (grow t p) q
  unfold Spec.sage
  simp only [readA V c t, readX V c t, readWl V c t, readWr V c t, readBl V c t, readSc V c t, readMn V c t, readBs V c t, readIv V c t]

/-- The block of the output at point `t`, embedded in the array. -/
theorem emb9 (t : Fin cfg3.N) (p : Fin 2000) (q : Fin 256) :
    ((cfg3.win 9).blk t).view.emb (ix2 p q) = ix2 (grow t p) q := by
  obtain ⟨-, -, -, -, -, -, -, -, -, -, -, -, -, -, -, -, -, -, e0, e1, -⟩ := idx_facts t
  refine funext fun a => Fin.ext ?_
  match a with
  | ⟨0, _⟩ => show win3_9.index t (0 : Fin 2) * 2000 + 1 * p.val = t.val * 2000 + p.val; omega
  | ⟨1, _⟩ => show win3_9.index t (1 : Fin 2) * 256 + 1 * q.val = q.val; omega

theorem emb10 (t : Fin cfg3.N) (p : Fin 2000) (q : Fin 256) :
    ((cfg3.win 10).blk t).view.emb (ix2 p q) = ix2 (grow t p) q := by
  obtain ⟨-, -, -, -, -, -, -, -, -, -, -, -, -, -, -, -, -, -, -, -, e0, e1, -⟩ := idx_facts t
  refine funext fun a => Fin.ext ?_
  match a with
  | ⟨0, _⟩ => show win3_10.index t (0 : Fin 2) * 2000 + 1 * p.val = t.val * 2000 + p.val; omega
  | ⟨1, _⟩ => show win3_10.index t (1 : Fin 2) * 256 + 1 * q.val = q.val; omega

/-- What point `t` writes back to the first output is block `t` of the whole-array function. -/
theorem flushed9_eq (c : Dev nD) (t : Fin cfg3.N) :
    (dat3 V c).flushed 9 t = ((cfg3.win 9).blk t).view.read (Elt Ideal) (G V c) := by
  show (cfg3.win 9).cut (grid3.coords t) ((dat3 V c).after 9 t) = _
  rw [after3_9]
  unfold out3_9
  rw [View.canon_unit_zero hz]
  simp only [View.ld_unit_zero (S := S2000x256) hz, View.ld_unit_zero (S := S2000x1) hz, View.ld_unit_zero (S := S256x256) hz, View.ld_unit_zero (S := S1x256) hz]
  funext j
  obtain ⟨p, q, rfl⟩ : ∃ (p : Fin 2000) (q : Fin 256), j = ix2 p q := ⟨j 0, j 1, eq_ix2 j⟩
  show Core.coreTerm (bA V c t) (bIv V c t) (bX V c t) (bWl V c t) (bWr V c t) (bBl V c t) (bMn V c t) (bSc V c t) (bBs V c t) (ix2 p q)
    = G V c (((cfg3.win 9).blk t).view.emb (ix2 p q))
  rw [emb9 t p q]
  exact point_apply V c t p q

/-- The copy in the narrower format is the same number at the ideal values. -/
theorem flushed10_eq (c : Dev nD) (t : Fin cfg3.N) :
    (dat3 V c).flushed 10 t = ((cfg3.win 10).blk t).view.read (Elt Ideal) (G V c) := by
  show (cfg3.win 10).cut (grid3.coords t) ((dat3 V c).after 10 t) = _
  rw [after3_10]
  unfold out3_10
  rw [View.canon_unit_zero hz]
  simp only [View.ld_unit_zero (S := S2000x256) hz, View.ld_unit_zero (S := S2000x1) hz, View.ld_unit_zero (S := S256x256) hz, View.ld_unit_zero (S := S1x256) hz]
  funext j
  obtain ⟨p, q, rfl⟩ : ∃ (p : Fin 2000) (q : Fin 256), j = ix2 p q := ⟨j 0, j 1, eq_ix2 j⟩
  show Core.coreTerm (bA V c t) (bIv V c t) (bX V c t) (bWl V c t) (bWr V c t) (bBl V c t) (bMn V c t) (bSc V c t) (bBs V c t) (ix2 p q)
    = G V c (((cfg3.win 10).blk t).view.emb (ix2 p q))
  rw [emb10 t p q]
  exact point_apply V c t p q

/-! ## The row blocks tile the array -/

theorem mem_blk9 (t : Fin cfg3.N) (i : S50000x256.Idx) :
    i ∈ ((cfg3.win 9).blk t).view.set ↔ ∀ a : Fin 2, win3_9.index t a * S2000x256.size a ≤ (i a).val ∧ (i a).val < win3_9.index t a * S2000x256.size a + S2000x256.size a := by
  show i ∈ ((View.whole main_v106_0).slice (win3_9.rect t)).set ↔ _
  rw [View.set_slice_whole, Rect.mem_set_unit]
  exact Iff.rfl

theorem mem_blk10 (t : Fin cfg3.N) (i : S50000x256.Idx) :
    i ∈ ((cfg3.win 10).blk t).view.set ↔ ∀ a : Fin 2, win3_10.index t a * S2000x256.size a ≤ (i a).val ∧ (i a).val < win3_10.index t a * S2000x256.size a + S2000x256.size a := by
  show i ∈ ((View.whole main_v106_1).slice (win3_10.rect t)).set ↔ _
  rw [View.set_slice_whole, Rect.mem_set_unit]
  exact Iff.rfl

/-- The point whose block holds row `r`. -/
def pointOf (i : S50000x256.Idx) : Fin cfg3.N := ⟨(i 0).val / 2000, by
  have h : (i 0).val < 50000 := (i 0).isLt
  show (i 0).val / 2000 < 25
  omega⟩

theorem cover9 (i : S50000x256.Idx) : ∃ t : Fin cfg3.N, (cfg3.win 9).flush t = true ∧ i ∈ ((cfg3.win 9).blk t).view.set := by
  refine ⟨pointOf i, flush3_9 _, ?_⟩
  rw [mem_blk9]
  obtain ⟨-, -, -, -, -, -, -, -, -, -, -, -, -, -, -, -, -, -, e0, e1, -⟩ := idx_facts (pointOf i)
  have h0 : (i 0).val < 50000 := (i 0).isLt
  have h1 : (i 1).val < 256 := (i 1).isLt
  have hp : (pointOf i).val = (i 0).val / 2000 := rfl
  intro a
  match a with
  | ⟨0, _⟩ => show win3_9.index (pointOf i) (0 : Fin 2) * 2000 ≤ (i 0).val ∧ (i 0).val < win3_9.index (pointOf i) (0 : Fin 2) * 2000 + 2000; omega
  | ⟨1, _⟩ => show win3_9.index (pointOf i) (1 : Fin 2) * 256 ≤ (i 1).val ∧ (i 1).val < win3_9.index (pointOf i) (1 : Fin 2) * 256 + 256; omega

theorem cover10 (i : S50000x256.Idx) : ∃ t : Fin cfg3.N, (cfg3.win 10).flush t = true ∧ i ∈ ((cfg3.win 10).blk t).view.set := by
  refine ⟨pointOf i, flush3_10 _, ?_⟩
  rw [mem_blk10]
  obtain ⟨-, -, -, -, -, -, -, -, -, -, -, -, -, -, -, -, -, -, -, -, e0, e1, -⟩ := idx_facts (pointOf i)
  have h0 : (i 0).val < 50000 := (i 0).isLt
  have h1 : (i 1).val < 256 := (i 1).isLt
  have hp : (pointOf i).val = (i 0).val / 2000 := rfl
  intro a
  match a with
  | ⟨0, _⟩ => show win3_10.index (pointOf i) (0 : Fin 2) * 2000 ≤ (i 0).val ∧ (i 0).val < win3_10.index (pointOf i) (0 : Fin 2) * 2000 + 2000; omega
  | ⟨1, _⟩ => show win3_10.index (pointOf i) (1 : Fin 2) * 256 ≤ (i 1).val ∧ (i 1).val < win3_10.index (pointOf i) (1 : Fin 2) * 256 + 256; omega

/-! ## The arrays after the region -/

/-- After the region the first output array is the whole-array function of the arrays the region found. -/
theorem final9 (c : Dev nD) : (dat3 V c).arrAt 9 cfg3.N = G V c :=
  (dat3 V c).arrAt_eq_of_cover 9 (G V c) (fun t _ => flushed9_eq V c t) (cover9)

/-- And so is the second. -/
theorem final10 (c : Dev nD) : (dat3 V c).arrAt 10 cfg3.N = G V c :=
  (dat3 V c).arrAt_eq_of_cover 10 (G V c) (fun t _ => flushed10_eq V c t) (cover10)

end Cert.KernelIdeal.Reg3

end
-- ==== Proof.RefStageB.lean ====
/-
  The reference program's second convolution of each block, read at an index.

  Block `L` (`L = 0, 1, 2`) ends in: the neighbourhood aggregate divided by the neighbour count (at least `1.0`),
  times the block's second left weight matrix, plus its bias, plus the block's first-convolution rows times the second
  right weight matrix; then the normalisation `(· - mean) * (gamma * rsqrt (var + eps)) + beta`, the rectifier, and
  the block's input added back.  For `L = 1, 2` the result is mixed with the block's input through a gate
  `g = 1 / (1 + exp (-(input · Gw + gb)))`: `g * input + (1 - g) * (that sum)`.

  Every small operand (a weight slice, a bias row, a normalisation vector, a broadcast constant) is first read at
  coordinates down to the argument of the program it comes from; the two contractions are then sums over the
  contracted coordinate of products of such reads; the stage is the layer function of `Cert.Spec` at those reads.
  The aggregate, the count and the previous stage's rows stay as they are, read at `(r, k)` or at `r`.
-/
import proofs.«421284_j80985903333882_3_alg».proof.Proof.RefRead
import proofs.«421284_j80985903333882_3_alg».proof.Proof.Spec

noncomputable section

open scoped BigOperators

namespace Cert.ReferenceIdeal.RefStageB

open Idealize.ShloMosaic Idealize.ShloMosaic.ValueIdx Cert.ReferenceIdeal Cert.ReferenceIdeal.Read

/-- The float `1.0`. -/
local notation "one32" => Ideal.ofBits FTy.f32 0x3F800000#32
/-- The normalisation's `eps`, the float nearest `1e-5`. -/
local notation "eps32" => Ideal.ofBits FTy.f32 0x3727C5AC#32
/-- The float `0.0`. -/
local notation "zero32" => Ideal.ofBits FTy.f32 0x00000000#32

/-- The float `1.0` is the extended real `1`. -/
theorem one32_eq : (one32 : EReal) = 1 := by
  simp [Ideal.ofBits, Ideal.ieee, -EReal.coe_mul]; norm_num

variable (x0 : (⟨S50000x128, .f32⟩ : BufTy).Contents (Elt Ideal)) (x1 : (⟨S2x800000, .i32⟩ : BufTy).Contents (Elt Ideal))
  (x2 : (⟨S128x256, .f32⟩ : BufTy).Contents (Elt Ideal)) (x3 : (⟨S256, .f32⟩ : BufTy).Contents (Elt Ideal))
  (x4 : (⟨S3x256x256, .f32⟩ : BufTy).Contents (Elt Ideal)) (x5 : (⟨S3x256, .f32⟩ : BufTy).Contents (Elt Ideal))
  (x6 x7 : (⟨S3x256x256, .f32⟩ : BufTy).Contents (Elt Ideal)) (x8 : (⟨S3x256, .f32⟩ : BufTy).Contents (Elt Ideal))
  (x9 : (⟨S3x256x256, .f32⟩ : BufTy).Contents (Elt Ideal))
  (x10 x11 x12 x13 x14 x15 x16 x17 : (⟨S3x256, .f32⟩ : BufTy).Contents (Elt Ideal))
  (x18 : (⟨S2x256x256, .f32⟩ : BufTy).Contents (Elt Ideal)) (x19 : (⟨S2x256, .f32⟩ : BufTy).Contents (Elt Ideal))

/-! ## Block 0 -/

/-- The count column broadcast along the row: entry `(r, k)` is the larger of the count at `r` and `1.0`. -/
theorem cnt0 (r : Fin 50000) (k : Fin 256) :
    (val_main_v84 (F := Ideal) x1 (ix2 r k) : EReal) = max (val_main_v80 (F := Ideal) x1 (ix1 r)) one32 := by
  rw [val_main_v84_apply, val_main_v83_apply, val_main_v82_apply, val_main_v81_apply, val_main_cst_10_apply,
    show idx_main_v83 (idx_main_v84 (ix2 r k)) = ix1 r from
      funext fun a => Fin.ext (by match a with | ⟨0, _⟩ => rfl)]
  all_goals rfl

/-- The left weight matrix is slice `0` of its argument. -/
theorem wl0 (k q : Fin 256) : (val_main_v62 (F := Ideal) x7 (ix2 k q) : EReal) = x7 (ix3 (0 : Fin 3) k q) := by
  rw [val_main_v62_apply, val_main_v61_apply,
    show idx_main_v61 (idx_main_v62 (ix2 k q)) = ix3 (0 : Fin 3) k q from
      funext fun a => Fin.ext (by
        have hk := k.isLt; have hq := q.isLt
        match a with
        | ⟨0, _⟩ => rfl
        | ⟨1, _⟩ => show (k.val * 256 + q.val) / 256 % 256 = k.val; omega
        | ⟨2, _⟩ => show (k.val * 256 + q.val) % 256 = q.val; omega)]

/-- The right weight matrix is slice `0` of its argument. -/
theorem wr0 (k q : Fin 256) : (val_main_v66 (F := Ideal) x9 (ix2 k q) : EReal) = x9 (ix3 (0 : Fin 3) k q) := by
  rw [val_main_v66_apply, val_main_v65_apply,
    show idx_main_v65 (idx_main_v66 (ix2 k q)) = ix3 (0 : Fin 3) k q from
      funext fun a => Fin.ext (by
        have hk := k.isLt; have hq := q.isLt
        match a with
        | ⟨0, _⟩ => rfl
        | ⟨1, _⟩ => show (k.val * 256 + q.val) / 256 % 256 = k.val; omega
        | ⟨2, _⟩ => show (k.val * 256 + q.val) % 256 = q.val; omega)]

/-- The bias broadcast down the rows is row `0` of its argument. -/
theorem bl0 (r : Fin 50000) (q : Fin 256) : (val_main_v88 (F := Ideal) x8 (ix2 r q) : EReal) = x8 (ix2 (0 : Fin 3) q) := by
  rw [val_main_v88_apply, val_main_v87_apply, val_main_v64_apply, val_main_v63_apply,
    show idx_main_v63 (idx_main_v64 (idx_main_v87 (idx_main_v88 (ix2 r q)))) = ix2 (0 : Fin 3) q from
      funext fun a => Fin.ext (by
        have hq := q.isLt
        match a with
        | ⟨0, _⟩ => rfl
        | ⟨1, _⟩ => show q.val % 256 = q.val; omega)]

/-- The normalisation's mean broadcast down the rows is row `0` of its argument. -/
theorem mn0 (r : Fin 50000) (q : Fin 256) : (val_main_v101 (F := Ideal) x16 (ix2 r q) : EReal) = x16 (ix2 (0 : Fin 3) q) := by
  rw [val_main_v101_apply, val_main_v100_apply, val_main_v97_apply, val_main_v96_apply,
    show idx_main_v96 (idx_main_v97 (idx_main_v100 (idx_main_v101 (ix2 r q)))) = ix2 (0 : Fin 3) q from
      funext fun a => Fin.ext (by
        have hq := q.isLt
        match a with
        | ⟨0, _⟩ => rfl
        | ⟨1, _⟩ => show q.val % 256 = q.val; omega)]

/-- The normalisation's shift broadcast down the rows is row `0` of its argument. -/
theorem bs0 (r : Fin 50000) (q : Fin 256) : (val_main_v111 (F := Ideal) x15 (ix2 r q) : EReal) = x15 (ix2 (0 : Fin 3) q) := by
  rw [val_main_v111_apply, val_main_v110_apply, val_main_v95_apply, val_main_v94_apply,
    show idx_main_v94 (idx_main_v95 (idx_main_v110 (idx_main_v111 (ix2 r q)))) = ix2 (0 : Fin 3) q from
      funext fun a => Fin.ext (by
        have hq := q.isLt
        match a with
        | ⟨0, _⟩ => rfl
        | ⟨1, _⟩ => show q.val % 256 = q.val; omega)]

/-- The normalisation's scale broadcast down the rows: `gamma * rsqrt (var + eps)` of rows `0` of its arguments. -/
theorem sc0 (r : Fin 50000) (q : Fin 256) :
    (val_main_v108 (F := Ideal) x14 x17 (ix2 r q) : EReal)
      = x14 (ix2 (0 : Fin 3) q) * Ideal.rsqrt (x17 (ix2 (0 : Fin 3) q) + eps32) := by
  rw [val_main_v108_apply, val_main_v107_apply, val_main_v106_apply, val_main_v93_apply, val_main_v92_apply,
    val_main_v105_apply, val_main_v104_apply, val_main_v99_apply, val_main_v98_apply, val_main_v103_apply,
    val_main_cst_11_apply,
    show idx_main_v92 (idx_main_v93 (idx_main_v107 (idx_main_v108 (ix2 r q)))) = ix2 (0 : Fin 3) q from
      funext fun a => Fin.ext (by
        have hq := q.isLt
        match a with
        | ⟨0, _⟩ => rfl
        | ⟨1, _⟩ => show q.val % 256 = q.val; omega),
    show idx_main_v98 (idx_main_v99 (idx_main_v107 (idx_main_v108 (ix2 r q)))) = ix2 (0 : Fin 3) q from
      funext fun a => Fin.ext (by
        have hq := q.isLt
        match a with
        | ⟨0, _⟩ => rfl
        | ⟨1, _⟩ => show q.val % 256 = q.val; omega)]
  all_goals rfl

/-- The rectifier's broadcast zero. -/
theorem relu0 (i : S50000x256.Idx) : (val_main_call1_v0 (F := Ideal) i : EReal) = zero32 := by
  rw [val_main_call1_v0_apply, val_main_call1_cst_apply]
  all_goals rfl

/-- The contraction of the neighbourhood mean with the left weight matrix. -/
theorem aggL0 (r : Fin 50000) (q : Fin 256) :
    (val_main_v86 (F := Ideal) x0 x1 x2 x3 x4 x5 x6 x7 x10 x11 x12 x13 (ix2 r q) : EReal)
      = ∑ k : Fin 256, Ideal.div (val_main_v76 (F := Ideal) x0 x1 x2 x3 x4 x5 x6 x10 x11 x12 x13 (ix2 r k))
          (max (val_main_v80 (F := Ideal) x1 (ix1 r)) one32) * x7 (ix3 (0 : Fin 3) k q) := by
  rw [val_main_v86_apply]
  refine Finset.sum_congr rfl fun k _ => ?_
  rw [show lidx_main_v86 (ix2 r q) k = ix2 r k from
        funext fun a => Fin.ext (by match a with | ⟨0, _⟩ => rfl | ⟨1, _⟩ => rfl),
    show ridx_main_v86 (ix2 r q) k = ix2 k q from
        funext fun a => Fin.ext (by match a with | ⟨0, _⟩ => rfl | ⟨1, _⟩ => rfl),
    val_main_v85_apply, cnt0, wl0]
  all_goals rfl

/-- The contraction of the first convolution's rows with the right weight matrix. -/
theorem ownR0 (r : Fin 50000) (q : Fin 256) :
    (val_main_v90 (F := Ideal) x0 x1 x2 x3 x4 x5 x6 x9 x10 x11 x12 x13 (ix2 r q) : EReal)
      = ∑ k : Fin 256, val_main_v60 (F := Ideal) x0 x1 x2 x3 x4 x5 x6 x10 x11 x12 x13 (ix2 r k) * x9 (ix3 (0 : Fin 3) k q) := by
  rw [val_main_v90_apply]
  refine Finset.sum_congr rfl fun k _ => ?_
  rw [show lidx_main_v90 (ix2 r q) k = ix2 r k from
        funext fun a => Fin.ext (by match a with | ⟨0, _⟩ => rfl | ⟨1, _⟩ => rfl),
    show ridx_main_v90 (ix2 r q) k = ix2 k q from
        funext fun a => Fin.ext (by match a with | ⟨0, _⟩ => rfl | ⟨1, _⟩ => rfl),
    wr0]

/-- Block 0's result at `i`: the residual layer function at the coordinates of `i`. -/
theorem c0_apply (i : S50000x256.Idx) :
    val_main_v114 (F := Ideal) x0 x1 x2 x3 x4 x5 x6 x7 x8 x9 x10 x11 x12 x13 x14 x15 x16 x17 i
      = Spec.sageRes
          (fun r k => Ideal.div (val_main_v76 (F := Ideal) x0 x1 x2 x3 x4 x5 x6 x10 x11 x12 x13 (ix2 r k))
            (max (val_main_v80 (F := Ideal) x1 (ix1 r)) one32))
          (fun r k => val_main_v60 (F := Ideal) x0 x1 x2 x3 x4 x5 x6 x10 x11 x12 x13 (ix2 r k))
          (fun k q => x7 (ix3 0 k q)) (fun k q => x9 (ix3 0 k q)) (fun q => x8 (ix2 0 q))
          (fun q => x16 (ix2 0 q)) (fun q => x14 (ix2 0 q) * Ideal.rsqrt (x17 (ix2 0 q) + eps32))
          (fun q => x15 (ix2 0 q))
          (fun r k => val_main_v7 (F := Ideal) x0 x2 x3 (ix2 r k)) (i 0) (i 1) := by
  obtain ⟨r, q, rfl⟩ : ∃ (r : Fin 50000) (q : Fin 256), i = ix2 r q := ⟨i 0, i 1, eq_ix2 i⟩
  show _ = Spec.sageRes _ _ _ _ _ _ _ _ _ r q
  unfold Spec.sageRes Spec.sage
  rw [val_main_v114_apply, val_main_v113_apply, val_main_v112_apply, val_main_v109_apply, val_main_v102_apply,
    val_main_v91_apply, val_main_v89_apply, aggL0, ownR0, bl0, mn0, sc0, bs0, relu0]
  all_goals rfl

/-! ## Block 1 -/

/-- The count column broadcast along the row: entry `(r, k)` is the larger of the count at `r` and `1.0`. -/
theorem cnt1 (r : Fin 50000) (k : Fin 256) :
    (val_main_v191 (F := Ideal) x1 (ix2 r k) : EReal) = max (val_main_v187 (F := Ideal) x1 (ix1 r)) one32 := by
  rw [val_main_v191_apply, val_main_v190_apply, val_main_v189_apply, val_main_v188_apply, val_main_cst_24_apply,
    show idx_main_v190 (idx_main_v191 (ix2 r k)) = ix1 r from
      funext fun a => Fin.ext (by match a with | ⟨0, _⟩ => rfl)]
  all_goals rfl

/-- The left weight matrix is slice `1` of its argument. -/
theorem wl1 (k q : Fin 256) : (val_main_v169 (F := Ideal) x7 (ix2 k q) : EReal) = x7 (ix3 (1 : Fin 3) k q) := by
  rw [val_main_v169_apply, val_main_v168_apply,
    show idx_main_v168 (idx_main_v169 (ix2 k q)) = ix3 (1 : Fin 3) k q from
      funext fun a => Fin.ext (by
        have hk := k.isLt; have hq := q.isLt
        match a with
        | ⟨0, _⟩ => rfl
        | ⟨1, _⟩ => show (k.val * 256 + q.val) / 256 % 256 = k.val; omega
        | ⟨2, _⟩ => show (k.val * 256 + q.val) % 256 = q.val; omega)]

/-- The right weight matrix is slice `1` of its argument. -/
theorem wr1 (k q : Fin 256) : (val_main_v173 (F := Ideal) x9 (ix2 k q) : EReal) = x9 (ix3 (1 : Fin 3) k q) := by
  rw [val_main_v173_apply, val_main_v172_apply,
    show idx_main_v172 (idx_main_v173 (ix2 k q)) = ix3 (1 : Fin 3) k q from
      funext fun a => Fin.ext (by
        have hk := k.isLt; have hq := q.isLt
        match a with
        | ⟨0, _⟩ => rfl
        | ⟨1, _⟩ => show (k.val * 256 + q.val) / 256 % 256 = k.val; omega
        | ⟨2, _⟩ => show (k.val * 256 + q.val) % 256 = q.val; omega)]

/-- The bias broadcast down the rows is row `1` of its argument. -/
theorem bl1 (r : Fin 50000) (q : Fin 256) : (val_main_v195 (F := Ideal) x8 (ix2 r q) : EReal) = x8 (ix2 (1 : Fin 3) q) := by
  rw [val_main_v195_apply, val_main_v194_apply, val_main_v171_apply, val_main_v170_apply,
    show idx_main_v170 (idx_main_v171 (idx_main_v194 (idx_main_v195 (ix2 r q)))) = ix2 (1 : Fin 3) q from
      funext fun a => Fin.ext (by
        have hq := q.isLt
        match a with
        | ⟨0, _⟩ => rfl
        | ⟨1, _⟩ => show q.val % 256 = q.val; omega)]

/-- The normalisation's mean broadcast down the rows is row `1` of its argument. -/
theorem mn1 (r : Fin 50000) (q : Fin 256) : (val_main_v208 (F := Ideal) x16 (ix2 r q) : EReal) = x16 (ix2 (1 : Fin 3) q) := by
  rw [val_main_v208_apply, val_main_v207_apply, val_main_v204_apply, val_main_v203_apply,
    show idx_main_v203 (idx_main_v204 (idx_main_v207 (idx_main_v208 (ix2 r q)))) = ix2 (1 : Fin 3) q from
      funext fun a => Fin.ext (by
        have hq := q.isLt
        match a with
        | ⟨0, _⟩ => rfl
        | ⟨1, _⟩ => show q.val % 256 = q.val; omega)]

/-- The normalisation's shift broadcast down the rows is row `1` of its argument. -/
theorem bs1 (r : Fin 50000) (q : Fin 256) : (val_main_v218 (F := Ideal) x15 (ix2 r q) : EReal) = x15 (ix2 (1 : Fin 3) q) := by
  rw [val_main_v218_apply, val_main_v217_apply, val_main_v202_apply, val_main_v201_apply,
    show idx_main_v201 (idx_main_v202 (idx_main_v217 (idx_main_v218 (ix2 r q)))) = ix2 (1 : Fin 3) q from
      funext fun a => Fin.ext (by
        have hq := q.isLt
        match a with
        | ⟨0, _⟩ => rfl
        | ⟨1, _⟩ => show q.val % 256 = q.val; omega)]

/-- The normalisation's scale broadcast down the rows: `gamma * rsqrt (var + eps)` of rows `1` of its arguments. -/
theorem sc1 (r : Fin 50000) (q : Fin 256) :
    (val_main_v215 (F := Ideal) x14 x17 (ix2 r q) : EReal)
      = x14 (ix2 (1 : Fin 3) q) * Ideal.rsqrt (x17 (ix2 (1 : Fin 3) q) + eps32) := by
  rw [val_main_v215_apply, val_main_v214_apply, val_main_v213_apply, val_main_v200_apply, val_main_v199_apply,
    val_main_v212_apply, val_main_v211_apply, val_main_v206_apply, val_main_v205_apply, val_main_v210_apply,
    val_main_cst_25_apply,
    show idx_main_v199 (idx_main_v200 (idx_main_v214 (idx_main_v215 (ix2 r q)))) = ix2 (1 : Fin 3) q from
      funext fun a => Fin.ext (by
        have hq := q.isLt
        match a with
        | ⟨0, _⟩ => rfl
        | ⟨1, _⟩ => show q.val % 256 = q.val; omega),
    show idx_main_v205 (idx_main_v206 (idx_main_v214 (idx_main_v215 (ix2 r q)))) = ix2 (1 : Fin 3) q from
      funext fun a => Fin.ext (by
        have hq := q.isLt
        match a with
        | ⟨0, _⟩ => rfl
        | ⟨1, _⟩ => show q.val % 256 = q.val; omega)]
  all_goals rfl

/-- The rectifier's broadcast zero. -/
theorem relu1 (i : S50000x256.Idx) : (val_main_call3_v0 (F := Ideal) i : EReal) = zero32 := by
  rw [val_main_call3_v0_apply, val_main_call3_cst_apply]
  all_goals rfl

/-- The contraction of the neighbourhood mean with the left weight matrix. -/
theorem aggL1 (r : Fin 50000) (q : Fin 256) :
    (val_main_v193 (F := Ideal) x0 x1 x2 x3 x4 x5 x6 x7 x8 x9 x10 x11 x12 x13 x14 x15 x16 x17 (ix2 r q) : EReal)
      = ∑ k : Fin 256, Ideal.div (val_main_v183 (F := Ideal) x0 x1 x2 x3 x4 x5 x6 x7 x8 x9 x10 x11 x12 x13 x14 x15 x16 x17 (ix2 r k))
          (max (val_main_v187 (F := Ideal) x1 (ix1 r)) one32) * x7 (ix3 (1 : Fin 3) k q) := by
  rw [val_main_v193_apply]
  refine Finset.sum_congr rfl fun k _ => ?_
  rw [show lidx_main_v193 (ix2 r q) k = ix2 r k from
        funext fun a => Fin.ext (by match a with | ⟨0, _⟩ => rfl | ⟨1, _⟩ => rfl),
    show ridx_main_v193 (ix2 r q) k = ix2 k q from
        funext fun a => Fin.ext (by match a with | ⟨0, _⟩ => rfl | ⟨1, _⟩ => rfl),
    val_main_v192_apply, cnt1, wl1]
  all_goals rfl

/-- The contraction of the first convolution's rows with the right weight matrix. -/
theorem ownR1 (r : Fin 50000) (q : Fin 256) :
    (val_main_v197 (F := Ideal) x0 x1 x2 x3 x4 x5 x6 x7 x8 x9 x10 x11 x12 x13 x14 x15 x16 x17 (ix2 r q) : EReal)
      = ∑ k : Fin 256, val_main_v167 (F := Ideal) x0 x1 x2 x3 x4 x5 x6 x7 x8 x9 x10 x11 x12 x13 x14 x15 x16 x17 (ix2 r k)
          * x9 (ix3 (1 : Fin 3) k q) := by
  rw [val_main_v197_apply]
  refine Finset.sum_congr rfl fun k _ => ?_
  rw [show lidx_main_v197 (ix2 r q) k = ix2 r k from
        funext fun a => Fin.ext (by match a with | ⟨0, _⟩ => rfl | ⟨1, _⟩ => rfl),
    show ridx_main_v197 (ix2 r q) k = ix2 k q from
        funext fun a => Fin.ext (by match a with | ⟨0, _⟩ => rfl | ⟨1, _⟩ => rfl),
    wr1]

/-- The gate's weight matrix is slice `0` of its argument. -/
theorem gw1 (k q : Fin 256) : (val_main_v223 (F := Ideal) x18 (ix2 k q) : EReal) = x18 (ix3 (0 : Fin 2) k q) := by
  rw [val_main_v223_apply, val_main_v222_apply,
    show idx_main_v222 (idx_main_v223 (ix2 k q)) = ix3 (0 : Fin 2) k q from
      funext fun a => Fin.ext (by
        have hk := k.isLt; have hq := q.isLt
        match a with
        | ⟨0, _⟩ => rfl
        | ⟨1, _⟩ => show (k.val * 256 + q.val) / 256 % 256 = k.val; omega
        | ⟨2, _⟩ => show (k.val * 256 + q.val) % 256 = q.val; omega)]

/-- The gate's bias broadcast down the rows is row `0` of its argument. -/
theorem gb1 (r : Fin 50000) (q : Fin 256) : (val_main_v228 (F := Ideal) x19 (ix2 r q) : EReal) = x19 (ix2 (0 : Fin 2) q) := by
  rw [val_main_v228_apply, val_main_v227_apply, val_main_v226_apply, val_main_v225_apply,
    show idx_main_v225 (idx_main_v226 (idx_main_v227 (idx_main_v228 (ix2 r q)))) = ix2 (0 : Fin 2) q from
      funext fun a => Fin.ext (by
        have hq := q.isLt
        match a with
        | ⟨0, _⟩ => rfl
        | ⟨1, _⟩ => show q.val % 256 = q.val; omega)]

/-- The contraction of the block's input with the gate's weight matrix. -/
theorem gsum1 (r : Fin 50000) (q : Fin 256) :
    (val_main_v224 (F := Ideal) x0 x1 x2 x3 x4 x5 x6 x7 x8 x9 x10 x11 x12 x13 x14 x15 x16 x17 x18 (ix2 r q) : EReal)
      = ∑ k : Fin 256, val_main_v114 (F := Ideal) x0 x1 x2 x3 x4 x5 x6 x7 x8 x9 x10 x11 x12 x13 x14 x15 x16 x17 (ix2 r k)
          * x18 (ix3 (0 : Fin 2) k q) := by
  rw [val_main_v224_apply]
  refine Finset.sum_congr rfl fun k _ => ?_
  rw [show lidx_main_v224 (ix2 r q) k = ix2 r k from
        funext fun a => Fin.ext (by match a with | ⟨0, _⟩ => rfl | ⟨1, _⟩ => rfl),
    show ridx_main_v224 (ix2 r q) k = ix2 k q from
        funext fun a => Fin.ext (by match a with | ⟨0, _⟩ => rfl | ⟨1, _⟩ => rfl),
    gw1]

/-- The three broadcast `1.0`s of the gate. -/
theorem oneA1 (i : S50000x256.Idx) : (val_main_v232 (F := Ideal) i : EReal) = one32 := by
  rw [val_main_v232_apply, val_main_cst_26_apply]
  all_goals rfl
theorem oneB1 (i : S50000x256.Idx) : (val_main_v234 (F := Ideal) i : EReal) = one32 := by
  rw [val_main_v234_apply, val_main_cst_27_apply]
  all_goals rfl
theorem oneC1 (i : S50000x256.Idx) : (val_main_v237 (F := Ideal) i : EReal) = one32 := by
  rw [val_main_v237_apply, val_main_cst_28_apply]
  all_goals rfl

/-- The block's convolution, normalisation, rectifier and residual at `(r, q)`: the residual layer function. -/
theorem res1 (r : Fin 50000) (q : Fin 256) :
    (val_main_v221 (F := Ideal) x0 x1 x2 x3 x4 x5 x6 x7 x8 x9 x10 x11 x12 x13 x14 x15 x16 x17 (ix2 r q) : EReal)
      = Spec.sageRes
          (fun r k => Ideal.div (val_main_v183 (F := Ideal) x0 x1 x2 x3 x4 x5 x6 x7 x8 x9 x10 x11 x12 x13 x14 x15 x16 x17 (ix2 r k))
            (max (val_main_v187 (F := Ideal) x1 (ix1 r)) one32))
          (fun r k => val_main_v167 (F := Ideal) x0 x1 x2 x3 x4 x5 x6 x7 x8 x9 x10 x11 x12 x13 x14 x15 x16 x17 (ix2 r k))
          (fun k q => x7 (ix3 1 k q)) (fun k q => x9 (ix3 1 k q)) (fun q => x8 (ix2 1 q))
          (fun q => x16 (ix2 1 q)) (fun q => x14 (ix2 1 q) * Ideal.rsqrt (x17 (ix2 1 q) + eps32))
          (fun q => x15 (ix2 1 q))
          (fun r k => val_main_v114 (F := Ideal) x0 x1 x2 x3 x4 x5 x6 x7 x8 x9 x10 x11 x12 x13 x14 x15 x16 x17 (ix2 r k)) r q := by
  unfold Spec.sageRes Spec.sage
  rw [val_main_v221_apply, val_main_v220_apply, val_main_v219_apply, val_main_v216_apply, val_main_v209_apply,
    val_main_v198_apply, val_main_v196_apply, aggL1, ownR1, bl1, mn1, sc1, bs1, relu1]
  all_goals rfl

/-- The gate at `(r, q)`: the logistic function of the block's input contracted with the gate's weights, plus its bias. -/
theorem g1 (r : Fin 50000) (q : Fin 256) :
    (val_main_v235 (F := Ideal) x0 x1 x2 x3 x4 x5 x6 x7 x8 x9 x10 x11 x12 x13 x14 x15 x16 x17 x18 x19 (ix2 r q) : EReal)
      = Ideal.logistic ((∑ k : Fin 256, val_main_v114 (F := Ideal) x0 x1 x2 x3 x4 x5 x6 x7 x8 x9 x10 x11 x12 x13 x14 x15 x16 x17 (ix2 r k)
          * x18 (ix3 (0 : Fin 2) k q)) + x19 (ix2 (0 : Fin 2) q)) := by
  unfold Ideal.logistic
  rw [val_main_v235_apply, val_main_v233_apply, val_main_v231_apply, val_main_v230_apply, val_main_v229_apply,
    gsum1, gb1, oneA1, oneB1, one32_eq]
  simp only [Ideal.hostDivf_def, Ideal.addf_def, Ideal.hostUnary_exp_def, Ideal.hostNegf_def, Ideal.negf_def]

/-- Block 1's result at `i`: the gated layer function at the coordinates of `i`. -/
theorem c1_apply (i : S50000x256.Idx) :
    val_main_v240 (F := Ideal) x0 x1 x2 x3 x4 x5 x6 x7 x8 x9 x10 x11 x12 x13 x14 x15 x16 x17 x18 x19 i
      = Spec.gate
          (fun r k => Ideal.div (val_main_v183 (F := Ideal) x0 x1 x2 x3 x4 x5 x6 x7 x8 x9 x10 x11 x12 x13 x14 x15 x16 x17 (ix2 r k))
            (max (val_main_v187 (F := Ideal) x1 (ix1 r)) one32))
          (fun r k => val_main_v167 (F := Ideal) x0 x1 x2 x3 x4 x5 x6 x7 x8 x9 x10 x11 x12 x13 x14 x15 x16 x17 (ix2 r k))
          (fun k q => x7 (ix3 1 k q)) (fun k q => x9 (ix3 1 k q)) (fun q => x8 (ix2 1 q))
          (fun q => x16 (ix2 1 q)) (fun q => x14 (ix2 1 q) * Ideal.rsqrt (x17 (ix2 1 q) + eps32))
          (fun q => x15 (ix2 1 q))
          (fun r k => val_main_v114 (F := Ideal) x0 x1 x2 x3 x4 x5 x6 x7 x8 x9 x10 x11 x12 x13 x14 x15 x16 x17 (ix2 r k))
          (fun k q => x18 (ix3 0 k q)) (fun q => x19 (ix2 0 q)) (i 0) (i 1) := by
  obtain ⟨r, q, rfl⟩ : ∃ (r : Fin 50000) (q : Fin 256), i = ix2 r q := ⟨i 0, i 1, eq_ix2 i⟩
  show _ = Spec.gate _ _ _ _ _ _ _ _ _ _ _ r q
  unfold Spec.gate
  rw [val_main_v240_apply, val_main_v236_apply, val_main_v239_apply, val_main_v238_apply, g1, oneC1, res1]
  all_goals rfl

/-! ## Block 2 -/

/-- The count column broadcast along the row: entry `(r, k)` is the larger of the count at `r` and `1.0`. -/
theorem cnt2 (r : Fin 50000) (k : Fin 256) :
    (val_main_v317 (F := Ideal) x1 (ix2 r k) : EReal) = max (val_main_v313 (F := Ideal) x1 (ix1 r)) one32 := by
  rw [val_main_v317_apply, val_main_v316_apply, val_main_v315_apply, val_main_v314_apply, val_main_cst_41_apply,
    show idx_main_v316 (idx_main_v317 (ix2 r k)) = ix1 r from
      funext fun a => Fin.ext (by match a with | ⟨0, _⟩ => rfl)]
  all_goals rfl

/-- The left weight matrix is slice `2` of its argument. -/
theorem wl2 (k q : Fin 256) : (val_main_v295 (F := Ideal) x7 (ix2 k q) : EReal) = x7 (ix3 (2 : Fin 3) k q) := by
  rw [val_main_v295_apply, val_main_v294_apply,
    show idx_main_v294 (idx_main_v295 (ix2 k q)) = ix3 (2 : Fin 3) k q from
      funext fun a => Fin.ext (by
        have hk := k.isLt; have hq := q.isLt
        match a with
        | ⟨0, _⟩ => rfl
        | ⟨1, _⟩ => show (k.val * 256 + q.val) / 256 % 256 = k.val; omega
        | ⟨2, _⟩ => show (k.val * 256 + q.val) % 256 = q.val; omega)]

/-- The right weight matrix is slice `2` of its argument. -/
theorem wr2 (k q : Fin 256) : (val_main_v299 (F := Ideal) x9 (ix2 k q) : EReal) = x9 (ix3 (2 : Fin 3) k q) := by
  rw [val_main_v299_apply, val_main_v298_apply,
    show idx_main_v298 (idx_main_v299 (ix2 k q)) = ix3 (2 : Fin 3) k q from
      funext fun a => Fin.ext (by
        have hk := k.isLt; have hq := q.isLt
        match a with
        | ⟨0, _⟩ => rfl
        | ⟨1, _⟩ => show (k.val * 256 + q.val) / 256 % 256 = k.val; omega
        | ⟨2, _⟩ => show (k.val * 256 + q.val) % 256 = q.val; omega)]

/-- The bias broadcast down the rows is row `2` of its argument. -/
theorem bl2 (r : Fin 50000) (q : Fin 256) : (val_main_v321 (F := Ideal) x8 (ix2 r q) : EReal) = x8 (ix2 (2 : Fin 3) q) := by
  rw [val_main_v321_apply, val_main_v320_apply, val_main_v297_apply, val_main_v296_apply,
    show idx_main_v296 (idx_main_v297 (idx_main_v320 (idx_main_v321 (ix2 r q)))) = ix2 (2 : Fin 3) q from
      funext fun a => Fin.ext (by
        have hq := q.isLt
        match a with
        | ⟨0, _⟩ => rfl
        | ⟨1, _⟩ => show q.val % 256 = q.val; omega)]

/-- The normalisation's mean broadcast down the rows is row `2` of its argument. -/
theorem mn2 (r : Fin 50000) (q : Fin 256) : (val_main_v334 (F := Ideal) x16 (ix2 r q) : EReal) = x16 (ix2 (2 : Fin 3) q) := by
  rw [val_main_v334_apply, val_main_v333_apply, val_main_v330_apply, val_main_v329_apply,
    show idx_main_v329 (idx_main_v330 (idx_main_v333 (idx_main_v334 (ix2 r q)))) = ix2 (2 : Fin 3) q from
      funext fun a => Fin.ext (by
        have hq := q.isLt
        match a with
        | ⟨0, _⟩ => rfl
        | ⟨1, _⟩ => show q.val % 256 = q.val; omega)]

/-- The normalisation's shift broadcast down the rows is row `2` of its argument. -/
theorem bs2 (r : Fin 50000) (q : Fin 256) : (val_main_v344 (F := Ideal) x15 (ix2 r q) : EReal) = x15 (ix2 (2 : Fin 3) q) := by
  rw [val_main_v344_apply, val_main_v343_apply, val_main_v328_apply, val_main_v327_apply,
    show idx_main_v327 (idx_main_v328 (idx_main_v343 (idx_main_v344 (ix2 r q)))) = ix2 (2 : Fin 3) q from
      funext fun a => Fin.ext (by
        have hq := q.isLt
        match a with
        | ⟨0, _⟩ => rfl
        | ⟨1, _⟩ => show q.val % 256 = q.val; omega)]

/-- The normalisation's scale broadcast down the rows: `gamma * rsqrt (var + eps)` of rows `2` of its arguments. -/
theorem sc2 (r : Fin 50000) (q : Fin 256) :
    (val_main_v341 (F := Ideal) x14 x17 (ix2 r q) : EReal)
      = x14 (ix2 (2 : Fin 3) q) * Ideal.rsqrt (x17 (ix2 (2 : Fin 3) q) + eps32) := by
  rw [val_main_v341_apply, val_main_v340_apply, val_main_v339_apply, val_main_v326_apply, val_main_v325_apply,
    val_main_v338_apply, val_main_v337_apply, val_main_v332_apply, val_main_v331_apply, val_main_v336_apply,
    val_main_cst_42_apply,
    show idx_main_v325 (idx_main_v326 (idx_main_v340 (idx_main_v341 (ix2 r q)))) = ix2 (2 : Fin 3) q from
      funext fun a => Fin.ext (by
        have hq := q.isLt
        match a with
        | ⟨0, _⟩ => rfl
        | ⟨1, _⟩ => show q.val % 256 = q.val; omega),
    show idx_main_v331 (idx_main_v332 (idx_main_v340 (idx_main_v341 (ix2 r q)))) = ix2 (2 : Fin 3) q from
      funext fun a => Fin.ext (by
        have hq := q.isLt
        match a with
        | ⟨0, _⟩ => rfl
        | ⟨1, _⟩ => show q.val % 256 = q.val; omega)]
  all_goals rfl

/-- The rectifier's broadcast zero. -/
theorem relu2 (i : S50000x256.Idx) : (val_main_call5_v0 (F := Ideal) i : EReal) = zero32 := by
  rw [val_main_call5_v0_apply, val_main_call5_cst_apply]
  all_goals rfl

/-- The contraction of the neighbourhood mean with the left weight matrix. -/
theorem aggL2 (r : Fin 50000) (q : Fin 256) :
    (val_main_v319 (F := Ideal) x0 x1 x2 x3 x4 x5 x6 x7 x8 x9 x10 x11 x12 x13 x14 x15 x16 x17 x18 x19 (ix2 r q) : EReal)
      = ∑ k : Fin 256, Ideal.div (val_main_v309 (F := Ideal) x0 x1 x2 x3 x4 x5 x6 x7 x8 x9 x10 x11 x12 x13 x14 x15 x16 x17 x18 x19 (ix2 r k))
          (max (val_main_v313 (F := Ideal) x1 (ix1 r)) one32) * x7 (ix3 (2 : Fin 3) k q) := by
  rw [val_main_v319_apply]
  refine Finset.sum_congr rfl fun k _ => ?_
  rw [show lidx_main_v319 (ix2 r q) k = ix2 r k from
        funext fun a => Fin.ext (by match a with | ⟨0, _⟩ => rfl | ⟨1, _⟩ => rfl),
    show ridx_main_v319 (ix2 r q) k = ix2 k q from
        funext fun a => Fin.ext (by match a with | ⟨0, _⟩ => rfl | ⟨1, _⟩ => rfl),
    val_main_v318_apply, cnt2, wl2]
  all_goals rfl

/-- The contraction of the first convolution's rows with the right weight matrix. -/
theorem ownR2 (r : Fin 50000) (q : Fin 256) :
    (val_main_v323 (F := Ideal) x0 x1 x2 x3 x4 x5 x6 x7 x8 x9 x10 x11 x12 x13 x14 x15 x16 x17 x18 x19 (ix2 r q) : EReal)
      = ∑ k : Fin 256, val_main_v293 (F := Ideal) x0 x1 x2 x3 x4 x5 x6 x7 x8 x9 x10 x11 x12 x13 x14 x15 x16 x17 x18 x19 (ix2 r k)
          * x9 (ix3 (2 : Fin 3) k q) := by
  rw [val_main_v323_apply]
  refine Finset.sum_congr rfl fun k _ => ?_
  rw [show lidx_main_v323 (ix2 r q) k = ix2 r k from
        funext fun a => Fin.ext (by match a with | ⟨0, _⟩ => rfl | ⟨1, _⟩ => rfl),
    show ridx_main_v323 (ix2 r q) k = ix2 k q from
        funext fun a => Fin.ext (by match a with | ⟨0, _⟩ => rfl | ⟨1, _⟩ => rfl),
    wr2]

/-- The gate's weight matrix is slice `1` of its argument. -/
theorem gw2 (k q : Fin 256) : (val_main_v349 (F := Ideal) x18 (ix2 k q) : EReal) = x18 (ix3 (1 : Fin 2) k q) := by
  rw [val_main_v349_apply, val_main_v348_apply,
    show idx_main_v348 (idx_main_v349 (ix2 k q)) = ix3 (1 : Fin 2) k q from
      funext fun a => Fin.ext (by
        have hk := k.isLt; have hq := q.isLt
        match a with
        | ⟨0, _⟩ => rfl
        | ⟨1, _⟩ => show (k.val * 256 + q.val) / 256 % 256 = k.val; omega
        | ⟨2, _⟩ => show (k.val * 256 + q.val) % 256 = q.val; omega)]

/-- The gate's bias broadcast down the rows is row `1` of its argument. -/
theorem gb2 (r : Fin 50000) (q : Fin 256) : (val_main_v354 (F := Ideal) x19 (ix2 r q) : EReal) = x19 (ix2 (1 : Fin 2) q) := by
  rw [val_main_v354_apply, val_main_v353_apply, val_main_v352_apply, val_main_v351_apply,
    show idx_main_v351 (idx_main_v352 (idx_main_v353 (idx_main_v354 (ix2 r q)))) = ix2 (1 : Fin 2) q from
      funext fun a => Fin.ext (by
        have hq := q.isLt
        match a with
        | ⟨0, _⟩ => rfl
        | ⟨1, _⟩ => show q.val % 256 = q.val; omega)]

/-- The contraction of the block's input with the gate's weight matrix. -/
theorem gsum2 (r : Fin 50000) (q : Fin 256) :
    (val_main_v350 (F := Ideal) x0 x1 x2 x3 x4 x5 x6 x7 x8 x9 x10 x11 x12 x13 x14 x15 x16 x17 x18 x19 (ix2 r q) : EReal)
      = ∑ k : Fin 256, val_main_v240 (F := Ideal) x0 x1 x2 x3 x4 x5 x6 x7 x8 x9 x10 x11 x12 x13 x14 x15 x16 x17 x18 x19 (ix2 r k)
          * x18 (ix3 (1 : Fin 2) k q) := by
  rw [val_main_v350_apply]
  refine Finset.sum_congr rfl fun k _ => ?_
  rw [show lidx_main_v350 (ix2 r q) k = ix2 r k from
        funext fun a => Fin.ext (by match a with | ⟨0, _⟩ => rfl | ⟨1, _⟩ => rfl),
    show ridx_main_v350 (ix2 r q) k = ix2 k q from
        funext fun a => Fin.ext (by match a with | ⟨0, _⟩ => rfl | ⟨1, _⟩ => rfl),
    gw2]

/-- The three broadcast `1.0`s of the gate. -/
theorem oneA2 (i : S50000x256.Idx) : (val_main_v358 (F := Ideal) i : EReal) = one32 := by
  rw [val_main_v358_apply, val_main_cst_43_apply]
  all_goals rfl
theorem oneB2 (i : S50000x256.Idx) : (val_main_v360 (F := Ideal) i : EReal) = one32 := by
  rw [val_main_v360_apply, val_main_cst_44_apply]
  all_goals rfl
theorem oneC2 (i : S50000x256.Idx) : (val_main_v363 (F := Ideal) i : EReal) = one32 := by
  rw [val_main_v363_apply, val_main_cst_45_apply]
  all_goals rfl

/-- The block's convolution, normalisation, rectifier and residual at `(r, q)`: the residual layer function. -/
theorem res2 (r : Fin 50000) (q : Fin 256) :
    (val_main_v347 (F := Ideal) x0 x1 x2 x3 x4 x5 x6 x7 x8 x9 x10 x11 x12 x13 x14 x15 x16 x17 x18 x19 (ix2 r q) : EReal)
      = Spec.sageRes
          (fun r k => Ideal.div (val_main_v309 (F := Ideal) x0 x1 x2 x3 x4 x5 x6 x7 x8 x9 x10 x11 x12 x13 x14 x15 x16 x17 x18 x19 (ix2 r k))
            (max (val_main_v313 (F := Ideal) x1 (ix1 r)) one32))
          (fun r k => val_main_v293 (F := Ideal) x0 x1 x2 x3 x4 x5 x6 x7 x8 x9 x10 x11 x12 x13 x14 x15 x16 x17 x18 x19 (ix2 r k))
          (fun k q => x7 (ix3 2 k q)) (fun k q => x9 (ix3 2 k q)) (fun q => x8 (ix2 2 q))
          (fun q => x16 (ix2 2 q)) (fun q => x14 (ix2 2 q) * Ideal.rsqrt (x17 (ix2 2 q) + eps32))
          (fun q => x15 (ix2 2 q))
          (fun r k => val_main_v240 (F := Ideal) x0 x1 x2 x3 x4 x5 x6 x7 x8 x9 x10 x11 x12 x13 x14 x15 x16 x17 x18 x19 (ix2 r k)) r q := by
  unfold Spec.sageRes Spec.sage
  rw [val_main_v347_apply, val_main_v346_apply, val_main_v345_apply, val_main_v342_apply, val_main_v335_apply,
    val_main_v324_apply, val_main_v322_apply, aggL2, ownR2, bl2, mn2, sc2, bs2, relu2]
  all_goals rfl

/-- The gate at `(r, q)`: the logistic function of the block's input contracted with the gate's weights, plus its bias. -/
theorem g2 (r : Fin 50000) (q : Fin 256) :
    (val_main_v361 (F := Ideal) x0 x1 x2 x3 x4 x5 x6 x7 x8 x9 x10 x11 x12 x13 x14 x15 x16 x17 x18 x19 (ix2 r q) : EReal)
      = Ideal.logistic ((∑ k : Fin 256, val_main_v240 (F := Ideal) x0 x1 x2 x3 x4 x5 x6 x7 x8 x9 x10 x11 x12 x13 x14 x15 x16 x17 x18 x19 (ix2 r k)
          * x18 (ix3 (1 : Fin 2) k q)) + x19 (ix2 (1 : Fin 2) q)) := by
  unfold Ideal.logistic
  rw [val_main_v361_apply, val_main_v359_apply, val_main_v357_apply, val_main_v356_apply, val_main_v355_apply,
    gsum2, gb2, oneA2, oneB2, one32_eq]
  simp only [Ideal.hostDivf_def, Ideal.addf_def, Ideal.hostUnary_exp_def, Ideal.hostNegf_def, Ideal.negf_def]

/-- Block 2's result at `i`: the gated layer function at the coordinates of `i`. -/
theorem c2_apply (i : S50000x256.Idx) :
    val_main_v366 (F := Ideal) x0 x1 x2 x3 x4 x5 x6 x7 x8 x9 x10 x11 x12 x13 x14 x15 x16 x17 x18 x19 i
      = Spec.gate
          (fun r k => Ideal.div (val_main_v309 (F := Ideal) x0 x1 x2 x3 x4 x5 x6 x7 x8 x9 x10 x11 x12 x13 x14 x15 x16 x17 x18 x19 (ix2 r k))
            (max (val_main_v313 (F := Ideal) x1 (ix1 r)) one32))
          (fun r k => val_main_v293 (F := Ideal) x0 x1 x2 x3 x4 x5 x6 x7 x8 x9 x10 x11 x12 x13 x14 x15 x16 x17 x18 x19 (ix2 r k))
          (fun k q => x7 (ix3 2 k q)) (fun k q => x9 (ix3 2 k q)) (fun q => x8 (ix2 2 q))
          (fun q => x16 (ix2 2 q)) (fun q => x14 (ix2 2 q) * Ideal.rsqrt (x17 (ix2 2 q) + eps32))
          (fun q => x15 (ix2 2 q))
          (fun r k => val_main_v240 (F := Ideal) x0 x1 x2 x3 x4 x5 x6 x7 x8 x9 x10 x11 x12 x13 x14 x15 x16 x17 x18 x19 (ix2 r k))
          (fun k q => x18 (ix3 1 k q)) (fun q => x19 (ix2 1 q)) (i 0) (i 1) := by
  obtain ⟨r, q, rfl⟩ : ∃ (r : Fin 50000) (q : Fin 256), i = ix2 r q := ⟨i 0, i 1, eq_ix2 i⟩
  show _ = Spec.gate _ _ _ _ _ _ _ _ _ _ _ r q
  unfold Spec.gate
  rw [val_main_v366_apply, val_main_v362_apply, val_main_v365_apply, val_main_v364_apply, g2, oneC2, res2]
  all_goals rfl

end Cert.ReferenceIdeal.RefStageB

end
-- ==== Proof.KStage1.lean ====
/-
  The kernel program's stages equal the reference's, one stage at a time: the second convolution of block 0 (with its
  residual) and the first convolution of block 1.

  After a region each of its output arrays is the region's whole-array function of the arrays it found; the reference's
  stage, read at an index, is the same layer function of ITS operands' coordinates.  So a stage's two sides agree once
  the operands' coordinates agree: a weight, a bias or a normalisation vector is the program argument itself on both
  sides (block `L`'s slice of it), the block's input and the residual are earlier stages — taken here as hypotheses,
  each stated at the boundary where that stage was written —, the aggregate is the same scatter-add of the same gather
  of the earlier stage, and the neighbourhood mean is the aggregate times the reciprocal of the count on one side and
  the quotient by the count on the other — equal because the larger of the count and one is not zero.
-/
import proofs.«421284_j80985903333882_3_alg».proof.Proof.KeepMore
import proofs.«421284_j80985903333882_3_alg».proof.Proof.KBase
import proofs.«421284_j80985903333882_3_alg».proof.Proof.Reg2
import proofs.«421284_j80985903333882_3_alg».proof.Proof.Reg3
import proofs.«421284_j80985903333882_3_alg».proof.Proof.RefStageA
import proofs.«421284_j80985903333882_3_alg».proof.Proof.RefStageB
import proofs.«421284_j80985903333882_3_alg».proof.Proof.RefAgg

set_option maxRecDepth 16384

noncomputable section

open scoped BigOperators

namespace Cert.KernelIdeal.KChain1

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (ρ : Dev nD → PrngReg)

/-- Widening after a gather is the gather, at the ideal values. -/
theorem extf_gather {s si t : Shape} {w : Nat} (d : GatherDims s si t) (x : FVec Ideal s .bf16) (idx : IVec si w) :
    (extf .f32 (Host.gather d x idx) bitsLt_bf16_f32 : FVec Ideal t .f32) = Host.gather d x idx := rfl

/-! ## The second convolution of block 0, with its residual -/

set_option maxRecDepth 200000 in
set_option maxHeartbeats 4000000 in
/-- The aggregate the third kernel is given: the aggregation of the first convolution's narrow copy. -/
theorem e2_A (c : Dev nD) :
    W5 m ρ c (Proc.devRef .tc main_v61)
      = Cert.ReferenceIdeal.RefAgg.aggOf (F := Ideal) (m ((c : Thread nD τ).loc main_arg1)) (W4 m ρ c (Proc.devRef .tc main_v50_1)) := by
  show StableHlo.after (hostOps2 (F := Ideal)) (W4 m ρ c) (Proc.devRef .tc main_v61) = _
  after_results
  rw [extf_gather, Keep.from1_4 m ρ c main_v3 (by decide), KBase.w1_dst, Keep.from1_4 m ρ c main_v1 (by decide), KBase.w1_src]
  rfl

theorem e2_Wl (c : Dev nD) (k q : Fin 256) :
    (W5 m ρ c (Proc.devRef .tc main_v63) : Vec Ideal S256x256 .f32) (ix2 k q)
      = (m ((c : Thread nD τ).loc main_arg7) : Vec Ideal S3x256x256 .f32) (ix3 0 k q) := by
  show StableHlo.after (hostOps2 (F := Ideal)) (W4 m ρ c) (Proc.devRef .tc main_v63) (ix2 k q) = _
  after_results
  rw [Keep.at4 m ρ c main_arg7 (by decide)]
  exact Layout.mat_apply _ (0 : Fin 3) _ _ k q

theorem e2_Wr (c : Dev nD) (k q : Fin 256) :
    (W5 m ρ c (Proc.devRef .tc main_v65) : Vec Ideal S256x256 .f32) (ix2 k q)
      = (m ((c : Thread nD τ).loc main_arg9) : Vec Ideal S3x256x256 .f32) (ix3 0 k q) := by
  show StableHlo.after (hostOps2 (F := Ideal)) (W4 m ρ c) (Proc.devRef .tc main_v65) (ix2 k q) = _
  after_results
  rw [Keep.at4 m ρ c main_arg9 (by decide)]
  exact Layout.mat_apply _ (0 : Fin 3) _ _ k q

theorem e2_bl (c : Dev nD) (q : Fin 256) :
    (W5 m ρ c (Proc.devRef .tc main_v74) : Vec Ideal S1x256 .f32) (ix2 0 q)
      = (m ((c : Thread nD τ).loc main_arg8) : Vec Ideal S3x256 .f32) (ix2 0 q) := by
  show StableHlo.after (hostOps2 (F := Ideal)) (W4 m ρ c) (Proc.devRef .tc main_v74) (ix2 0 q) = _
  after_results
  rw [Keep.at4 m ρ c main_arg8 (by decide)]
  exact Layout.rowvec_apply _ (0 : Fin 3) _ _ _ q

theorem e2_sc (c : Dev nD) (q : Fin 256) :
    (W5 m ρ c (Proc.devRef .tc main_v75) : Vec Ideal S1x256 .f32) (ix2 0 q)
      = Layout.re ((m ((c : Thread nD τ).loc main_arg14) : Vec Ideal S3x256 .f32) (ix2 0 q))
          * Ideal.rsqrt (Layout.re ((m ((c : Thread nD τ).loc main_arg17) : Vec Ideal S3x256 .f32) (ix2 0 q)) + Ideal.ofBits .f32 0x3727C5AC#32) := by
  show StableHlo.after (hostOps2 (F := Ideal)) (W4 m ρ c) (Proc.devRef .tc main_v75) (ix2 0 q) = _
  after_results
  rw [Keep.from1_4 m ρ c main_v20 (by decide)]
  exact (Layout.rowvec_apply _ (0 : Fin 3) _ _ _ q).trans (KBase.w1_sc2 m ρ c 0 q)

theorem e2_mn (c : Dev nD) (q : Fin 256) :
    (W5 m ρ c (Proc.devRef .tc main_v76) : Vec Ideal S1x256 .f32) (ix2 0 q)
      = (m ((c : Thread nD τ).loc main_arg16) : Vec Ideal S3x256 .f32) (ix2 0 q) := by
  show StableHlo.after (hostOps2 (F := Ideal)) (W4 m ρ c) (Proc.devRef .tc main_v76) (ix2 0 q) = _
  after_results
  rw [Keep.at4 m ρ c main_arg16 (by decide)]
  exact Layout.rowvec_apply _ (0 : Fin 3) _ _ _ q

theorem e2_bs (c : Dev nD) (q : Fin 256) :
    (W5 m ρ c (Proc.devRef .tc main_v77) : Vec Ideal S1x256 .f32) (ix2 0 q)
      = (m ((c : Thread nD τ).loc main_arg15) : Vec Ideal S3x256 .f32) (ix2 0 q) := by
  show StableHlo.after (hostOps2 (F := Ideal)) (W4 m ρ c) (Proc.devRef .tc main_v77) (ix2 0 q) = _
  after_results
  rw [Keep.at4 m ρ c main_arg15 (by decide)]
  exact Layout.rowvec_apply _ (0 : Fin 3) _ _ _ q

/-- The inverse-count column as the third kernel finds it. -/
theorem e2_iv (c : Dev nD) (r : Fin 50000) :
    (W5 m ρ c (Proc.devRef .tc main_v12) : Vec Ideal S50000x1 .f32) (ix2 r 0)
      = Ideal.div (Ideal.ofBits .f32 0x3F800000#32)
          (max (Cert.ReferenceIdeal.Read.val_main_v27 (F := Ideal) (m ((c : Thread nD τ).loc main_arg1)) (ix1 r)) (Ideal.ofBits .f32 0x3F800000#32)) := by
  rw [Keep.from1_5 m ρ c main_v12 (by decide)]
  exact KBase.w1_inv m ρ c r

/-- The second convolution of block 0 with its residual: the third kernel's value output is the reference's stage,
    given the projection at the second boundary and the first convolution (both copies) at the fourth. -/
theorem stageC0 (c : Dev nD)
    (hP : (W2 m ρ c (Proc.devRef .tc main_v22_0) : S50000x256.Idx → EReal) = Cert.ReferenceIdeal.Read.val_main_v7 (F := Ideal) (m ((c : Thread nD τ).loc main_arg0)) (m ((c : Thread nD τ).loc main_arg2)) (m ((c : Thread nD τ).loc main_arg3)))
    (hH : (W4 m ρ c (Proc.devRef .tc main_v50_0) : S50000x256.Idx → EReal) = Cert.ReferenceIdeal.Read.val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg10)) (m ((c : Thread nD τ).loc main_arg11)) (m ((c : Thread nD τ).loc main_arg12)) (m ((c : Thread nD τ).loc main_arg13)))
    (hH' : (W4 m ρ c (Proc.devRef .tc main_v50_1) : S50000x256.Idx → EReal) = Cert.ReferenceIdeal.Read.val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg10)) (m ((c : Thread nD τ).loc main_arg11)) (m ((c : Thread nD τ).loc main_arg12)) (m ((c : Thread nD τ).loc main_arg13))) :
    (W6 m ρ c (Proc.devRef .tc main_v78_0) : S50000x256.Idx → EReal)
      = Cert.ReferenceIdeal.Read.val_main_v114 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  refine (W6_arr m ρ c 10).trans ((Reg2.final10 (V5 m ρ) c).trans ?_)
  funext i
  rw [Cert.ReferenceIdeal.RefStageB.c0_apply]
  show Spec.sageRes
      (fun r k => Layout.re ((W5 m ρ c (Proc.devRef .tc main_v61) : Vec Ideal S50000x256 .f32) (ix2 r k))
        * Layout.re ((W5 m ρ c (Proc.devRef .tc main_v12) : Vec Ideal S50000x1 .f32) (ix2 r 0)))
      (fun r k => (W5 m ρ c (Proc.devRef .tc main_v50_0) : Vec Ideal S50000x256 .f32) (ix2 r k))
      (fun k q => (W5 m ρ c (Proc.devRef .tc main_v63) : Vec Ideal S256x256 .f32) (ix2 k q))
      (fun k q => (W5 m ρ c (Proc.devRef .tc main_v65) : Vec Ideal S256x256 .f32) (ix2 k q))
      (fun q => (W5 m ρ c (Proc.devRef .tc main_v74) : Vec Ideal S1x256 .f32) (ix2 0 q))
      (fun q => (W5 m ρ c (Proc.devRef .tc main_v76) : Vec Ideal S1x256 .f32) (ix2 0 q))
      (fun q => (W5 m ρ c (Proc.devRef .tc main_v75) : Vec Ideal S1x256 .f32) (ix2 0 q))
      (fun q => (W5 m ρ c (Proc.devRef .tc main_v77) : Vec Ideal S1x256 .f32) (ix2 0 q))
      (fun r k => (W5 m ρ c (Proc.devRef .tc main_v22_0) : Vec Ideal S50000x256 .f32) (ix2 r k)) (i 0) (i 1) = _
  have hM : ∀ (r : Fin 50000) (k : Fin 256),
      Layout.re ((W5 m ρ c (Proc.devRef .tc main_v61) : Vec Ideal S50000x256 .f32) (ix2 r k))
        * Layout.re ((W5 m ρ c (Proc.devRef .tc main_v12) : Vec Ideal S50000x1 .f32) (ix2 r 0))
      = Ideal.div (Cert.ReferenceIdeal.Read.val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg10)) (m ((c : Thread nD τ).loc main_arg11)) (m ((c : Thread nD τ).loc main_arg12)) (m ((c : Thread nD τ).loc main_arg13)) (ix2 r k))
          (max (Cert.ReferenceIdeal.Read.val_main_v80 (F := Ideal) (m ((c : Thread nD τ).loc main_arg1)) (ix1 r)) (Ideal.ofBits .f32 0x3F800000#32)) := by
    intro r k
    rw [e2_A, hH', ← Cert.ReferenceIdeal.RefAgg.agg_1, e2_iv, Cert.ReferenceIdeal.RefAgg.cnt_1]
    exact Spec.mul_div_one _ _ (Spec.max_one_ne_zero _)
  have hX : ∀ (r : Fin 50000) (k : Fin 256), (W5 m ρ c (Proc.devRef .tc main_v50_0) : Vec Ideal S50000x256 .f32) (ix2 r k)
      = Cert.ReferenceIdeal.Read.val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg10)) (m ((c : Thread nD τ).loc main_arg11)) (m ((c : Thread nD τ).loc main_arg12)) (m ((c : Thread nD τ).loc main_arg13)) (ix2 r k) := by
    intro r k
    rw [Keep.hopH2 m ρ c main_v50_0 (by decide), hH]
  have hR : ∀ (r : Fin 50000) (k : Fin 256), (W5 m ρ c (Proc.devRef .tc main_v22_0) : Vec Ideal S50000x256 .f32) (ix2 r k)
      = Cert.ReferenceIdeal.Read.val_main_v7 (F := Ideal) (m ((c : Thread nD τ).loc main_arg0)) (m ((c : Thread nD τ).loc main_arg2)) (m ((c : Thread nD τ).loc main_arg3)) (ix2 r k) := by
    intro r k
    rw [Keep.hopH2 m ρ c main_v22_0 (by decide), Keep.hopR1 m ρ c main_v22_0 (by decide),
      Keep.hopH1 m ρ c main_v22_0 (by decide), hP]
  simp only [hM, hX, hR, e2_Wl m ρ c, e2_Wr m ρ c, e2_bl m ρ c, e2_mn m ρ c, e2_sc m ρ c, e2_bs m ρ c]

/-- And so is its copy in the narrower format. -/
theorem stageC0' (c : Dev nD)
    (hP : (W2 m ρ c (Proc.devRef .tc main_v22_0) : S50000x256.Idx → EReal) = Cert.ReferenceIdeal.Read.val_main_v7 (F := Ideal) (m ((c : Thread nD τ).loc main_arg0)) (m ((c : Thread nD τ).loc main_arg2)) (m ((c : Thread nD τ).loc main_arg3)))
    (hH : (W4 m ρ c (Proc.devRef .tc main_v50_0) : S50000x256.Idx → EReal) = Cert.ReferenceIdeal.Read.val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg10)) (m ((c : Thread nD τ).loc main_arg11)) (m ((c : Thread nD τ).loc main_arg12)) (m ((c : Thread nD τ).loc main_arg13)))
    (hH' : (W4 m ρ c (Proc.devRef .tc main_v50_1) : S50000x256.Idx → EReal) = Cert.ReferenceIdeal.Read.val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg10)) (m ((c : Thread nD τ).loc main_arg11)) (m ((c : Thread nD τ).loc main_arg12)) (m ((c : Thread nD τ).loc main_arg13))) :
    (W6 m ρ c (Proc.devRef .tc main_v78_1) : S50000x256.Idx → EReal)
      = Cert.ReferenceIdeal.Read.val_main_v114 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) :=
  ((W6_arr m ρ c 11).trans ((Reg2.final11 (V5 m ρ) c).trans (Reg2.final10 (V5 m ρ) c).symm)).trans
    ((W6_arr m ρ c 10).symm.trans (stageC0 m ρ c hP hH hH'))

/-! ## The first convolution of block 1 -/

set_option maxRecDepth 200000 in
set_option maxHeartbeats 4000000 in
/-- The aggregate the fourth kernel is given: the aggregation of block 0's narrow copy. -/
theorem e3_A (c : Dev nD) :
    W7 m ρ c (Proc.devRef .tc main_v89)
      = Cert.ReferenceIdeal.RefAgg.aggOf (F := Ideal) (m ((c : Thread nD τ).loc main_arg1)) (W6 m ρ c (Proc.devRef .tc main_v78_1)) := by
  show StableHlo.after (hostOps3 (F := Ideal)) (W6 m ρ c) (Proc.devRef .tc main_v89) = _
  after_results
  rw [extf_gather, Keep.from1_6 m ρ c main_v3 (by decide), KBase.w1_dst, Keep.from1_6 m ρ c main_v1 (by decide), KBase.w1_src]
  rfl

theorem e3_Wl (c : Dev nD) (k q : Fin 256) :
    (W7 m ρ c (Proc.devRef .tc main_v91) : Vec Ideal S256x256 .f32) (ix2 k q)
      = (m ((c : Thread nD τ).loc main_arg4) : Vec Ideal S3x256x256 .f32) (ix3 1 k q) := by
  show StableHlo.after (hostOps3 (F := Ideal)) (W6 m ρ c) (Proc.devRef .tc main_v91) (ix2 k q) = _
  after_results
  rw [Keep.at6 m ρ c main_arg4 (by decide)]
  exact Layout.mat_apply _ (1 : Fin 3) _ _ k q

theorem e3_Wr (c : Dev nD) (k q : Fin 256) :
    (W7 m ρ c (Proc.devRef .tc main_v93) : Vec Ideal S256x256 .f32) (ix2 k q)
      = (m ((c : Thread nD τ).loc main_arg6) : Vec Ideal S3x256x256 .f32) (ix3 1 k q) := by
  show StableHlo.after (hostOps3 (F := Ideal)) (W6 m ρ c) (Proc.devRef .tc main_v93) (ix2 k q) = _
  after_results
  rw [Keep.at6 m ρ c main_arg6 (by decide)]
  exact Layout.mat_apply _ (1 : Fin 3) _ _ k q

theorem e3_bl (c : Dev nD) (q : Fin 256) :
    (W7 m ρ c (Proc.devRef .tc main_v102) : Vec Ideal S1x256 .f32) (ix2 0 q)
      = (m ((c : Thread nD τ).loc main_arg5) : Vec Ideal S3x256 .f32) (ix2 1 q) := by
  show StableHlo.after (hostOps3 (F := Ideal)) (W6 m ρ c) (Proc.devRef .tc main_v102) (ix2 0 q) = _
  after_results
  rw [Keep.at6 m ρ c main_arg5 (by decide)]
  exact Layout.rowvec_apply _ (1 : Fin 3) _ _ _ q

theorem e3_sc (c : Dev nD) (q : Fin 256) :
    (W7 m ρ c (Proc.devRef .tc main_v103) : Vec Ideal S1x256 .f32) (ix2 0 q)
      = Layout.re ((m ((c : Thread nD τ).loc main_arg10) : Vec Ideal S3x256 .f32) (ix2 1 q))
          * Ideal.rsqrt (Layout.re ((m ((c : Thread nD τ).loc main_arg13) : Vec Ideal S3x256 .f32) (ix2 1 q)) + Ideal.ofBits .f32 0x3727C5AC#32) := by
  show StableHlo.after (hostOps3 (F := Ideal)) (W6 m ρ c) (Proc.devRef .tc main_v103) (ix2 0 q) = _
  after_results
  rw [Keep.from1_6 m ρ c main_v16 (by decide)]
  exact (Layout.rowvec_apply _ (1 : Fin 3) _ _ _ q).trans (KBase.w1_sc1 m ρ c 1 q)

theorem e3_mn (c : Dev nD) (q : Fin 256) :
    (W7 m ρ c (Proc.devRef .tc main_v104) : Vec Ideal S1x256 .f32) (ix2 0 q)
      = (m ((c : Thread nD τ).loc main_arg12) : Vec Ideal S3x256 .f32) (ix2 1 q) := by
  show StableHlo.after (hostOps3 (F := Ideal)) (W6 m ρ c) (Proc.devRef .tc main_v104) (ix2 0 q) = _
  after_results
  rw [Keep.at6 m ρ c main_arg12 (by decide)]
  exact Layout.rowvec_apply _ (1 : Fin 3) _ _ _ q

theorem e3_bs (c : Dev nD) (q : Fin 256) :
    (W7 m ρ c (Proc.devRef .tc main_v105) : Vec Ideal S1x256 .f32) (ix2 0 q)
      = (m ((c : Thread nD τ).loc main_arg11) : Vec Ideal S3x256 .f32) (ix2 1 q) := by
  show StableHlo.after (hostOps3 (F := Ideal)) (W6 m ρ c) (Proc.devRef .tc main_v105) (ix2 0 q) = _
  after_results
  rw [Keep.at6 m ρ c main_arg11 (by decide)]
  exact Layout.rowvec_apply _ (1 : Fin 3) _ _ _ q

/-- The inverse-count column as the fourth kernel finds it. -/
theorem e3_iv (c : Dev nD) (r : Fin 50000) :
    (W7 m ρ c (Proc.devRef .tc main_v12) : Vec Ideal S50000x1 .f32) (ix2 r 0)
      = Ideal.div (Ideal.ofBits .f32 0x3F800000#32)
          (max (Cert.ReferenceIdeal.Read.val_main_v27 (F := Ideal) (m ((c : Thread nD τ).loc main_arg1)) (ix1 r)) (Ideal.ofBits .f32 0x3F800000#32)) := by
  rw [Keep.from1_7 m ρ c main_v12 (by decide)]
  exact KBase.w1_inv m ρ c r

/-- The first convolution of block 1: the fourth kernel's value output is the reference's stage, given block 0's
    result (both copies) at the sixth boundary. -/
theorem stageH1 (c : Dev nD)
    (hC : (W6 m ρ c (Proc.devRef .tc main_v78_0) : S50000x256.Idx → EReal) = Cert.ReferenceIdeal.Read.val_main_v114 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)))
    (hC' : (W6 m ρ c (Proc.devRef .tc main_v78_1) : S50000x256.Idx → EReal) = Cert.ReferenceIdeal.Read.val_main_v114 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))) :
    (W8 m ρ c (Proc.devRef .tc main_v106_0) : S50000x256.Idx → EReal)
      = Cert.ReferenceIdeal.Read.val_main_v167 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  refine (W8_arr m ρ c 9).trans ((Reg3.final9 (V7 m ρ) c).trans ?_)
  funext i
  rw [Cert.ReferenceIdeal.RefStageA.h1_1_apply]
  show Spec.sage
      (fun r k => Layout.re ((W7 m ρ c (Proc.devRef .tc main_v89) : Vec Ideal S50000x256 .f32) (ix2 r k))
        * Layout.re ((W7 m ρ c (Proc.devRef .tc main_v12) : Vec Ideal S50000x1 .f32) (ix2 r 0)))
      (fun r k => (W7 m ρ c (Proc.devRef .tc main_v78_0) : Vec Ideal S50000x256 .f32) (ix2 r k))
      (fun k q => (W7 m ρ c (Proc.devRef .tc main_v91) : Vec Ideal S256x256 .f32) (ix2 k q))
      (fun k q => (W7 m ρ c (Proc.devRef .tc main_v93) : Vec Ideal S256x256 .f32) (ix2 k q))
      (fun q => (W7 m ρ c (Proc.devRef .tc main_v102) : Vec Ideal S1x256 .f32) (ix2 0 q))
      (fun q => (W7 m ρ c (Proc.devRef .tc main_v104) : Vec Ideal S1x256 .f32) (ix2 0 q))
      (fun q => (W7 m ρ c (Proc.devRef .tc main_v103) : Vec Ideal S1x256 .f32) (ix2 0 q))
      (fun q => (W7 m ρ c (Proc.devRef .tc main_v105) : Vec Ideal S1x256 .f32) (ix2 0 q)) (i 0) (i 1) = _
  have hM : ∀ (r : Fin 50000) (k : Fin 256),
      Layout.re ((W7 m ρ c (Proc.devRef .tc main_v89) : Vec Ideal S50000x256 .f32) (ix2 r k))
        * Layout.re ((W7 m ρ c (Proc.devRef .tc main_v12) : Vec Ideal S50000x1 .f32) (ix2 r 0))
      = Ideal.div (Cert.ReferenceIdeal.Read.val_main_v130 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (ix2 r k))
          (max (Cert.ReferenceIdeal.Read.val_main_v134 (F := Ideal) (m ((c : Thread nD τ).loc main_arg1)) (ix1 r)) (Ideal.ofBits .f32 0x3F800000#32)) := by
    intro r k
    rw [e3_A, hC', ← Cert.ReferenceIdeal.RefAgg.agg_2, e3_iv, Cert.ReferenceIdeal.RefAgg.cnt_2]
    exact Spec.mul_div_one _ _ (Spec.max_one_ne_zero _)
  have hX : ∀ (r : Fin 50000) (k : Fin 256), (W7 m ρ c (Proc.devRef .tc main_v78_0) : Vec Ideal S50000x256 .f32) (ix2 r k)
      = Cert.ReferenceIdeal.Read.val_main_v114 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (ix2 r k) := by
    intro r k
    rw [Keep.hopH3 m ρ c main_v78_0 (by decide), hC]
  simp only [hM, hX, e3_Wl m ρ c, e3_Wr m ρ c, e3_bl m ρ c, e3_mn m ρ c, e3_sc m ρ c, e3_bs m ρ c]

/-- And so is its copy in the narrower format. -/
theorem stageH1' (c : Dev nD)
    (hC : (W6 m ρ c (Proc.devRef .tc main_v78_0) : S50000x256.Idx → EReal) = Cert.ReferenceIdeal.Read.val_main_v114 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)))
    (hC' : (W6 m ρ c (Proc.devRef .tc main_v78_1) : S50000x256.Idx → EReal) = Cert.ReferenceIdeal.Read.val_main_v114 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))) :
    (W8 m ρ c (Proc.devRef .tc main_v106_1) : S50000x256.Idx → EReal)
      = Cert.ReferenceIdeal.Read.val_main_v167 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) :=
  ((W8_arr m ρ c 10).trans ((Reg3.final10 (V7 m ρ) c).trans (Reg3.final9 (V7 m ρ) c).symm)).trans
    ((W8_arr m ρ c 9).symm.trans (stageH1 m ρ c hC hC'))

end Cert.KernelIdeal.KChain1

end
-- ==== Proof.Reg4.lean ====
/-
  The gated residual convolution kernel, as one function of whole arrays.

  The kernel runs on a grid of 25 points; point `t` loads rows `2000 t … 2000 t + 1999` of the aggregate, of the
  node features, of the inverse-count column and of the residual, the two weight matrices, the gate matrix, the four
  row vectors and the gate bias whole, and writes the same rows of its two outputs: with `g` the logistic of the
  residual row times the gate matrix plus the gate bias, `g * res + (1 - g) * (max pre 0 + res)`, `pre` the
  normalised convolution; and a copy of it in the narrower float format, which at the ideal values is the same
  number.  Every entry it writes depends only on its own row of the row-indexed operands, so what point `t` writes
  back is the rows of ONE whole-array function, `Whole.gateG` of the arrays the region finds; the 25 row blocks tile
  the 50000 rows, so after the region each output array IS that function.
-/
import proofs.«421284_j80985903333882_3_alg».proof.Proof.Gen.KernelIdeal.Frame
import proofs.«421284_j80985903333882_3_alg».proof.Proof.Core
import proofs.«421284_j80985903333882_3_alg».proof.Proof.Whole

set_option maxRecDepth 16384

noncomputable section

open scoped BigOperators

namespace Cert.KernelIdeal.Reg4

open Idealize.ShloMosaic Idealize.ShloMosaic.TcCoe Idealize.ShloMosaic.ValueIdx Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## The arrays the region finds, and a point's blocks of them, at their literal types -/

abbrev aA (c : Dev nD) : Vec Ideal S50000x256 .f32 := V c (Pipeline.arrRef spec4 0)
abbrev aX (c : Dev nD) : Vec Ideal S50000x256 .f32 := V c (Pipeline.arrRef spec4 1)
abbrev aWl (c : Dev nD) : Vec Ideal S256x256 .f32 := V c (Pipeline.arrRef spec4 2)
abbrev aWr (c : Dev nD) : Vec Ideal S256x256 .f32 := V c (Pipeline.arrRef spec4 3)
abbrev aBl (c : Dev nD) : Vec Ideal S1x256 .f32 := V c (Pipeline.arrRef spec4 4)
abbrev aSc (c : Dev nD) : Vec Ideal S1x256 .f32 := V c (Pipeline.arrRef spec4 5)
abbrev aMn (c : Dev nD) : Vec Ideal S1x256 .f32 := V c (Pipeline.arrRef spec4 6)
abbrev aBs (c : Dev nD) : Vec Ideal S1x256 .f32 := V c (Pipeline.arrRef spec4 7)
abbrev aIv (c : Dev nD) : Vec Ideal S50000x1 .f32 := V c (Pipeline.arrRef spec4 8)
abbrev aRes (c : Dev nD) : Vec Ideal S50000x256 .f32 := V c (Pipeline.arrRef spec4 9)
abbrev aGw (c : Dev nD) : Vec Ideal S256x256 .f32 := V c (Pipeline.arrRef spec4 10)
abbrev aGb (c : Dev nD) : Vec Ideal S1x256 .f32 := V c (Pipeline.arrRef spec4 11)

abbrev bA (c : Dev nD) (t : Fin cfg4.N) : Vec Ideal S2000x256 .f32 := iblk4 V c 0 t
abbrev bX (c : Dev nD) (t : Fin cfg4.N) : Vec Ideal S2000x256 .f32 := iblk4 V c 1 t
abbrev bWl (c : Dev nD) (t : Fin cfg4.N) : Vec Ideal S256x256 .f32 := iblk4 V c 2 t
abbrev bWr (c : Dev nD) (t : Fin cfg4.N) : Vec Ideal S256x256 .f32 := iblk4 V c 3 t
abbrev bBl (c : Dev nD) (t : Fin cfg4.N) : Vec Ideal S1x256 .f32 := iblk4 V c 4 t
abbrev bSc (c : Dev nD) (t : Fin cfg4.N) : Vec Ideal S1x256 .f32 := iblk4 V c 5 t
abbrev bMn (c : Dev nD) (t : Fin cfg4.N) : Vec Ideal S1x256 .f32 := iblk4 V c 6 t
abbrev bBs (c : Dev nD) (t : Fin cfg4.N) : Vec Ideal S1x256 .f32 := iblk4 V c 7 t
abbrev bIv (c : Dev nD) (t : Fin cfg4.N) : Vec Ideal S2000x1 .f32 := iblk4 V c 8 t
abbrev bRes (c : Dev nD) (t : Fin cfg4.N) : Vec Ideal S2000x256 .f32 := iblk4 V c 9 t
abbrev bGw (c : Dev nD) (t : Fin cfg4.N) : Vec Ideal S256x256 .f32 := iblk4 V c 10 t
abbrev bGb (c : Dev nD) (t : Fin cfg4.N) : Vec Ideal S1x256 .f32 := iblk4 V c 11 t

/-! ## The printed index maps over the grid -/

/-- Point `t`'s blocks: the row-indexed windows sit at block row `t`, every other block index is `0`. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0
    ∧ win4_8.index t (0 : Fin 2) = t.val ∧ win4_8.index t (1 : Fin 2) = 0
    ∧ win4_9.index t (0 : Fin 2) = t.val ∧ win4_9.index t (1 : Fin 2) = 0
    ∧ win4_10.index t (0 : Fin 2) = 0 ∧ win4_10.index t (1 : Fin 2) = 0
    ∧ win4_11.index t (0 : Fin 2) = 0 ∧ win4_11.index t (1 : Fin 2) = 0
    ∧ win4_12.index t (0 : Fin 2) = t.val ∧ win4_12.index t (1 : Fin 2) = 0
    ∧ win4_13.index t (0 : Fin 2) = t.val ∧ win4_13.index t (1 : Fin 2) = 0
    ∧ t.val < 25 :=
  (by decide +kernel : ∀ t : Fin grid4.N, _)

/-- The row of the whole array that row `p` of point `t`'s block is. -/
def grow (t : Fin cfg4.N) (p : Fin 2000) : Fin 50000 := ⟨t.val * 2000 + p.val, by
  have := (idx_facts t).2.2.2.2.2.2.2.2.2.2.2.2.2.2.2.2.2.2.2.2.2.2.2.2.2.2.2.2; have := p.isLt; omega⟩

/-! ## A point's blocks read off the arrays -/

theorem readA (c : Dev nD) (t : Fin cfg4.N) (p : Fin 2000) (k : Fin 256) : bA V c t (ix2 p k) = aA V c (ix2 (grow t p) k) := by
  obtain ⟨e0, e1, -⟩ := idx_facts t
  show V c (Pipeline.arrRef spec4 0) (((cfg4.win 0).blk t).view.emb (ix2 p k)) = V c (Pipeline.arrRef spec4 0) (ix2 (grow t p) k)
  refine congrArg _ (funext fun a => Fin.ext ?_)
  match a with
  | ⟨0, _⟩ => show win4_0.index t (0 : Fin 2) * 2000 + 1 * p.val = t.val * 2000 + p.val; omega
  | ⟨1, _⟩ => show win4_0.index t (1 : Fin 2) * 256 + 1 * k.val = k.val; omega

theorem readX (c : Dev nD) (t : Fin cfg4.N) (p : Fin 2000) (k : Fin 256) : bX V c t (ix2 p k) = aX V c (ix2 (grow t p) k) := by
  obtain ⟨-, -, e0, e1, -⟩ := idx_facts t
  show V c (Pipeline.arrRef spec4 1) (((cfg4.win 1).blk t).view.emb (ix2 p k)) = V c (Pipeline.arrRef spec4 1) (ix2 (grow t p) k)
  refine congrArg _ (funext fun a => Fin.ext ?_)
  match a with
  | ⟨0, _⟩ => show win4_1.index t (0 : Fin 2) * 2000 + 1 * p.val = t.val * 2000 + p.val; omega
  | ⟨1, _⟩ => show win4_1.index t (1 : Fin 2) * 256 + 1 * k.val = k.val; omega

theorem readWl (c : Dev nD) (t : Fin cfg4.N) (k q : Fin 256) : bWl V c t (ix2 k q) = aWl V c (ix2 k q) := by
  obtain ⟨-, -, -, -, e0, e1, -⟩ := idx_facts t
  show V c (Pipeline.arrRef spec4 2) (((cfg4.win 2).blk t).view.emb (ix2 k q)) = V c (Pipeline.arrRef spec4 2) (ix2 k q)
  refine congrArg _ (funext fun a => Fin.ext ?_)
  match a with
  | ⟨0, _⟩ => show win4_2.index t (0 : Fin 2) * 256 + 1 * k.val = k.val; omega
  | ⟨1, _⟩ => show win4_2.index t (1 : Fin 2) * 256 + 1 * q.val = q.val; omega

theorem readWr (c : Dev nD) (t : Fin cfg4.N) (k q : Fin 256) : bWr V c t (ix2 k q) = aWr V c (ix2 k q) := by
  obtain ⟨-, -, -, -, -, -, e0, e1, -⟩ := idx_facts t
  show V c (Pipeline.arrRef spec4 3) (((cfg4.win 3).blk t).view.emb (ix2 k q)) = V c (Pipeline.arrRef spec4 3) (ix2 k q)
  refine congrArg _ (funext fun a => Fin.ext ?_)
  match a with
  | ⟨0, _⟩ => show win4_3.index t (0 : Fin 2) * 256 + 1 * k.val = k.val; omega
  | ⟨1, _⟩ => show win4_3.index t (1 : Fin 2) * 256 + 1 * q.val = q.val; omega

theorem readBl (c : Dev nD) (t : Fin cfg4.N) (q : Fin 256) : bBl V c t (ix2 0 q) = aBl V c (ix2 0 q) := by
  obtain ⟨-, -, -, -, -, -, -, -, e0, e1, -⟩ := idx_facts t
  show V c (Pipeline.arrRef spec4 4) (((cfg4.win 4).blk t).view.emb (ix2 0 q)) = V c (Pipeline.arrRef spec4 4) (ix2 0 q)
  refine congrArg _ (funext fun a => Fin.ext ?_)
  match a with
  | ⟨0, _⟩ => show win4_4.index t (0 : Fin 2) * 1 + 1 * 0 = 0; omega
  | ⟨1, _⟩ => show win4_4.index t (1 : Fin 2) * 256 + 1 * q.val = q.val; omega

theorem readSc (c : Dev nD) (t : Fin cfg4.N) (q : Fin 256) : bSc V c t (ix2 0 q) = aSc V c (ix2 0 q) := by
  obtain ⟨-, -, -, -, -, -, -, -, -, -, e0, e1, -⟩ := idx_facts t
  show V c (Pipeline.arrRef spec4 5) (((cfg4.win 5).blk t).view.emb (ix2 0 q)) = V c (Pipeline.arrRef spec4 5) (ix2 0 q)
  refine congrArg _ (funext fun a => Fin.ext ?_)
  match a with
  | ⟨0, _⟩ => show win4_5.index t (0 : Fin 2) * 1 + 1 * 0 = 0; omega
  | ⟨1, _⟩ => show win4_5.index t (1 : Fin 2) * 256 + 1 * q.val = q.val; omega

theorem readMn (c : Dev nD) (t : Fin cfg4.N) (q : Fin 256) : bMn V c t (ix2 0 q) = aMn V c (ix2 0 q) := by
  obtain ⟨-, -, -, -, -, -, -, -, -, -, -, -, e0, e1, -⟩ := idx_facts t
  show V c (Pipeline.arrRef spec4 6) (((cfg4.win 6).blk t).view.emb (ix2 0 q)) = V c (Pipeline.arrRef spec4 6) (ix2 0 q)
  refine congrArg _ (funext fun a => Fin.ext ?_)
  match a with
  | ⟨0, _⟩ => show win4_6.index t (0 : Fin 2) * 1 + 1 * 0 = 0; omega
  | ⟨1, _⟩ => show win4_6.index t (1 : Fin 2) * 256 + 1 * q.val = q.val; omega

theorem readBs (c : Dev nD) (t : Fin cfg4.N) (q : Fin 256) : bBs V c t (ix2 0 q) = aBs V c (ix2 0 q) := by
  obtain ⟨-, -, -, -, -, -, -, -, -, -, -, -, -, -, e0, e1, -⟩ := idx_facts t
  show V c (Pipeline.arrRef spec4 7) (((cfg4.win 7).blk t).view.emb (ix2 0 q)) = V c (Pipeline.arrRef spec4 7) (ix2 0 q)
  refine congrArg _ (funext fun a => Fin.ext ?_)
  match a with
  | ⟨0, _⟩ => show win4_7.index t (0 : Fin 2) * 1 + 1 * 0 = 0; omega
  | ⟨1, _⟩ => show win4_7.index t (1 : Fin 2) * 256 + 1 * q.val = q.val; omega

theorem readIv (c : Dev nD) (t : Fin cfg4.N) (p : Fin 2000) : bIv V c t (ix2 p 0) = aIv V c (ix2 (grow t p) 0) := by
  obtain ⟨-, -, -, -, -, -, -, -, -, -, -, -, -, -, -, -, e0, e1, -⟩ := idx_facts t
  show V c (Pipeline.arrRef spec4 8) (((cfg4.win 8).blk t).view.emb (ix2 p 0)) = V c (Pipeline.arrRef spec4 8) (ix2 (grow t p) 0)
  refine congrArg _ (funext fun a => Fin.ext ?_)
  match a with
  | ⟨0, _⟩ => show win4_8.index t (0 : Fin 2) * 2000 + 1 * p.val = t.val * 2000 + p.val; omega
  | ⟨1, _⟩ => show win4_8.index t (1 : Fin 2) * 1 + 1 * 0 = 0; omega

theorem readRes (c : Dev nD) (t : Fin cfg4.N) (p : Fin 2000) (k : Fin 256) : bRes V c t (ix2 p k) = aRes V c (ix2 (grow t p) k) := by
  obtain ⟨-, -, -, -, -, -, -, -, -, -, -, -, -, -, -, -, -, -, e0, e1, -⟩ := idx_facts t
  show V c (Pipeline.arrRef spec4 9) (((cfg4.win 9).blk t).view.emb (ix2 p k)) = V c (Pipeline.arrRef spec4 9) (ix2 (grow t p) k)
  refine congrArg _ (funext fun a => Fin.ext ?_)
  match a with
  | ⟨0, _⟩ => show win4_9.index t (0 : Fin 2) * 2000 + 1 * p.val = t.val * 2000 + p.val; omega
  | ⟨1, _⟩ => show win4_9.index t (1 : Fin 2) * 256 + 1 * k.val = k.val; omega

theorem readGw (c : Dev nD) (t : Fin cfg4.N) (k q : Fin 256) : bGw V c t (ix2 k q) = aGw V c (ix2 k q) := by
  obtain ⟨-, -, -, -, -, -, -, -, -, -, -, -, -, -, -, -, -, -, -, -, e0, e1, -⟩ := idx_facts t
  show V c (Pipeline.arrRef spec4 10) (((cfg4.win 10).blk t).view.emb (ix2 k q)) = V c (Pipeline.arrRef spec4 10) (ix2 k q)
  refine congrArg _ (funext fun a => Fin.ext ?_)
  match a with
  | ⟨0, _⟩ => show win4_10.index t (0 : Fin 2) * 256 + 1 * k.val = k.val; omega
  | ⟨1, _⟩ => show win4_10.index t (1 : Fin 2) * 256 + 1 * q.val = q.val; omega

theorem readGb (c : Dev nD) (t : Fin cfg4.N) (q : Fin 256) : bGb V c t (ix2 0 q) = aGb V c (ix2 0 q) := by
  obtain ⟨-, -, -, -, -, -, -, -, -, -, -, -, -, -, -, -, -, -, -, -, -, -, e0, e1, -⟩ := idx_facts t
  show V c (Pipeline.arrRef spec4 11) (((cfg4.win 11).blk t).view.emb (ix2 0 q)) = V c (Pipeline.arrRef spec4 11) (ix2 0 q)
  refine congrArg _ (funext fun a => Fin.ext ?_)
  match a with
  | ⟨0, _⟩ => show win4_11.index t (0 : Fin 2) * 1 + 1 * 0 = 0; omega
  | ⟨1, _⟩ => show win4_11.index t (1 : Fin 2) * 256 + 1 * q.val = q.val; omega

/-! ## What a point writes back -/

/-- The whole-array function of the arrays the region finds. -/
abbrev G (c : Dev nD) : S50000x256.Idx → EReal :=
  Whole.gateG (aA V c) (aX V c) (aWl V c) (aWr V c) (aBl V c) (aSc V c) (aMn V c) (aBs V c) (aIv V c) (aRes V c) (aGw V c) (aGb V c)

/-- Entry `(p, q)` of what point `t` computes is entry `(2000 t + p, q)` of the whole-array function. -/
theorem point_apply (c : Dev nD) (t : Fin cfg4.N) (p : Fin 2000) (q : Fin 256) :
    k4_pay1 (F := Ideal) (k4_pay3 (F := Ideal) (bA V c t) (bIv V c t) (bX V c t) (bWl V c t) (bWr V c t) (bBl V c t) (bMn V c t) (bSc V c t) (bBs V c t)) (k4_pay4 (F := Ideal) (bRes V c t)) (bGw V c t) (bGb V c t) (ix2 p q)
      = G V c (ix2 (grow t p) q) := by
  rw [Core.resblk_apply, Core.gate_apply, Core.pre_apply]
  show _ = Spec.gate _ _ _ _ _ _ _ _ _ _ _ (grow t p) q
  unfold Spec.gate Spec.sageRes
  rw [Spec.sage_eq_max_bn]
  unfold Spec.bn
  simp only [readA V c t, readX V c t, readWl V c t, readWr V c t, readBl V c t, readSc V c t, readMn V c t, readBs V c t, readIv V c t, readRes V c t, readGw V c t, readGb V c t]

/-- The block of the first output at point `t`, embedded in the array. -/
theorem emb12 (t : Fin cfg4.N) (p : Fin 2000) (q : Fin 256) :
    ((cfg4.win 12).blk t).view.emb (ix2 p q) = ix2 (grow t p) q := by
  obtain ⟨-, -, -, -, -, -, -, -, -, -, -, -, -, -, -, -, -, -, -, -, -, -, -, -, e0, e1, -⟩ := idx_facts t
  refine funext fun a => Fin.ext ?_
  match a with
  | ⟨0, _⟩ => show win4_12.index t (0 : Fin 2) * 2000 + 1 * p.val = t.val * 2000 + p.val; omega
  | ⟨1, _⟩ => show win4_12.index t (1 : Fin 2) * 256 + 1 * q.val = q.val; omega

/-- The block of the second output at point `t`, embedded in the array. -/
theorem emb13 (t : Fin cfg4.N) (p : Fin 2000) (q : Fin 256) :
    ((cfg4.win 13).blk t).view.emb (ix2 p q) = ix2 (grow t p) q := by
  obtain ⟨-, -, -, -, -, -, -, -, -, -, -, -, -, -, -, -, -, -, -, -, -, -, -, -, -, -, e0, e1, -⟩ := idx_facts t
  refine funext fun a => Fin.ext ?_
  match a with
  | ⟨0, _⟩ => show win4_13.index t (0 : Fin 2) * 2000 + 1 * p.val = t.val * 2000 + p.val; omega
  | ⟨1, _⟩ => show win4_13.index t (1 : Fin 2) * 256 + 1 * q.val = q.val; omega

/-- What point `t` writes back to the first output is block `t` of the whole-array function. -/
theorem flushed12_eq (c : Dev nD) (t : Fin cfg4.N) :
    (dat4 V c).flushed 12 t = ((cfg4.win 12).blk t).view.read (Elt Ideal) (G V c) := by
  show (cfg4.win 12).cut (grid4.coords t) ((dat4 V c).after 12 t) = _
  rw [after4_12]
  unfold out4_12
  rw [View.canon_unit_zero hz]
  simp only [View.ld_unit_zero (S := S2000x256) hz, View.ld_unit_zero (S := S2000x1) hz, View.ld_unit_zero (S := S256x256) hz, View.ld_unit_zero (S := S1x256) hz]
  funext j
  obtain ⟨p, q, rfl⟩ : ∃ (p : Fin 2000) (q : Fin 256), j = ix2 p q := ⟨j 0, j 1, eq_ix2 j⟩
  show k4_pay1 (F := Ideal) (k4_pay3 (F := Ideal) (bA V c t) (bIv V c t) (bX V c t) (bWl V c t) (bWr V c t) (bBl V c t) (bMn V c t) (bSc V c t) (bBs V c t)) (k4_pay4 (F := Ideal) (bRes V c t)) (bGw V c t) (bGb V c t) (ix2 p q)
    = G V c (((cfg4.win 12).blk t).view.emb (ix2 p q))
  rw [emb12 t p q]
  exact point_apply V c t p q

/-- The copy in the narrower format is the same number at the ideal values. -/
theorem flushed13_eq (c : Dev nD) (t : Fin cfg4.N) :
    (dat4 V c).flushed 13 t = ((cfg4.win 13).blk t).view.read (Elt Ideal) (G V c) := by
  show (cfg4.win 13).cut (grid4.coords t) ((dat4 V c).after 13 t) = _
  rw [after4_13]
  unfold out4_13
  rw [View.canon_unit_zero hz]
  simp only [View.ld_unit_zero (S := S2000x256) hz, View.ld_unit_zero (S := S2000x1) hz, View.ld_unit_zero (S := S256x256) hz, View.ld_unit_zero (S := S1x256) hz]
  funext j
  obtain ⟨p, q, rfl⟩ : ∃ (p : Fin 2000) (q : Fin 256), j = ix2 p q := ⟨j 0, j 1, eq_ix2 j⟩
  show k4_pay1 (F := Ideal) (k4_pay3 (F := Ideal) (bA V c t) (bIv V c t) (bX V c t) (bWl V c t) (bWr V c t) (bBl V c t) (bMn V c t) (bSc V c t) (bBs V c t)) (k4_pay4 (F := Ideal) (bRes V c t)) (bGw V c t) (bGb V c t) (ix2 p q)
    = G V c (((cfg4.win 13).blk t).view.emb (ix2 p q))
  rw [emb13 t p q]
  exact point_apply V c t p q

/-! ## The row blocks tile the array -/

theorem mem_blk12 (t : Fin cfg4.N) (i : S50000x256.Idx) :
    i ∈ ((cfg4.win 12).blk t).view.set ↔ ∀ a : Fin 2, win4_12.index t a * S2000x256.size a ≤ (i a).val ∧ (i a).val < win4_12.index t a * S2000x256.size a + S2000x256.size a := by
  show i ∈ ((View.whole main_v139_0).slice (win4_12.rect t)).set ↔ _
  rw [View.set_slice_whole, Rect.mem_set_unit]
  exact Iff.rfl

theorem mem_blk13 (t : Fin cfg4.N) (i : S50000x256.Idx) :
    i ∈ ((cfg4.win 13).blk t).view.set ↔ ∀ a : Fin 2, win4_13.index t a * S2000x256.size a ≤ (i a).val ∧ (i a).val < win4_13.index t a * S2000x256.size a + S2000x256.size a := by
  show i ∈ ((View.whole main_v139_1).slice (win4_13.rect t)).set ↔ _
  rw [View.set_slice_whole, Rect.mem_set_unit]
  exact Iff.rfl

/-- The point whose block holds row `r`. -/
def pointOf (i : S50000x256.Idx) : Fin cfg4.N := ⟨(i 0).val / 2000, by
  have h : (i 0).val < 50000 := (i 0).isLt
  show (i 0).val / 2000 < 25
  omega⟩

theorem cover12 (i : S50000x256.Idx) : ∃ t : Fin cfg4.N, (cfg4.win 12).flush t = true ∧ i ∈ ((cfg4.win 12).blk t).view.set := by
  refine ⟨pointOf i, flush4_12 _, ?_⟩
  rw [mem_blk12]
  obtain ⟨-, -, -, -, -, -, -, -, -, -, -, -, -, -, -, -, -, -, -, -, -, -, -, -, e0, e1, -⟩ := idx_facts (pointOf i)
  have h0 : (i 0).val < 50000 := (i 0).isLt
  have h1 : (i 1).val < 256 := (i 1).isLt
  have hp : (pointOf i).val = (i 0).val / 2000 := rfl
  intro a
  match a with
  | ⟨0, _⟩ => show win4_12.index (pointOf i) (0 : Fin 2) * 2000 ≤ (i 0).val ∧ (i 0).val < win4_12.index (pointOf i) (0 : Fin 2) * 2000 + 2000; omega
  | ⟨1, _⟩ => show win4_12.index (pointOf i) (1 : Fin 2) * 256 ≤ (i 1).val ∧ (i 1).val < win4_12.index (pointOf i) (1 : Fin 2) * 256 + 256; omega

theorem cover13 (i : S50000x256.Idx) : ∃ t : Fin cfg4.N, (cfg4.win 13).flush t = true ∧ i ∈ ((cfg4.win 13).blk t).view.set := by
  refine ⟨pointOf i, flush4_13 _, ?_⟩
  rw [mem_blk13]
  obtain ⟨-, -, -, -, -, -, -, -, -, -, -, -, -, -, -, -, -, -, -, -, -, -, -, -, -, -, e0, e1, -⟩ := idx_facts (pointOf i)
  have h0 : (i 0).val < 50000 := (i 0).isLt
  have h1 : (i 1).val < 256 := (i 1).isLt
  have hp : (pointOf i).val = (i 0).val / 2000 := rfl
  intro a
  match a with
  | ⟨0, _⟩ => show win4_13.index (pointOf i) (0 : Fin 2) * 2000 ≤ (i 0).val ∧ (i 0).val < win4_13.index (pointOf i) (0 : Fin 2) * 2000 + 2000; omega
  | ⟨1, _⟩ => show win4_13.index (pointOf i) (1 : Fin 2) * 256 ≤ (i 1).val ∧ (i 1).val < win4_13.index (pointOf i) (1 : Fin 2) * 256 + 256; omega

/-! ## The arrays after the region -/

/-- After the region the first output array is the whole-array function of the arrays the region found. -/
theorem final12 (c : Dev nD) : (dat4 V c).arrAt 12 cfg4.N = G V c :=
  (dat4 V c).arrAt_eq_of_cover 12 (G V c) (fun t _ => flushed12_eq V c t) (cover12)

/-- And so is the second. -/
theorem final13 (c : Dev nD) : (dat4 V c).arrAt 13 cfg4.N = G V c :=
  (dat4 V c).arrAt_eq_of_cover 13 (G V c) (fun t _ => flushed13_eq V c t) (cover13)

end Cert.KernelIdeal.Reg4

end
-- ==== Proof.Reg5.lean ====
/-
  A plain convolution kernel (a block's first convolution, its normalisation and the rectifier), as one function of whole arrays.

  The kernel runs on a grid of 25 points; point `t` loads rows `2000 t … 2000 t + 1999` of the aggregate, of the
  node features and of the inverse-count column, the two weight matrices and the four row vectors whole, and writes
  the same rows of its two outputs (the value, and a copy in the narrower float format, which at the ideal values is
  the same number).  Every entry it writes depends only on its own row of the row-indexed operands, so what point
  `t` writes back is the rows of ONE whole-array function, `Whole.sageG` of the arrays the region finds; the 25 row
  blocks tile the 50000 rows, so after the region each output array IS that function.
-/
import proofs.«421284_j80985903333882_3_alg».proof.Proof.Gen.KernelIdeal.Frame
import proofs.«421284_j80985903333882_3_alg».proof.Proof.Core
import proofs.«421284_j80985903333882_3_alg».proof.Proof.Whole

set_option maxRecDepth 16384

noncomputable section

open scoped BigOperators

namespace Cert.KernelIdeal.Reg5

open Idealize.ShloMosaic Idealize.ShloMosaic.TcCoe Idealize.ShloMosaic.ValueIdx Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## The arrays the region finds, and a point's blocks of them, at their literal types -/

abbrev aA (c : Dev nD) : Vec Ideal S50000x256 .f32 := V c (Pipeline.arrRef spec5 0)
abbrev aX (c : Dev nD) : Vec Ideal S50000x256 .f32 := V c (Pipeline.arrRef spec5 1)
abbrev aWl (c : Dev nD) : Vec Ideal S256x256 .f32 := V c (Pipeline.arrRef spec5 2)
abbrev aWr (c : Dev nD) : Vec Ideal S256x256 .f32 := V c (Pipeline.arrRef spec5 3)
abbrev aBl (c : Dev nD) : Vec Ideal S1x256 .f32 := V c (Pipeline.arrRef spec5 4)
abbrev aSc (c : Dev nD) : Vec Ideal S1x256 .f32 := V c (Pipeline.arrRef spec5 5)
abbrev aMn (c : Dev nD) : Vec Ideal S1x256 .f32 := V c (Pipeline.arrRef spec5 6)
abbrev aBs (c : Dev nD) : Vec Ideal S1x256 .f32 := V c (Pipeline.arrRef spec5 7)
abbrev aIv (c : Dev nD) : Vec Ideal S50000x1 .f32 := V c (Pipeline.arrRef spec5 8)

abbrev bA (c : Dev nD) (t : Fin cfg5.N) : Vec Ideal S2000x256 .f32 := iblk5 V c 0 t
abbrev bX (c : Dev nD) (t : Fin cfg5.N) : Vec Ideal S2000x256 .f32 := iblk5 V c 1 t
abbrev bWl (c : Dev nD) (t : Fin cfg5.N) : Vec Ideal S256x256 .f32 := iblk5 V c 2 t
abbrev bWr (c : Dev nD) (t : Fin cfg5.N) : Vec Ideal S256x256 .f32 := iblk5 V c 3 t
abbrev bBl (c : Dev nD) (t : Fin cfg5.N) : Vec Ideal S1x256 .f32 := iblk5 V c 4 t
abbrev bSc (c : Dev nD) (t : Fin cfg5.N) : Vec Ideal S1x256 .f32 := iblk5 V c 5 t
abbrev bMn (c : Dev nD) (t : Fin cfg5.N) : Vec Ideal S1x256 .f32 := iblk5 V c 6 t
abbrev bBs (c : Dev nD) (t : Fin cfg5.N) : Vec Ideal S1x256 .f32 := iblk5 V c 7 t
abbrev bIv (c : Dev nD) (t : Fin cfg5.N) : Vec Ideal S2000x1 .f32 := iblk5 V c 8 t

/-! ## The printed index maps over the grid -/

/-- Point `t`'s blocks: the row-indexed windows sit at block row `t`, every other block index is `0`. -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = 0 ∧ win5_7.index t (1 : Fin 2) = 0
    ∧ win5_8.index t (0 : Fin 2) = t.val ∧ win5_8.index t (1 : Fin 2) = 0
    ∧ win5_9.index t (0 : Fin 2) = t.val ∧ win5_9.index t (1 : Fin 2) = 0
    ∧ win5_10.index t (0 : Fin 2) = t.val ∧ win5_10.index t (1 : Fin 2) = 0
    ∧ t.val < 25 :=
  (by decide +kernel : ∀ t : Fin grid5.N, _)

/-- The row of the whole array that row `p` of point `t`'s block is. -/
def grow (t : Fin cfg5.N) (p : Fin 2000) : Fin 50000 := ⟨t.val * 2000 + p.val, by
  have := (idx_facts t).2.2.2.2.2.2.2.2.2.2.2.2.2.2.2.2.2.2.2.2.2.2; have := p.isLt; omega⟩

/-! ## A point's blocks read off the arrays -/

theorem readA (c : Dev nD) (t : Fin cfg5.N) (p : Fin 2000) (k : Fin 256) : bA V c t (ix2 p k) = aA V c (ix2 (grow t p) k) := by
  obtain ⟨e0, e1, -⟩ := idx_facts t
  show V c (Pipeline.arrRef spec5 0) (((cfg5.win 0).blk t).view.emb (ix2 p k)) = V c (Pipeline.arrRef spec5 0) (ix2 (grow t p) k)
  refine congrArg _ (funext fun a => Fin.ext ?_)
  match a with
  | ⟨0, _⟩ => show win5_0.index t (0 : Fin 2) * 2000 + 1 * p.val = t.val * 2000 + p.val; omega
  | ⟨1, _⟩ => show win5_0.index t (1 : Fin 2) * 256 + 1 * k.val = k.val; omega

theorem readX (c : Dev nD) (t : Fin cfg5.N) (p : Fin 2000) (k : Fin 256) : bX V c t (ix2 p k) = aX V c (ix2 (grow t p) k) := by
  obtain ⟨-, -, e0, e1, -⟩ := idx_facts t
  show V c (Pipeline.arrRef spec5 1) (((cfg5.win 1).blk t).view.emb (ix2 p k)) = V c (Pipeline.arrRef spec5 1) (ix2 (grow t p) k)
  refine congrArg _ (funext fun a => Fin.ext ?_)
  match a with
  | ⟨0, _⟩ => show win5_1.index t (0 : Fin 2) * 2000 + 1 * p.val = t.val * 2000 + p.val; omega
  | ⟨1, _⟩ => show win5_1.index t (1 : Fin 2) * 256 + 1 * k.val = k.val; omega

theorem readWl (c : Dev nD) (t : Fin cfg5.N) (k q : Fin 256) : bWl V c t (ix2 k q) = aWl V c (ix2 k q) := by
  obtain ⟨-, -, -, -, e0, e1, -⟩ := idx_facts t
  show V c (Pipeline.arrRef spec5 2) (((cfg5.win 2).blk t).view.emb (ix2 k q)) = V c (Pipeline.arrRef spec5 2) (ix2 k q)
  refine congrArg _ (funext fun a => Fin.ext ?_)
  match a with
  | ⟨0, _⟩ => show win5_2.index t (0 : Fin 2) * 256 + 1 * k.val = k.val; omega
  | ⟨1, _⟩ => show win5_2.index t (1 : Fin 2) * 256 + 1 * q.val = q.val; omega

theorem readWr (c : Dev nD) (t : Fin cfg5.N) (k q : Fin 256) : bWr V c t (ix2 k q) = aWr V c (ix2 k q) := by
  obtain ⟨-, -, -, -, -, -, e0, e1, -⟩ := idx_facts t
  show V c (Pipeline.arrRef spec5 3) (((cfg5.win 3).blk t).view.emb (ix2 k q)) = V c (Pipeline.arrRef spec5 3) (ix2 k q)
  refine congrArg _ (funext fun a => Fin.ext ?_)
  match a with
  | ⟨0, _⟩ => show win5_3.index t (0 : Fin 2) * 256 + 1 * k.val = k.val; omega
  | ⟨1, _⟩ => show win5_3.index t (1 : Fin 2) * 256 + 1 * q.val = q.val; omega

theorem readBl (c : Dev nD) (t : Fin cfg5.N) (q : Fin 256) : bBl V c t (ix2 0 q) = aBl V c (ix2 0 q) := by
  obtain ⟨-, -, -, -, -, -, -, -, e0, e1, -⟩ := idx_facts t
  show V c (Pipeline.arrRef spec5 4) (((cfg5.win 4).blk t).view.emb (ix2 0 q)) = V c (Pipeline.arrRef spec5 4) (ix2 0 q)
  refine congrArg _ (funext fun a => Fin.ext ?_)
  match a with
  | ⟨0, _⟩ => show win5_4.index t (0 : Fin 2) * 1 + 1 * 0 = 0; omega
  | ⟨1, _⟩ => show win5_4.index t (1 : Fin 2) * 256 + 1 * q.val = q.val; omega

theorem readSc (c : Dev nD) (t : Fin cfg5.N) (q : Fin 256) : bSc V c t (ix2 0 q) = aSc V c (ix2 0 q) := by
  obtain ⟨-, -, -, -, -, -, -, -, -, -, e0, e1, -⟩ := idx_facts t
  show V c (Pipeline.arrRef spec5 5) (((cfg5.win 5).blk t).view.emb (ix2 0 q)) = V c (Pipeline.arrRef spec5 5) (ix2 0 q)
  refine congrArg _ (funext fun a => Fin.ext ?_)
  match a with
  | ⟨0, _⟩ => show win5_5.index t (0 : Fin 2) * 1 + 1 * 0 = 0; omega
  | ⟨1, _⟩ => show win5_5.index t (1 : Fin 2) * 256 + 1 * q.val = q.val; omega

theorem readMn (c : Dev nD) (t : Fin cfg5.N) (q : Fin 256) : bMn V c t (ix2 0 q) = aMn V c (ix2 0 q) := by
  obtain ⟨-, -, -, -, -, -, -, -, -, -, -, -, e0, e1, -⟩ := idx_facts t
  show V c (Pipeline.arrRef spec5 6) (((cfg5.win 6).blk t).view.emb (ix2 0 q)) = V c (Pipeline.arrRef spec5 6) (ix2 0 q)
  refine congrArg _ (funext fun a => Fin.ext ?_)
  match a with
  | ⟨0, _⟩ => show win5_6.index t (0 : Fin 2) * 1 + 1 * 0 = 0; omega
  | ⟨1, _⟩ => show win5_6.index t (1 : Fin 2) * 256 + 1 * q.val = q.val; omega

theorem readBs (c : Dev nD) (t : Fin cfg5.N) (q : Fin 256) : bBs V c t (ix2 0 q) = aBs V c (ix2 0 q) := by
  obtain ⟨-, -, -, -, -, -, -, -, -, -, -, -, -, -, e0, e1, -⟩ := idx_facts t
  show V c (Pipeline.arrRef spec5 7) (((cfg5.win 7).blk t).view.emb (ix2 0 q)) = V c (Pipeline.arrRef spec5 7) (ix2 0 q)
  refine congrArg _ (funext fun a => Fin.ext ?_)
  match a with
  | ⟨0, _⟩ => show win5_7.index t (0 : Fin 2) * 1 + 1 * 0 = 0; omega
  | ⟨1, _⟩ => show win5_7.index t (1 : Fin 2) * 256 + 1 * q.val = q.val; omega

theorem readIv (c : Dev nD) (t : Fin cfg5.N) (p : Fin 2000) : bIv V c t (ix2 p 0) = aIv V c (ix2 (grow t p) 0) := by
  obtain ⟨-, -, -, -, -, -, -, -, -, -, -, -, -, -, -, -, e0, e1, -⟩ := idx_facts t
  show V c (Pipeline.arrRef spec5 8) (((cfg5.win 8).blk t).view.emb (ix2 p 0)) = V c (Pipeline.arrRef spec5 8) (ix2 (grow t p) 0)
  refine congrArg _ (funext fun a => Fin.ext ?_)
  match a with
  | ⟨0, _⟩ => show win5_8.index t (0 : Fin 2) * 2000 + 1 * p.val = t.val * 2000 + p.val; omega
  | ⟨1, _⟩ => show win5_8.index t (1 : Fin 2) * 1 + 1 * 0 = 0; omega

/-! ## What a point writes back -/

/-- The whole-array function of the arrays the region finds. -/
abbrev G (c : Dev nD) : S50000x256.Idx → EReal :=
  Whole.sageG (aA V c) (aX V c) (aWl V c) (aWr V c) (aBl V c) (aSc V c) (aMn V c) (aBs V c) (aIv V c)

/-- Entry `(p, q)` of what point `t` computes is entry `(2000 t + p, q)` of the whole-array function. -/
theorem point_apply (c : Dev nD) (t : Fin cfg5.N) (p : Fin 2000) (q : Fin 256) :
    Core.coreTerm (bA V c t) (bIv V c t) (bX V c t) (bWl V c t) (bWr V c t) (bBl V c t) (bMn V c t) (bSc V c t) (bBs V c t) (ix2 p q)
      = G V c (ix2 (grow t p) q) := by
  rw [Core.coreTerm_apply]
  show _ = Spec.sage _ _ _ _ _ _ _ _ (grow t p) q
  unfold Spec.sage
  simp only [readA V c t, readX V c t, readWl V c t, readWr V c t, readBl V c t, readSc V c t, readMn V c t, readBs V c t, readIv V c t]

/-- The block of the output at point `t`, embedded in the array. -/
theorem emb9 (t : Fin cfg5.N) (p : Fin 2000) (q : Fin 256) :
    ((cfg5.win 9).blk t).view.emb (ix2 p q) = ix2 (grow t p) q := by
  obtain ⟨-, -, -, -, -, -, -, -, -, -, -, -, -, -, -, -, -, -, e0, e1, -⟩ := idx_facts t
  refine funext fun a => Fin.ext ?_
  match a with
  | ⟨0, _⟩ => show win5_9.index t (0 : Fin 2) * 2000 + 1 * p.val = t.val * 2000 + p.val; omega
  | ⟨1, _⟩ => show win5_9.index t (1 : Fin 2) * 256 + 1 * q.val = q.val; omega

theorem emb10 (t : Fin cfg5.N) (p : Fin 2000) (q : Fin 256) :
    ((cfg5.win 10).blk t).view.emb (ix2 p q) = ix2 (grow t p) q := by
  obtain ⟨-, -, -, -, -, -, -, -, -, -, -, -, -, -, -, -, -, -, -, -, e0, e1, -⟩ := idx_facts t
  refine funext fun a => Fin.ext ?_
  match a with
  | ⟨0, _⟩ => show win5_10.index t (0 : Fin 2) * 2000 + 1 * p.val = t.val * 2000 + p.val; omega
  | ⟨1, _⟩ => show win5_10.index t (1 : Fin 2) * 256 + 1 * q.val = q.val; omega

/-- What point `t` writes back to the first output is block `t` of the whole-array function. -/
theorem flushed9_eq (c : Dev nD) (t : Fin cfg5.N) :
    (dat5 V c).flushed 9 t = ((cfg5.win 9).blk t).view.read (Elt Ideal) (G V c) := by
  show (cfg5.win 9).cut (grid5.coords t) ((dat5 V c).after 9 t) = _
  rw [after5_9]
  unfold out5_9
  rw [View.canon_unit_zero hz]
  simp only [View.ld_unit_zero (S := S2000x256) hz, View.ld_unit_zero (S := S2000x1) hz, View.ld_unit_zero (S := S256x256) hz, View.ld_unit_zero (S := S1x256) hz]
  funext j
  obtain ⟨p, q, rfl⟩ : ∃ (p : Fin 2000) (q : Fin 256), j = ix2 p q := ⟨j 0, j 1, eq_ix2 j⟩
  show Core.coreTerm (bA V c t) (bIv V c t) (bX V c t) (bWl V c t) (bWr V c t) (bBl V c t) (bMn V c t) (bSc V c t) (bBs V c t) (ix2 p q)
    = G V c (((cfg5.win 9).blk t).view.emb (ix2 p q))
  rw [emb9 t p q]
  exact point_apply V c t p q

/-- The copy in the narrower format is the same number at the ideal values. -/
theorem flushed10_eq (c : Dev nD) (t : Fin cfg5.N) :
    (dat5 V c).flushed 10 t = ((cfg5.win 10).blk t).view.read (Elt Ideal) (G V c) := by
  show (cfg5.win 10).cut (grid5.coords t) ((dat5 V c).after 10 t) = _
  rw [after5_10]
  unfold out5_10
  rw [View.canon_unit_zero hz]
  simp only [View.ld_unit_zero (S := S2000x256) hz, View.ld_unit_zero (S := S2000x1) hz, View.ld_unit_zero (S := S256x256) hz, View.ld_unit_zero (S := S1x256) hz]
  funext j
  obtain ⟨p, q, rfl⟩ : ∃ (p : Fin 2000) (q : Fin 256), j = ix2 p q := ⟨j 0, j 1, eq_ix2 j⟩
  show Core.coreTerm (bA V c t) (bIv V c t) (bX V c t) (bWl V c t) (bWr V c t) (bBl V c t) (bMn V c t) (bSc V c t) (bBs V c t) (ix2 p q)
    = G V c (((cfg5.win 10).blk t).view.emb (ix2 p q))
  rw [emb10 t p q]
  exact point_apply V c t p q

/-! ## The row blocks tile the array -/

theorem mem_blk9 (t : Fin cfg5.N) (i : S50000x256.Idx) :
    i ∈ ((cfg5.win 9).blk t).view.set ↔ ∀ a : Fin 2, win5_9.index t a * S2000x256.size a ≤ (i a).val ∧ (i a).val < win5_9.index t a * S2000x256.size a + S2000x256.size a := by
  show i ∈ ((View.whole main_v167_0).slice (win5_9.rect t)).set ↔ _
  rw [View.set_slice_whole, Rect.mem_set_unit]
  exact Iff.rfl

theorem mem_blk10 (t : Fin cfg5.N) (i : S50000x256.Idx) :
    i ∈ ((cfg5.win 10).blk t).view.set ↔ ∀ a : Fin 2, win5_10.index t a * S2000x256.size a ≤ (i a).val ∧ (i a).val < win5_10.index t a * S2000x256.size a + S2000x256.size a := by
  show i ∈ ((View.whole main_v167_1).slice (win5_10.rect t)).set ↔ _
  rw [View.set_slice_whole, Rect.mem_set_unit]
  exact Iff.rfl

/-- The point whose block holds row `r`. -/
def pointOf (i : S50000x256.Idx) : Fin cfg5.N := ⟨(i 0).val / 2000, by
  have h : (i 0).val < 50000 := (i 0).isLt
  show (i 0).val / 2000 < 25
  omega⟩

theorem cover9 (i : S50000x256.Idx) : ∃ t : Fin cfg5.N, (cfg5.win 9).flush t = true ∧ i ∈ ((cfg5.win 9).blk t).view.set := by
  refine ⟨pointOf i, flush5_9 _, ?_⟩
  rw [mem_blk9]
  obtain ⟨-, -, -, -, -, -, -, -, -, -, -, -, -, -, -, -, -, -, e0, e1, -⟩ := idx_facts (pointOf i)
  have h0 : (i 0).val < 50000 := (i 0).isLt
  have h1 : (i 1).val < 256 := (i 1).isLt
  have hp : (pointOf i).val = (i 0).val / 2000 := rfl
  intro a
  match a with
  | ⟨0, _⟩ => show win5_9.index (pointOf i) (0 : Fin 2) * 2000 ≤ (i 0).val ∧ (i 0).val < win5_9.index (pointOf i) (0 : Fin 2) * 2000 + 2000; omega
  | ⟨1, _⟩ => show win5_9.index (pointOf i) (1 : Fin 2) * 256 ≤ (i 1).val ∧ (i 1).val < win5_9.index (pointOf i) (1 : Fin 2) * 256 + 256; omega

theorem cover10 (i : S50000x256.Idx) : ∃ t : Fin cfg5.N, (cfg5.win 10).flush t = true ∧ i ∈ ((cfg5.win 10).blk t).view.set := by
  refine ⟨pointOf i, flush5_10 _, ?_⟩
  rw [mem_blk10]
  obtain ⟨-, -, -, -, -, -, -, -, -, -, -, -, -, -, -, -, -, -, -, -, e0, e1, -⟩ := idx_facts (pointOf i)
  have h0 : (i 0).val < 50000 := (i 0).isLt
  have h1 : (i 1).val < 256 := (i 1).isLt
  have hp : (pointOf i).val = (i 0).val / 2000 := rfl
  intro a
  match a with
  | ⟨0, _⟩ => show win5_10.index (pointOf i) (0 : Fin 2) * 2000 ≤ (i 0).val ∧ (i 0).val < win5_10.index (pointOf i) (0 : Fin 2) * 2000 + 2000; omega
  | ⟨1, _⟩ => show win5_10.index (pointOf i) (1 : Fin 2) * 256 ≤ (i 1).val ∧ (i 1).val < win5_10.index (pointOf i) (1 : Fin 2) * 256 + 256; omega

/-! ## The arrays after the region -/

/-- After the region the first output array is the whole-array function of the arrays the region found. -/
theorem final9 (c : Dev nD) : (dat5 V c).arrAt 9 cfg5.N = G V c :=
  (dat5 V c).arrAt_eq_of_cover 9 (G V c) (fun t _ => flushed9_eq V c t) (cover9)

/-- And so is the second. -/
theorem final10 (c : Dev nD) : (dat5 V c).arrAt 10 cfg5.N = G V c :=
  (dat5 V c).arrAt_eq_of_cover 10 (G V c) (fun t _ => flushed10_eq V c t) (cover10)

end Cert.KernelIdeal.Reg5

end
-- ==== Proof.KStage2.lean ====
/-
  The kernel program's stages equal the reference's, one stage at a time: the gated second convolution of block 1
  and the first convolution of block 2.

  After a region each of its output arrays is the region's whole-array function of the arrays it found; the
  reference's stage, read at an index, is the same layer function of ITS operands' coordinates.  So a stage's two
  sides agree once the operands' coordinates agree: a weight, bias or normalisation vector is the program argument
  itself on both sides (the stretch of host operations before the region slices block L's entry out of the stack);
  the block's input and the residual are earlier stages, taken here as hypotheses and carried unchanged to the
  region's entry; the aggregate is the same scatter-add of the same gather of the stage before; and the neighbourhood
  mean is the aggregate times the reciprocal of the count on one side and the quotient by the count on the other —
  equal because the larger of the count and one is not zero.
-/
import proofs.«421284_j80985903333882_3_alg».proof.Proof.KeepMore
import proofs.«421284_j80985903333882_3_alg».proof.Proof.KBase
import proofs.«421284_j80985903333882_3_alg».proof.Proof.Reg4
import proofs.«421284_j80985903333882_3_alg».proof.Proof.Reg5
import proofs.«421284_j80985903333882_3_alg».proof.Proof.RefStageA
import proofs.«421284_j80985903333882_3_alg».proof.Proof.RefStageB
import proofs.«421284_j80985903333882_3_alg».proof.Proof.RefAgg

set_option maxRecDepth 16384

noncomputable section

open scoped BigOperators

namespace Cert.KernelIdeal.KChain2

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (ρ : Dev nD → PrngReg)

/-- Widening after a gather is the gather, at the ideal values. -/
theorem extf_gather {s si t : Shape} {w : Nat} (d : GatherDims s si t) (x : FVec Ideal s .bf16) (idx : IVec si w) :
    (extf .f32 (Host.gather d x idx) bitsLt_bf16_f32 : FVec Ideal t .f32) = Host.gather d x idx := rfl

/-! ## The gated second convolution of block 1 -/

set_option maxRecDepth 200000 in
set_option maxHeartbeats 4000000 in
/-- The aggregate the kernel is given: the aggregation of the first convolution's narrow copy. -/
theorem e4_A (c : Dev nD) :
    W9 m ρ c (Proc.devRef .tc main_v117)
      = Cert.ReferenceIdeal.RefAgg.aggOf (F := Ideal) (m ((c : Thread nD τ).loc main_arg1)) (W8 m ρ c (Proc.devRef .tc main_v106_1)) := by
  show StableHlo.after (hostOps4 (F := Ideal)) (W8 m ρ c) (Proc.devRef .tc main_v117) = _
  after_results
  rw [extf_gather, Keep.from1_8 m ρ c main_v3 (by decide), KBase.w1_dst, Keep.from1_8 m ρ c main_v1 (by decide), KBase.w1_src]
  rfl

set_option maxRecDepth 200000 in
set_option maxHeartbeats 4000000 in
theorem e4_Wl (c : Dev nD) (k q : Fin 256) :
    (W9 m ρ c (Proc.devRef .tc main_v119) : Vec Ideal S256x256 .f32) (ix2 k q)
      = (m ((c : Thread nD τ).loc main_arg7) : Vec Ideal S3x256x256 .f32) (ix3 1 k q) := by
  show StableHlo.after (hostOps4 (F := Ideal)) (W8 m ρ c) (Proc.devRef .tc main_v119) (ix2 k q) = _
  after_results
  rw [Keep.at8 m ρ c main_arg7 (by decide)]
  exact Layout.mat_apply _ (1 : Fin 3) _ _ k q

set_option maxRecDepth 200000 in
set_option maxHeartbeats 4000000 in
theorem e4_Wr (c : Dev nD) (k q : Fin 256) :
    (W9 m ρ c (Proc.devRef .tc main_v121) : Vec Ideal S256x256 .f32) (ix2 k q)
      = (m ((c : Thread nD τ).loc main_arg9) : Vec Ideal S3x256x256 .f32) (ix3 1 k q) := by
  show StableHlo.after (hostOps4 (F := Ideal)) (W8 m ρ c) (Proc.devRef .tc main_v121) (ix2 k q) = _
  after_results
  rw [Keep.at8 m ρ c main_arg9 (by decide)]
  exact Layout.mat_apply _ (1 : Fin 3) _ _ k q

set_option maxRecDepth 200000 in
set_option maxHeartbeats 4000000 in
theorem e4_bl (c : Dev nD) (q : Fin 256) :
    (W9 m ρ c (Proc.devRef .tc main_v134) : Vec Ideal S1x256 .f32) (ix2 0 q)
      = (m ((c : Thread nD τ).loc main_arg8) : Vec Ideal S3x256 .f32) (ix2 1 q) := by
  show StableHlo.after (hostOps4 (F := Ideal)) (W8 m ρ c) (Proc.devRef .tc main_v134) (ix2 0 q) = _
  after_results
  rw [Keep.at8 m ρ c main_arg8 (by decide)]
  exact Layout.rowvec_apply _ (1 : Fin 3) _ _ _ q

set_option maxRecDepth 200000 in
set_option maxHeartbeats 4000000 in
theorem e4_sc (c : Dev nD) (q : Fin 256) :
    Layout.re (W9 m ρ c (Proc.devRef .tc main_v135) (ix2 (0 : Fin 1) q))
      = Layout.re (m ((c : Thread nD τ).loc main_arg14) (ix2 (1 : Fin 3) q))
          * Ideal.rsqrt (Layout.re (m ((c : Thread nD τ).loc main_arg17) (ix2 (1 : Fin 3) q)) + Ideal.ofBits .f32 0x3727C5AC#32) := by
  show Layout.re (StableHlo.after (hostOps4 (F := Ideal)) (W8 m ρ c) (Proc.devRef .tc main_v135) (ix2 (0 : Fin 1) q)) = _
  after_results
  rw [Keep.from1_8 m ρ c main_v20 (by decide)]
  exact (Layout.rowvec_apply _ (1 : Fin 3) _ _ _ q).trans (KBase.w1_sc2 m ρ c 1 q)

set_option maxRecDepth 200000 in
set_option maxHeartbeats 4000000 in
theorem e4_mn (c : Dev nD) (q : Fin 256) :
    (W9 m ρ c (Proc.devRef .tc main_v136) : Vec Ideal S1x256 .f32) (ix2 0 q)
      = (m ((c : Thread nD τ).loc main_arg16) : Vec Ideal S3x256 .f32) (ix2 1 q) := by
  show StableHlo.after (hostOps4 (F := Ideal)) (W8 m ρ c) (Proc.devRef .tc main_v136) (ix2 0 q) = _
  after_results
  rw [Keep.at8 m ρ c main_arg16 (by decide)]
  exact Layout.rowvec_apply _ (1 : Fin 3) _ _ _ q

set_option maxRecDepth 200000 in
set_option maxHeartbeats 4000000 in
theorem e4_bs (c : Dev nD) (q : Fin 256) :
    (W9 m ρ c (Proc.devRef .tc main_v137) : Vec Ideal S1x256 .f32) (ix2 0 q)
      = (m ((c : Thread nD τ).loc main_arg15) : Vec Ideal S3x256 .f32) (ix2 1 q) := by
  show StableHlo.after (hostOps4 (F := Ideal)) (W8 m ρ c) (Proc.devRef .tc main_v137) (ix2 0 q) = _
  after_results
  rw [Keep.at8 m ρ c main_arg15 (by decide)]
  exact Layout.rowvec_apply _ (1 : Fin 3) _ _ _ q

set_option maxRecDepth 200000 in
set_option maxHeartbeats 4000000 in
/-- The gate's matrix: the first of the stack of two. -/
theorem e4_Gw (c : Dev nD) (k q : Fin 256) :
    (W9 m ρ c (Proc.devRef .tc main_v131) : Vec Ideal S256x256 .f32) (ix2 k q)
      = (m ((c : Thread nD τ).loc main_arg18) : Vec Ideal S2x256x256 .f32) (ix3 0 k q) := by
  show StableHlo.after (hostOps4 (F := Ideal)) (W8 m ρ c) (Proc.devRef .tc main_v131) (ix2 k q) = _
  after_results
  rw [Keep.at8 m ρ c main_arg18 (by decide)]
  exact Layout.mat_apply _ (0 : Fin 2) _ _ k q

set_option maxRecDepth 200000 in
set_option maxHeartbeats 4000000 in
/-- The gate's bias: the first of the stack of two. -/
theorem e4_gb (c : Dev nD) (q : Fin 256) :
    (W9 m ρ c (Proc.devRef .tc main_v138) : Vec Ideal S1x256 .f32) (ix2 0 q)
      = (m ((c : Thread nD τ).loc main_arg19) : Vec Ideal S2x256 .f32) (ix2 0 q) := by
  show StableHlo.after (hostOps4 (F := Ideal)) (W8 m ρ c) (Proc.devRef .tc main_v138) (ix2 0 q) = _
  after_results
  rw [Keep.at8 m ρ c main_arg19 (by decide)]
  exact Layout.rowvec_apply _ (0 : Fin 2) _ _ _ q

/-- The inverse-count column as the kernel finds it. -/
theorem e4_iv (c : Dev nD) (r : Fin 50000) :
    (W9 m ρ c (Proc.devRef .tc main_v12) : Vec Ideal S50000x1 .f32) (ix2 r 0)
      = Ideal.div (Ideal.ofBits .f32 0x3F800000#32)
          (max (Cert.ReferenceIdeal.Read.val_main_v27 (F := Ideal) (m ((c : Thread nD τ).loc main_arg1)) (ix1 r)) (Ideal.ofBits .f32 0x3F800000#32)) := by
  rw [Keep.from1_9 m ρ c main_v12 (by decide)]
  exact KBase.w1_inv m ρ c r

/-- The gated stage of block 1: the kernel's value output is the reference's stage, given that the residual (block 0's
    result) and the block's first convolution are the reference's. -/
theorem stageC1 (c : Dev nD)
    (hC0 : (W6 m ρ c (Proc.devRef .tc main_v78_0) : S50000x256.Idx → EReal)
      = Cert.ReferenceIdeal.Read.val_main_v114 (F := Ideal) (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10)) (m ((c : Thread nD τ).loc main_arg11))
          (m ((c : Thread nD τ).loc main_arg12)) (m ((c : Thread nD τ).loc main_arg13)) (m ((c : Thread nD τ).loc main_arg14)) (m ((c : Thread nD τ).loc main_arg15))
          (m ((c : Thread nD τ).loc main_arg16)) (m ((c : Thread nD τ).loc main_arg17)))
    (hH1 : (W8 m ρ c (Proc.devRef .tc main_v106_0) : S50000x256.Idx → EReal)
      = Cert.ReferenceIdeal.Read.val_main_v167 (F := Ideal) (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10)) (m ((c : Thread nD τ).loc main_arg11))
          (m ((c : Thread nD τ).loc main_arg12)) (m ((c : Thread nD τ).loc main_arg13)) (m ((c : Thread nD τ).loc main_arg14)) (m ((c : Thread nD τ).loc main_arg15))
          (m ((c : Thread nD τ).loc main_arg16)) (m ((c : Thread nD τ).loc main_arg17)))
    (hH1' : (W8 m ρ c (Proc.devRef .tc main_v106_1) : S50000x256.Idx → EReal)
      = Cert.ReferenceIdeal.Read.val_main_v167 (F := Ideal) (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10)) (m ((c : Thread nD τ).loc main_arg11))
          (m ((c : Thread nD τ).loc main_arg12)) (m ((c : Thread nD τ).loc main_arg13)) (m ((c : Thread nD τ).loc main_arg14)) (m ((c : Thread nD τ).loc main_arg15))
          (m ((c : Thread nD τ).loc main_arg16)) (m ((c : Thread nD τ).loc main_arg17))) :
    (W10 m ρ c (Proc.devRef .tc main_v139_0) : S50000x256.Idx → EReal)
      = Cert.ReferenceIdeal.Read.val_main_v240 (F := Ideal) (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10)) (m ((c : Thread nD τ).loc main_arg11))
          (m ((c : Thread nD τ).loc main_arg12)) (m ((c : Thread nD τ).loc main_arg13)) (m ((c : Thread nD τ).loc main_arg14)) (m ((c : Thread nD τ).loc main_arg15))
          (m ((c : Thread nD τ).loc main_arg16)) (m ((c : Thread nD τ).loc main_arg17)) (m ((c : Thread nD τ).loc main_arg18)) (m ((c : Thread nD τ).loc main_arg19)) := by
  refine (W10_arr m ρ c 12).trans ((Reg4.final12 (V9 m ρ) c).trans ?_)
  funext i
  rw [Cert.ReferenceIdeal.RefStageB.c1_apply]
  show Spec.gate
      (fun (r : Fin 50000) (k : Fin 256) => Layout.re ((W9 m ρ c (Proc.devRef .tc main_v117) : Vec Ideal S50000x256 .f32) (ix2 r k))
        * Layout.re ((W9 m ρ c (Proc.devRef .tc main_v12) : Vec Ideal S50000x1 .f32) (ix2 r 0)))
      (fun r k => (W9 m ρ c (Proc.devRef .tc main_v106_0) : Vec Ideal S50000x256 .f32) (ix2 r k))
      (fun k q => (W9 m ρ c (Proc.devRef .tc main_v119) : Vec Ideal S256x256 .f32) (ix2 k q))
      (fun k q => (W9 m ρ c (Proc.devRef .tc main_v121) : Vec Ideal S256x256 .f32) (ix2 k q))
      (fun q => (W9 m ρ c (Proc.devRef .tc main_v134) : Vec Ideal S1x256 .f32) (ix2 0 q))
      (fun q => (W9 m ρ c (Proc.devRef .tc main_v136) : Vec Ideal S1x256 .f32) (ix2 0 q))
      (fun q => (W9 m ρ c (Proc.devRef .tc main_v135) : Vec Ideal S1x256 .f32) (ix2 0 q))
      (fun q => (W9 m ρ c (Proc.devRef .tc main_v137) : Vec Ideal S1x256 .f32) (ix2 0 q))
      (fun r k => (W9 m ρ c (Proc.devRef .tc main_v78_0) : Vec Ideal S50000x256 .f32) (ix2 r k))
      (fun k q => (W9 m ρ c (Proc.devRef .tc main_v131) : Vec Ideal S256x256 .f32) (ix2 k q))
      (fun q => (W9 m ρ c (Proc.devRef .tc main_v138) : Vec Ideal S1x256 .f32) (ix2 0 q)) (i 0) (i 1) = _
  have hM : ∀ (r : Fin 50000) (k : Fin 256),
      Layout.re ((W9 m ρ c (Proc.devRef .tc main_v117) : Vec Ideal S50000x256 .f32) (ix2 r k))
        * Layout.re ((W9 m ρ c (Proc.devRef .tc main_v12) : Vec Ideal S50000x1 .f32) (ix2 r 0))
      = Ideal.div (Cert.ReferenceIdeal.Read.val_main_v183 (F := Ideal) (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10)) (m ((c : Thread nD τ).loc main_arg11))
          (m ((c : Thread nD τ).loc main_arg12)) (m ((c : Thread nD τ).loc main_arg13)) (m ((c : Thread nD τ).loc main_arg14)) (m ((c : Thread nD τ).loc main_arg15))
          (m ((c : Thread nD τ).loc main_arg16)) (m ((c : Thread nD τ).loc main_arg17)) (ix2 r k))
          (max (Cert.ReferenceIdeal.Read.val_main_v187 (F := Ideal) (m ((c : Thread nD τ).loc main_arg1)) (ix1 r)) (Ideal.ofBits .f32 0x3F800000#32)) := by
    intro r k
    rw [e4_A, hH1', ← Cert.ReferenceIdeal.RefAgg.agg_3, e4_iv, Cert.ReferenceIdeal.RefAgg.cnt_3]
    exact Spec.mul_div_one _ _ (Spec.max_one_ne_zero _)
  have hX : ∀ (r : Fin 50000) (k : Fin 256), (W9 m ρ c (Proc.devRef .tc main_v106_0) : Vec Ideal S50000x256 .f32) (ix2 r k)
      = Cert.ReferenceIdeal.Read.val_main_v167 (F := Ideal) (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10)) (m ((c : Thread nD τ).loc main_arg11))
          (m ((c : Thread nD τ).loc main_arg12)) (m ((c : Thread nD τ).loc main_arg13)) (m ((c : Thread nD τ).loc main_arg14)) (m ((c : Thread nD τ).loc main_arg15))
          (m ((c : Thread nD τ).loc main_arg16)) (m ((c : Thread nD τ).loc main_arg17)) (ix2 r k) := by
    intro r k
    rw [Keep.hopH4 m ρ c main_v106_0 (by decide), hH1]
  have hR : ∀ (r : Fin 50000) (k : Fin 256), (W9 m ρ c (Proc.devRef .tc main_v78_0) : Vec Ideal S50000x256 .f32) (ix2 r k)
      = Cert.ReferenceIdeal.Read.val_main_v114 (F := Ideal) (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10)) (m ((c : Thread nD τ).loc main_arg11))
          (m ((c : Thread nD τ).loc main_arg12)) (m ((c : Thread nD τ).loc main_arg13)) (m ((c : Thread nD τ).loc main_arg14)) (m ((c : Thread nD τ).loc main_arg15))
          (m ((c : Thread nD τ).loc main_arg16)) (m ((c : Thread nD τ).loc main_arg17)) (ix2 r k) := by
    intro r k
    rw [Keep.hopH4 m ρ c main_v78_0 (by decide), Keep.hopR3 m ρ c main_v78_0 (by decide), Keep.hopH3 m ρ c main_v78_0 (by decide), hC0]
  simp only [hM, hX, hR, e4_Wl m ρ c, e4_Wr m ρ c, e4_bl m ρ c, e4_mn m ρ c, e4_sc m ρ c, e4_bs m ρ c, e4_Gw m ρ c, e4_gb m ρ c]

/-- And so is its copy in the narrower format. -/
theorem stageC1' (c : Dev nD)
    (hC0 : (W6 m ρ c (Proc.devRef .tc main_v78_0) : S50000x256.Idx → EReal)
      = Cert.ReferenceIdeal.Read.val_main_v114 (F := Ideal) (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10)) (m ((c : Thread nD τ).loc main_arg11))
          (m ((c : Thread nD τ).loc main_arg12)) (m ((c : Thread nD τ).loc main_arg13)) (m ((c : Thread nD τ).loc main_arg14)) (m ((c : Thread nD τ).loc main_arg15))
          (m ((c : Thread nD τ).loc main_arg16)) (m ((c : Thread nD τ).loc main_arg17)))
    (hH1 : (W8 m ρ c (Proc.devRef .tc main_v106_0) : S50000x256.Idx → EReal)
      = Cert.ReferenceIdeal.Read.val_main_v167 (F := Ideal) (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10)) (m ((c : Thread nD τ).loc main_arg11))
          (m ((c : Thread nD τ).loc main_arg12)) (m ((c : Thread nD τ).loc main_arg13)) (m ((c : Thread nD τ).loc main_arg14)) (m ((c : Thread nD τ).loc main_arg15))
          (m ((c : Thread nD τ).loc main_arg16)) (m ((c : Thread nD τ).loc main_arg17)))
    (hH1' : (W8 m ρ c (Proc.devRef .tc main_v106_1) : S50000x256.Idx → EReal)
      = Cert.ReferenceIdeal.Read.val_main_v167 (F := Ideal) (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10)) (m ((c : Thread nD τ).loc main_arg11))
          (m ((c : Thread nD τ).loc main_arg12)) (m ((c : Thread nD τ).loc main_arg13)) (m ((c : Thread nD τ).loc main_arg14)) (m ((c : Thread nD τ).loc main_arg15))
          (m ((c : Thread nD τ).loc main_arg16)) (m ((c : Thread nD τ).loc main_arg17))) :
    (W10 m ρ c (Proc.devRef .tc main_v139_1) : S50000x256.Idx → EReal)
      = Cert.ReferenceIdeal.Read.val_main_v240 (F := Ideal) (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10)) (m ((c : Thread nD τ).loc main_arg11))
          (m ((c : Thread nD τ).loc main_arg12)) (m ((c : Thread nD τ).loc main_arg13)) (m ((c : Thread nD τ).loc main_arg14)) (m ((c : Thread nD τ).loc main_arg15))
          (m ((c : Thread nD τ).loc main_arg16)) (m ((c : Thread nD τ).loc main_arg17)) (m ((c : Thread nD τ).loc main_arg18)) (m ((c : Thread nD τ).loc main_arg19)) :=
  ((W10_arr m ρ c 13).trans ((Reg4.final13 (V9 m ρ) c).trans (Reg4.final12 (V9 m ρ) c).symm)).trans
    ((W10_arr m ρ c 12).symm.trans (stageC1 m ρ c hC0 hH1 hH1'))

/-! ## The first convolution of block 2 -/

set_option maxRecDepth 200000 in
set_option maxHeartbeats 4000000 in
/-- The aggregate the kernel is given: the aggregation of block 1's result in its narrow copy. -/
theorem e5_A (c : Dev nD) :
    W11 m ρ c (Proc.devRef .tc main_v150)
      = Cert.ReferenceIdeal.RefAgg.aggOf (F := Ideal) (m ((c : Thread nD τ).loc main_arg1)) (W10 m ρ c (Proc.devRef .tc main_v139_1)) := by
  show StableHlo.after (hostOps5 (F := Ideal)) (W10 m ρ c) (Proc.devRef .tc main_v150) = _
  after_results
  rw [extf_gather, Keep.from1_10 m ρ c main_v3 (by decide), KBase.w1_dst, Keep.from1_10 m ρ c main_v1 (by decide), KBase.w1_src]
  rfl

set_option maxRecDepth 200000 in
set_option maxHeartbeats 4000000 in
theorem e5_Wl (c : Dev nD) (k q : Fin 256) :
    (W11 m ρ c (Proc.devRef .tc main_v152) : Vec Ideal S256x256 .f32) (ix2 k q)
      = (m ((c : Thread nD τ).loc main_arg4) : Vec Ideal S3x256x256 .f32) (ix3 2 k q) := by
  show StableHlo.after (hostOps5 (F := Ideal)) (W10 m ρ c) (Proc.devRef .tc main_v152) (ix2 k q) = _
  after_results
  rw [Keep.at10 m ρ c main_arg4 (by decide)]
  exact Layout.mat_apply _ (2 : Fin 3) _ _ k q

set_option maxRecDepth 200000 in
set_option maxHeartbeats 4000000 in
theorem e5_Wr (c : Dev nD) (k q : Fin 256) :
    (W11 m ρ c (Proc.devRef .tc main_v154) : Vec Ideal S256x256 .f32) (ix2 k q)
      = (m ((c : Thread nD τ).loc main_arg6) : Vec Ideal S3x256x256 .f32) (ix3 2 k q) := by
  show StableHlo.after (hostOps5 (F := Ideal)) (W10 m ρ c) (Proc.devRef .tc main_v154) (ix2 k q) = _
  after_results
  rw [Keep.at10 m ρ c main_arg6 (by decide)]
  exact Layout.mat_apply _ (2 : Fin 3) _ _ k q

set_option maxRecDepth 200000 in
set_option maxHeartbeats 4000000 in
theorem e5_bl (c : Dev nD) (q : Fin 256) :
    (W11 m ρ c (Proc.devRef .tc main_v163) : Vec Ideal S1x256 .f32) (ix2 0 q)
      = (m ((c : Thread nD τ).loc main_arg5) : Vec Ideal S3x256 .f32) (ix2 2 q) := by
  show StableHlo.after (hostOps5 (F := Ideal)) (W10 m ρ c) (Proc.devRef .tc main_v163) (ix2 0 q) = _
  after_results
  rw [Keep.at10 m ρ c main_arg5 (by decide)]
  exact Layout.rowvec_apply _ (2 : Fin 3) _ _ _ q

set_option maxRecDepth 200000 in
set_option maxHeartbeats 4000000 in
theorem e5_sc (c : Dev nD) (q : Fin 256) :
    Layout.re (W11 m ρ c (Proc.devRef .tc main_v164) (ix2 (0 : Fin 1) q))
      = Layout.re (m ((c : Thread nD τ).loc main_arg10) (ix2 (2 : Fin 3) q))
          * Ideal.rsqrt (Layout.re (m ((c : Thread nD τ).loc main_arg13) (ix2 (2 : Fin 3) q)) + Ideal.ofBits .f32 0x3727C5AC#32) := by
  show Layout.re (StableHlo.after (hostOps5 (F := Ideal)) (W10 m ρ c) (Proc.devRef .tc main_v164) (ix2 (0 : Fin 1) q)) = _
  after_results
  rw [Keep.from1_10 m ρ c main_v16 (by decide)]
  exact (Layout.rowvec_apply _ (2 : Fin 3) _ _ _ q).trans (KBase.w1_sc1 m ρ c 2 q)

set_option maxRecDepth 200000 in
set_option maxHeartbeats 4000000 in
theorem e5_mn (c : Dev nD) (q : Fin 256) :
    (W11 m ρ c (Proc.devRef .tc main_v165) : Vec Ideal S1x256 .f32) (ix2 0 q)
      = (m ((c : Thread nD τ).loc main_arg12) : Vec Ideal S3x256 .f32) (ix2 2 q) := by
  show StableHlo.after (hostOps5 (F := Ideal)) (W10 m ρ c) (Proc.devRef .tc main_v165) (ix2 0 q) = _
  after_results
  rw [Keep.at10 m ρ c main_arg12 (by decide)]
  exact Layout.rowvec_apply _ (2 : Fin 3) _ _ _ q

set_option maxRecDepth 200000 in
set_option maxHeartbeats 4000000 in
theorem e5_bs (c : Dev nD) (q : Fin 256) :
    (W11 m ρ c (Proc.devRef .tc main_v166) : Vec Ideal S1x256 .f32) (ix2 0 q)
      = (m ((c : Thread nD τ).loc main_arg11) : Vec Ideal S3x256 .f32) (ix2 2 q) := by
  show StableHlo.after (hostOps5 (F := Ideal)) (W10 m ρ c) (Proc.devRef .tc main_v166) (ix2 0 q) = _
  after_results
  rw [Keep.at10 m ρ c main_arg11 (by decide)]
  exact Layout.rowvec_apply _ (2 : Fin 3) _ _ _ q

/-- The inverse-count column as the kernel finds it. -/
theorem e5_iv (c : Dev nD) (r : Fin 50000) :
    (W11 m ρ c (Proc.devRef .tc main_v12) : Vec Ideal S50000x1 .f32) (ix2 r 0)
      = Ideal.div (Ideal.ofBits .f32 0x3F800000#32)
          (max (Cert.ReferenceIdeal.Read.val_main_v27 (F := Ideal) (m ((c : Thread nD τ).loc main_arg1)) (ix1 r)) (Ideal.ofBits .f32 0x3F800000#32)) := by
  rw [Keep.from1_11 m ρ c main_v12 (by decide)]
  exact KBase.w1_inv m ρ c r

/-- The first convolution of block 2: the kernel's value output is the reference's stage, given that block 1's result
    is the reference's. -/
theorem stageH2 (c : Dev nD)
    (hC1 : (W10 m ρ c (Proc.devRef .tc main_v139_0) : S50000x256.Idx → EReal)
      = Cert.ReferenceIdeal.Read.val_main_v240 (F := Ideal) (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10)) (m ((c : Thread nD τ).loc main_arg11))
          (m ((c : Thread nD τ).loc main_arg12)) (m ((c : Thread nD τ).loc main_arg13)) (m ((c : Thread nD τ).loc main_arg14)) (m ((c : Thread nD τ).loc main_arg15))
          (m ((c : Thread nD τ).loc main_arg16)) (m ((c : Thread nD τ).loc main_arg17)) (m ((c : Thread nD τ).loc main_arg18)) (m ((c : Thread nD τ).loc main_arg19)))
    (hC1' : (W10 m ρ c (Proc.devRef .tc main_v139_1) : S50000x256.Idx → EReal)
      = Cert.ReferenceIdeal.Read.val_main_v240 (F := Ideal) (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10)) (m ((c : Thread nD τ).loc main_arg11))
          (m ((c : Thread nD τ).loc main_arg12)) (m ((c : Thread nD τ).loc main_arg13)) (m ((c : Thread nD τ).loc main_arg14)) (m ((c : Thread nD τ).loc main_arg15))
          (m ((c : Thread nD τ).loc main_arg16)) (m ((c : Thread nD τ).loc main_arg17)) (m ((c : Thread nD τ).loc main_arg18)) (m ((c : Thread nD τ).loc main_arg19))) :
    (W12 m ρ c (Proc.devRef .tc main_v167_0) : S50000x256.Idx → EReal)
      = Cert.ReferenceIdeal.Read.val_main_v293 (F := Ideal) (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10)) (m ((c : Thread nD τ).loc main_arg11))
          (m ((c : Thread nD τ).loc main_arg12)) (m ((c : Thread nD τ).loc main_arg13)) (m ((c : Thread nD τ).loc main_arg14)) (m ((c : Thread nD τ).loc main_arg15))
          (m ((c : Thread nD τ).loc main_arg16)) (m ((c : Thread nD τ).loc main_arg17)) (m ((c : Thread nD τ).loc main_arg18)) (m ((c : Thread nD τ).loc main_arg19)) := by
  refine (W12_arr m ρ c 9).trans ((Reg5.final9 (V11 m ρ) c).trans ?_)
  funext i
  rw [Cert.ReferenceIdeal.RefStageA.h1_2_apply]
  show Spec.sage
      (fun (r : Fin 50000) (k : Fin 256) => Layout.re ((W11 m ρ c (Proc.devRef .tc main_v150) : Vec Ideal S50000x256 .f32) (ix2 r k))
        * Layout.re ((W11 m ρ c (Proc.devRef .tc main_v12) : Vec Ideal S50000x1 .f32) (ix2 r 0)))
      (fun r k => (W11 m ρ c (Proc.devRef .tc main_v139_0) : Vec Ideal S50000x256 .f32) (ix2 r k))
      (fun k q => (W11 m ρ c (Proc.devRef .tc main_v152) : Vec Ideal S256x256 .f32) (ix2 k q))
      (fun k q => (W11 m ρ c (Proc.devRef .tc main_v154) : Vec Ideal S256x256 .f32) (ix2 k q))
      (fun q => (W11 m ρ c (Proc.devRef .tc main_v163) : Vec Ideal S1x256 .f32) (ix2 0 q))
      (fun q => (W11 m ρ c (Proc.devRef .tc main_v165) : Vec Ideal S1x256 .f32) (ix2 0 q))
      (fun q => (W11 m ρ c (Proc.devRef .tc main_v164) : Vec Ideal S1x256 .f32) (ix2 0 q))
      (fun q => (W11 m ρ c (Proc.devRef .tc main_v166) : Vec Ideal S1x256 .f32) (ix2 0 q)) (i 0) (i 1) = _
  have hM : ∀ (r : Fin 50000) (k : Fin 256),
      Layout.re ((W11 m ρ c (Proc.devRef .tc main_v150) : Vec Ideal S50000x256 .f32) (ix2 r k))
        * Layout.re ((W11 m ρ c (Proc.devRef .tc main_v12) : Vec Ideal S50000x1 .f32) (ix2 r 0))
      = Ideal.div (Cert.ReferenceIdeal.Read.val_main_v256 (F := Ideal) (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10)) (m ((c : Thread nD τ).loc main_arg11))
          (m ((c : Thread nD τ).loc main_arg12)) (m ((c : Thread nD τ).loc main_arg13)) (m ((c : Thread nD τ).loc main_arg14)) (m ((c : Thread nD τ).loc main_arg15))
          (m ((c : Thread nD τ).loc main_arg16)) (m ((c : Thread nD τ).loc main_arg17)) (m ((c : Thread nD τ).loc main_arg18)) (m ((c : Thread nD τ).loc main_arg19)) (ix2 r k))
          (max (Cert.ReferenceIdeal.Read.val_main_v260 (F := Ideal) (m ((c : Thread nD τ).loc main_arg1)) (ix1 r)) (Ideal.ofBits .f32 0x3F800000#32)) := by
    intro r k
    rw [e5_A, hC1', ← Cert.ReferenceIdeal.RefAgg.agg_4, e5_iv, Cert.ReferenceIdeal.RefAgg.cnt_4]
    exact Spec.mul_div_one _ _ (Spec.max_one_ne_zero _)
  have hX : ∀ (r : Fin 50000) (k : Fin 256), (W11 m ρ c (Proc.devRef .tc main_v139_0) : Vec Ideal S50000x256 .f32) (ix2 r k)
      = Cert.ReferenceIdeal.Read.val_main_v240 (F := Ideal) (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10)) (m ((c : Thread nD τ).loc main_arg11))
          (m ((c : Thread nD τ).loc main_arg12)) (m ((c : Thread nD τ).loc main_arg13)) (m ((c : Thread nD τ).loc main_arg14)) (m ((c : Thread nD τ).loc main_arg15))
          (m ((c : Thread nD τ).loc main_arg16)) (m ((c : Thread nD τ).loc main_arg17)) (m ((c : Thread nD τ).loc main_arg18)) (m ((c : Thread nD τ).loc main_arg19)) (ix2 r k) := by
    intro r k
    rw [Keep.hopH5 m ρ c main_v139_0 (by decide), hC1]
  simp only [hM, hX, e5_Wl m ρ c, e5_Wr m ρ c, e5_bl m ρ c, e5_mn m ρ c, e5_sc m ρ c, e5_bs m ρ c]

/-- And so is its copy in the narrower format. -/
theorem stageH2' (c : Dev nD)
    (hC1 : (W10 m ρ c (Proc.devRef .tc main_v139_0) : S50000x256.Idx → EReal)
      = Cert.ReferenceIdeal.Read.val_main_v240 (F := Ideal) (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10)) (m ((c : Thread nD τ).loc main_arg11))
          (m ((c : Thread nD τ).loc main_arg12)) (m ((c : Thread nD τ).loc main_arg13)) (m ((c : Thread nD τ).loc main_arg14)) (m ((c : Thread nD τ).loc main_arg15))
          (m ((c : Thread nD τ).loc main_arg16)) (m ((c : Thread nD τ).loc main_arg17)) (m ((c : Thread nD τ).loc main_arg18)) (m ((c : Thread nD τ).loc main_arg19)))
    (hC1' : (W10 m ρ c (Proc.devRef .tc main_v139_1) : S50000x256.Idx → EReal)
      = Cert.ReferenceIdeal.Read.val_main_v240 (F := Ideal) (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10)) (m ((c : Thread nD τ).loc main_arg11))
          (m ((c : Thread nD τ).loc main_arg12)) (m ((c : Thread nD τ).loc main_arg13)) (m ((c : Thread nD τ).loc main_arg14)) (m ((c : Thread nD τ).loc main_arg15))
          (m ((c : Thread nD τ).loc main_arg16)) (m ((c : Thread nD τ).loc main_arg17)) (m ((c : Thread nD τ).loc main_arg18)) (m ((c : Thread nD τ).loc main_arg19))) :
    (W12 m ρ c (Proc.devRef .tc main_v167_1) : S50000x256.Idx → EReal)
      = Cert.ReferenceIdeal.Read.val_main_v293 (F := Ideal) (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10)) (m ((c : Thread nD τ).loc main_arg11))
          (m ((c : Thread nD τ).loc main_arg12)) (m ((c : Thread nD τ).loc main_arg13)) (m ((c : Thread nD τ).loc main_arg14)) (m ((c : Thread nD τ).loc main_arg15))
          (m ((c : Thread nD τ).loc main_arg16)) (m ((c : Thread nD τ).loc main_arg17)) (m ((c : Thread nD τ).loc main_arg18)) (m ((c : Thread nD τ).loc main_arg19)) :=
  ((W12_arr m ρ c 10).trans ((Reg5.final10 (V11 m ρ) c).trans (Reg5.final9 (V11 m ρ) c).symm)).trans
    ((W12_arr m ρ c 9).symm.trans (stageH2 m ρ c hC1 hC1'))

end Cert.KernelIdeal.KChain2

end
-- ==== Proof.Reg6.lean ====
/-
  The second gated residual convolution kernel, as one function of whole arrays.

  The kernel runs on a grid of 25 points; point `t` loads rows `2000 t … 2000 t + 1999` of the aggregate, of the
  node features, of the inverse-count column and of the residual, the two weight matrices, the gate matrix, the four
  row vectors and the gate bias whole, and writes the same rows of its two outputs: with `g` the logistic of the
  residual row times the gate matrix plus the gate bias, `g * res + (1 - g) * (max pre 0 + res)`, `pre` the
  normalised convolution; and a copy of it in the narrower float format, which at the ideal values is the same
  number.  Every entry it writes depends only on its own row of the row-indexed operands, so what point `t` writes
  back is the rows of ONE whole-array function, `Whole.gateG` of the arrays the region finds; the 25 row blocks tile
  the 50000 rows, so after the region each output array IS that function.  The kernel's value at a point is the same expression as the
  first gated kernel's, so the same entry lemmas read it.
-/
import proofs.«421284_j80985903333882_3_alg».proof.Proof.Gen.KernelIdeal.Frame
import proofs.«421284_j80985903333882_3_alg».proof.Proof.Core
import proofs.«421284_j80985903333882_3_alg».proof.Proof.Whole

set_option maxRecDepth 16384

noncomputable section

open scoped BigOperators

namespace Cert.KernelIdeal.Reg6

open Idealize.ShloMosaic Idealize.ShloMosaic.TcCoe Idealize.ShloMosaic.ValueIdx Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## The arrays the region finds, and a point's blocks of them, at their literal types -/

abbrev aA (c : Dev nD) : Vec Ideal S50000x256 .f32 := V c (Pipeline.arrRef spec6 0)
abbrev aX (c : Dev nD) : Vec Ideal S50000x256 .f32 := V c (Pipeline.arrRef spec6 1)
abbrev aWl (c : Dev nD) : Vec Ideal S256x256 .f32 := V c (Pipeline.arrRef spec6 2)
abbrev aWr (c : Dev nD) : Vec Ideal S256x256 .f32 := V c (Pipeline.arrRef spec6 3)
abbrev aBl (c : Dev nD) : Vec Ideal S1x256 .f32 := V c (Pipeline.arrRef spec6 4)
abbrev aSc (c : Dev nD) : Vec Ideal S1x256 .f32 := V c (Pipeline.arrRef spec6 5)
abbrev aMn (c : Dev nD) : Vec Ideal S1x256 .f32 := V c (Pipeline.arrRef spec6 6)
abbrev aBs (c : Dev nD) : Vec Ideal S1x256 .f32 := V c (Pipeline.arrRef spec6 7)
abbrev aIv (c : Dev nD) : Vec Ideal S50000x1 .f32 := V c (Pipeline.arrRef spec6 8)
abbrev aRes (c : Dev nD) : Vec Ideal S50000x256 .f32 := V c (Pipeline.arrRef spec6 9)
abbrev aGw (c : Dev nD) : Vec Ideal S256x256 .f32 := V c (Pipeline.arrRef spec6 10)
abbrev aGb (c : Dev nD) : Vec Ideal S1x256 .f32 := V c (Pipeline.arrRef spec6 11)

abbrev bA (c : Dev nD) (t : Fin cfg6.N) : Vec Ideal S2000x256 .f32 := iblk6 V c 0 t
abbrev bX (c : Dev nD) (t : Fin cfg6.N) : Vec Ideal S2000x256 .f32 := iblk6 V c 1 t
abbrev bWl (c : Dev nD) (t : Fin cfg6.N) : Vec Ideal S256x256 .f32 := iblk6 V c 2 t
abbrev bWr (c : Dev nD) (t : Fin cfg6.N) : Vec Ideal S256x256 .f32 := iblk6 V c 3 t
abbrev bBl (c : Dev nD) (t : Fin cfg6.N) : Vec Ideal S1x256 .f32 := iblk6 V c 4 t
abbrev bSc (c : Dev nD) (t : Fin cfg6.N) : Vec Ideal S1x256 .f32 := iblk6 V c 5 t
abbrev bMn (c : Dev nD) (t : Fin cfg6.N) : Vec Ideal S1x256 .f32 := iblk6 V c 6 t
abbrev bBs (c : Dev nD) (t : Fin cfg6.N) : Vec Ideal S1x256 .f32 := iblk6 V c 7 t
abbrev bIv (c : Dev nD) (t : Fin cfg6.N) : Vec Ideal S2000x1 .f32 := iblk6 V c 8 t
abbrev bRes (c : Dev nD) (t : Fin cfg6.N) : Vec Ideal S2000x256 .f32 := iblk6 V c 9 t
abbrev bGw (c : Dev nD) (t : Fin cfg6.N) : Vec Ideal S256x256 .f32 := iblk6 V c 10 t
abbrev bGb (c : Dev nD) (t : Fin cfg6.N) : Vec Ideal S1x256 .f32 := iblk6 V c 11 t

/-! ## The printed index maps over the grid -/

/-- Point `t`'s blocks: the row-indexed windows sit at block row `t`, every other block index is `0`. -/
theorem idx_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0
    ∧ win6_7.index t (0 : Fin 2) = 0 ∧ win6_7.index t (1 : Fin 2) = 0
    ∧ win6_8.index t (0 : Fin 2) = t.val ∧ win6_8.index t (1 : Fin 2) = 0
    ∧ win6_9.index t (0 : Fin 2) = t.val ∧ win6_9.index t (1 : Fin 2) = 0
    ∧ win6_10.index t (0 : Fin 2) = 0 ∧ win6_10.index t (1 : Fin 2) = 0
    ∧ win6_11.index t (0 : Fin 2) = 0 ∧ win6_11.index t (1 : Fin 2) = 0
    ∧ win6_12.index t (0 : Fin 2) = t.val ∧ win6_12.index t (1 : Fin 2) = 0
    ∧ win6_13.index t (0 : Fin 2) = t.val ∧ win6_13.index t (1 : Fin 2) = 0
    ∧ t.val < 25 :=
  (by decide +kernel : ∀ t : Fin grid6.N, _)

/-- The row of the whole array that row `p` of point `t`'s block is. -/
def grow (t : Fin cfg6.N) (p : Fin 2000) : Fin 50000 := ⟨t.val * 2000 + p.val, by
  have := (idx_facts t).2.2.2.2.2.2.2.2.2.2.2.2.2.2.2.2.2.2.2.2.2.2.2.2.2.2.2.2; have := p.isLt; omega⟩

/-! ## A point's blocks read off the arrays -/

theorem readA (c : Dev nD) (t : Fin cfg6.N) (p : Fin 2000) (k : Fin 256) : bA V c t (ix2 p k) = aA V c (ix2 (grow t p) k) := by
  obtain ⟨e0, e1, -⟩ := idx_facts t
  show V c (Pipeline.arrRef spec6 0) (((cfg6.win 0).blk t).view.emb (ix2 p k)) = V c (Pipeline.arrRef spec6 0) (ix2 (grow t p) k)
  refine congrArg _ (funext fun a => Fin.ext ?_)
  match a with
  | ⟨0, _⟩ => show win6_0.index t (0 : Fin 2) * 2000 + 1 * p.val = t.val * 2000 + p.val; omega
  | ⟨1, _⟩ => show win6_0.index t (1 : Fin 2) * 256 + 1 * k.val = k.val; omega

theorem readX (c : Dev nD) (t : Fin cfg6.N) (p : Fin 2000) (k : Fin 256) : bX V c t (ix2 p k) = aX V c (ix2 (grow t p) k) := by
  obtain ⟨-, -, e0, e1, -⟩ := idx_facts t
  show V c (Pipeline.arrRef spec6 1) (((cfg6.win 1).blk t).view.emb (ix2 p k)) = V c (Pipeline.arrRef spec6 1) (ix2 (grow t p) k)
  refine congrArg _ (funext fun a => Fin.ext ?_)
  match a with
  | ⟨0, _⟩ => show win6_1.index t (0 : Fin 2) * 2000 + 1 * p.val = t.val * 2000 + p.val; omega
  | ⟨1, _⟩ => show win6_1.index t (1 : Fin 2) * 256 + 1 * k.val = k.val; omega

theorem readWl (c : Dev nD) (t : Fin cfg6.N) (k q : Fin 256) : bWl V c t (ix2 k q) = aWl V c (ix2 k q) := by
  obtain ⟨-, -, -, -, e0, e1, -⟩ := idx_facts t
  show V c (Pipeline.arrRef spec6 2) (((cfg6.win 2).blk t).view.emb (ix2 k q)) = V c (Pipeline.arrRef spec6 2) (ix2 k q)
  refine congrArg _ (funext fun a => Fin.ext ?_)
  match a with
  | ⟨0, _⟩ => show win6_2.index t (0 : Fin 2) * 256 + 1 * k.val = k.val; omega
  | ⟨1, _⟩ => show win6_2.index t (1 : Fin 2) * 256 + 1 * q.val = q.val; omega

theorem readWr (c : Dev nD) (t : Fin cfg6.N) (k q : Fin 256) : bWr V c t (ix2 k q) = aWr V c (ix2 k q) := by
  obtain ⟨-, -, -, -, -, -, e0, e1, -⟩ := idx_facts t
  show V c (Pipeline.arrRef spec6 3) (((cfg6.win 3).blk t).view.emb (ix2 k q)) = V c (Pipeline.arrRef spec6 3) (ix2 k q)
  refine congrArg _ (funext fun a => Fin.ext ?_)
  match a with
  | ⟨0, _⟩ => show win6_3.index t (0 : Fin 2) * 256 + 1 * k.val = k.val; omega
  | ⟨1, _⟩ => show win6_3.index t (1 : Fin 2) * 256 + 1 * q.val = q.val; omega

theorem readBl (c : Dev nD) (t : Fin cfg6.N) (q : Fin 256) : bBl V c t (ix2 0 q) = aBl V c (ix2 0 q) := by
  obtain ⟨-, -, -, -, -, -, -, -, e0, e1, -⟩ := idx_facts t
  show V c (Pipeline.arrRef spec6 4) (((cfg6.win 4).blk t).view.emb (ix2 0 q)) = V c (Pipeline.arrRef spec6 4) (ix2 0 q)
  refine congrArg _ (funext fun a => Fin.ext ?_)
  match a with
  | ⟨0, _⟩ => show win6_4.index t (0 : Fin 2) * 1 + 1 * 0 = 0; omega
  | ⟨1, _⟩ => show win6_4.index t (1 : Fin 2) * 256 + 1 * q.val = q.val; omega

theorem readSc (c : Dev nD) (t : Fin cfg6.N) (q : Fin 256) : bSc V c t (ix2 0 q) = aSc V c (ix2 0 q) := by
  obtain ⟨-, -, -, -, -, -, -, -, -, -, e0, e1, -⟩ := idx_facts t
  show V c (Pipeline.arrRef spec6 5) (((cfg6.win 5).blk t).view.emb (ix2 0 q)) = V c (Pipeline.arrRef spec6 5) (ix2 0 q)
  refine congrArg _ (funext fun a => Fin.ext ?_)
  match a with
  | ⟨0, _⟩ => show win6_5.index t (0 : Fin 2) * 1 + 1 * 0 = 0; omega
  | ⟨1, _⟩ => show win6_5.index t (1 : Fin 2) * 256 + 1 * q.val = q.val; omega

theorem readMn (c : Dev nD) (t : Fin cfg6.N) (q : Fin 256) : bMn V c t (ix2 0 q) = aMn V c (ix2 0 q) := by
  obtain ⟨-, -, -, -, -, -, -, -, -, -, -, -, e0, e1, -⟩ := idx_facts t
  show V c (Pipeline.arrRef spec6 6) (((cfg6.win 6).blk t).view.emb (ix2 0 q)) = V c (Pipeline.arrRef spec6 6) (ix2 0 q)
  refine congrArg _ (funext fun a => Fin.ext ?_)
  match a with
  | ⟨0, _⟩ => show win6_6.index t (0 : Fin 2) * 1 + 1 * 0 = 0; omega
  | ⟨1, _⟩ => show win6_6.index t (1 : Fin 2) * 256 + 1 * q.val = q.val; omega

theorem readBs (c : Dev nD) (t : Fin cfg6.N) (q : Fin 256) : bBs V c t (ix2 0 q) = aBs V c (ix2 0 q) := by
  obtain ⟨-, -, -, -, -, -, -, -, -, -, -, -, -, -, e0, e1, -⟩ := idx_facts t
  show V c (Pipeline.arrRef spec6 7) (((cfg6.win 7).blk t).view.emb (ix2 0 q)) = V c (Pipeline.arrRef spec6 7) (ix2 0 q)
  refine congrArg _ (funext fun a => Fin.ext ?_)
  match a with
  | ⟨0, _⟩ => show win6_7.index t (0 : Fin 2) * 1 + 1 * 0 = 0; omega
  | ⟨1, _⟩ => show win6_7.index t (1 : Fin 2) * 256 + 1 * q.val = q.val; omega

theorem readIv (c : Dev nD) (t : Fin cfg6.N) (p : Fin 2000) : bIv V c t (ix2 p 0) = aIv V c (ix2 (grow t p) 0) := by
  obtain ⟨-, -, -, -, -, -, -, -, -, -, -, -, -, -, -, -, e0, e1, -⟩ := idx_facts t
  show V c (Pipeline.arrRef spec6 8) (((cfg6.win 8).blk t).view.emb (ix2 p 0)) = V c (Pipeline.arrRef spec6 8) (ix2 (grow t p) 0)
  refine congrArg _ (funext fun a => Fin.ext ?_)
  match a with
  | ⟨0, _⟩ => show win6_8.index t (0 : Fin 2) * 2000 + 1 * p.val = t.val * 2000 + p.val; omega
  | ⟨1, _⟩ => show win6_8.index t (1 : Fin 2) * 1 + 1 * 0 = 0; omega

theorem readRes (c : Dev nD) (t : Fin cfg6.N) (p : Fin 2000) (k : Fin 256) : bRes V c t (ix2 p k) = aRes V c (ix2 (grow t p) k) := by
  obtain ⟨-, -, -, -, -, -, -, -, -, -, -, -, -, -, -, -, -, -, e0, e1, -⟩ := idx_facts t
  show V c (Pipeline.arrRef spec6 9) (((cfg6.win 9).blk t).view.emb (ix2 p k)) = V c (Pipeline.arrRef spec6 9) (ix2 (grow t p) k)
  refine congrArg _ (funext fun a => Fin.ext ?_)
  match a with
  | ⟨0, _⟩ => show win6_9.index t (0 : Fin 2) * 2000 + 1 * p.val = t.val * 2000 + p.val; omega
  | ⟨1, _⟩ => show win6_9.index t (1 : Fin 2) * 256 + 1 * k.val = k.val; omega

theorem readGw (c : Dev nD) (t : Fin cfg6.N) (k q : Fin 256) : bGw V c t (ix2 k q) = aGw V c (ix2 k q) := by
  obtain ⟨-, -, -, -, -, -, -, -, -, -, -, -, -, -, -, -, -, -, -, -, e0, e1, -⟩ := idx_facts t
  show V c (Pipeline.arrRef spec6 10) (((cfg6.win 10).blk t).view.emb (ix2 k q)) = V c (Pipeline.arrRef spec6 10) (ix2 k q)
  refine congrArg _ (funext fun a => Fin.ext ?_)
  match a with
  | ⟨0, _⟩ => show win6_10.index t (0 : Fin 2) * 256 + 1 * k.val = k.val; omega
  | ⟨1, _⟩ => show win6_10.index t (1 : Fin 2) * 256 + 1 * q.val = q.val; omega

theorem readGb (c : Dev nD) (t : Fin cfg6.N) (q : Fin 256) : bGb V c t (ix2 0 q) = aGb V c (ix2 0 q) := by
  obtain ⟨-, -, -, -, -, -, -, -, -, -, -, -, -, -, -, -, -, -, -, -, -, -, e0, e1, -⟩ := idx_facts t
  show V c (Pipeline.arrRef spec6 11) (((cfg6.win 11).blk t).view.emb (ix2 0 q)) = V c (Pipeline.arrRef spec6 11) (ix2 0 q)
  refine congrArg _ (funext fun a => Fin.ext ?_)
  match a with
  | ⟨0, _⟩ => show win6_11.index t (0 : Fin 2) * 1 + 1 * 0 = 0; omega
  | ⟨1, _⟩ => show win6_11.index t (1 : Fin 2) * 256 + 1 * q.val = q.val; omega

/-! ## What a point writes back -/

/-- The whole-array function of the arrays the region finds. -/
abbrev G (c : Dev nD) : S50000x256.Idx → EReal :=
  Whole.gateG (aA V c) (aX V c) (aWl V c) (aWr V c) (aBl V c) (aSc V c) (aMn V c) (aBs V c) (aIv V c) (aRes V c) (aGw V c) (aGb V c)

/-- Entry `(p, q)` of what point `t` computes is entry `(2000 t + p, q)` of the whole-array function. -/
theorem point_apply (c : Dev nD) (t : Fin cfg6.N) (p : Fin 2000) (q : Fin 256) :
    k4_pay1 (F := Ideal) (k4_pay3 (F := Ideal) (bA V c t) (bIv V c t) (bX V c t) (bWl V c t) (bWr V c t) (bBl V c t) (bMn V c t) (bSc V c t) (bBs V c t)) (k4_pay4 (F := Ideal) (bRes V c t)) (bGw V c t) (bGb V c t) (ix2 p q)
      = G V c (ix2 (grow t p) q) := by
  rw [Core.resblk_apply, Core.gate_apply, Core.pre_apply]
  show _ = Spec.gate _ _ _ _ _ _ _ _ _ _ _ (grow t p) q
  unfold Spec.gate Spec.sageRes
  rw [Spec.sage_eq_max_bn]
  unfold Spec.bn
  simp only [readA V c t, readX V c t, readWl V c t, readWr V c t, readBl V c t, readSc V c t, readMn V c t, readBs V c t, readIv V c t, readRes V c t, readGw V c t, readGb V c t]

/-- The block of the first output at point `t`, embedded in the array. -/
theorem emb12 (t : Fin cfg6.N) (p : Fin 2000) (q : Fin 256) :
    ((cfg6.win 12).blk t).view.emb (ix2 p q) = ix2 (grow t p) q := by
  obtain ⟨-, -, -, -, -, -, -, -, -, -, -, -, -, -, -, -, -, -, -, -, -, -, -, -, e0, e1, -⟩ := idx_facts t
  refine funext fun a => Fin.ext ?_
  match a with
  | ⟨0, _⟩ => show win6_12.index t (0 : Fin 2) * 2000 + 1 * p.val = t.val * 2000 + p.val; omega
  | ⟨1, _⟩ => show win6_12.index t (1 : Fin 2) * 256 + 1 * q.val = q.val; omega

/-- The block of the second output at point `t`, embedded in the array. -/
theorem emb13 (t : Fin cfg6.N) (p : Fin 2000) (q : Fin 256) :
    ((cfg6.win 13).blk t).view.emb (ix2 p q) = ix2 (grow t p) q := by
  obtain ⟨-, -, -, -, -, -, -, -, -, -, -, -, -, -, -, -, -, -, -, -, -, -, -, -, -, -, e0, e1, -⟩ := idx_facts t
  refine funext fun a => Fin.ext ?_
  match a with
  | ⟨0, _⟩ => show win6_13.index t (0 : Fin 2) * 2000 + 1 * p.val = t.val * 2000 + p.val; omega
  | ⟨1, _⟩ => show win6_13.index t (1 : Fin 2) * 256 + 1 * q.val = q.val; omega

/-- What point `t` writes back to the first output is block `t` of the whole-array function. -/
theorem flushed12_eq (c : Dev nD) (t : Fin cfg6.N) :
    (dat6 V c).flushed 12 t = ((cfg6.win 12).blk t).view.read (Elt Ideal) (G V c) := by
  show (cfg6.win 12).cut (grid6.coords t) ((dat6 V c).after 12 t) = _
  rw [after6_12]
  unfold out6_12
  rw [View.canon_unit_zero hz]
  simp only [View.ld_unit_zero (S := S2000x256) hz, View.ld_unit_zero (S := S2000x1) hz, View.ld_unit_zero (S := S256x256) hz, View.ld_unit_zero (S := S1x256) hz]
  funext j
  obtain ⟨p, q, rfl⟩ : ∃ (p : Fin 2000) (q : Fin 256), j = ix2 p q := ⟨j 0, j 1, eq_ix2 j⟩
  show k4_pay1 (F := Ideal) (k4_pay3 (F := Ideal) (bA V c t) (bIv V c t) (bX V c t) (bWl V c t) (bWr V c t) (bBl V c t) (bMn V c t) (bSc V c t) (bBs V c t)) (k4_pay4 (F := Ideal) (bRes V c t)) (bGw V c t) (bGb V c t) (ix2 p q)
    = G V c (((cfg6.win 12).blk t).view.emb (ix2 p q))
  rw [emb12 t p q]
  exact point_apply V c t p q

/-- The copy in the narrower format is the same number at the ideal values. -/
theorem flushed13_eq (c : Dev nD) (t : Fin cfg6.N) :
    (dat6 V c).flushed 13 t = ((cfg6.win 13).blk t).view.read (Elt Ideal) (G V c) := by
  show (cfg6.win 13).cut (grid6.coords t) ((dat6 V c).after 13 t) = _
  rw [after6_13]
  unfold out6_13
  rw [View.canon_unit_zero hz]
  simp only [View.ld_unit_zero (S := S2000x256) hz, View.ld_unit_zero (S := S2000x1) hz, View.ld_unit_zero (S := S256x256) hz, View.ld_unit_zero (S := S1x256) hz]
  funext j
  obtain ⟨p, q, rfl⟩ : ∃ (p : Fin 2000) (q : Fin 256), j = ix2 p q := ⟨j 0, j 1, eq_ix2 j⟩
  show k4_pay1 (F := Ideal) (k4_pay3 (F := Ideal) (bA V c t) (bIv V c t) (bX V c t) (bWl V c t) (bWr V c t) (bBl V c t) (bMn V c t) (bSc V c t) (bBs V c t)) (k4_pay4 (F := Ideal) (bRes V c t)) (bGw V c t) (bGb V c t) (ix2 p q)
    = G V c (((cfg6.win 13).blk t).view.emb (ix2 p q))
  rw [emb13 t p q]
  exact point_apply V c t p q

/-! ## The row blocks tile the array -/

theorem mem_blk12 (t : Fin cfg6.N) (i : S50000x256.Idx) :
    i ∈ ((cfg6.win 12).blk t).view.set ↔ ∀ a : Fin 2, win6_12.index t a * S2000x256.size a ≤ (i a).val ∧ (i a).val < win6_12.index t a * S2000x256.size a + S2000x256.size a := by
  show i ∈ ((View.whole main_v200_0).slice (win6_12.rect t)).set ↔ _
  rw [View.set_slice_whole, Rect.mem_set_unit]
  exact Iff.rfl

theorem mem_blk13 (t : Fin cfg6.N) (i : S50000x256.Idx) :
    i ∈ ((cfg6.win 13).blk t).view.set ↔ ∀ a : Fin 2, win6_13.index t a * S2000x256.size a ≤ (i a).val ∧ (i a).val < win6_13.index t a * S2000x256.size a + S2000x256.size a := by
  show i ∈ ((View.whole main_v200_1).slice (win6_13.rect t)).set ↔ _
  rw [View.set_slice_whole, Rect.mem_set_unit]
  exact Iff.rfl

/-- The point whose block holds row `r`. -/
def pointOf (i : S50000x256.Idx) : Fin cfg6.N := ⟨(i 0).val / 2000, by
  have h : (i 0).val < 50000 := (i 0).isLt
  show (i 0).val / 2000 < 25
  omega⟩

theorem cover12 (i : S50000x256.Idx) : ∃ t : Fin cfg6.N, (cfg6.win 12).flush t = true ∧ i ∈ ((cfg6.win 12).blk t).view.set := by
  refine ⟨pointOf i, flush6_12 _, ?_⟩
  rw [mem_blk12]
  obtain ⟨-, -, -, -, -, -, -, -, -, -, -, -, -, -, -, -, -, -, -, -, -, -, -, -, e0, e1, -⟩ := idx_facts (pointOf i)
  have h0 : (i 0).val < 50000 := (i 0).isLt
  have h1 : (i 1).val < 256 := (i 1).isLt
  have hp : (pointOf i).val = (i 0).val / 2000 := rfl
  intro a
  match a with
  | ⟨0, _⟩ => show win6_12.index (pointOf i) (0 : Fin 2) * 2000 ≤ (i 0).val ∧ (i 0).val < win6_12.index (pointOf i) (0 : Fin 2) * 2000 + 2000; omega
  | ⟨1, _⟩ => show win6_12.index (pointOf i) (1 : Fin 2) * 256 ≤ (i 1).val ∧ (i 1).val < win6_12.index (pointOf i) (1 : Fin 2) * 256 + 256; omega

theorem cover13 (i : S50000x256.Idx) : ∃ t : Fin cfg6.N, (cfg6.win 13).flush t = true ∧ i ∈ ((cfg6.win 13).blk t).view.set := by
  refine ⟨pointOf i, flush6_13 _, ?_⟩
  rw [mem_blk13]
  obtain ⟨-, -, -, -, -, -, -, -, -, -, -, -, -, -, -, -, -, -, -, -, -, -, -, -, -, -, e0, e1, -⟩ := idx_facts (pointOf i)
  have h0 : (i 0).val < 50000 := (i 0).isLt
  have h1 : (i 1).val < 256 := (i 1).isLt
  have hp : (pointOf i).val = (i 0).val / 2000 := rfl
  intro a
  match a with
  | ⟨0, _⟩ => show win6_13.index (pointOf i) (0 : Fin 2) * 2000 ≤ (i 0).val ∧ (i 0).val < win6_13.index (pointOf i) (0 : Fin 2) * 2000 + 2000; omega
  | ⟨1, _⟩ => show win6_13.index (pointOf i) (1 : Fin 2) * 256 ≤ (i 1).val ∧ (i 1).val < win6_13.index (pointOf i) (1 : Fin 2) * 256 + 256; omega

/-! ## The arrays after the region -/

/-- After the region the first output array is the whole-array function of the arrays the region found. -/
theorem final12 (c : Dev nD) : (dat6 V c).arrAt 12 cfg6.N = G V c :=
  (dat6 V c).arrAt_eq_of_cover 12 (G V c) (fun t _ => flushed12_eq V c t) (cover12)

/-- And so is the second. -/
theorem final13 (c : Dev nD) : (dat6 V c).arrAt 13 cfg6.N = G V c :=
  (dat6 V c).arrAt_eq_of_cover 13 (G V c) (fun t _ => flushed13_eq V c t) (cover13)

end Cert.KernelIdeal.Reg6

end
-- ==== Proof.Reg7.lean ====
/-
  The classifier kernel, as one function of whole arrays.

  The kernel runs on a grid of 10 points; point `t` loads rows `5000 t … 5000 t + 4999` of the node features, the
  two weight matrices and the two bias rows whole, and writes the same rows of its output:
  `max (x · W1 + b1) 0 · W2 + b2`.  Every entry it writes depends only on its own row of the features, so what point
  `t` writes back is the rows of ONE whole-array function, `Whole.clsG` of the arrays the region finds; the 10 row
  blocks tile the 50000 rows, so after the region the output array IS that function.
-/
import proofs.«421284_j80985903333882_3_alg».proof.Proof.Gen.KernelIdeal.Frame
import proofs.«421284_j80985903333882_3_alg».proof.Proof.Whole
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Reg7

open Idealize.ShloMosaic Idealize.ShloMosaic.TcCoe Idealize.ShloMosaic.ValueIdx Idealize.SL.Sem Cert.KernelIdeal Cert.KernelIdeal.Gen
open Idealize.ShloMosaic.Pipeline (Dat Cfg Window)

/-! ## The two matrix products of a tile at an entry -/

theorem lhs_mm1_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem lhs_mm1_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
theorem rhs_mm1_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
theorem rhs_mm1_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- A `[5000, 256] · [256, 128]` product accumulated from zero, at `(p, k)`: the sum over `l` of `a (p, l) * b (l, k)`. -/
theorem mm1_apply {φ₁ φ₂ : FTy} (a : FVec Ideal S5000x256 φ₁) (b : FVec Ideal S256x128 φ₂) (p : Fin 5000) (q : Fin 128) :
    matmul dot_S5000x256_S256x128_S5000x128_1_0_0_1_n_n none a b (constant (F := Ideal) S5000x128 .f32 0x00000000#32) (ix2 p q)
      = ∑ k : Fin 256, a (ix2 p k) * b (ix2 k q) := by
  simp only [matmul]
  rw [Ideal.matmul_constant_zero_apply, ← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 p q) ((contrEquiv1 dot_S5000x256_S256x128_S5000x128_1_0_0_1_n_n 256 rfl rfl).symm k) = ix2 p k := funext fun a => Fin.ext (by
    match a with
    | ⟨0, _⟩ => exact lhs_mm1_0 _ _
    | ⟨1, _⟩ => exact (lhs_mm1_1 _ _).trans hk)
  have er : dot_S5000x256_S256x128_S5000x128_1_0_0_1_n_n.rhsIdx (ix2 p q) ((contrEquiv1 dot_S5000x256_S256x128_S5000x128_1_0_0_1_n_n 256 rfl rfl).symm k) = ix2 k q := funext fun a => Fin.ext (by
    match a with
    | ⟨0, _⟩ => exact (rhs_mm1_0 _ _).trans hk
    | ⟨1, _⟩ => exact rhs_mm1_1 _ _)
  rw [el, er]

theorem lhs_mm2_0 (i : S5000x40.Idx) (q : dot_S5000x128_S128x40_S5000x40_1_0_0_1_n_n.contr.Idx) :
    (dot_S5000x128_S128x40_S5000x40_1_0_0_1_n_n.lhsIdx i q 0).val = (i 0).val := by
  unfold DotDims.lhsIdx
  rw [dif_neg (show ¬(0 : Fin S5000x128.rank) ∈ dot_S5000x128_S128x40_S5000x40_1_0_0_1_n_n.lhsBatch by decide), dif_pos (show (0 : Fin S5000x128.rank) ∈ dot_S5000x128_S128x40_S5000x40_1_0_0_1_n_n.lhsNonContracting by decide)]
  rfl
theorem lhs_mm2_1 (i : S5000x40.Idx) (q : dot_S5000x128_S128x40_S5000x40_1_0_0_1_n_n.contr.Idx) :
    (dot_S5000x128_S128x40_S5000x40_1_0_0_1_n_n.lhsIdx i q 1).val = (q ⟨0, by decide⟩).val :=
  dot_S5000x128_S128x40_S5000x40_1_0_0_1_n_n.lhsIdx_val_of_single rfl i q
theorem rhs_mm2_0 (i : S5000x40.Idx) (q : dot_S5000x128_S128x40_S5000x40_1_0_0_1_n_n.contr.Idx) :
    (dot_S5000x128_S128x40_S5000x40_1_0_0_1_n_n.rhsIdx i q 0).val = (q ⟨0, by decide⟩).val :=
  dot_S5000x128_S128x40_S5000x40_1_0_0_1_n_n.rhsIdx_val_of_single rfl i q
theorem rhs_mm2_1 (i : S5000x40.Idx) (q : dot_S5000x128_S128x40_S5000x40_1_0_0_1_n_n.contr.Idx) :
    (dot_S5000x128_S128x40_S5000x40_1_0_0_1_n_n.rhsIdx i q 1).val = (i 1).val := by
  unfold DotDims.rhsIdx
  rw [dif_neg (show ¬(1 : Fin S128x40.rank) ∈ dot_S5000x128_S128x40_S5000x40_1_0_0_1_n_n.rhsBatch by decide), dif_pos (show (1 : Fin S128x40.rank) ∈ dot_S5000x128_S128x40_S5000x40_1_0_0_1_n_n.rhsNonContracting by decide)]
  rfl

/-- A `[5000, 128] · [128, 40]` product accumulated from zero, at `(p, q)`: the sum over `k` of `a (p, k) * b (k, q)`. -/
theorem mm2_apply {φ₁ φ₂ : FTy} (a : FVec Ideal S5000x128 φ₁) (b : FVec Ideal S128x40 φ₂) (p : Fin 5000) (q : Fin 40) :
    matmul dot_S5000x128_S128x40_S5000x40_1_0_0_1_n_n none a b (constant (F := Ideal) S5000x40 .f32 0x00000000#32) (ix2 p q)
      = ∑ k : Fin 128, a (ix2 p k) * b (ix2 k q) := by
  simp only [matmul]
  rw [Ideal.matmul_constant_zero_apply, ← Equiv.sum_comp (contrEquiv1 dot_S5000x128_S128x40_S5000x40_1_0_0_1_n_n 128 rfl rfl).symm]
  refine Finset.sum_congr rfl fun k _ => ?_
  have hk := contrEquiv1_symm_val dot_S5000x128_S128x40_S5000x40_1_0_0_1_n_n 128 rfl rfl k
  have el : dot_S5000x128_S128x40_S5000x40_1_0_0_1_n_n.lhsIdx (ix2 p q) ((contrEquiv1 dot_S5000x128_S128x40_S5000x40_1_0_0_1_n_n 128 rfl rfl).symm k) = ix2 p k := funext fun a => Fin.ext (by
    match a with
    | ⟨0, _⟩ => exact lhs_mm2_0 _ _
    | ⟨1, _⟩ => exact (lhs_mm2_1 _ _).trans hk)
  have er : dot_S5000x128_S128x40_S5000x40_1_0_0_1_n_n.rhsIdx (ix2 p q) ((contrEquiv1 dot_S5000x128_S128x40_S5000x40_1_0_0_1_n_n 128 rfl rfl).symm k) = ix2 k q := funext fun a => Fin.ext (by
    match a with
    | ⟨0, _⟩ => exact (rhs_mm2_0 _ _).trans hk
    | ⟨1, _⟩ => exact rhs_mm2_1 _ _)
  rw [el, er]

/-! ## The bias rows broadcast down the tile -/

/-- A `[1, 128]` row broadcast down the tile, at `(p, k)`: the row's entry `k`. -/
theorem row1_apply (v : FVec Ideal S1x128 .f32) (p : Fin 5000) (k : Fin 128) :
    broadcastTo S5000x128 (shapeCast S1x128 v shapeCasts_S1x128_S1x128) broadcasts_S1x128_S5000x128 (ix2 p k) = v (ix2 0 k) := by
  rw [shapeCast_self]
  exact broadcastTo_apply v broadcasts_S1x128_S5000x128 (ix2 p k) (ix2 0 k) (fun a => by
    match a with
    | ⟨0, _⟩ => rfl
    | ⟨1, _⟩ => rfl)

/-- A `[1, 40]` row broadcast down the tile, at `(p, q)`: the row's entry `q`. -/
theorem row2_apply (v : FVec Ideal S1x40 .f32) (p : Fin 5000) (q : Fin 40) :
    broadcastTo S5000x40 (shapeCast S1x40 v shapeCasts_S1x40_S1x40) broadcasts_S1x40_S5000x40 (ix2 p q) = v (ix2 0 q) := by
  rw [shapeCast_self]
  exact broadcastTo_apply v broadcasts_S1x40_S5000x40 (ix2 p q) (ix2 0 q) (fun a => by
    match a with
    | ⟨0, _⟩ => rfl
    | ⟨1, _⟩ => rfl)

/-! ## The kernel's value at an entry of a tile -/

/-- Entry `(p, k)` of the hidden layer `max (x · W1 + b1) 0` of a tile: the changes of float format and the
    reshape to the same shape are the identity, the product is the sum over the contracted coordinate, the bias row
    is read at `(0, k)` and the splat of the zero word is that word. -/
theorem hid_apply (v0 : Vec Ideal S5000x256 .f32) (v3 : Vec Ideal S256x128 .f32) (v6 : Vec Ideal S1x128 .f32)
    (p : Fin 5000) (k : Fin 128) :
    maximumf
        (addf
          (matmul dot_S5000x256_S256x128_S5000x128_1_0_0_1_n_n none
            (truncf .bf16 (shapeCast S5000x256 v0 shapeCasts_S5000x256_S5000x256) bitsLt_bf16_f32)
            (truncf .bf16 v3 bitsLt_bf16_f32) (constant (F := Ideal) S5000x128 .f32 0x00000000#32))
          (broadcastTo S5000x128 (shapeCast S1x128 v6 shapeCasts_S1x128_S1x128) broadcasts_S1x128_S5000x128))
        (broadcast S5000x128 (Scalar.ofBits (F := Ideal) .f32 0x00000000#32)) (ix2 p k)
      = max ((∑ l : Fin 256, v0 (ix2 p l) * v3 (ix2 l k)) + v6 (ix2 0 k)) (Ideal.ofBits .f32 0x00000000#32) := by
  show max
      (matmul dot_S5000x256_S256x128_S5000x128_1_0_0_1_n_n none
          (truncf .bf16 (shapeCast S5000x256 v0 shapeCasts_S5000x256_S5000x256) bitsLt_bf16_f32)
          (truncf .bf16 v3 bitsLt_bf16_f32) (constant (F := Ideal) S5000x128 .f32 0x00000000#32) (ix2 p k)
        + broadcastTo S5000x128 (shapeCast S1x128 v6 shapeCasts_S1x128_S1x128) broadcasts_S1x128_S5000x128 (ix2 p k))
      (Ideal.ofBits .f32 0x00000000#32) = _
  rw [mm1_apply, row1_apply, shapeCast_self]
  rfl

/-- Entry `(p, q)` of what the kernel computes from a tile of features, the two weight matrices and the two bias
    rows: the hidden layer times the second weight matrix, plus the second bias row. -/
theorem pay1_apply (v0 : Vec Ideal S5000x256 .f32) (v3 : Vec Ideal S256x128 .f32) (v6 : Vec Ideal S1x128 .f32)
    (v13 : Vec Ideal S128x40 .f32) (v16 : Vec Ideal S1x40 .f32) (p : Fin 5000) (q : Fin 40) :
    Gen.k7_pay1 (F := Ideal) v0 v3 v6 v13 v16 (ix2 p q)
      = Spec.cls (fun r l => v0 (ix2 r l)) (fun l k => v3 (ix2 l k)) (fun k => v6 (ix2 0 k))
          (fun k q => v13 (ix2 k q)) (fun q => v16 (ix2 0 q)) p q := by
  show matmul dot_S5000x128_S128x40_S5000x40_1_0_0_1_n_n none
        (truncf .bf16
          (maximumf
            (addf
              (matmul dot_S5000x256_S256x128_S5000x128_1_0_0_1_n_n none
                (truncf .bf16 (shapeCast S5000x256 v0 shapeCasts_S5000x256_S5000x256) bitsLt_bf16_f32)
                (truncf .bf16 v3 bitsLt_bf16_f32) (constant (F := Ideal) S5000x128 .f32 0x00000000#32))
              (broadcastTo S5000x128 (shapeCast S1x128 v6 shapeCasts_S1x128_S1x128) broadcasts_S1x128_S5000x128))
            (broadcast S5000x128 (Scalar.ofBits (F := Ideal) .f32 0x00000000#32)))
          bitsLt_bf16_f32)
        (truncf .bf16 v13 bitsLt_bf16_f32) (constant (F := Ideal) S5000x40 .f32 0x00000000#32) (ix2 p q)
      + broadcastTo S5000x40 (shapeCast S1x40 v16 shapeCasts_S1x40_S1x40) broadcasts_S1x40_S5000x40 (ix2 p q) = _
  rw [mm2_apply, row2_apply]
  unfold Spec.cls
  refine congrArg (· + v16 (ix2 0 q)) (Finset.sum_congr rfl fun k _ => ?_)
  refine congrArg (· * v13 (ix2 k q)) ?_
  exact hid_apply v0 v3 v6 p k

variable (V : (c : Dev nD) → (b : Ref sig .tc) → Buf (Elt Ideal) ((c : Thread nD τ).loc b))

theorem hz : (![0, 0] : Fin 2 → Nat) = fun _ => 0 := funext fun a => by fin_cases a <;> rfl

/-! ## The arrays the region finds, and a point's blocks of them, at their literal types -/

abbrev aX (c : Dev nD) : Vec Ideal S50000x256 .f32 := V c (Pipeline.arrRef spec7 0)
abbrev aW1 (c : Dev nD) : Vec Ideal S256x128 .f32 := V c (Pipeline.arrRef spec7 1)
abbrev aB1 (c : Dev nD) : Vec Ideal S1x128 .f32 := V c (Pipeline.arrRef spec7 2)
abbrev aW2 (c : Dev nD) : Vec Ideal S128x40 .f32 := V c (Pipeline.arrRef spec7 3)
abbrev aB2 (c : Dev nD) : Vec Ideal S1x40 .f32 := V c (Pipeline.arrRef spec7 4)

abbrev bX (c : Dev nD) (t : Fin cfg7.N) : Vec Ideal S5000x256 .f32 := iblk7 V c 0 t
abbrev bW1 (c : Dev nD) (t : Fin cfg7.N) : Vec Ideal S256x128 .f32 := iblk7 V c 1 t
abbrev bB1 (c : Dev nD) (t : Fin cfg7.N) : Vec Ideal S1x128 .f32 := iblk7 V c 2 t
abbrev bW2 (c : Dev nD) (t : Fin cfg7.N) : Vec Ideal S128x40 .f32 := iblk7 V c 3 t
abbrev bB2 (c : Dev nD) (t : Fin cfg7.N) : Vec Ideal S1x40 .f32 := iblk7 V c 4 t

/-! ## The printed index maps over the grid -/

/-- Point `t`'s blocks: the row-indexed windows sit at block row `t`, every other block index is `0`. -/
theorem idx_facts : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0
    ∧ t.val < 10 :=
  (by decide +kernel : ∀ t : Fin grid7.N, _)

/-- The row of the whole array that row `p` of point `t`'s block is. -/
def grow (t : Fin cfg7.N) (p : Fin 5000) : Fin 50000 := ⟨t.val * 5000 + p.val, by
  have := (idx_facts t).2.2.2.2.2.2.2.2.2.2.2.2; have := p.isLt; omega⟩

/-! ## A point's blocks read off the arrays -/

theorem readX (c : Dev nD) (t : Fin cfg7.N) (p : Fin 5000) (l : Fin 256) : bX V c t (ix2 p l) = aX V c (ix2 (grow t p) l) := by
  obtain ⟨e0, e1, -⟩ := idx_facts t
  show V c (Pipeline.arrRef spec7 0) (((cfg7.win 0).blk t).view.emb (ix2 p l)) = V c (Pipeline.arrRef spec7 0) (ix2 (grow t p) l)
  refine congrArg _ (funext fun a => Fin.ext ?_)
  match a with
  | ⟨0, _⟩ => show win7_0.index t (0 : Fin 2) * 5000 + 1 * p.val = t.val * 5000 + p.val; omega
  | ⟨1, _⟩ => show win7_0.index t (1 : Fin 2) * 256 + 1 * l.val = l.val; omega

theorem readW1 (c : Dev nD) (t : Fin cfg7.N) (l : Fin 256) (k : Fin 128) : bW1 V c t (ix2 l k) = aW1 V c (ix2 l k) := by
  obtain ⟨-, -, e0, e1, -⟩ := idx_facts t
  show V c (Pipeline.arrRef spec7 1) (((cfg7.win 1).blk t).view.emb (ix2 l k)) = V c (Pipeline.arrRef spec7 1) (ix2 l k)
  refine congrArg _ (funext fun a => Fin.ext ?_)
  match a with
  | ⟨0, _⟩ => show win7_1.index t (0 : Fin 2) * 256 + 1 * l.val = l.val; omega
  | ⟨1, _⟩ => show win7_1.index t (1 : Fin 2) * 128 + 1 * k.val = k.val; omega

theorem readB1 (c : Dev nD) (t : Fin cfg7.N) (k : Fin 128) : bB1 V c t (ix2 0 k) = aB1 V c (ix2 0 k) := by
  obtain ⟨-, -, -, -, e0, e1, -⟩ := idx_facts t
  show V c (Pipeline.arrRef spec7 2) (((cfg7.win 2).blk t).view.emb (ix2 0 k)) = V c (Pipeline.arrRef spec7 2) (ix2 0 k)
  refine congrArg _ (funext fun a => Fin.ext ?_)
  match a with
  | ⟨0, _⟩ => show win7_2.index t (0 : Fin 2) * 1 + 1 * 0 = 0; omega
  | ⟨1, _⟩ => show win7_2.index t (1 : Fin 2) * 128 + 1 * k.val = k.val; omega

theorem readW2 (c : Dev nD) (t : Fin cfg7.N) (k : Fin 128) (q : Fin 40) : bW2 V c t (ix2 k q) = aW2 V c (ix2 k q) := by
  obtain ⟨-, -, -, -, -, -, e0, e1, -⟩ := idx_facts t
  show V c (Pipeline.arrRef spec7 3) (((cfg7.win 3).blk t).view.emb (ix2 k q)) = V c (Pipeline.arrRef spec7 3) (ix2 k q)
  refine congrArg _ (funext fun a => Fin.ext ?_)
  match a with
  | ⟨0, _⟩ => show win7_3.index t (0 : Fin 2) * 128 + 1 * k.val = k.val; omega
  | ⟨1, _⟩ => show win7_3.index t (1 : Fin 2) * 40 + 1 * q.val = q.val; omega

theorem readB2 (c : Dev nD) (t : Fin cfg7.N) (q : Fin 40) : bB2 V c t (ix2 0 q) = aB2 V c (ix2 0 q) := by
  obtain ⟨-, -, -, -, -, -, -, -, e0, e1, -⟩ := idx_facts t
  show V c (Pipeline.arrRef spec7 4) (((cfg7.win 4).blk t).view.emb (ix2 0 q)) = V c (Pipeline.arrRef spec7 4) (ix2 0 q)
  refine congrArg _ (funext fun a => Fin.ext ?_)
  match a with
  | ⟨0, _⟩ => show win7_4.index t (0 : Fin 2) * 1 + 1 * 0 = 0; omega
  | ⟨1, _⟩ => show win7_4.index t (1 : Fin 2) * 40 + 1 * q.val = q.val; omega

/-! ## What a point writes back -/

/-- The whole-array function of the arrays the region finds. -/
abbrev G (c : Dev nD) : S50000x40.Idx → EReal :=
  Whole.clsG (aX V c) (aW1 V c) (aB1 V c) (aW2 V c) (aB2 V c)

/-- Entry `(p, q)` of what point `t` computes is entry `(5000 t + p, q)` of the whole-array function. -/
theorem point_apply (c : Dev nD) (t : Fin cfg7.N) (p : Fin 5000) (q : Fin 40) :
    Gen.k7_pay1 (F := Ideal) (bX V c t) (bW1 V c t) (bB1 V c t) (bW2 V c t) (bB2 V c t) (ix2 p q) = G V c (ix2 (grow t p) q) := by
  rw [pay1_apply (bX V c t) (bW1 V c t) (bB1 V c t) (bW2 V c t) (bB2 V c t) p q]
  show _ = Spec.cls _ _ _ _ _ (grow t p) q
  unfold Spec.cls
  simp only [readX V c t, readW1 V c t, readB1 V c t, readW2 V c t, readB2 V c t]

/-- The block of the output at point `t`, embedded in the array. -/
theorem emb5 (t : Fin cfg7.N) (p : Fin 5000) (q : Fin 40) :
    ((cfg7.win 5).blk t).view.emb (ix2 p q) = ix2 (grow t p) q := by
  obtain ⟨-, -, -, -, -, -, -, -, -, -, e0, e1, -⟩ := idx_facts t
  refine funext fun a => Fin.ext ?_
  match a with
  | ⟨0, _⟩ => show win7_5.index t (0 : Fin 2) * 5000 + 1 * p.val = t.val * 5000 + p.val; omega
  | ⟨1, _⟩ => show win7_5.index t (1 : Fin 2) * 40 + 1 * q.val = q.val; omega

/-- What point `t` writes back to the output is block `t` of the whole-array function. -/
theorem flushed5_eq (c : Dev nD) (t : Fin cfg7.N) :
    (dat7 V c).flushed 5 t = ((cfg7.win 5).blk t).view.read (Elt Ideal) (G V c) := by
  show (cfg7.win 5).cut (grid7.coords t) ((dat7 V c).after 5 t) = _
  rw [after7_5]
  unfold out7_5
  rw [View.canon_unit_zero hz]
  simp only [View.ld_unit_zero (S := S5000x256) hz, View.ld_unit_zero (S := S256x128) hz, View.ld_unit_zero (S := S1x128) hz, View.ld_unit_zero (S := S128x40) hz, View.ld_unit_zero (S := S1x40) hz]
  funext j
  obtain ⟨p, q, rfl⟩ : ∃ (p : Fin 5000) (q : Fin 40), j = ix2 p q := ⟨j 0, j 1, eq_ix2 j⟩
  show Gen.k7_pay1 (F := Ideal) (bX V c t) (bW1 V c t) (bB1 V c t) (bW2 V c t) (bB2 V c t) (ix2 p q)
    = G V c (((cfg7.win 5).blk t).view.emb (ix2 p q))
  rw [emb5 t p q]
  exact point_apply V c t p q

/-! ## The row blocks tile the array -/

theorem mem_blk5 (t : Fin cfg7.N) (i : S50000x40.Idx) :
    i ∈ ((cfg7.win 5).blk t).view.set ↔ ∀ a : Fin 2, win7_5.index t a * S5000x40.size a ≤ (i a).val ∧ (i a).val < win7_5.index t a * S5000x40.size a + S5000x40.size a := by
  show i ∈ ((View.whole main_v203).slice (win7_5.rect t)).set ↔ _
  rw [View.set_slice_whole, Rect.mem_set_unit]
  exact Iff.rfl

/-- The point whose block holds row `r`. -/
def pointOf (i : S50000x40.Idx) : Fin cfg7.N := ⟨(i 0).val / 5000, by
  have h : (i 0).val < 50000 := (i 0).isLt
  show (i 0).val / 5000 < 10
  omega⟩

theorem cover5 (i : S50000x40.Idx) : ∃ t : Fin cfg7.N, (cfg7.win 5).flush t = true ∧ i ∈ ((cfg7.win 5).blk t).view.set := by
  refine ⟨pointOf i, flush7_5 _, ?_⟩
  rw [mem_blk5]
  obtain ⟨-, -, -, -, -, -, -, -, -, -, e0, e1, -⟩ := idx_facts (pointOf i)
  have h0 : (i 0).val < 50000 := (i 0).isLt
  have h1 : (i 1).val < 40 := (i 1).isLt
  have hp : (pointOf i).val = (i 0).val / 5000 := rfl
  intro a
  match a with
  | ⟨0, _⟩ => show win7_5.index (pointOf i) (0 : Fin 2) * 5000 ≤ (i 0).val ∧ (i 0).val < win7_5.index (pointOf i) (0 : Fin 2) * 5000 + 5000; omega
  | ⟨1, _⟩ => show win7_5.index (pointOf i) (1 : Fin 2) * 40 ≤ (i 1).val ∧ (i 1).val < win7_5.index (pointOf i) (1 : Fin 2) * 40 + 40; omega

/-! ## The array after the region -/

/-- After the region the output array is the whole-array function of the arrays the region found. -/
theorem final5 (c : Dev nD) : (dat7 V c).arrAt 5 cfg7.N = G V c :=
  (dat7 V c).arrAt_eq_of_cover 5 (G V c) (fun t _ => flushed5_eq V c t) (cover5)

end Cert.KernelIdeal.Reg7

end
-- ==== Proof.KStage3.lean ====
/-
  The kernel program's stages equal the reference's, one stage at a time: the gated second convolution of the last
  block, and the classifier.

  After a region each of its output arrays is the region's whole-array function of the arrays it found; the
  reference's stage, read at an index, is the same layer function of ITS operands' coordinates.  So a stage's two
  sides agree once the operands' coordinates agree: a weight or bias is the program argument itself on both sides
  (the slice of the stack at the block's position, or the vector viewed as a row), the block's input and the residual
  are earlier stages (taken here as hypotheses: the induction along the program is assembled elsewhere), the aggregate
  is the same scatter-add of the same gather, and the neighbourhood mean is the aggregate times the reciprocal of the
  count on one side and the quotient by the count on the other — equal because the larger of the count and one is
  not zero.
-/
import proofs.«421284_j80985903333882_3_alg».proof.Proof.KeepMore
import proofs.«421284_j80985903333882_3_alg».proof.Proof.KBase
import proofs.«421284_j80985903333882_3_alg».proof.Proof.Reg6
import proofs.«421284_j80985903333882_3_alg».proof.Proof.Reg7
import proofs.«421284_j80985903333882_3_alg».proof.Proof.RefStageA
import proofs.«421284_j80985903333882_3_alg».proof.Proof.RefStageB
import proofs.«421284_j80985903333882_3_alg».proof.Proof.RefAgg

set_option maxRecDepth 16384

noncomputable section

open scoped BigOperators

namespace Cert.KernelIdeal.KChain3

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (ρ : Dev nD → PrngReg)

/-- Widening after a gather is the gather, at the ideal values. -/
theorem extf_gather {s si t : Shape} {w : Nat} (d : GatherDims s si t) (x : FVec Ideal s .bf16) (idx : IVec si w) :
    (extf .f32 (Host.gather d x idx) bitsLt_bf16_f32 : FVec Ideal t .f32) = Host.gather d x idx := rfl

/-! ## The second convolution of block 2, gated

What the seventh kernel finds in each of its windows, at the boundary where it is entered. -/

set_option maxRecDepth 200000 in
set_option maxHeartbeats 4000000 in
/-- The aggregate it is given: the aggregation of the narrow copy of the block's first convolution. -/
theorem e6_A (c : Dev nD) :
    W13 m ρ c (Proc.devRef .tc main_v178)
      = Cert.ReferenceIdeal.RefAgg.aggOf (F := Ideal) (m ((c : Thread nD τ).loc main_arg1)) (W12 m ρ c (Proc.devRef .tc main_v167_1)) := by
  show StableHlo.after (hostOps6 (F := Ideal)) (W12 m ρ c) (Proc.devRef .tc main_v178) = _
  after_results_simp
  rw [extf_gather, Keep.from1_12 m ρ c main_v3 (by decide), KBase.w1_dst, Keep.from1_12 m ρ c main_v1 (by decide), KBase.w1_src]
  rfl

set_option maxRecDepth 200000 in
set_option maxHeartbeats 4000000 in
/-- The left weight matrix: matrix 2 of its stack. -/
theorem e6_Wl (c : Dev nD) (k q : Fin 256) :
    (W13 m ρ c (Proc.devRef .tc main_v180) : Vec Ideal S256x256 .f32) (ix2 k q)
      = ((m ((c : Thread nD τ).loc main_arg7)) : Vec Ideal S3x256x256 .f32) (ix3 2 k q) := by
  show StableHlo.after (hostOps6 (F := Ideal)) (W12 m ρ c) (Proc.devRef .tc main_v180) (ix2 k q) = _
  after_results_simp
  rw [Keep.at12 m ρ c main_arg7 (by decide)]
  exact Layout.mat_apply _ (2 : Fin 3) _ _ k q

set_option maxRecDepth 200000 in
set_option maxHeartbeats 4000000 in
/-- The right weight matrix: matrix 2 of its stack. -/
theorem e6_Wr (c : Dev nD) (k q : Fin 256) :
    (W13 m ρ c (Proc.devRef .tc main_v182) : Vec Ideal S256x256 .f32) (ix2 k q)
      = ((m ((c : Thread nD τ).loc main_arg9)) : Vec Ideal S3x256x256 .f32) (ix3 2 k q) := by
  show StableHlo.after (hostOps6 (F := Ideal)) (W12 m ρ c) (Proc.devRef .tc main_v182) (ix2 k q) = _
  after_results_simp
  rw [Keep.at12 m ρ c main_arg9 (by decide)]
  exact Layout.mat_apply _ (2 : Fin 3) _ _ k q

set_option maxRecDepth 200000 in
set_option maxHeartbeats 4000000 in
/-- The bias row: vector 2 of its stack. -/
theorem e6_bl (c : Dev nD) (q : Fin 256) :
    (W13 m ρ c (Proc.devRef .tc main_v195) : Vec Ideal S1x256 .f32) (ix2 0 q)
      = ((m ((c : Thread nD τ).loc main_arg8)) : Vec Ideal S3x256 .f32) (ix2 2 q) := by
  show StableHlo.after (hostOps6 (F := Ideal)) (W12 m ρ c) (Proc.devRef .tc main_v195) (ix2 0 q) = _
  after_results_simp
  rw [Keep.at12 m ρ c main_arg8 (by decide)]
  exact Layout.rowvec_apply _ (2 : Fin 3) _ _ _ q

set_option maxRecDepth 200000 in
set_option maxHeartbeats 4000000 in
/-- The scale row: row 2 of the second scale array, `gamma * rsqrt (var + eps)`. -/
theorem e6_sc (c : Dev nD) (q : Fin 256) :
    Layout.re ((W13 m ρ c (Proc.devRef .tc main_v196) : Vec Ideal S1x256 .f32) (ix2 0 q))
      = Layout.re (m ((c : Thread nD τ).loc main_arg14) (ix2 (2 : Fin 3) q))
          * Ideal.rsqrt (Layout.re (m ((c : Thread nD τ).loc main_arg17) (ix2 (2 : Fin 3) q)) + Ideal.ofBits .f32 0x3727C5AC#32) := by
  show Layout.re (StableHlo.after (hostOps6 (F := Ideal)) (W12 m ρ c) (Proc.devRef .tc main_v196) (ix2 0 q)) = _
  after_results_simp
  rw [Keep.from1_12 m ρ c main_v20 (by decide)]
  exact (Layout.rowvec_apply _ (2 : Fin 3) _ _ _ q).trans (KBase.w1_sc2 m ρ c 2 q)

set_option maxRecDepth 200000 in
set_option maxHeartbeats 4000000 in
/-- The mean row: vector 2 of its stack. -/
theorem e6_mn (c : Dev nD) (q : Fin 256) :
    (W13 m ρ c (Proc.devRef .tc main_v197) : Vec Ideal S1x256 .f32) (ix2 0 q)
      = ((m ((c : Thread nD τ).loc main_arg16)) : Vec Ideal S3x256 .f32) (ix2 2 q) := by
  show StableHlo.after (hostOps6 (F := Ideal)) (W12 m ρ c) (Proc.devRef .tc main_v197) (ix2 0 q) = _
  after_results_simp
  rw [Keep.at12 m ρ c main_arg16 (by decide)]
  exact Layout.rowvec_apply _ (2 : Fin 3) _ _ _ q

set_option maxRecDepth 200000 in
set_option maxHeartbeats 4000000 in
/-- The shift row: vector 2 of its stack. -/
theorem e6_bs (c : Dev nD) (q : Fin 256) :
    (W13 m ρ c (Proc.devRef .tc main_v198) : Vec Ideal S1x256 .f32) (ix2 0 q)
      = ((m ((c : Thread nD τ).loc main_arg15)) : Vec Ideal S3x256 .f32) (ix2 2 q) := by
  show StableHlo.after (hostOps6 (F := Ideal)) (W12 m ρ c) (Proc.devRef .tc main_v198) (ix2 0 q) = _
  after_results_simp
  rw [Keep.at12 m ρ c main_arg15 (by decide)]
  exact Layout.rowvec_apply _ (2 : Fin 3) _ _ _ q

set_option maxRecDepth 200000 in
set_option maxHeartbeats 4000000 in
/-- The gate's weight matrix: matrix 1 of a stack of two. -/
theorem e6_Gw (c : Dev nD) (k q : Fin 256) :
    (W13 m ρ c (Proc.devRef .tc main_v192) : Vec Ideal S256x256 .f32) (ix2 k q)
      = ((m ((c : Thread nD τ).loc main_arg18)) : Vec Ideal S2x256x256 .f32) (ix3 1 k q) := by
  show StableHlo.after (hostOps6 (F := Ideal)) (W12 m ρ c) (Proc.devRef .tc main_v192) (ix2 k q) = _
  after_results_simp
  rw [Keep.at12 m ρ c main_arg18 (by decide)]
  exact Layout.mat_apply _ (1 : Fin 2) _ _ k q

set_option maxRecDepth 200000 in
set_option maxHeartbeats 4000000 in
/-- The gate's bias row: vector 1 of a stack of two. -/
theorem e6_gb (c : Dev nD) (q : Fin 256) :
    (W13 m ρ c (Proc.devRef .tc main_v199) : Vec Ideal S1x256 .f32) (ix2 0 q)
      = ((m ((c : Thread nD τ).loc main_arg19)) : Vec Ideal S2x256 .f32) (ix2 1 q) := by
  show StableHlo.after (hostOps6 (F := Ideal)) (W12 m ρ c) (Proc.devRef .tc main_v199) (ix2 0 q) = _
  after_results_simp
  rw [Keep.at12 m ρ c main_arg19 (by decide)]
  exact Layout.rowvec_apply _ (1 : Fin 2) _ _ _ q

/-- The inverse-count column as the seventh kernel finds it. -/
theorem e6_iv (c : Dev nD) (r : Fin 50000) :
    (W13 m ρ c (Proc.devRef .tc main_v12) : Vec Ideal S50000x1 .f32) (ix2 r 0)
      = Ideal.div (Ideal.ofBits .f32 0x3F800000#32)
          (max (Cert.ReferenceIdeal.Read.val_main_v27 (F := Ideal) (m ((c : Thread nD τ).loc main_arg1)) (ix1 r)) (Ideal.ofBits .f32 0x3F800000#32)) := by
  rw [Keep.from1_13 m ρ c main_v12 (by decide)]
  exact KBase.w1_inv m ρ c r

/-- The gated second convolution of block 2: the seventh kernel's value output is the reference's stage, given that
    the block's input (the residual) and the block's first convolution are. -/
theorem stageC2 (c : Dev nD)
    (hRes : (W10 m ρ c (Proc.devRef .tc main_v139_0) : S50000x256.Idx → EReal)
      = Cert.ReferenceIdeal.Read.val_main_v240 (F := Ideal)
          (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) (m ((c : Thread nD τ).loc main_arg13)) (m ((c : Thread nD τ).loc main_arg14))
          (m ((c : Thread nD τ).loc main_arg15)) (m ((c : Thread nD τ).loc main_arg16)) (m ((c : Thread nD τ).loc main_arg17))
          (m ((c : Thread nD τ).loc main_arg18)) (m ((c : Thread nD τ).loc main_arg19)))
    (hH : (W12 m ρ c (Proc.devRef .tc main_v167_0) : S50000x256.Idx → EReal)
      = Cert.ReferenceIdeal.Read.val_main_v293 (F := Ideal)
          (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) (m ((c : Thread nD τ).loc main_arg13)) (m ((c : Thread nD τ).loc main_arg14))
          (m ((c : Thread nD τ).loc main_arg15)) (m ((c : Thread nD τ).loc main_arg16)) (m ((c : Thread nD τ).loc main_arg17))
          (m ((c : Thread nD τ).loc main_arg18)) (m ((c : Thread nD τ).loc main_arg19)))
    (hH' : (W12 m ρ c (Proc.devRef .tc main_v167_1) : S50000x256.Idx → EReal)
      = Cert.ReferenceIdeal.Read.val_main_v293 (F := Ideal)
          (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) (m ((c : Thread nD τ).loc main_arg13)) (m ((c : Thread nD τ).loc main_arg14))
          (m ((c : Thread nD τ).loc main_arg15)) (m ((c : Thread nD τ).loc main_arg16)) (m ((c : Thread nD τ).loc main_arg17))
          (m ((c : Thread nD τ).loc main_arg18)) (m ((c : Thread nD τ).loc main_arg19))) :
    (W14 m ρ c (Proc.devRef .tc main_v200_0) : S50000x256.Idx → EReal)
      = Cert.ReferenceIdeal.Read.val_main_v366 (F := Ideal)
          (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) (m ((c : Thread nD τ).loc main_arg13)) (m ((c : Thread nD τ).loc main_arg14))
          (m ((c : Thread nD τ).loc main_arg15)) (m ((c : Thread nD τ).loc main_arg16)) (m ((c : Thread nD τ).loc main_arg17))
          (m ((c : Thread nD τ).loc main_arg18)) (m ((c : Thread nD τ).loc main_arg19)) := by
  refine (W14_arr m ρ c 12).trans ((Reg6.final12 (V13 m ρ) c).trans ?_)
  funext i
  rw [Cert.ReferenceIdeal.RefStageB.c2_apply]
  show Spec.gate
      (fun r k => Layout.re ((W13 m ρ c (Proc.devRef .tc main_v178) : Vec Ideal S50000x256 .f32) (ix2 r k))
        * Layout.re ((W13 m ρ c (Proc.devRef .tc main_v12) : Vec Ideal S50000x1 .f32) (ix2 r 0)))
      (fun r k => (W13 m ρ c (Proc.devRef .tc main_v167_0) : Vec Ideal S50000x256 .f32) (ix2 r k))
      (fun k q => (W13 m ρ c (Proc.devRef .tc main_v180) : Vec Ideal S256x256 .f32) (ix2 k q))
      (fun k q => (W13 m ρ c (Proc.devRef .tc main_v182) : Vec Ideal S256x256 .f32) (ix2 k q))
      (fun q => (W13 m ρ c (Proc.devRef .tc main_v195) : Vec Ideal S1x256 .f32) (ix2 0 q))
      (fun q => (W13 m ρ c (Proc.devRef .tc main_v197) : Vec Ideal S1x256 .f32) (ix2 0 q))
      (fun q => Layout.re ((W13 m ρ c (Proc.devRef .tc main_v196) : Vec Ideal S1x256 .f32) (ix2 0 q)))
      (fun q => (W13 m ρ c (Proc.devRef .tc main_v198) : Vec Ideal S1x256 .f32) (ix2 0 q))
      (fun r k => (W13 m ρ c (Proc.devRef .tc main_v139_0) : Vec Ideal S50000x256 .f32) (ix2 r k))
      (fun k q => (W13 m ρ c (Proc.devRef .tc main_v192) : Vec Ideal S256x256 .f32) (ix2 k q))
      (fun q => (W13 m ρ c (Proc.devRef .tc main_v199) : Vec Ideal S1x256 .f32) (ix2 0 q)) (i 0) (i 1) = _
  have hM : ∀ (r : Fin 50000) (k : Fin 256),
      Layout.re ((W13 m ρ c (Proc.devRef .tc main_v178) : Vec Ideal S50000x256 .f32) (ix2 r k))
        * Layout.re ((W13 m ρ c (Proc.devRef .tc main_v12) : Vec Ideal S50000x1 .f32) (ix2 r 0))
      = Ideal.div (Cert.ReferenceIdeal.Read.val_main_v309 (F := Ideal)
          (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) (m ((c : Thread nD τ).loc main_arg13)) (m ((c : Thread nD τ).loc main_arg14))
          (m ((c : Thread nD τ).loc main_arg15)) (m ((c : Thread nD τ).loc main_arg16)) (m ((c : Thread nD τ).loc main_arg17))
          (m ((c : Thread nD τ).loc main_arg18)) (m ((c : Thread nD τ).loc main_arg19)) (ix2 r k))
          (max (Cert.ReferenceIdeal.Read.val_main_v313 (F := Ideal) (m ((c : Thread nD τ).loc main_arg1)) (ix1 r)) (Ideal.ofBits .f32 0x3F800000#32)) := by
    intro r k
    rw [e6_A m ρ c, hH', ← Cert.ReferenceIdeal.RefAgg.agg_5, e6_iv m ρ c r, Cert.ReferenceIdeal.RefAgg.cnt_5]
    exact Spec.mul_div_one _ _ (Spec.max_one_ne_zero _)
  have hX : ∀ (r : Fin 50000) (k : Fin 256), (W13 m ρ c (Proc.devRef .tc main_v167_0) : Vec Ideal S50000x256 .f32) (ix2 r k)
      = Cert.ReferenceIdeal.Read.val_main_v293 (F := Ideal)
          (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) (m ((c : Thread nD τ).loc main_arg13)) (m ((c : Thread nD τ).loc main_arg14))
          (m ((c : Thread nD τ).loc main_arg15)) (m ((c : Thread nD τ).loc main_arg16)) (m ((c : Thread nD τ).loc main_arg17))
          (m ((c : Thread nD τ).loc main_arg18)) (m ((c : Thread nD τ).loc main_arg19)) (ix2 r k) := by
    intro r k
    rw [Keep.hopH6 m ρ c main_v167_0 (by decide), hH]
  have hR : ∀ (r : Fin 50000) (k : Fin 256), (W13 m ρ c (Proc.devRef .tc main_v139_0) : Vec Ideal S50000x256 .f32) (ix2 r k)
      = Cert.ReferenceIdeal.Read.val_main_v240 (F := Ideal)
          (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) (m ((c : Thread nD τ).loc main_arg13)) (m ((c : Thread nD τ).loc main_arg14))
          (m ((c : Thread nD τ).loc main_arg15)) (m ((c : Thread nD τ).loc main_arg16)) (m ((c : Thread nD τ).loc main_arg17))
          (m ((c : Thread nD τ).loc main_arg18)) (m ((c : Thread nD τ).loc main_arg19)) (ix2 r k) := by
    intro r k
    rw [Keep.hopH6 m ρ c main_v139_0 (by decide), Keep.hopR5 m ρ c main_v139_0 (by decide),
      Keep.hopH5 m ρ c main_v139_0 (by decide), hRes]
  simp only [hM, hX, hR, e6_Wl m ρ c, e6_Wr m ρ c, e6_bl m ρ c, e6_mn m ρ c, e6_sc m ρ c, e6_bs m ρ c, e6_Gw m ρ c,
    e6_gb m ρ c]

/-- And so is its copy in the narrower format. -/
theorem stageC2' (c : Dev nD)
    (hRes : (W10 m ρ c (Proc.devRef .tc main_v139_0) : S50000x256.Idx → EReal)
      = Cert.ReferenceIdeal.Read.val_main_v240 (F := Ideal)
          (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) (m ((c : Thread nD τ).loc main_arg13)) (m ((c : Thread nD τ).loc main_arg14))
          (m ((c : Thread nD τ).loc main_arg15)) (m ((c : Thread nD τ).loc main_arg16)) (m ((c : Thread nD τ).loc main_arg17))
          (m ((c : Thread nD τ).loc main_arg18)) (m ((c : Thread nD τ).loc main_arg19)))
    (hH : (W12 m ρ c (Proc.devRef .tc main_v167_0) : S50000x256.Idx → EReal)
      = Cert.ReferenceIdeal.Read.val_main_v293 (F := Ideal)
          (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) (m ((c : Thread nD τ).loc main_arg13)) (m ((c : Thread nD τ).loc main_arg14))
          (m ((c : Thread nD τ).loc main_arg15)) (m ((c : Thread nD τ).loc main_arg16)) (m ((c : Thread nD τ).loc main_arg17))
          (m ((c : Thread nD τ).loc main_arg18)) (m ((c : Thread nD τ).loc main_arg19)))
    (hH' : (W12 m ρ c (Proc.devRef .tc main_v167_1) : S50000x256.Idx → EReal)
      = Cert.ReferenceIdeal.Read.val_main_v293 (F := Ideal)
          (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) (m ((c : Thread nD τ).loc main_arg13)) (m ((c : Thread nD τ).loc main_arg14))
          (m ((c : Thread nD τ).loc main_arg15)) (m ((c : Thread nD τ).loc main_arg16)) (m ((c : Thread nD τ).loc main_arg17))
          (m ((c : Thread nD τ).loc main_arg18)) (m ((c : Thread nD τ).loc main_arg19))) :
    (W14 m ρ c (Proc.devRef .tc main_v200_1) : S50000x256.Idx → EReal)
      = Cert.ReferenceIdeal.Read.val_main_v366 (F := Ideal)
          (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) (m ((c : Thread nD τ).loc main_arg13)) (m ((c : Thread nD τ).loc main_arg14))
          (m ((c : Thread nD τ).loc main_arg15)) (m ((c : Thread nD τ).loc main_arg16)) (m ((c : Thread nD τ).loc main_arg17))
          (m ((c : Thread nD τ).loc main_arg18)) (m ((c : Thread nD τ).loc main_arg19)) :=
  ((W14_arr m ρ c 13).trans ((Reg6.final13 (V13 m ρ) c).trans (Reg6.final12 (V13 m ρ) c).symm)).trans
    ((W14_arr m ρ c 12).symm.trans (stageC2 m ρ c hRes hH hH'))

/-! ## The classifier

What the last kernel finds in its windows: the last block's result, the two weight matrices as launched, and the two
bias vectors viewed as rows. -/

/-- The first bias as a row, at `(0, k)`. -/
theorem e7_b1 (c : Dev nD) (k : Fin 128) :
    (W15 m ρ c (Proc.devRef .tc main_v201) : Vec Ideal S1x128 .f32) (ix2 0 k)
      = ((m ((c : Thread nD τ).loc main_arg21)) : Vec Ideal S128 .f32) (ix1 k) := by
  show StableHlo.after (hostOps7 (F := Ideal)) (W14 m ρ c) (Proc.devRef .tc main_v201) (ix2 0 k) = _
  after_results
  rw [Keep.at14 m ρ c main_arg21 (by decide)]
  exact Layout.row_of_vec_apply _ _ k

/-- The second bias as a row, at `(0, q)`. -/
theorem e7_b2 (c : Dev nD) (q : Fin 40) :
    (W15 m ρ c (Proc.devRef .tc main_v202) : Vec Ideal S1x40 .f32) (ix2 0 q)
      = ((m ((c : Thread nD τ).loc main_arg23)) : Vec Ideal S40 .f32) (ix1 q) := by
  show StableHlo.after (hostOps7 (F := Ideal)) (W14 m ρ c) (Proc.devRef .tc main_v202) (ix2 0 q) = _
  after_results
  rw [Keep.at14 m ρ c main_arg23 (by decide)]
  exact Layout.row_of_vec_apply _ _ q

/-- The classifier: the last kernel's output, the program's result, is the reference's result, given that the last
    block's result is the reference's. -/
theorem stageOut (c : Dev nD)
    (hC : (W14 m ρ c (Proc.devRef .tc main_v200_0) : S50000x256.Idx → EReal)
      = Cert.ReferenceIdeal.Read.val_main_v366 (F := Ideal)
          (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) (m ((c : Thread nD τ).loc main_arg13)) (m ((c : Thread nD τ).loc main_arg14))
          (m ((c : Thread nD τ).loc main_arg15)) (m ((c : Thread nD τ).loc main_arg16)) (m ((c : Thread nD τ).loc main_arg17))
          (m ((c : Thread nD τ).loc main_arg18)) (m ((c : Thread nD τ).loc main_arg19))) :
    (W16 m ρ c (Proc.devRef .tc main_v203) : S50000x40.Idx → EReal)
      = Cert.ReferenceIdeal.Read.val_main_v375 (F := Ideal)
          (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) (m ((c : Thread nD τ).loc main_arg13)) (m ((c : Thread nD τ).loc main_arg14))
          (m ((c : Thread nD τ).loc main_arg15)) (m ((c : Thread nD τ).loc main_arg16)) (m ((c : Thread nD τ).loc main_arg17))
          (m ((c : Thread nD τ).loc main_arg18)) (m ((c : Thread nD τ).loc main_arg19)) (m ((c : Thread nD τ).loc main_arg20))
          (m ((c : Thread nD τ).loc main_arg21)) (m ((c : Thread nD τ).loc main_arg22)) (m ((c : Thread nD τ).loc main_arg23)) := by
  refine (W16_arr m ρ c 5).trans ((Reg7.final5 (V15 m ρ) c).trans ?_)
  funext i
  rw [Cert.ReferenceIdeal.RefStageA.cls_apply]
  show Spec.cls
      (fun r l => (W15 m ρ c (Proc.devRef .tc main_v200_0) : Vec Ideal S50000x256 .f32) (ix2 r l))
      (fun l k => (W15 m ρ c (Proc.devRef .tc main_arg20) : Vec Ideal S256x128 .f32) (ix2 l k))
      (fun k => (W15 m ρ c (Proc.devRef .tc main_v201) : Vec Ideal S1x128 .f32) (ix2 0 k))
      (fun k q => (W15 m ρ c (Proc.devRef .tc main_arg22) : Vec Ideal S128x40 .f32) (ix2 k q))
      (fun q => (W15 m ρ c (Proc.devRef .tc main_v202) : Vec Ideal S1x40 .f32) (ix2 0 q)) (i 0) (i 1) = _
  have hX : ∀ (r : Fin 50000) (l : Fin 256), (W15 m ρ c (Proc.devRef .tc main_v200_0) : Vec Ideal S50000x256 .f32) (ix2 r l)
      = Cert.ReferenceIdeal.Read.val_main_v366 (F := Ideal)
          (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) (m ((c : Thread nD τ).loc main_arg13)) (m ((c : Thread nD τ).loc main_arg14))
          (m ((c : Thread nD τ).loc main_arg15)) (m ((c : Thread nD τ).loc main_arg16)) (m ((c : Thread nD τ).loc main_arg17))
          (m ((c : Thread nD τ).loc main_arg18)) (m ((c : Thread nD τ).loc main_arg19)) (ix2 r l) := by
    intro r l
    rw [Keep.hopH7 m ρ c main_v200_0 (by decide), hC]
  rw [Keep.at15 m ρ c main_arg20 (by decide), Keep.at15 m ρ c main_arg22 (by decide)]
  simp only [hX, e7_b1 m ρ c, e7_b2 m ρ c]

end Cert.KernelIdeal.KChain3

end
-- ==== Proof.KChain.lean ====
/-
  The kernel program's final result is the reference's.

  The stage equalities, composed in program order: the projection; then for each of the three blocks its first
  convolution and its second (with the residual, and from the second block on the gate); then the classifier.  Each
  stage's equality needs only the equalities of the stages whose outputs it reads.
-/
import proofs.«421284_j80985903333882_3_alg».proof.Proof.KStage0
import proofs.«421284_j80985903333882_3_alg».proof.Proof.KStage1
import proofs.«421284_j80985903333882_3_alg».proof.Proof.KStage2
import proofs.«421284_j80985903333882_3_alg».proof.Proof.KStage3

set_option maxRecDepth 16384

noncomputable section

namespace Cert.KernelIdeal.KChain

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg)

/-- After the last kernel the result array holds the reference's result, as a function of the arguments. -/
theorem out_eq (c : Dev nD) :
    (W16 m ρ c (Proc.devRef .tc main_v203) : S50000x40.Idx → EReal)
      = Cert.ReferenceIdeal.Read.val_main_v375 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) := by
  have hP := stageP m ρ c
  have hH0 := stageH0 m ρ c
  have hH0' := stageH0' m ρ c
  have hC0 := KChain1.stageC0 m ρ c hP hH0 hH0'
  have hC0' := KChain1.stageC0' m ρ c hP hH0 hH0'
  have hH1 := KChain1.stageH1 m ρ c hC0 hC0'
  have hH1' := KChain1.stageH1' m ρ c hC0 hC0'
  have hC1 := KChain2.stageC1 m ρ c hC0 hH1 hH1'
  have hC1' := KChain2.stageC1' m ρ c hC0 hH1 hH1'
  have hH2 := KChain2.stageH2 m ρ c hC1 hC1'
  have hH2' := KChain2.stageH2' m ρ c hC1 hC1'
  have hC2 := KChain3.stageC2 m ρ c hC1 hH2 hH2'
  exact KChain3.stageOut m ρ c hC2

end Cert.KernelIdeal.KChain

end
-- ==== Proof.RefChain.lean ====
import proofs.«421284_j80985903333882_3_alg».proof.Proof.RefOps
import proofs.«421284_j80985903333882_3_alg».proof.Proof.RefRead

/-! # The reference program's run, stage by stage

The reference's @main is a straight line of 438 operations, cut into ten stretches; `RefOps.Uk m c` is the
device's contents after the first `k` of them, from the launch memory `m`. Here every level is read at the
buffers the later stretches (and the certificate) look at: the value a stretch computes is the stage function
of the arguments' launch contents (`Read.val_main_vN`: each operation applied to the stages before it), and
a buffer no operation of a stretch writes holds after it what it held before — so the arguments are as
launched at every level, and the few stage values read again later are carried along.

A computed value is read off one stretch only: the fold over the stretch's operations is unfolded to the
operations' functions applied to the contents at the level before, those contents are replaced by the facts
of that level, and what is left is the stage function's own defining tower, equal by unfolding. -/

noncomputable section

namespace Cert.ReferenceIdeal.RefChain

open Cert.ReferenceIdeal Cert.ReferenceIdeal.Gen Idealize.ShloMosaic Idealize.ShloMosaic.TcCoe Idealize.SL.Sem Idealize.ShloMosaic.StableHlo
open Cert.ReferenceIdeal.RefOps

variable {F : FTy → Type} [FloatOps F]

/-! ## What a stretch leaves alone

The signature's first 24 buffers are @main's arguments; every operation writes one buffer, and none of them
an argument. A buffer that is an argument, or one of a short list of stage values no operation of the stretch
writes, therefore keeps its contents through the stretch. -/

/-- A line of operations none of which writes a reference with the property `P` keeps the contents of every
    such reference. -/
theorem kept (l : List (HloOp τ sig (Elt F))) (P : Ref sig .tc → Prop)
    (h : l.Forall fun op => ∀ r : Ref sig .tc, P r → Proc.devRef (τ := τ) .tc r ∉ op.writes)
    (V : Valuation τ sig (Elt F)) {r : Ref sig .tc} (hr : P r) :
    StableHlo.after l V (Proc.devRef .tc r) = V (Proc.devRef .tc r) :=
  StableHlo.after_of_forall_not_mem l V fun op hop => List.forall_iff_forall_mem.mp h op hop r hr

/-- The stretch `ops0` writes no argument. -/
theorem ops0_keeps (V : Valuation τ sig (Elt F)) {r : Ref sig .tc}
    (hr : r.idx.val < 24 ∨ r ∈ ([] : List (Ref sig .tc))) :
    StableHlo.after ops0 V (Proc.devRef .tc r) = V (Proc.devRef .tc r) :=
  kept ops0 (fun r => r.idx.val < 24 ∨ r ∈ ([] : List (Ref sig .tc))) (by
    simp only [ops0, List.Forall, nullary_writes, unary_writes, binary_writes, ternary_writes, reshape_writes,
      Finset.mem_singleton]
    repeat' apply And.intro
    all_goals (intro r hr e; have h := Proc.devRef_injective _ e; subst h; exact absurd hr (by decide))) V hr
/-- The stretch `ops1` writes no argument and none of `main_v1`, `main_v3`, `main_v7`. -/
theorem ops1_keeps (V : Valuation τ sig (Elt F)) {r : Ref sig .tc}
    (hr : r.idx.val < 24 ∨ r ∈ ([main_v1, main_v3, main_v7] : List (Ref sig .tc))) :
    StableHlo.after ops1 V (Proc.devRef .tc r) = V (Proc.devRef .tc r) :=
  kept ops1 (fun r => r.idx.val < 24 ∨ r ∈ ([main_v1, main_v3, main_v7] : List (Ref sig .tc))) (by
    simp only [ops1, List.Forall, nullary_writes, unary_writes, binary_writes, ternary_writes, reshape_writes,
      Finset.mem_singleton]
    repeat' apply And.intro
    all_goals (intro r hr e; have h := Proc.devRef_injective _ e; subst h; exact absurd hr (by decide))) V hr
/-- The stretch `ops2` writes no argument and none of `main_v1`, `main_v3`. -/
theorem ops2_keeps (V : Valuation τ sig (Elt F)) {r : Ref sig .tc}
    (hr : r.idx.val < 24 ∨ r ∈ ([main_v1, main_v3] : List (Ref sig .tc))) :
    StableHlo.after ops2 V (Proc.devRef .tc r) = V (Proc.devRef .tc r) :=
  kept ops2 (fun r => r.idx.val < 24 ∨ r ∈ ([main_v1, main_v3] : List (Ref sig .tc))) (by
    simp only [ops2, List.Forall, nullary_writes, unary_writes, binary_writes, ternary_writes, reshape_writes,
      Finset.mem_singleton]
    repeat' apply And.intro
    all_goals (intro r hr e; have h := Proc.devRef_injective _ e; subst h; exact absurd hr (by decide))) V hr
/-- The stretch `ops3` writes no argument and none of `main_v1`, `main_v3`, `main_v114`. -/
theorem ops3_keeps (V : Valuation τ sig (Elt F)) {r : Ref sig .tc}
    (hr : r.idx.val < 24 ∨ r ∈ ([main_v1, main_v3, main_v114] : List (Ref sig .tc))) :
    StableHlo.after ops3 V (Proc.devRef .tc r) = V (Proc.devRef .tc r) :=
  kept ops3 (fun r => r.idx.val < 24 ∨ r ∈ ([main_v1, main_v3, main_v114] : List (Ref sig .tc))) (by
    simp only [ops3, List.Forall, nullary_writes, unary_writes, binary_writes, ternary_writes, reshape_writes,
      Finset.mem_singleton]
    repeat' apply And.intro
    all_goals (intro r hr e; have h := Proc.devRef_injective _ e; subst h; exact absurd hr (by decide))) V hr
/-- The stretch `ops4` writes no argument and none of `main_v1`, `main_v3`, `main_v114`. -/
theorem ops4_keeps (V : Valuation τ sig (Elt F)) {r : Ref sig .tc}
    (hr : r.idx.val < 24 ∨ r ∈ ([main_v1, main_v3, main_v114] : List (Ref sig .tc))) :
    StableHlo.after ops4 V (Proc.devRef .tc r) = V (Proc.devRef .tc r) :=
  kept ops4 (fun r => r.idx.val < 24 ∨ r ∈ ([main_v1, main_v3, main_v114] : List (Ref sig .tc))) (by
    simp only [ops4, List.Forall, nullary_writes, unary_writes, binary_writes, ternary_writes, reshape_writes,
      Finset.mem_singleton]
    repeat' apply And.intro
    all_goals (intro r hr e; have h := Proc.devRef_injective _ e; subst h; exact absurd hr (by decide))) V hr
/-- The stretch `ops5` writes no argument and none of `main_v1`, `main_v3`. -/
theorem ops5_keeps (V : Valuation τ sig (Elt F)) {r : Ref sig .tc}
    (hr : r.idx.val < 24 ∨ r ∈ ([main_v1, main_v3] : List (Ref sig .tc))) :
    StableHlo.after ops5 V (Proc.devRef .tc r) = V (Proc.devRef .tc r) :=
  kept ops5 (fun r => r.idx.val < 24 ∨ r ∈ ([main_v1, main_v3] : List (Ref sig .tc))) (by
    simp only [ops5, List.Forall, nullary_writes, unary_writes, binary_writes, ternary_writes, reshape_writes,
      Finset.mem_singleton]
    repeat' apply And.intro
    all_goals (intro r hr e; have h := Proc.devRef_injective _ e; subst h; exact absurd hr (by decide))) V hr
/-- The stretch `ops6` writes no argument and none of `main_v1`, `main_v3`, `main_v240`. -/
theorem ops6_keeps (V : Valuation τ sig (Elt F)) {r : Ref sig .tc}
    (hr : r.idx.val < 24 ∨ r ∈ ([main_v1, main_v3, main_v240] : List (Ref sig .tc))) :
    StableHlo.after ops6 V (Proc.devRef .tc r) = V (Proc.devRef .tc r) :=
  kept ops6 (fun r => r.idx.val < 24 ∨ r ∈ ([main_v1, main_v3, main_v240] : List (Ref sig .tc))) (by
    simp only [ops6, List.Forall, nullary_writes, unary_writes, binary_writes, ternary_writes, reshape_writes,
      Finset.mem_singleton]
    repeat' apply And.intro
    all_goals (intro r hr e; have h := Proc.devRef_injective _ e; subst h; exact absurd hr (by decide))) V hr
/-- The stretch `ops7` writes no argument and none of `main_v240`. -/
theorem ops7_keeps (V : Valuation τ sig (Elt F)) {r : Ref sig .tc}
    (hr : r.idx.val < 24 ∨ r ∈ ([main_v240] : List (Ref sig .tc))) :
    StableHlo.after ops7 V (Proc.devRef .tc r) = V (Proc.devRef .tc r) :=
  kept ops7 (fun r => r.idx.val < 24 ∨ r ∈ ([main_v240] : List (Ref sig .tc))) (by
    simp only [ops7, List.Forall, nullary_writes, unary_writes, binary_writes, ternary_writes, reshape_writes,
      Finset.mem_singleton]
    repeat' apply And.intro
    all_goals (intro r hr e; have h := Proc.devRef_injective _ e; subst h; exact absurd hr (by decide))) V hr
/-- The stretch `ops8` writes no argument. -/
theorem ops8_keeps (V : Valuation τ sig (Elt F)) {r : Ref sig .tc}
    (hr : r.idx.val < 24 ∨ r ∈ ([] : List (Ref sig .tc))) :
    StableHlo.after ops8 V (Proc.devRef .tc r) = V (Proc.devRef .tc r) :=
  kept ops8 (fun r => r.idx.val < 24 ∨ r ∈ ([] : List (Ref sig .tc))) (by
    simp only [ops8, List.Forall, nullary_writes, unary_writes, binary_writes, ternary_writes, reshape_writes,
      Finset.mem_singleton]
    repeat' apply And.intro
    all_goals (intro r hr e; have h := Proc.devRef_injective _ e; subst h; exact absurd hr (by decide))) V hr
/-- The stretch `ops9` writes no argument. -/
theorem ops9_keeps (V : Valuation τ sig (Elt F)) {r : Ref sig .tc}
    (hr : r.idx.val < 24 ∨ r ∈ ([] : List (Ref sig .tc))) :
    StableHlo.after ops9 V (Proc.devRef .tc r) = V (Proc.devRef .tc r) :=
  kept ops9 (fun r => r.idx.val < 24 ∨ r ∈ ([] : List (Ref sig .tc))) (by
    simp only [ops9, List.Forall, nullary_writes, unary_writes, binary_writes, ternary_writes, reshape_writes,
      Finset.mem_singleton]
    repeat' apply And.intro
    all_goals (intro r hr e; have h := Proc.devRef_injective _ e; subst h; exact absurd hr (by decide))) V hr

variable (m : (ℓ : Loc nD τ sig) → Buf (Elt F) ℓ) (c : Dev nD)

/-! ## The arguments, at every level: as launched -/

theorem U0_arg (r : Ref sig .tc) : U0 m c (Proc.devRef .tc r) = (m ((c.tc : Thread nD τ).loc r)) := rfl
theorem U1_arg (r : Ref sig .tc) (hr : r.idx.val < 24) : U1 m c (Proc.devRef .tc r) = (m ((c.tc : Thread nD τ).loc r)) := by
  rw [U1_eq, ops0_keeps _ (Or.inl hr)]; exact U0_arg m c r
theorem U2_arg (r : Ref sig .tc) (hr : r.idx.val < 24) : U2 m c (Proc.devRef .tc r) = (m ((c.tc : Thread nD τ).loc r)) := by
  rw [U2_eq, ops1_keeps _ (Or.inl hr)]; exact U1_arg m c r hr
theorem U3_arg (r : Ref sig .tc) (hr : r.idx.val < 24) : U3 m c (Proc.devRef .tc r) = (m ((c.tc : Thread nD τ).loc r)) := by
  rw [U3_eq, ops2_keeps _ (Or.inl hr)]; exact U2_arg m c r hr
theorem U4_arg (r : Ref sig .tc) (hr : r.idx.val < 24) : U4 m c (Proc.devRef .tc r) = (m ((c.tc : Thread nD τ).loc r)) := by
  rw [U4_eq, ops3_keeps _ (Or.inl hr)]; exact U3_arg m c r hr
theorem U5_arg (r : Ref sig .tc) (hr : r.idx.val < 24) : U5 m c (Proc.devRef .tc r) = (m ((c.tc : Thread nD τ).loc r)) := by
  rw [U5_eq, ops4_keeps _ (Or.inl hr)]; exact U4_arg m c r hr
theorem U6_arg (r : Ref sig .tc) (hr : r.idx.val < 24) : U6 m c (Proc.devRef .tc r) = (m ((c.tc : Thread nD τ).loc r)) := by
  rw [U6_eq, ops5_keeps _ (Or.inl hr)]; exact U5_arg m c r hr
theorem U7_arg (r : Ref sig .tc) (hr : r.idx.val < 24) : U7 m c (Proc.devRef .tc r) = (m ((c.tc : Thread nD τ).loc r)) := by
  rw [U7_eq, ops6_keeps _ (Or.inl hr)]; exact U6_arg m c r hr
theorem U8_arg (r : Ref sig .tc) (hr : r.idx.val < 24) : U8 m c (Proc.devRef .tc r) = (m ((c.tc : Thread nD τ).loc r)) := by
  rw [U8_eq, ops7_keeps _ (Or.inl hr)]; exact U7_arg m c r hr
theorem U9_arg (r : Ref sig .tc) (hr : r.idx.val < 24) : U9 m c (Proc.devRef .tc r) = (m ((c.tc : Thread nD τ).loc r)) := by
  rw [U9_eq, ops8_keeps _ (Or.inl hr)]; exact U8_arg m c r hr
theorem U10_arg (r : Ref sig .tc) (hr : r.idx.val < 24) : U10 m c (Proc.devRef .tc r) = (m ((c.tc : Thread nD τ).loc r)) := by
  rw [U10_eq, ops9_keeps _ (Or.inl hr)]; exact U9_arg m c r hr

/-! ## Level 1: the two index rows and the input projection -/

/-- The stretch `ops0` computes the stage `main_v1`. -/
theorem U1_v1 : U1 m c (Proc.devRef .tc main_v1) = Read.val_main_v1 (F := F) (m ((c.tc : Thread nD τ).loc main_arg1)) := by
  rw [U1_eq]
  after_results_simp
  rw [U0_arg m c main_arg1]
  rfl
/-- The stretch `ops0` computes the stage `main_v3`. -/
theorem U1_v3 : U1 m c (Proc.devRef .tc main_v3) = Read.val_main_v3 (F := F) (m ((c.tc : Thread nD τ).loc main_arg1)) := by
  rw [U1_eq]
  after_results_simp
  rw [U0_arg m c main_arg1]
  rfl
/-- The stretch `ops0` computes the stage `main_v7`. -/
theorem U1_v7 : U1 m c (Proc.devRef .tc main_v7) = Read.val_main_v7 (F := F) (m ((c.tc : Thread nD τ).loc main_arg0)) (m ((c.tc : Thread nD τ).loc main_arg2)) (m ((c.tc : Thread nD τ).loc main_arg3)) := by
  rw [U1_eq]
  after_results_simp
  rw [U0_arg m c main_arg0, U0_arg m c main_arg2, U0_arg m c main_arg3]
  rfl

/-! ## Level 2 -/

set_option maxHeartbeats 400000 in
/-- The stretch `ops1` computes the stage `main_v60`. -/
theorem U2_v60 : U2 m c (Proc.devRef .tc main_v60) = Read.val_main_v60 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg10)) (m ((c.tc : Thread nD τ).loc main_arg11)) (m ((c.tc : Thread nD τ).loc main_arg12)) (m ((c.tc : Thread nD τ).loc main_arg13)) := by
  rw [U2_eq]
  after_results_simp
  simp only [TRef.ofBuf, TRef.toBuf, cast_eq]
  rw [U1_v1 m c, U1_v3 m c, U1_v7 m c, U1_arg m c main_arg4 (by decide), U1_arg m c main_arg5 (by decide), U1_arg m c main_arg6 (by decide), U1_arg m c main_arg10 (by decide), U1_arg m c main_arg11 (by decide), U1_arg m c main_arg12 (by decide), U1_arg m c main_arg13 (by decide)]
  rfl
/-- `main_v1` is not written by the stretch `ops1`. -/
theorem U2_v1 : U2 m c (Proc.devRef .tc main_v1) = Read.val_main_v1 (F := F) (m ((c.tc : Thread nD τ).loc main_arg1)) := by
  rw [U2_eq, ops1_keeps _ (Or.inr (by decide))]; exact U1_v1 m c
/-- `main_v3` is not written by the stretch `ops1`. -/
theorem U2_v3 : U2 m c (Proc.devRef .tc main_v3) = Read.val_main_v3 (F := F) (m ((c.tc : Thread nD τ).loc main_arg1)) := by
  rw [U2_eq, ops1_keeps _ (Or.inr (by decide))]; exact U1_v3 m c
/-- `main_v7` is not written by the stretch `ops1`. -/
theorem U2_v7 : U2 m c (Proc.devRef .tc main_v7) = Read.val_main_v7 (F := F) (m ((c.tc : Thread nD τ).loc main_arg0)) (m ((c.tc : Thread nD τ).loc main_arg2)) (m ((c.tc : Thread nD τ).loc main_arg3)) := by
  rw [U2_eq, ops1_keeps _ (Or.inr (by decide))]; exact U1_v7 m c

/-! ## Level 3 -/

set_option maxHeartbeats 400000 in
/-- The stretch `ops2` computes the stage `main_v114`. -/
theorem U3_v114 : U3 m c (Proc.devRef .tc main_v114) = Read.val_main_v114 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  rw [U3_eq]
  after_results_simp
  simp only [TRef.ofBuf, TRef.toBuf, cast_eq]
  rw [U2_v1 m c, U2_v3 m c, U2_v60 m c, U2_v7 m c, U2_arg m c main_arg7 (by decide), U2_arg m c main_arg8 (by decide), U2_arg m c main_arg9 (by decide), U2_arg m c main_arg14 (by decide), U2_arg m c main_arg15 (by decide), U2_arg m c main_arg16 (by decide), U2_arg m c main_arg17 (by decide)]
  rfl
/-- `main_v1` is not written by the stretch `ops2`. -/
theorem U3_v1 : U3 m c (Proc.devRef .tc main_v1) = Read.val_main_v1 (F := F) (m ((c.tc : Thread nD τ).loc main_arg1)) := by
  rw [U3_eq, ops2_keeps _ (Or.inr (by decide))]; exact U2_v1 m c
/-- `main_v3` is not written by the stretch `ops2`. -/
theorem U3_v3 : U3 m c (Proc.devRef .tc main_v3) = Read.val_main_v3 (F := F) (m ((c.tc : Thread nD τ).loc main_arg1)) := by
  rw [U3_eq, ops2_keeps _ (Or.inr (by decide))]; exact U2_v3 m c

/-! ## Level 4 -/

set_option maxHeartbeats 400000 in
/-- The stretch `ops3` computes the stage `main_v167`. -/
theorem U4_v167 : U4 m c (Proc.devRef .tc main_v167) = Read.val_main_v167 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  rw [U4_eq]
  after_results_simp
  simp only [TRef.ofBuf, TRef.toBuf, cast_eq]
  rw [U3_v1 m c, U3_v3 m c, U3_v114 m c, U3_arg m c main_arg4 (by decide), U3_arg m c main_arg5 (by decide), U3_arg m c main_arg6 (by decide), U3_arg m c main_arg10 (by decide), U3_arg m c main_arg11 (by decide), U3_arg m c main_arg12 (by decide), U3_arg m c main_arg13 (by decide)]
  rfl
/-- `main_v1` is not written by the stretch `ops3`. -/
theorem U4_v1 : U4 m c (Proc.devRef .tc main_v1) = Read.val_main_v1 (F := F) (m ((c.tc : Thread nD τ).loc main_arg1)) := by
  rw [U4_eq, ops3_keeps _ (Or.inr (by decide))]; exact U3_v1 m c
/-- `main_v3` is not written by the stretch `ops3`. -/
theorem U4_v3 : U4 m c (Proc.devRef .tc main_v3) = Read.val_main_v3 (F := F) (m ((c.tc : Thread nD τ).loc main_arg1)) := by
  rw [U4_eq, ops3_keeps _ (Or.inr (by decide))]; exact U3_v3 m c
/-- `main_v114` is not written by the stretch `ops3`. -/
theorem U4_v114 : U4 m c (Proc.devRef .tc main_v114) = Read.val_main_v114 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  rw [U4_eq, ops3_keeps _ (Or.inr (by decide))]; exact U3_v114 m c

/-! ## Level 5 -/

set_option maxHeartbeats 400000 in
/-- The stretch `ops4` computes the stage `main_v221`. -/
theorem U5_v221 : U5 m c (Proc.devRef .tc main_v221) = Read.val_main_v221 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  rw [U5_eq]
  after_results_simp
  simp only [TRef.ofBuf, TRef.toBuf, cast_eq]
  rw [U4_v1 m c, U4_v3 m c, U4_v167 m c, U4_v114 m c, U4_arg m c main_arg7 (by decide), U4_arg m c main_arg8 (by decide), U4_arg m c main_arg9 (by decide), U4_arg m c main_arg14 (by decide), U4_arg m c main_arg15 (by decide), U4_arg m c main_arg16 (by decide), U4_arg m c main_arg17 (by decide)]
  rfl
/-- `main_v1` is not written by the stretch `ops4`. -/
theorem U5_v1 : U5 m c (Proc.devRef .tc main_v1) = Read.val_main_v1 (F := F) (m ((c.tc : Thread nD τ).loc main_arg1)) := by
  rw [U5_eq, ops4_keeps _ (Or.inr (by decide))]; exact U4_v1 m c
/-- `main_v3` is not written by the stretch `ops4`. -/
theorem U5_v3 : U5 m c (Proc.devRef .tc main_v3) = Read.val_main_v3 (F := F) (m ((c.tc : Thread nD τ).loc main_arg1)) := by
  rw [U5_eq, ops4_keeps _ (Or.inr (by decide))]; exact U4_v3 m c
/-- `main_v114` is not written by the stretch `ops4`. -/
theorem U5_v114 : U5 m c (Proc.devRef .tc main_v114) = Read.val_main_v114 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  rw [U5_eq, ops4_keeps _ (Or.inr (by decide))]; exact U4_v114 m c

/-! ## Level 6 -/

/-- The stretch `ops5` computes the stage `main_v240`. -/
theorem U6_v240 : U6 m c (Proc.devRef .tc main_v240) = Read.val_main_v240 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) := by
  rw [U6_eq]
  after_results_simp
  rw [U5_v114 m c, U5_v221 m c, U5_arg m c main_arg18 (by decide), U5_arg m c main_arg19 (by decide)]
  rfl
/-- `main_v1` is not written by the stretch `ops5`. -/
theorem U6_v1 : U6 m c (Proc.devRef .tc main_v1) = Read.val_main_v1 (F := F) (m ((c.tc : Thread nD τ).loc main_arg1)) := by
  rw [U6_eq, ops5_keeps _ (Or.inr (by decide))]; exact U5_v1 m c
/-- `main_v3` is not written by the stretch `ops5`. -/
theorem U6_v3 : U6 m c (Proc.devRef .tc main_v3) = Read.val_main_v3 (F := F) (m ((c.tc : Thread nD τ).loc main_arg1)) := by
  rw [U6_eq, ops5_keeps _ (Or.inr (by decide))]; exact U5_v3 m c

/-! ## Level 7 -/

set_option maxHeartbeats 400000 in
/-- The stretch `ops6` computes the stage `main_v293`. -/
theorem U7_v293 : U7 m c (Proc.devRef .tc main_v293) = Read.val_main_v293 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) := by
  rw [U7_eq]
  after_results_simp
  simp only [TRef.ofBuf, TRef.toBuf, cast_eq]
  rw [U6_v1 m c, U6_v3 m c, U6_v240 m c, U6_arg m c main_arg4 (by decide), U6_arg m c main_arg5 (by decide), U6_arg m c main_arg6 (by decide), U6_arg m c main_arg10 (by decide), U6_arg m c main_arg11 (by decide), U6_arg m c main_arg12 (by decide), U6_arg m c main_arg13 (by decide)]
  rfl
/-- `main_v1` is not written by the stretch `ops6`. -/
theorem U7_v1 : U7 m c (Proc.devRef .tc main_v1) = Read.val_main_v1 (F := F) (m ((c.tc : Thread nD τ).loc main_arg1)) := by
  rw [U7_eq, ops6_keeps _ (Or.inr (by decide))]; exact U6_v1 m c
/-- `main_v3` is not written by the stretch `ops6`. -/
theorem U7_v3 : U7 m c (Proc.devRef .tc main_v3) = Read.val_main_v3 (F := F) (m ((c.tc : Thread nD τ).loc main_arg1)) := by
  rw [U7_eq, ops6_keeps _ (Or.inr (by decide))]; exact U6_v3 m c
/-- `main_v240` is not written by the stretch `ops6`. -/
theorem U7_v240 : U7 m c (Proc.devRef .tc main_v240) = Read.val_main_v240 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) := by
  rw [U7_eq, ops6_keeps _ (Or.inr (by decide))]; exact U6_v240 m c

/-! ## Level 8 -/

set_option maxHeartbeats 400000 in
/-- The stretch `ops7` computes the stage `main_v347`. -/
theorem U8_v347 : U8 m c (Proc.devRef .tc main_v347) = Read.val_main_v347 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) := by
  rw [U8_eq]
  after_results_simp
  simp only [TRef.ofBuf, TRef.toBuf, cast_eq]
  rw [U7_v1 m c, U7_v3 m c, U7_v293 m c, U7_v240 m c, U7_arg m c main_arg7 (by decide), U7_arg m c main_arg8 (by decide), U7_arg m c main_arg9 (by decide), U7_arg m c main_arg14 (by decide), U7_arg m c main_arg15 (by decide), U7_arg m c main_arg16 (by decide), U7_arg m c main_arg17 (by decide)]
  rfl
/-- `main_v240` is not written by the stretch `ops7`. -/
theorem U8_v240 : U8 m c (Proc.devRef .tc main_v240) = Read.val_main_v240 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) := by
  rw [U8_eq, ops7_keeps _ (Or.inr (by decide))]; exact U7_v240 m c

/-! ## Level 9 -/

/-- The stretch `ops8` computes the stage `main_v366`. -/
theorem U9_v366 : U9 m c (Proc.devRef .tc main_v366) = Read.val_main_v366 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) := by
  rw [U9_eq]
  after_results_simp
  rw [U8_v240 m c, U8_v347 m c, U8_arg m c main_arg18 (by decide), U8_arg m c main_arg19 (by decide)]
  rfl

/-! ## Level 10: the result -/

/-- The stretch `ops9` computes the stage `main_v375`. -/
theorem U10_v375 : U10 m c (Proc.devRef .tc main_v375) = Read.val_main_v375 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) := by
  rw [U10_eq]
  after_results_simp
  simp only [TRef.ofBuf, TRef.toBuf, cast_eq]
  rw [U9_v366 m c, U9_arg m c main_arg20 (by decide), U9_arg m c main_arg21 (by decide), U9_arg m c main_arg22 (by decide), U9_arg m c main_arg23 (by decide)]
  rfl

/-! ## The run's value -/

/-- After the whole line, the result buffer holds the last stage function of the arguments' launch contents. -/
theorem ref_value (m : (ℓ : Loc nD τ sig) → Buf (Elt F) ℓ) (c : Dev nD) :
    RefOps.U10 m c (Proc.devRef .tc main_v375) = Read.val_main_v375 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) :=
  U10_v375 m c

/-- After the whole line, every argument holds its launch contents. -/
theorem ref_arg (m : (ℓ : Loc nD τ sig) → Buf (Elt F) ℓ) (c : Dev nD) (r : Ref sig .tc) (hr : r.idx.val < 24) :
    RefOps.U10 m c (Proc.devRef .tc r) = m ((c.tc : Thread nD τ).loc r) := U10_arg m c r hr
theorem ref_arg_0 (m : (ℓ : Loc nD τ sig) → Buf (Elt F) ℓ) (c : Dev nD) :
    RefOps.U10 m c (Proc.devRef .tc main_arg0) = m ((c.tc : Thread nD τ).loc main_arg0) := U10_arg m c main_arg0 (by decide)
theorem ref_arg_1 (m : (ℓ : Loc nD τ sig) → Buf (Elt F) ℓ) (c : Dev nD) :
    RefOps.U10 m c (Proc.devRef .tc main_arg1) = m ((c.tc : Thread nD τ).loc main_arg1) := U10_arg m c main_arg1 (by decide)
theorem ref_arg_2 (m : (ℓ : Loc nD τ sig) → Buf (Elt F) ℓ) (c : Dev nD) :
    RefOps.U10 m c (Proc.devRef .tc main_arg2) = m ((c.tc : Thread nD τ).loc main_arg2) := U10_arg m c main_arg2 (by decide)
theorem ref_arg_3 (m : (ℓ : Loc nD τ sig) → Buf (Elt F) ℓ) (c : Dev nD) :
    RefOps.U10 m c (Proc.devRef .tc main_arg3) = m ((c.tc : Thread nD τ).loc main_arg3) := U10_arg m c main_arg3 (by decide)
theorem ref_arg_4 (m : (ℓ : Loc nD τ sig) → Buf (Elt F) ℓ) (c : Dev nD) :
    RefOps.U10 m c (Proc.devRef .tc main_arg4) = m ((c.tc : Thread nD τ).loc main_arg4) := U10_arg m c main_arg4 (by decide)
theorem ref_arg_5 (m : (ℓ : Loc nD τ sig) → Buf (Elt F) ℓ) (c : Dev nD) :
    RefOps.U10 m c (Proc.devRef .tc main_arg5) = m ((c.tc : Thread nD τ).loc main_arg5) := U10_arg m c main_arg5 (by decide)
theorem ref_arg_6 (m : (ℓ : Loc nD τ sig) → Buf (Elt F) ℓ) (c : Dev nD) :
    RefOps.U10 m c (Proc.devRef .tc main_arg6) = m ((c.tc : Thread nD τ).loc main_arg6) := U10_arg m c main_arg6 (by decide)
theorem ref_arg_7 (m : (ℓ : Loc nD τ sig) → Buf (Elt F) ℓ) (c : Dev nD) :
    RefOps.U10 m c (Proc.devRef .tc main_arg7) = m ((c.tc : Thread nD τ).loc main_arg7) := U10_arg m c main_arg7 (by decide)
theorem ref_arg_8 (m : (ℓ : Loc nD τ sig) → Buf (Elt F) ℓ) (c : Dev nD) :
    RefOps.U10 m c (Proc.devRef .tc main_arg8) = m ((c.tc : Thread nD τ).loc main_arg8) := U10_arg m c main_arg8 (by decide)
theorem ref_arg_9 (m : (ℓ : Loc nD τ sig) → Buf (Elt F) ℓ) (c : Dev nD) :
    RefOps.U10 m c (Proc.devRef .tc main_arg9) = m ((c.tc : Thread nD τ).loc main_arg9) := U10_arg m c main_arg9 (by decide)
theorem ref_arg_10 (m : (ℓ : Loc nD τ sig) → Buf (Elt F) ℓ) (c : Dev nD) :
    RefOps.U10 m c (Proc.devRef .tc main_arg10) = m ((c.tc : Thread nD τ).loc main_arg10) := U10_arg m c main_arg10 (by decide)
theorem ref_arg_11 (m : (ℓ : Loc nD τ sig) → Buf (Elt F) ℓ) (c : Dev nD) :
    RefOps.U10 m c (Proc.devRef .tc main_arg11) = m ((c.tc : Thread nD τ).loc main_arg11) := U10_arg m c main_arg11 (by decide)
theorem ref_arg_12 (m : (ℓ : Loc nD τ sig) → Buf (Elt F) ℓ) (c : Dev nD) :
    RefOps.U10 m c (Proc.devRef .tc main_arg12) = m ((c.tc : Thread nD τ).loc main_arg12) := U10_arg m c main_arg12 (by decide)
theorem ref_arg_13 (m : (ℓ : Loc nD τ sig) → Buf (Elt F) ℓ) (c : Dev nD) :
    RefOps.U10 m c (Proc.devRef .tc main_arg13) = m ((c.tc : Thread nD τ).loc main_arg13) := U10_arg m c main_arg13 (by decide)
theorem ref_arg_14 (m : (ℓ : Loc nD τ sig) → Buf (Elt F) ℓ) (c : Dev nD) :
    RefOps.U10 m c (Proc.devRef .tc main_arg14) = m ((c.tc : Thread nD τ).loc main_arg14) := U10_arg m c main_arg14 (by decide)
theorem ref_arg_15 (m : (ℓ : Loc nD τ sig) → Buf (Elt F) ℓ) (c : Dev nD) :
    RefOps.U10 m c (Proc.devRef .tc main_arg15) = m ((c.tc : Thread nD τ).loc main_arg15) := U10_arg m c main_arg15 (by decide)
theorem ref_arg_16 (m : (ℓ : Loc nD τ sig) → Buf (Elt F) ℓ) (c : Dev nD) :
    RefOps.U10 m c (Proc.devRef .tc main_arg16) = m ((c.tc : Thread nD τ).loc main_arg16) := U10_arg m c main_arg16 (by decide)
theorem ref_arg_17 (m : (ℓ : Loc nD τ sig) → Buf (Elt F) ℓ) (c : Dev nD) :
    RefOps.U10 m c (Proc.devRef .tc main_arg17) = m ((c.tc : Thread nD τ).loc main_arg17) := U10_arg m c main_arg17 (by decide)
theorem ref_arg_18 (m : (ℓ : Loc nD τ sig) → Buf (Elt F) ℓ) (c : Dev nD) :
    RefOps.U10 m c (Proc.devRef .tc main_arg18) = m ((c.tc : Thread nD τ).loc main_arg18) := U10_arg m c main_arg18 (by decide)
theorem ref_arg_19 (m : (ℓ : Loc nD τ sig) → Buf (Elt F) ℓ) (c : Dev nD) :
    RefOps.U10 m c (Proc.devRef .tc main_arg19) = m ((c.tc : Thread nD τ).loc main_arg19) := U10_arg m c main_arg19 (by decide)
theorem ref_arg_20 (m : (ℓ : Loc nD τ sig) → Buf (Elt F) ℓ) (c : Dev nD) :
    RefOps.U10 m c (Proc.devRef .tc main_arg20) = m ((c.tc : Thread nD τ).loc main_arg20) := U10_arg m c main_arg20 (by decide)
theorem ref_arg_21 (m : (ℓ : Loc nD τ sig) → Buf (Elt F) ℓ) (c : Dev nD) :
    RefOps.U10 m c (Proc.devRef .tc main_arg21) = m ((c.tc : Thread nD τ).loc main_arg21) := U10_arg m c main_arg21 (by decide)
theorem ref_arg_22 (m : (ℓ : Loc nD τ sig) → Buf (Elt F) ℓ) (c : Dev nD) :
    RefOps.U10 m c (Proc.devRef .tc main_arg22) = m ((c.tc : Thread nD τ).loc main_arg22) := U10_arg m c main_arg22 (by decide)
theorem ref_arg_23 (m : (ℓ : Loc nD τ sig) → Buf (Elt F) ℓ) (c : Dev nD) :
    RefOps.U10 m c (Proc.devRef .tc main_arg23) = m ((c.tc : Thread nD τ).loc main_arg23) := U10_arg m c main_arg23 (by decide)

end Cert.ReferenceIdeal.RefChain

end
-- ==== Proof.lean ====
/-
  The certificate: the kernel program and the reference program compute the same function of their arguments.

  Both programs are the same network: an input projection, three blocks of two graph convolutions (neighbourhood
  mean, two matrix products, normalisation, rectifier) with a residual and, from the second block on, a learned gate,
  and a two-layer classifier.  The reference computes each stage on whole arrays; the kernel program computes it in
  eight kernels tiled over row blocks, with the gather and scatter-add of the neighbourhood sum left to the host
  between them, the narrow float copies it gathers being the same numbers at the ideal values.  The proof follows the
  stages in order.  Kernel side: after each kernel its output array is ONE whole-array function of the arrays it
  found (the tiles cover the rows, and every entry depends only on its own row), and each array a kernel finds is read
  back through the host operations to the program's arguments and the stage before.  Reference side: the run is the
  fold of its operations, evaluated stage by stage, and each stage read at an index is the same layer function.  The
  two agree stage by stage; the one algebraic step is that the mean is the aggregate TIMES the reciprocal of the count
  in the kernel and the aggregate DIVIDED by the count in the reference, equal on the extended reals because the
  larger of the count and one is not zero.  The frames are the generated ones for the two kernel programs and the
  fold's for the reference; the idealisation ledger is empty.
-/
import proofs.«421284_j80985903333882_3_alg».proof.Defs
import proofs.«421284_j80985903333882_3_alg».proof.Proof.Gen.Kernel
import proofs.«421284_j80985903333882_3_alg».proof.Proof.Gen.Kernel.Frame
import proofs.«421284_j80985903333882_3_alg».proof.Proof.Gen.KernelIdeal
import proofs.«421284_j80985903333882_3_alg».proof.Proof.Gen.KernelIdeal.Frame
import proofs.«421284_j80985903333882_3_alg».proof.Proof.Gen.ReferenceIdeal
import proofs.«421284_j80985903333882_3_alg».proof.Proof.Gen.Pre_finite_inputs
import proofs.«421284_j80985903333882_3_alg».proof.Proof.KRun
import proofs.«421284_j80985903333882_3_alg».proof.Proof.KChain
import proofs.«421284_j80985903333882_3_alg».proof.Proof.RefChain
import Idealize.ShloMosaic.Adequacy
import Idealize.ShloMosaic.Init

noncomputable section

namespace Cert.Proof

open Idealize.ShloMosaic Idealize.ShloMosaic.TcCoe Idealize.SL.Sem

/-- The reference's frame: its run is the fold of its operations, and no operation writes an argument, so at the
    last level of the fold every argument holds its launch contents. -/
theorem frame_ri :
    Cert.frame_ReferenceIdeal (hReferenceIdeal := Cert.ReferenceIdeal.Gen.facts) (hPre_finite_inputs := Cert.Pre_finite_inputs.Gen.facts) :=
  fun m ρ _ =>
    (θ_run Cert.ReferenceIdeal.defs _ _).mono (fun r h c =>
      ⟨(h c _).trans (Cert.ReferenceIdeal.RefChain.ref_arg_0 m c),
       (h c _).trans (Cert.ReferenceIdeal.RefChain.ref_arg_1 m c),
       (h c _).trans (Cert.ReferenceIdeal.RefChain.ref_arg_2 m c),
       (h c _).trans (Cert.ReferenceIdeal.RefChain.ref_arg_3 m c),
       (h c _).trans (Cert.ReferenceIdeal.RefChain.ref_arg_4 m c),
       (h c _).trans (Cert.ReferenceIdeal.RefChain.ref_arg_5 m c),
       (h c _).trans (Cert.ReferenceIdeal.RefChain.ref_arg_6 m c),
       (h c _).trans (Cert.ReferenceIdeal.RefChain.ref_arg_7 m c),
       (h c _).trans (Cert.ReferenceIdeal.RefChain.ref_arg_8 m c),
       (h c _).trans (Cert.ReferenceIdeal.RefChain.ref_arg_9 m c),
       (h c _).trans (Cert.ReferenceIdeal.RefChain.ref_arg_10 m c),
       (h c _).trans (Cert.ReferenceIdeal.RefChain.ref_arg_11 m c),
       (h c _).trans (Cert.ReferenceIdeal.RefChain.ref_arg_12 m c),
       (h c _).trans (Cert.ReferenceIdeal.RefChain.ref_arg_13 m c),
       (h c _).trans (Cert.ReferenceIdeal.RefChain.ref_arg_14 m c),
       (h c _).trans (Cert.ReferenceIdeal.RefChain.ref_arg_15 m c),
       (h c _).trans (Cert.ReferenceIdeal.RefChain.ref_arg_16 m c),
       (h c _).trans (Cert.ReferenceIdeal.RefChain.ref_arg_17 m c),
       (h c _).trans (Cert.ReferenceIdeal.RefChain.ref_arg_18 m c),
       (h c _).trans (Cert.ReferenceIdeal.RefChain.ref_arg_19 m c),
       (h c _).trans (Cert.ReferenceIdeal.RefChain.ref_arg_20 m c),
       (h c _).trans (Cert.ReferenceIdeal.RefChain.ref_arg_21 m c),
       (h c _).trans (Cert.ReferenceIdeal.RefChain.ref_arg_22 m c),
       (h c _).trans (Cert.ReferenceIdeal.RefChain.ref_arg_23 m c)⟩)
      (Cert.ReferenceIdeal.RefOps.run_fold (F := Ideal) m ρ)

/-- The two programs at the ideal values, from memories that agree on the arguments: the kernel program ends with
    its result array at the last boundary's contents, the reference with its result at the last stage function of
    its arguments; the arguments agree, and the last boundary's contents ARE that stage function of the kernel
    program's arguments (the stage-by-stage comparison), so the two results are one array. -/
theorem algebraic :
    Cert.algebraic_KernelIdeal_ReferenceIdeal (hKernelIdeal := Cert.KernelIdeal.Gen.facts) (hReferenceIdeal := Cert.ReferenceIdeal.Gen.facts)
      (hPre_finite_inputs := Cert.Pre_finite_inputs.Gen.facts) := by
  intro m ρ m' ρ' _ hagree
  refine ⟨fun c => Cert.KernelIdeal.Gen.W16 m ρ c (Proc.devRef .tc Cert.KernelIdeal.main_v203), Cert.KernelIdeal.KRun.run_value (F := Ideal) m ρ, ?_⟩
  refine (θ_run Cert.ReferenceIdeal.defs _ _).mono (fun r h c => ?_) (Cert.ReferenceIdeal.RefOps.run_fold (F := Ideal) m' ρ')
  refine ⟨(h c _).trans ((Cert.ReferenceIdeal.RefChain.ref_value m' c).trans ?_),
       (h c _).trans (Cert.ReferenceIdeal.RefChain.ref_arg_0 m' c),
       (h c _).trans (Cert.ReferenceIdeal.RefChain.ref_arg_1 m' c),
       (h c _).trans (Cert.ReferenceIdeal.RefChain.ref_arg_2 m' c),
       (h c _).trans (Cert.ReferenceIdeal.RefChain.ref_arg_3 m' c),
       (h c _).trans (Cert.ReferenceIdeal.RefChain.ref_arg_4 m' c),
       (h c _).trans (Cert.ReferenceIdeal.RefChain.ref_arg_5 m' c),
       (h c _).trans (Cert.ReferenceIdeal.RefChain.ref_arg_6 m' c),
       (h c _).trans (Cert.ReferenceIdeal.RefChain.ref_arg_7 m' c),
       (h c _).trans (Cert.ReferenceIdeal.RefChain.ref_arg_8 m' c),
       (h c _).trans (Cert.ReferenceIdeal.RefChain.ref_arg_9 m' c),
       (h c _).trans (Cert.ReferenceIdeal.RefChain.ref_arg_10 m' c),
       (h c _).trans (Cert.ReferenceIdeal.RefChain.ref_arg_11 m' c),
       (h c _).trans (Cert.ReferenceIdeal.RefChain.ref_arg_12 m' c),
       (h c _).trans (Cert.ReferenceIdeal.RefChain.ref_arg_13 m' c),
       (h c _).trans (Cert.ReferenceIdeal.RefChain.ref_arg_14 m' c),
       (h c _).trans (Cert.ReferenceIdeal.RefChain.ref_arg_15 m' c),
       (h c _).trans (Cert.ReferenceIdeal.RefChain.ref_arg_16 m' c),
       (h c _).trans (Cert.ReferenceIdeal.RefChain.ref_arg_17 m' c),
       (h c _).trans (Cert.ReferenceIdeal.RefChain.ref_arg_18 m' c),
       (h c _).trans (Cert.ReferenceIdeal.RefChain.ref_arg_19 m' c),
       (h c _).trans (Cert.ReferenceIdeal.RefChain.ref_arg_20 m' c),
       (h c _).trans (Cert.ReferenceIdeal.RefChain.ref_arg_21 m' c),
       (h c _).trans (Cert.ReferenceIdeal.RefChain.ref_arg_22 m' c),
       (h c _).trans (Cert.ReferenceIdeal.RefChain.ref_arg_23 m' c)⟩
  obtain ⟨e0, e1, e2, e3, e4, e5, e6, e7, e8, e9, e10, e11, e12, e13, e14, e15, e16, e17, e18, e19, e20, e21, e22, e23⟩ := hagree c
  rw [e0, e1, e2, e3, e4, e5, e6, e7, e8, e9, e10, e11, e12, e13, e14, e15, e16, e17, e18, e19, e20, e21, e22, e23]
  exact (Cert.KernelIdeal.KChain.out_eq m ρ c).symm

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    frame_ri,
    trivial,
    algebraic⟩

end Cert.Proof

end
